-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S20000x3 : Shape := ⟨2, ![20000, 3]⟩
abbrev S2x20000 : Shape := ⟨2, ![2, 20000]⟩
abbrev S129x64 : Shape := ⟨2, ![129, 64]⟩
abbrev S64 : Shape := ⟨1, ![64]⟩
abbrev S64x64 : Shape := ⟨2, ![64, 64]⟩
abbrev S4096x128 : Shape := ⟨2, ![4096, 128]⟩
abbrev S128 : Shape := ⟨1, ![128]⟩
abbrev S128x64 : Shape := ⟨2, ![128, 64]⟩
abbrev S64x1 : Shape := ⟨2, ![64, 1]⟩
abbrev S131x64 : Shape := ⟨2, ![131, 64]⟩
abbrev S64x67 : Shape := ⟨2, ![64, 67]⟩
abbrev S67 : Shape := ⟨1, ![67]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S131x64 : S_.BroadcastsInDim S131x64 (![] : Fin 0 → Fin S131x64.rank)
  reducesTo_S131x64_S_d0_1 : S131x64.ReducesTo [0, 1] S_
  bcast_S_S64x67 : S_.BroadcastsInDim S64x67 (![] : Fin 0 → Fin S64x67.rank)
  reducesTo_S64x67_S_d0_1 : S64x67.ReducesTo [0, 1] S_
  bcast_S_S67 : S_.BroadcastsInDim S67 (![] : Fin 0 → Fin S67.rank)
  reducesTo_S67_S_d0 : S67.ReducesTo [0] S_

variable [Facts]

def fn_part4 {F : FTy → Type} [FloatOps F] (main_arg15 : FVec F S64 .f32) (main_arg16 : FVec F S64x67 .f32) (main_arg17 : FVec F S67 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x67 .f32 := Host.absf main_arg16
  let main_cst_28 : FVec F S_ .f32 := constant S_ .f32 0x7F800000#32
  let main_v75 : FVec F S64x67 .f32 := broadcastInDim S64x67 ![] bcast_S_S64x67 main_cst_28
  let main_v76 : IVec S64x67 1 := cmpf .olt main_v74 main_v75
  let main_c_29 : IVec S_ 1 := constantI S_ 1 1#1
  let main_v77 : IVec S_ 1 := (fun x v => Host.reduce IntOp.andi x v reducesTo_S64x67_S_d0_1 h_S_) main_v76 main_c_29
  let main_v78 : IVec S_ 1 := andi main_v73 main_v77
  let main_v79 : FVec F S67 .f32 := Host.absf main_arg17
  let main_cst_30 : FVec F S_ .f32 := constant S_ .f32 0x7F800000#32
  let main_v80 : FVec F S67 .f32 := broadcastInDim S67 ![] bcast_S_S67 main_cst_30
  let main_v81 : IVec S67 1 := cmpf .olt main_v79 main_v80
  let main_c_31 : IVec S_ 1 := constantI S_ 1 1#1
  let main_v82 : IVec S_ 1 := (fun x v => Host.reduce IntOp.andi x v reducesTo_S67_S_d0 h_S_) main_v81 main_c_31
  let main_v83 : IVec S_ 1 := andi main_v78 main_v82
  main_v83

def fn_part3 {F : FTy → Type} [FloatOps F] (main_arg12 : FVec F S64 .f32) (main_arg13 : FVec F S64x1 .f32) (main_arg14 : FVec F S131x64 .f32) (main_arg15 : FVec F S64 .f32) (main_arg16 : FVec F S64x67 .f32) (main_arg17 : FVec F S67 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S131x64 .f32 := Host.absf main_arg14
  let main_cst_24 : FVec F S_ .f32 := constant S_ .f32 0x7F800000#32
  let main_v65 : FVec F S131x64 .f32 := broadcastInDim S131x64 ![] bcast_S_S131x64 main_cst_24
  let main_v66 : IVec S131x64 1 := cmpf .olt main_v64 main_v65
  let main_c_25 : IVec S_ 1 := constantI S_ 1 1#1
  let main_v67 : IVec S_ 1 := (fun x v => Host.reduce IntOp.andi x v reducesTo_S131x64_S_d0_1 h_S_) main_v66 main_c_25
  fn_part4 (F := F) main_arg15 main_arg16 main_arg17 main_v63 main_v67

def fn_part2 {F : FTy → Type} [FloatOps F] (main_arg8 : FVec F S128 .f32) (main_arg9 : FVec F S128x64 .f32) (main_arg10 : FVec F S64 .f32) (main_arg11 : FVec F S64x64 .f32) (main_arg12 : FVec F S64 .f32) (main_arg13 : FVec F S64x1 .f32) (main_arg14 : FVec F S131x64 .f32) (main_arg15 : FVec F S64 .f32) (main_arg16 : FVec F S64x67 .f32) (main_arg17 : FVec F S67 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_v48 main_v49 main_v50

def fn_part1 {F : FTy → Type} [FloatOps F] (main_arg5 : FVec F S64x64 .f32) (main_arg6 : FVec F S64 .f32) (main_arg7 : FVec F S4096x128 .f32) (main_arg8 : FVec F S128 .f32) (main_arg9 : FVec F S128x64 .f32) (main_arg10 : FVec F S64 .f32) (main_arg11 : FVec F S64x64 .f32) (main_arg12 : FVec F S64 .f32) (main_arg13 : FVec F S64x1 .f32) (main_arg14 : FVec F S131x64 .f32) (main_arg15 : FVec F S64 .f32) (main_arg16 : FVec F S64x67 .f32) (main_arg17 : FVec F S67 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4096x128 .f32 := Host.absf main_arg7
  let main_cst_10 : FVec F S_ .f32 := constant S_ .f32 0x7F800000#32
  let main_v30 : FVec F S4096x128 .f32 := broadcastInDim S4096x128 ![] bcast_S_S4096x128 main_cst_10
  let main_v31 : IVec S4096x128 1 := cmpf .olt main_v29 main_v30
  let main_c_11 : IVec S_ 1 := constantI S_ 1 1#1
  let main_v32 : IVec S_ 1 := (fun x v => Host.reduce IntOp.andi x v reducesTo_S4096x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S20000x64 .f32) (main_arg1 : FVec F S20000x3 .f32) (main_arg2 : IVec S2x20000 32) (main_arg3 : FVec F S129x64 .f32) (main_arg4 : FVec F S64 .f32) (main_arg5 : FVec F S64x64 .f32) (main_arg6 : FVec F S64 .f32) (main_arg7 : FVec F S4096x128 .f32) (main_arg8 : FVec F S128 .f32) (main_arg9 : FVec F S128x64 .f32) (main_arg10 : FVec F S64 .f32) (main_arg11 : FVec F S64x64 .f32) (main_arg12 : FVec F S64 .f32) (main_arg13 : FVec F S64x1 .f32) (main_arg14 : FVec F S131x64 .f32) (main_arg15 : FVec F S64 .f32) (main_arg16 : FVec F S64x67 .f32) (main_arg17 : FVec F S67 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S129x64 .f32 := Host.absf main_arg3
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S20000x64 : Shape := ⟨2, ![20000, 64]⟩
abbrev S20000x3 : Shape := ⟨2, ![20000, 3]⟩
abbrev S2x20000 : Shape := ⟨2, ![2, 20000]⟩
abbrev S129x64 : Shape := ⟨2, ![129, 64]⟩
abbrev S64 : Shape := ⟨1, ![64]⟩
abbrev S64x64 : Shape := ⟨2, ![64, 64]⟩
abbrev S4096x128 : Shape := ⟨2, ![4096, 128]⟩
abbrev S128 : Shape := ⟨1, ![128]⟩
abbrev S128x64 : Shape := ⟨2, ![128, 64]⟩
abbrev S64x1 : Shape := ⟨2, ![64, 1]⟩
abbrev S131x64 : Shape := ⟨2, ![131, 64]⟩
abbrev S64x67 : Shape := ⟨2, ![64, 67]⟩
abbrev S67 : Shape := ⟨1, ![67]⟩
abbrev S1x20000 : Shape := ⟨2, ![1, 20000]⟩
abbrev S20000 : Shape := ⟨1, ![20000]⟩
abbrev S_ : Shape := ⟨0, ![]⟩
abbrev S20000x1 : Shape := ⟨2, ![20000, 1]⟩
abbrev S1x64 : Shape := ⟨2, ![1, 64]⟩
abbrev S1x128 : Shape := ⟨2, ![1, 128]⟩
abbrev S20000x128 : Shape := ⟨2, ![20000, 128]⟩
abbrev S1000x64 : Shape := ⟨2, ![1000, 64]⟩
abbrev S1000x3 : Shape := ⟨2, ![1000, 3]⟩
abbrev S1000x128 : Shape := ⟨2, ![1000, 128]⟩
abbrev S1000 : Shape := ⟨1, ![1000]⟩
abbrev S1000x1 : Shape := ⟨2, ![1000, 1]⟩
abbrev S1000x129 : Shape := ⟨2, ![1000, 129]⟩
abbrev S1000x1024 : Shape := ⟨2, ![1000, 1024]⟩
abbrev S1024x128 : Shape := ⟨2, ![1024, 128]⟩
abbrev S1000x57 : Shape := ⟨2, ![1000, 57]⟩
abbrev S20480x128 : Shape := ⟨2, ![20480, 128]⟩
abbrev S1x20480 : Shape := ⟨2, ![1, 20480]⟩
abbrev S1x1024 : Shape := ⟨2, ![1, 1024]⟩
abbrev S1x67 : Shape := ⟨2, ![1, 67]⟩
abbrev S2000x64 : Shape := ⟨2, ![2000, 64]⟩
abbrev S2000x3 : Shape := ⟨2, ![2000, 3]⟩
abbrev S2000x128 : Shape := ⟨2, ![2000, 128]⟩
abbrev S2000x67 : Shape := ⟨2, ![2000, 67]⟩
abbrev S2000x131 : Shape := ⟨2, ![2000, 131]⟩
abbrev S2000x61 : Shape := ⟨2, ![2000, 61]⟩
abbrev S20000x67 : Shape := ⟨2, ![20000, 67]⟩

abbrev nBuf : Space → Nat
  | .hbm => 98
  | .vmem => 35
  | .smem => 0
  | _ => 0

abbrev bufTy : (tb : Table) → Fin (tcTables nBuf tb) → BufTy
  | .hbm, ⟨0, _⟩ => ⟨S20000x64, .f32⟩
  | .hbm, ⟨1, _⟩ => ⟨S20000x3, .f32⟩
  | .hbm, ⟨2, _⟩ => ⟨S2x20000, .i32⟩
  | .hbm, ⟨3, _⟩ => ⟨S129x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4096x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S131x64, .f32⟩
  | .hbm, ⟨15, _⟩ => ⟨S64, .f32⟩
  | .hbm, ⟨16, _⟩ => ⟨S64x67, .f32⟩
  | .hbm, ⟨17, _⟩ => ⟨S67, .f32⟩
  | .hbm, ⟨18, _⟩ => ⟨S1x20000, .i32⟩
  | .hbm, ⟨19, _⟩ => ⟨S20000, .i32⟩
  | .hbm, ⟨20, _⟩ => ⟨S1x20000, .i32⟩
  | .hbm, ⟨21, _⟩ => ⟨S20000, .i32⟩
  | .hbm, ⟨22, _⟩ => ⟨S_, .i32⟩
  | .hbm, ⟨23, _⟩ => ⟨S20000, .i32⟩
  | .hbm, ⟨24, _⟩ => ⟨S20000, .i1⟩
  | .hbm, ⟨25, _⟩ => ⟨S_, .i32⟩
  | .hbm, ⟨26, _⟩ => ⟨S20000, .i32⟩
  | .hbm, ⟨27, _⟩ => ⟨S20000, .i32⟩
  | .hbm, ⟨28, _⟩ => ⟨S20000, .i32⟩
  | .hbm, ⟨29, _⟩ => ⟨S20000x1, .i32⟩
  | .hbm, ⟨30, _⟩ => ⟨S20000x3, .f32⟩
  | .hbm, ⟨31, _⟩ => ⟨S_, .i32⟩
  | .hbm, ⟨32, _⟩ => ⟨S20000, .i32⟩
  | .hbm, ⟨33, _⟩ => ⟨S20000, .i1⟩
  | .hbm, ⟨34, _⟩ => ⟨S_, .i32⟩
  | .hbm, ⟨35, _⟩ => ⟨S20000, .i32⟩
  | .hbm, ⟨36, _⟩ => ⟨S20000, .i32⟩
  | .hbm, ⟨37, _⟩ => ⟨S20000, .i32⟩
  | .hbm, ⟨38, _⟩ => ⟨S20000x1, .i32⟩
  | .hbm, ⟨39, _⟩ => ⟨S20000x3, .f32⟩
  | .hbm, ⟨40, _⟩ => ⟨S20000x3, .f32⟩
  | .hbm, ⟨41, _⟩ => ⟨S_, .i32⟩
  | .hbm, ⟨42, _⟩ => ⟨S20000, .i32⟩
  | .hbm, ⟨43, _⟩ => ⟨S20000, .i1⟩
  | .hbm, ⟨44, _⟩ => ⟨S_, .i32⟩
  | .hbm, ⟨45, _⟩ => ⟨S20000, .i32⟩
  | .hbm, ⟨46, _⟩ => ⟨S20000, .i32⟩
  | .hbm, ⟨47, _⟩ => ⟨S20000, .i32⟩
  | .hbm, ⟨48, _⟩ => ⟨S20000x1, .i32⟩
  | .hbm, ⟨49, _⟩ => ⟨S20000x64, .f32⟩
  | .hbm, ⟨50, _⟩ => ⟨S_, .i32⟩
  | .hbm, ⟨51, _⟩ => ⟨S20000, .i32⟩
  | .hbm, ⟨52, _⟩ => ⟨S20000, .i1⟩
  | .hbm, ⟨53, _⟩ => ⟨S_, .i32⟩
  | .hbm, ⟨54, _⟩ => ⟨S20000, .i32⟩
  | .hbm, ⟨55, _⟩ => ⟨S20000, .i32⟩
  | .hbm, ⟨56, _⟩ => ⟨S20000, .i32⟩
  | .hbm, ⟨57, _⟩ => ⟨S20000x1, .i32⟩
  | .hbm, ⟨58, _⟩ => ⟨S20000x64, .f32⟩
  | .hbm, ⟨59, _⟩ => ⟨S129x64, .bf16⟩
  | .hbm, ⟨60, _⟩ => ⟨S1x64, .f32⟩
  | .hbm, ⟨61, _⟩ => ⟨S64x64, .bf16⟩
  | .hbm, ⟨62, _⟩ => ⟨S1x64, .f32⟩
  | .hbm, ⟨63, _⟩ => ⟨S_, .f32⟩
  | .hbm, ⟨64, _⟩ => ⟨S4096x128, .f32⟩
  | .hbm, ⟨65, _⟩ => ⟨S4096x128, .f32⟩
  | .hbm, ⟨66, _⟩ => ⟨S4096x128, .bf16⟩
  | .hbm, ⟨67, _⟩ => ⟨S1x128, .f32⟩
  | .hbm, ⟨68, _⟩ => ⟨S128x64, .bf16⟩
  | .hbm, ⟨69, _⟩ => ⟨S1x64, .f32⟩
  | .hbm, ⟨70, _⟩ => ⟨S64x64, .bf16⟩
  | .hbm, ⟨71, _⟩ => ⟨S1x64, .f32⟩
  | .hbm, ⟨72, _⟩ => ⟨S64x1, .bf16⟩
  | .hbm, ⟨73, _⟩ => ⟨S20000x128, .f32⟩
  | .hbm, ⟨74, _⟩ => ⟨S20000x3, .f32⟩
  | .hbm, ⟨75, _⟩ => ⟨S_, .i32⟩
  | .hbm, ⟨76, _⟩ => ⟨S_, .f32⟩
  | .hbm, ⟨77, _⟩ => ⟨S20480x128, .f32⟩
  | .hbm, ⟨78, _⟩ => ⟨S1x20000, .i32⟩
  | .hbm, ⟨79, _⟩ => ⟨S_, .i32⟩
  | .hbm, ⟨80, _⟩ => ⟨S_, .i32⟩
  | .hbm, ⟨81, _⟩ => ⟨S1x20480, .i32⟩
  | .hbm, ⟨82, _⟩ => ⟨S20000x128, .f32⟩
  | .hbm, ⟨83, _⟩ => ⟨S20000x64, .f32⟩
  | .hbm, ⟨84, _⟩ => ⟨S20000x3, .f32⟩
  | .hbm, ⟨85, _⟩ => ⟨S20000x1, .f32⟩
  | .hbm, ⟨86, _⟩ => ⟨S_, .f32⟩
  | .hbm, ⟨87, _⟩ => ⟨S20000x1, .f32⟩
  | .hbm, ⟨88, _⟩ => ⟨S20000x1, .f32⟩
  | .hbm, ⟨89, _⟩ => ⟨S20000x3, .f32⟩
  | .hbm, ⟨90, _⟩ => ⟨S20000x3, .f32⟩
  | .hbm, ⟨91, _⟩ => ⟨S20000x3, .f32⟩
  | .hbm, ⟨92, _⟩ => ⟨S131x64, .bf16⟩
  | .hbm, ⟨93, _⟩ => ⟨S1x64, .f32⟩
  | .hbm, ⟨94, _⟩ => ⟨S64x67, .bf16⟩
  | .hbm, ⟨95, _⟩ => ⟨S1x67, .f32⟩
  | .hbm, ⟨96, _⟩ => ⟨S20000x128, .f32⟩
  | .hbm, ⟨97, _⟩ => ⟨S20000x67, .f32⟩
  | .local _ .vmem, ⟨0, _⟩ => ⟨S1000x64, .f32⟩
  | .local _ .vmem, ⟨1, _⟩ => ⟨S1000x64, .f32⟩
  | .local _ .vmem, ⟨2, _⟩ => ⟨S1000x64, .f32⟩
  | .local _ .vmem, ⟨3, _⟩ => ⟨S1000x64, .f32⟩
  | .local _ .vmem, ⟨4, _⟩ => ⟨S1000x3, .f32⟩
  | .local _ .vmem, ⟨5, _⟩ => ⟨S1000x3, .f32⟩
  | .local _ .vmem, ⟨6, _⟩ => ⟨S129x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S4096x128, .bf16⟩
  | .local _ .vmem, ⟨11, _⟩ => ⟨S1x128, .f32⟩
  | .local _ .vmem, ⟨12, _⟩ => ⟨S128x64, .bf16⟩
  | .local _ .vmem, ⟨13, _⟩ => ⟨S1x64, .f32⟩
  | .local _ .vmem, ⟨14, _⟩ => ⟨S64x64, .bf16⟩
  | .local _ .vmem, ⟨15, _⟩ => ⟨S1x64, .f32⟩
  | .local _ .vmem, ⟨16, _⟩ => ⟨S64x1, .bf16⟩
  | .local _ .vmem, ⟨17, _⟩ => ⟨S1000x128, .f32⟩
  | .local _ .vmem, ⟨18, _⟩ => ⟨S1000x128, .f32⟩
  | .local _ .vmem, ⟨19, _⟩ => ⟨S20480x128, .f32⟩
  | .local _ .vmem, ⟨20, _⟩ => ⟨S1x20480, .i32⟩
  | .local _ .vmem, ⟨21, _⟩ => ⟨S1000x128, .f32⟩
  | .local _ .vmem, ⟨22, _⟩ => ⟨S1000x128, .f32⟩
  | .local _ .vmem, ⟨23, _⟩ => ⟨S2000x64, .f32⟩
  | .local _ .vmem, ⟨24, _⟩ => ⟨S2000x64, .f32⟩
  | .local _ .vmem, ⟨25, _⟩ => ⟨S2000x3, .f32⟩
  | .local _ .vmem, ⟨26, _⟩ => ⟨S2000x3, .f32⟩
  | .local _ .vmem, ⟨27, _⟩ => ⟨S2000x64, .f32⟩
  | .local _ .vmem, ⟨28, _⟩ => ⟨S2000x64, .f32⟩
  | .local _ .vmem, ⟨29, _⟩ => ⟨S131x64, .bf16⟩
  | .local _ .vmem, ⟨30, _⟩ => ⟨S1x64, .f32⟩
  | .local _ .vmem, ⟨31, _⟩ => ⟨S64x67, .bf16⟩
  | .local _ .vmem, ⟨32, _⟩ => ⟨S1x67, .f32⟩
  | .local _ .vmem, ⟨33, _⟩ => ⟨S2000x128, .f32⟩
  | .local _ .vmem, ⟨34, _⟩ => ⟨S2000x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_7 : Ref sig .tc := ⟨.hbm, 75, rfl⟩
abbrev main_call0_v0 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_call1_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc1_sem0_0 : DmaSem sig := 19
abbrev cc1_sem1_0 : DmaSem sig := 20
abbrev cc1_sem2_0 : DmaSem sig := 21
abbrev cc1_sem2_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S129x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![20], ![false]⟩

@[reducible] def k1_t1_loop : Scf.Loop 32 :=
  let c0_i32 : BitVec 32 := 0#32
  let c20_i32 : BitVec 32 := 20#32
  let v5 : BitVec 32 := Scalar.addi c0_i32 c20_i32
  let c1_i32 : BitVec 32 := 1#32
  ⟨c0_i32, v5, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c1024_i32 : BitVec 32 := 1024#32
  let v8 : BitVec 32 := Scalar.muli arg4 c1024_i32
  v8
def k1_off1 (k1_t1 : Fin k1_t1_loop.trips) : Fin 2 → Nat :=
  let c0_2 : Index := 0#32
  let c0_i32 : BitVec 32 := 0#32
  let c1_i32 : BitVec 32 := 1#32
  let arg4 : BitVec 32 := Scf.iv c0_i32 c1_i32 k1_t1
  let c1024_i32 : BitVec 32 := 1024#32
  let v8 : BitVec 32 := Scalar.muli arg4 c1024_i32
  let v9 : BitVec 32 := v8
  let v10 : Index := Scalar.indexCast v9
  ![0, v10.toNat]
def k1_off2 (k1_t1 : Fin k1_t1_loop.trips) : Fin 2 → Nat :=
  let c0_i32 : BitVec 32 := 0#32
  let c1_i32 : BitVec 32 := 1#32
  let arg4 : BitVec 32 := Scf.iv c0_i32 c1_i32 k1_t1
  let c1024_i32 : BitVec 32 := 1024#32
  let v8 : BitVec 32 := Scalar.muli arg4 c1024_i32
  let v9 : BitVec 32 := v8
  let v13 : Index := Scalar.indexCast v9
  let c0_3 : Index := 0#32
  ![v13.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S20480x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x20480 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S131x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x67 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x67 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x20000_S1x20000_0_0 : S2x20000.Slices ![0, 0] S1x20000
  shapeCasts_S1x20000_S20000 : S1x20000.ShapeCasts S20000
  slices_S2x20000_S1x20000_1_0 : S2x20000.Slices ![1, 0] S1x20000
  bcast_S_S20000 : S_.BroadcastsInDim S20000 (![] : Fin 0 → Fin S20000.rank)
  bcast_S20000_S20000x1_0 : S20000.BroadcastsInDim S20000x1 (![0] : Fin 1 → Fin S20000x1.rank)
  bitsLt_bf16_f32 : FTy.bits .bf16 < FTy.bits .f32
  shapeCasts_S64_S1x64 : S64.ShapeCasts S1x64
  bcast_S_S4096x128 : S_.BroadcastsInDim S4096x128 (![] : Fin 0 → Fin S4096x128.rank)
  shapeCasts_S128_S1x128 : S128.ShapeCasts S1x128
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x3_S1000x3_0_0 : ∀ a, (![0, 0] : Fin 2 → Nat) a + S1000x3.size a ≤ S1000x3.size a
  h_S1000x3 : 0 < S1000x3.numel
  shapeCasts_S1000x3_S1000x3 : S1000x3.ShapeCasts S1000x3
  reduces_S1000x3_S1000 : S1000x3.Reduces [1] S1000
  shapeCasts_S1000_S1000x1 : S1000.ShapeCasts S1000x1
  concatenates_S1000x64_S1000x64_S1000x1_S1000x129_d1 : Shape.Concatenates [S1000x64, S1000x64, S1000x1] S1000x129 1
  inb_S129x64_S129x64_0_0 : ∀ a, (![0, 0] : Fin 2 → Nat) a + S129x64.size a ≤ S129x64.size a
  h_S129x64 : 0 < S129x64.numel
  shapeCasts_S129x64_S129x64 : S129x64.ShapeCasts S129x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S1000x64_S1000x64_S1000x64_S1000x64_S1000x64_S1000x64_S1000x64_S1000x64_S1000x64_S1000x64_S1000x64_S1000x64_S1000x64_S1000x64_S1000x64_S1000x64_S1000x1024_d1 : Shape.Concatenates [S1000x64, S1000x64, S1000x64, S1000x64, S1000x64, S1000x64, S1000x64, S1000x64, S1000x64, S1000x64, S1000x64, S1000x64, S1000x64, S1000x64, S1000x64, S1000x64] S1000x1024 1
  slices_S1000x64_o0_0_S1000x1 : S1000x64.Slices ![0, 0] S1000x1
  shapeCasts_S1000x1_S1000x1 : S1000x1.ShapeCasts S1000x1
  broadcasts_S1000x1_S1000x64 : S1000x1.Broadcasts S1000x64
  slices_S1000x64_o0_1_S1000x1 : S1000x64.Slices ![0, 1] S1000x1
  slices_S1000x64_o0_2_S1000x1 : S1000x64.Slices ![0, 2] S1000x1
  slices_S1000x64_o0_3_S1000x1 : S1000x64.Slices ![0, 3] S1000x1
  slices_S1000x64_o0_4_S1000x1 : S1000x64.Slices ![0, 4] S1000x1
  slices_S1000x64_o0_5_S1000x1 : S1000x64.Slices ![0, 5] S1000x1
  slices_S1000x64_o0_6_S1000x1 : S1000x64.Slices ![0, 6] S1000x1
  slices_S1000x64_o0_7_S1000x1 : S1000x64.Slices ![0, 7] S1000x1
  slices_S1000x64_o0_8_S1000x1 : S1000x64.Slices ![0, 8] S1000x1
  slices_S1000x64_o0_9_S1000x1 : S1000x64.Slices ![0, 9] S1000x1
  slices_S1000x64_o0_10_S1000x1 : S1000x64.Slices ![0, 10] S1000x1
  slices_S1000x64_o0_11_S1000x1 : S1000x64.Slices ![0, 11] S1000x1
  slices_S1000x64_o0_12_S1000x1 : S1000x64.Slices ![0, 12] S1000x1
  slices_S1000x64_o0_13_S1000x1 : S1000x64.Slices ![0, 13] S1000x1
  slices_S1000x64_o0_14_S1000x1 : S1000x64.Slices ![0, 14] S1000x1
  slices_S1000x64_o0_15_S1000x1 : S1000x64.Slices ![0, 15] S1000x1
  inb_S4096x128_S1024x128_0_0 : ∀ a, (![0, 0] : Fin 2 → Nat) a + S1024x128.size a ≤ S4096x128.size a
  h_S1024x128 : 0 < S1024x128.numel
  shapeCasts_S1024x128_S1024x128 : S1024x128.ShapeCasts S1024x128
  slices_S1000x64_o0_16_S1000x1 : S1000x64.Slices ![0, 16] S1000x1
  slices_S1000x64_o0_17_S1000x1 : S1000x64.Slices ![0, 17] S1000x1
  slices_S1000x64_o0_18_S1000x1 : S1000x64.Slices ![0, 18] S1000x1
  slices_S1000x64_o0_19_S1000x1 : S1000x64.Slices ![0, 19] S1000x1
  slices_S1000x64_o0_20_S1000x1 : S1000x64.Slices ![0, 20] S1000x1
  slices_S1000x64_o0_21_S1000x1 : S1000x64.Slices ![0, 21] S1000x1
  slices_S1000x64_o0_22_S1000x1 : S1000x64.Slices ![0, 22] S1000x1
  slices_S1000x64_o0_23_S1000x1 : S1000x64.Slices ![0, 23] S1000x1
  slices_S1000x64_o0_24_S1000x1 : S1000x64.Slices ![0, 24] S1000x1
  slices_S1000x64_o0_25_S1000x1 : S1000x64.Slices ![0, 25] S1000x1
  slices_S1000x64_o0_26_S1000x1 : S1000x64.Slices ![0, 26] S1000x1
  slices_S1000x64_o0_27_S1000x1 : S1000x64.Slices ![0, 27] S1000x1
  slices_S1000x64_o0_28_S1000x1 : S1000x64.Slices ![0, 28] S1000x1
  slices_S1000x64_o0_29_S1000x1 : S1000x64.Slices ![0, 29] S1000x1
  slices_S1000x64_o0_30_S1000x1 : S1000x64.Slices ![0, 30] S1000x1
  slices_S1000x64_o0_31_S1000x1 : S1000x64.Slices ![0, 31] S1000x1
  inb_S4096x128_S1024x128_1024_0 : ∀ a, (![1024, 0] : Fin 2 → Nat) a + S1024x128.size a ≤ S4096x128.size a
  slices_S1000x64_o0_32_S1000x1 : S1000x64.Slices ![0, 32] S1000x1
  slices_S1000x64_o0_33_S1000x1 : S1000x64.Slices ![0, 33] S1000x1
  slices_S1000x64_o0_34_S1000x1 : S1000x64.Slices ![0, 34] S1000x1
  slices_S1000x64_o0_35_S1000x1 : S1000x64.Slices ![0, 35] S1000x1
  slices_S1000x64_o0_36_S1000x1 : S1000x64.Slices ![0, 36] S1000x1
  slices_S1000x64_o0_37_S1000x1 : S1000x64.Slices ![0, 37] S1000x1
  slices_S1000x64_o0_38_S1000x1 : S1000x64.Slices ![0, 38] S1000x1
  slices_S1000x64_o0_39_S1000x1 : S1000x64.Slices ![0, 39] S1000x1
  slices_S1000x64_o0_40_S1000x1 : S1000x64.Slices ![0, 40] S1000x1
  slices_S1000x64_o0_41_S1000x1 : S1000x64.Slices ![0, 41] S1000x1
  slices_S1000x64_o0_42_S1000x1 : S1000x64.Slices ![0, 42] S1000x1
  slices_S1000x64_o0_43_S1000x1 : S1000x64.Slices ![0, 43] S1000x1
  slices_S1000x64_o0_44_S1000x1 : S1000x64.Slices ![0, 44] S1000x1
  slices_S1000x64_o0_45_S1000x1 : S1000x64.Slices ![0, 45] S1000x1
  slices_S1000x64_o0_46_S1000x1 : S1000x64.Slices ![0, 46] S1000x1
  slices_S1000x64_o0_47_S1000x1 : S1000x64.Slices ![0, 47] S1000x1
  inb_S4096x128_S1024x128_2048_0 : ∀ a, (![2048, 0] : Fin 2 → Nat) a + S1024x128.size a ≤ S4096x128.size a
  slices_S1000x64_o0_48_S1000x1 : S1000x64.Slices ![0, 48] S1000x1
  slices_S1000x64_o0_49_S1000x1 : S1000x64.Slices ![0, 49] S1000x1
  slices_S1000x64_o0_50_S1000x1 : S1000x64.Slices ![0, 50] S1000x1
  slices_S1000x64_o0_51_S1000x1 : S1000x64.Slices ![0, 51] S1000x1
  slices_S1000x64_o0_52_S1000x1 : S1000x64.Slices ![0, 52] S1000x1
  slices_S1000x64_o0_53_S1000x1 : S1000x64.Slices ![0, 53] S1000x1
  slices_S1000x64_o0_54_S1000x1 : S1000x64.Slices ![0, 54] S1000x1
  slices_S1000x64_o0_55_S1000x1 : S1000x64.Slices ![0, 55] S1000x1
  slices_S1000x64_o0_56_S1000x1 : S1000x64.Slices ![0, 56] S1000x1
  slices_S1000x64_o0_57_S1000x1 : S1000x64.Slices ![0, 57] S1000x1
  slices_S1000x64_o0_58_S1000x1 : S1000x64.Slices ![0, 58] S1000x1
  slices_S1000x64_o0_59_S1000x1 : S1000x64.Slices ![0, 59] S1000x1
  slices_S1000x64_o0_60_S1000x1 : S1000x64.Slices ![0, 60] S1000x1
  slices_S1000x64_o0_61_S1000x1 : S1000x64.Slices ![0, 61] S1000x1
  slices_S1000x64_o0_62_S1000x1 : S1000x64.Slices ![0, 62] S1000x1
  slices_S1000x64_o0_63_S1000x1 : S1000x64.Slices ![0, 63] S1000x1
  inb_S4096x128_S1024x128_3072_0 : ∀ a, (![3072, 0] : Fin 2 → Nat) a + S1024x128.size a ≤ S4096x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S1000x1_S1000x3 : S1000x1.Broadcasts S1000x3
  concatenates_S1000x64_S1000x3_S1000x1_S1000x3_S1000x57_S1000x128_d1 : Shape.Concatenates [S1000x64, S1000x3, S1000x1, S1000x3, S1000x57] S1000x128 1
  inb_S1000x128_S1000x128_0_0 : ∀ a, (![0, 0] : Fin 2 → Nat) a + S1000x128.size a ≤ S1000x128.size a
  h_S1000x128 : 0 < S1000x128.numel
  slices_S20000x128_S20000x3_0_68 : S20000x128.Slices ![0, 68] S20000x3
  pads_S20000x128_S20480x128_04800_000 : S20000x128.Pads (![0, 0] : Fin 2 → Nat) ![480, 0] ![0, 0] S20480x128
  h_S_ : 0 < S_.numel
  shapeCasts_S20000_S1x20000 : S20000.ShapeCasts S1x20000
  pads_S1x20000_S1x20480_000_04800 : S1x20000.Pads (![0, 0] : Fin 2 → Nat) ![0, 480] ![0, 0] S1x20480
  iota_S1000x1_d0_w32 : S1000x1.Iotas .tc 32 [0]
  h_S1x1024 : 0 < S1x1024.numel
  shapeCasts_S1x1024_S1x1024 : S1x1024.ShapeCasts S1x1024
  broadcasts_S1000x1_S1000x1024 : S1000x1.Broadcasts S1000x1024
  broadcasts_S1x1024_S1000x1024 : S1x1024.Broadcasts S1000x1024
  natLt_1_32 : 1 < 32
  slices_S20000x128_S20000x64_0_0 : S20000x128.Slices ![0, 0] S20000x64
  slices_S20000x128_S20000x3_0_64 : S20000x128.Slices ![0, 64] S20000x3
  slices_S20000x128_S20000x1_0_67 : S20000x128.Slices ![0, 67] S20000x1
  bcast_S_S20000x1 : S_.BroadcastsInDim S20000x1 (![] : Fin 0 → Fin S20000x1.rank)
  bcast_S20000x1_S20000x3_0_1 : S20000x1.BroadcastsInDim S20000x3 (![0, 1] : Fin 2 → Fin S20000x3.rank)
  shapeCasts_S67_S1x67 : S67.ShapeCasts S1x67
  inb_S2000x64_S2000x64_0_0 : ∀ a, (![0, 0] : Fin 2 → Nat) a + S2000x64.size a ≤ S2000x64.size a
  h_S2000x64 : 0 < S2000x64.numel
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  shapeCasts_S2000x64_S2000x64 : S2000x64.ShapeCasts S2000x64
  concatenates_S2000x64_S2000x3_S2000x67_d1 : Shape.Concatenates [S2000x64, S2000x3] S2000x67 1
  concatenates_S2000x67_S2000x64_S2000x131_d1 : Shape.Concatenates [S2000x67, S2000x64] S2000x131 1
  inb_S131x64_S131x64_0_0 : ∀ a, (![0, 0] : Fin 2 → Nat) a + S131x64.size a ≤ S131x64.size a
  h_S131x64 : 0 < S131x64.numel
  shapeCasts_S131x64_S131x64 : S131x64.ShapeCasts S131x64
  broadcasts_S1x64_S2000x64 : S1x64.Broadcasts S2000x64
  inb_S64x67_S64x67_0_0 : ∀ a, (![0, 0] : Fin 2 → Nat) a + S64x67.size a ≤ S64x67.size a
  h_S64x67 : 0 < S64x67.numel
  shapeCasts_S64x67_S64x67 : S64x67.ShapeCasts S64x67
  inb_S1x67_S1x67_0_0 : ∀ a, (![0, 0] : Fin 2 → Nat) a + S1x67.size a ≤ S1x67.size a
  h_S1x67 : 0 < S1x67.numel
  shapeCasts_S1x67_S1x67 : S1x67.ShapeCasts S1x67
  broadcasts_S1x67_S2000x67 : S1x67.Broadcasts S2000x67
  concatenates_S2000x67_S2000x61_S2000x128_d1 : Shape.Concatenates [S2000x67, S2000x61] S2000x128 1
  inb_S2000x128_S2000x128_0_0 : ∀ a, (![0, 0] : Fin 2 → Nat) a + S2000x128.size a ≤ S2000x128.size a
  h_S2000x128 : 0 < S2000x128.numel
  slices_S20000x128_S20000x67_0_0 : S20000x128.Slices ![0, 0] S20000x67
  gather_S20000x3_S20000x1_S20000x3_1_0_n_n_0_1_13_wf : GatherDims.WF S20000x3 S20000x1 S20000x3 [1] [0] [] [0] [] 1 ![1, 3]
  gather_S20000x64_S20000x1_S20000x64_1_0_n_n_0_1_164_wf : GatherDims.WF S20000x64 S20000x1 S20000x64 [1] [0] [] [0] [] 1 ![1, 64]
  dot_S1000x129_S129x64_S1000x64_1_0_0_1_n_n_wf : DotDims.WF S1000x129 S129x64 S1000x64 [1] [0] [0] [1] [] []
  dot_S1000x64_S64x64_S1000x64_1_0_0_1_n_n_wf : DotDims.WF S1000x64 S64x64 S1000x64 [1] [0] [0] [1] [] []
  dot_S1000x1024_S1024x128_S1000x128_1_0_0_1_n_n_wf : DotDims.WF S1000x1024 S1024x128 S1000x128 [1] [0] [0] [1] [] []
  dot_S1000x128_S128x64_S1000x64_1_0_0_1_n_n_wf : DotDims.WF S1000x128 S128x64 S1000x64 [1] [0] [0] [1] [] []
  dot_S1000x64_S64x1_S1000x1_1_0_0_1_n_n_wf : DotDims.WF S1000x64 S64x1 S1000x1 [1] [0] [0] [1] [] []
  dot_S2000x131_S131x64_S2000x64_1_0_0_1_n_n_wf : DotDims.WF S2000x131 S131x64 S2000x64 [1] [0] [0] [1] [] []
  dot_S2000x64_S64x67_S2000x67_1_0_0_1_n_n_wf : DotDims.WF S2000x64 S64x67 S2000x67 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S20000x64.size a
  hwx0_0 : ∀ i : grid0.Coords, EltTy.bits .f32 = 32 ∨ (Rect.block (s := S20000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S20000x64.size a
  hwx0_1 : ∀ i : grid0.Coords, EltTy.bits .f32 = 32 ∨ (Rect.block (s := S20000x64) S1000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3.size a ≤ S20000x3.size a
  hwx0_2 : ∀ i : grid0.Coords, EltTy.bits .f32 = 32 ∨ (Rect.block (s := S20000x3) S1000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S129x64.size a ≤ S129x64.size a
  hwx0_3 : ∀ i : grid0.Coords, EltTy.bits .bf16 = 32 ∨ (Rect.block (s := S129x64) S129x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .bf16 = 32 ∨ (Rect.block (s := S4096x128) S4096x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .bf16 = 32 ∨ (Rect.block (s := S64x1) S64x1.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x128.size a ≤ S20000x128.size a
  hwx0_14 : ∀ i : grid0.Coords, EltTy.bits .f32 = 32 ∨ (Rect.block (s := S20000x128) S1000x128.size (cc0_transform_14 i) (hinb0_14 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024.size a ≤ S1x20480.size a
  k1_off2_inb : ∀ k1_t1 : Fin k1_t1_loop.trips, ∀ a, (k1_off2 k1_t1) a + S1024x128.size a ≤ S20480x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S20480x128.size a ≤ S20480x128.size a
  hwx1_0 : ∀ i : grid1.Coords, EltTy.bits .f32 = 32 ∨ (Rect.block (s := S20480x128) S20480x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x20480.size a ≤ S1x20480.size a
  hwx1_1 : ∀ i : grid1.Coords, EltTy.bits .i32 = 32 ∨ (Rect.block (s := S1x20480) S1x20480.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S20000x128.size a
  hwx1_2 : ∀ i : grid1.Coords, EltTy.bits .f32 = 32 ∨ (Rect.block (s := S20000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S20000x64.size a
  hwx2_0 : ∀ i : grid2.Coords, EltTy.bits .f32 = 32 ∨ (Rect.block (s := S20000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x3.size a ≤ S20000x3.size a
  hwx2_1 : ∀ i : grid2.Coords, EltTy.bits .f32 = 32 ∨ (Rect.block (s := S20000x3) S2000x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S20000x64.size a
  hwx2_2 : ∀ i : grid2.Coords, EltTy.bits .f32 = 32 ∨ (Rect.block (s := S20000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S131x64.size a ≤ S131x64.size a
  hwx2_3 : ∀ i : grid2.Coords, EltTy.bits .bf16 = 32 ∨ (Rect.block (s := S131x64) S131x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x67.size a ≤ S64x67.size a
  hwx2_5 : ∀ i : grid2.Coords, EltTy.bits .bf16 = 32 ∨ (Rect.block (s := S64x67) S64x67.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x67.size a ≤ S1x67.size a
  hwx2_6 : ∀ i : grid2.Coords, EltTy.bits .f32 = 32 ∨ (Rect.block (s := S1x67) S1x67.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)

variable [Facts₀]

def gather_S20000x3_S20000x1_S20000x3_1_0_n_n_0_1_13 : GatherDims S20000x3 S20000x1 S20000x3 where
  offsetDims := [1]
  collapsedSliceDims := [0]
  operandBatchingDims := []
  startIndicesBatchingDims := []
  startIndexMap := [0]
  indexVectorDim := 1
  sliceSizes := ![1, 3]
  wf := gather_S20000x3_S20000x1_S20000x3_1_0_n_n_0_1_13_wf
def gather_S20000x64_S20000x1_S20000x64_1_0_n_n_0_1_164 : GatherDims S20000x64 S20000x1 S20000x64 where
  offsetDims := [1]
  collapsedSliceDims := [0]
  operandBatchingDims := []
  startIndicesBatchingDims := []
  startIndexMap := [0]
  indexVectorDim := 1
  sliceSizes := ![1, 64]
  wf := gather_S20000x64_S20000x1_S20000x64_1_0_n_n_0_1_164_wf
def dot_S1000x129_S129x64_S1000x64_1_0_0_1_n_n : DotDims S1000x129 S129x64 S1000x64 where
  lhsContracting := [1]
  rhsContracting := [0]
  lhsNonContracting := [0]
  rhsNonContracting := [1]
  lhsBatch := []
  rhsBatch := []
  wf := dot_S1000x129_S129x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf
def dot_S2000x131_S131x64_S2000x64_1_0_0_1_n_n : DotDims S2000x131 S131x64 S2000x64 where
  lhsContracting := [1]
  rhsContracting := [0]
  lhsNonContracting := [0]
  rhsNonContracting := [1]
  lhsBatch := []
  rhsBatch := []
  wf := dot_S2000x131_S131x64_S2000x64_1_0_0_1_n_n_wf
def dot_S2000x64_S64x67_S2000x67_1_0_0_1_n_n : DotDims S2000x64 S64x67 S2000x67 where
  lhsContracting := [1]
  rhsContracting := [0]
  lhsNonContracting := [0]
  rhsNonContracting := [1]
  lhsBatch := []
  rhsBatch := []
  wf := dot_S2000x64_S64x67_S2000x67_1_0_0_1_n_n_wf

abbrev win0_0 : Pipeline.Window sig grid0 :=
  Pipeline.Window.ofSpec (Memref.whole main_v25) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S129x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S4096x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v44) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v45) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v46) S1000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_v48) S20480x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x20480.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S131x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S64x67.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x67.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x64 : Shape := ⟨2, ![20000, 64]⟩
abbrev S20000x3 : Shape := ⟨2, ![20000, 3]⟩
abbrev S2x20000 : Shape := ⟨2, ![2, 20000]⟩
abbrev S129x64 : Shape := ⟨2, ![129, 64]⟩
abbrev S64 : Shape := ⟨1, ![64]⟩
abbrev S64x64 : Shape := ⟨2, ![64, 64]⟩
abbrev S4096x128 : Shape := ⟨2, ![4096, 128]⟩
abbrev S128 : Shape := ⟨1, ![128]⟩
abbrev S128x64 : Shape := ⟨2, ![128, 64]⟩
abbrev S64x1 : Shape := ⟨2, ![64, 1]⟩
abbrev S131x64 : Shape := ⟨2, ![131, 64]⟩
abbrev S64x67 : Shape := ⟨2, ![64, 67]⟩
abbrev S67 : Shape := ⟨1, ![67]⟩
abbrev S1x20000 : Shape := ⟨2, ![1, 20000]⟩
abbrev S20000 : Shape := ⟨1, ![20000]⟩
abbrev S_ : Shape := ⟨0, ![]⟩
abbrev S20000x1 : Shape := ⟨2, ![20000, 1]⟩
abbrev S20000x129 : Shape := ⟨2, ![20000, 129]⟩
abbrev S1x64 : Shape := ⟨2, ![1, 64]⟩
abbrev S20000x64x1 : Shape := ⟨3, ![20000, 64, 1]⟩
abbrev S20000x1x64 : Shape := ⟨3, ![20000, 1, 64]⟩
abbrev S20000x64x64 : Shape := ⟨3, ![20000, 64, 64]⟩
abbrev S20000x4096 : Shape := ⟨2, ![20000, 4096]⟩
abbrev S20000x128 : Shape := ⟨2, ![20000, 128]⟩
abbrev S1x128 : Shape := ⟨2, ![1, 128]⟩
abbrev S20000x67 : Shape := ⟨2, ![20000, 67]⟩
abbrev S20000x131 : Shape := ⟨2, ![20000, 131]⟩
abbrev S1x67 : Shape := ⟨2, ![1, 67]⟩

abbrev nBuf : Space → Nat
  | .hbm => 175
  | .vmem => 0
  | .smem => 0
  | _ => 0

abbrev hbmTy0_0 (i : Nat) : BufTy := match i % 128 with
  | 0 => ⟨S20000x64, .f32⟩
  | 1 => ⟨S20000x3, .f32⟩
  | 2 => ⟨S2x20000, .i32⟩
  | 3 => ⟨S129x64, .f32⟩
  | 4 => ⟨S64, .f32⟩
  | 5 => ⟨S64x64, .f32⟩
  | 6 => ⟨S64, .f32⟩
  | 7 => ⟨S4096x128, .f32⟩
  | 8 => ⟨S128, .f32⟩
  | 9 => ⟨S128x64, .f32⟩
  | 10 => ⟨S64, .f32⟩
  | 11 => ⟨S64x64, .f32⟩
  | 12 => ⟨S64, .f32⟩
  | 13 => ⟨S64x1, .f32⟩
  | 14 => ⟨S131x64, .f32⟩
  | 15 => ⟨S64, .f32⟩
  | 16 => ⟨S64x67, .f32⟩
  | 17 => ⟨S67, .f32⟩
  | 18 => ⟨S1x20000, .i32⟩
  | 19 => ⟨S20000, .i32⟩
  | 20 => ⟨S1x20000, .i32⟩
  | 21 => ⟨S20000, .i32⟩
  | 22 => ⟨S_, .i32⟩
  | 23 => ⟨S20000, .i32⟩
  | 24 => ⟨S20000, .i1⟩
  | 25 => ⟨S_, .i32⟩
  | 26 => ⟨S20000, .i32⟩
  | 27 => ⟨S20000, .i32⟩
  | 28 => ⟨S20000, .i32⟩
  | 29 => ⟨S20000x1, .i32⟩
  | 30 => ⟨S20000x3, .f32⟩
  | 31 => ⟨S_, .i32⟩
  | 32 => ⟨S20000, .i32⟩
  | 33 => ⟨S20000, .i1⟩
  | 34 => ⟨S_, .i32⟩
  | 35 => ⟨S20000, .i32⟩
  | 36 => ⟨S20000, .i32⟩
  | 37 => ⟨S20000, .i32⟩
  | 38 => ⟨S20000x1, .i32⟩
  | 39 => ⟨S20000x3, .f32⟩
  | 40 => ⟨S20000x3, .f32⟩
  | 41 => ⟨S20000x3, .f32⟩
  | 42 => ⟨S_, .f32⟩
  | 43 => ⟨S20000, .f32⟩
  | 44 => ⟨S20000x1, .f32⟩
  | 45 => ⟨S_, .i32⟩
  | 46 => ⟨S20000, .i32⟩
  | 47 => ⟨S20000, .i1⟩
  | 48 => ⟨S_, .i32⟩
  | 49 => ⟨S20000, .i32⟩
  | 50 => ⟨S20000, .i32⟩
  | 51 => ⟨S20000, .i32⟩
  | 52 => ⟨S20000x1, .i32⟩
  | 53 => ⟨S20000x64, .f32⟩
  | 54 => ⟨S_, .i32⟩
  | 55 => ⟨S20000, .i32⟩
  | 56 => ⟨S20000, .i1⟩
  | 57 => ⟨S_, .i32⟩
  | 58 => ⟨S20000, .i32⟩
  | 59 => ⟨S20000, .i32⟩
  | 60 => ⟨S20000, .i32⟩
  | 61 => ⟨S20000x1, .i32⟩
  | 62 => ⟨S20000x64, .f32⟩
  | 63 => ⟨S20000x129, .f32⟩
  | 64 => ⟨S20000x64, .f32⟩
  | 65 => ⟨S1x64, .f32⟩
  | 66 => ⟨S20000x64, .f32⟩
  | 67 => ⟨S20000x64, .f32⟩
  | 68 => ⟨S20000x64, .f32⟩
  | 69 => ⟨S20000x64, .f32⟩
  | 70 => ⟨S_, .f32⟩
  | 71 => ⟨S20000x64, .f32⟩
  | 72 => ⟨S20000x64, .f32⟩
  | 73 => ⟨S_, .f32⟩
  | 74 => ⟨S20000x64, .f32⟩
  | 75 => ⟨S20000x64, .f32⟩
  | 76 => ⟨S20000x64, .f32⟩
  | 77 => ⟨S20000x64, .f32⟩
  | 78 => ⟨S1x64, .f32⟩
  | 79 => ⟨S20000x64, .f32⟩
  | 80 => ⟨S20000x64, .f32⟩
  | 81 => ⟨S20000x64, .f32⟩
  | 82 => ⟨S20000x64, .f32⟩
  | 83 => ⟨S_, .f32⟩
  | 84 => ⟨S20000x64, .f32⟩
  | 85 => ⟨S20000x64, .f32⟩
  | 86 => ⟨S_, .f32⟩
  | 87 => ⟨S20000x64, .f32⟩
  | 88 => ⟨S20000x64, .f32⟩
  | 89 => ⟨S20000x64, .f32⟩
  | 90 => ⟨S20000x64x1, .f32⟩
  | 91 => ⟨S_, .f32⟩
  | 92 => ⟨S20000x64x1, .f32⟩
  | 93 => ⟨S20000x64x1, .f32⟩
  | 94 => ⟨S20000x1x64, .f32⟩
  | 95 => ⟨S20000x64x64, .f32⟩
  | 96 => ⟨S20000x64x64, .f32⟩
  | 97 => ⟨S20000x64x64, .f32⟩
  | 98 => ⟨S20000x4096, .f32⟩
  | 99 => ⟨S20000x128, .f32⟩
  | 100 => ⟨S1x128, .f32⟩
  | 101 => ⟨S20000x128, .f32⟩
  | 102 => ⟨S20000x128, .f32⟩
  | 103 => ⟨S_, .f32⟩
  | 104 => ⟨S20000x128, .f32⟩
  | 105 => ⟨S20000x128, .f32⟩
  | 106 => ⟨S20000x64, .f32⟩
  | 107 => ⟨S1x64, .f32⟩
  | 108 => ⟨S20000x64, .f32⟩
  | 109 => ⟨S20000x64, .f32⟩
  | 110 => ⟨S20000x64, .f32⟩
  | 111 => ⟨S1x64, .f32⟩
  | 112 => ⟨S20000x64, .f32⟩
  | 113 => ⟨S20000x64, .f32⟩
  | 114 => ⟨S20000x64, .f32⟩
  | 115 => ⟨S20000x64, .f32⟩
  | 116 => ⟨S_, .f32⟩
  | 117 => ⟨S20000x64, .f32⟩
  | 118 => ⟨S20000x64, .f32⟩
  | 119 => ⟨S_, .f32⟩
  | 120 => ⟨S20000x64, .f32⟩
  | 121 => ⟨S20000x64, .f32⟩
  | 122 => ⟨S20000x64, .f32⟩
  | 123 => ⟨S20000x1, .f32⟩
  | 124 => ⟨S20000x3, .f32⟩
  | 125 => ⟨S20000x3, .f32⟩
  | 126 => ⟨S_, .f32⟩
  | 127 => ⟨S20000x3, .f32⟩
  | _ => ⟨S20000x64, .f32⟩

abbrev hbmTy0_1 (i : Nat) : BufTy := match i % 128 with
  | 0 => ⟨S20000x1, .i32⟩
  | 1 => ⟨S20000x3, .f32⟩
  | 2 => ⟨S_, .f32⟩
  | 3 => ⟨S20000x3, .f32⟩
  | 4 => ⟨S_, .f32⟩
  | 5 => ⟨S20000x3, .f32⟩
  | 6 => ⟨S20000x1, .i32⟩
  | 7 => ⟨S20000x3, .f32⟩
  | 8 => ⟨S_, .f32⟩
  | 9 => ⟨S20000x3, .f32⟩
  | 10 => ⟨S20000x3, .f32⟩
  | 11 => ⟨S20000x3, .f32⟩
  | 12 => ⟨S20000x3, .f32⟩
  | 13 => ⟨S20000x3, .f32⟩
  | 14 => ⟨S_, .f32⟩
  | 15 => ⟨S20000, .f32⟩
  | 16 => ⟨S20000x1, .f32⟩
  | 17 => ⟨S20000x1, .f32⟩
  | 18 => ⟨S_, .f32⟩
  | 19 => ⟨S20000x1, .f32⟩
  | 20 => ⟨S20000x1, .f32⟩
  | 21 => ⟨S20000x3, .f32⟩
  | 22 => ⟨S20000x3, .f32⟩
  | 23 => ⟨S20000x67, .f32⟩
  | 24 => ⟨S_, .f32⟩
  | 25 => ⟨S20000x64, .f32⟩
  | 26 => ⟨S20000x1, .i32⟩
  | 27 => ⟨S20000x64, .f32⟩
  | 28 => ⟨S20000x131, .f32⟩
  | 29 => ⟨S20000x64, .f32⟩
  | 30 => ⟨S1x64, .f32⟩
  | 31 => ⟨S20000x64, .f32⟩
  | 32 => ⟨S20000x64, .f32⟩
  | 33 => ⟨S20000x64, .f32⟩
  | 34 => ⟨S20000x64, .f32⟩
  | 35 => ⟨S_, .f32⟩
  | 36 => ⟨S20000x64, .f32⟩
  | 37 => ⟨S20000x64, .f32⟩
  | 38 => ⟨S_, .f32⟩
  | 39 => ⟨S20000x64, .f32⟩
  | 40 => ⟨S20000x64, .f32⟩
  | 41 => ⟨S20000x64, .f32⟩
  | 42 => ⟨S20000x67, .f32⟩
  | 43 => ⟨S1x67, .f32⟩
  | 44 => ⟨S20000x67, .f32⟩
  | 45 => ⟨S20000x67, .f32⟩
  | 46 => ⟨S20000x67, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v46 : Ref sig .tc := ⟨.hbm, 89, rfl⟩
abbrev main_v47 : Ref sig .tc := ⟨.hbm, 90, rfl⟩
abbrev main_cst_7 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call2_cst : Ref sig .tc := ⟨.hbm, 103, rfl⟩
abbrev main_call2_v0 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_call3_v0 : Ref sig .tc := ⟨.hbm, 114, rfl⟩
abbrev main_call3_v1 : Ref sig .tc := ⟨.hbm, 115, rfl⟩
abbrev main_call3_cst : Ref sig .tc := ⟨.hbm, 116, rfl⟩
abbrev main_call3_v2 : Ref sig .tc := ⟨.hbm, 117, rfl⟩
abbrev main_call3_v3 : Ref sig .tc := ⟨.hbm, 118, rfl⟩
abbrev main_call3_cst_0 : Ref sig .tc := ⟨.hbm, 119, rfl⟩
abbrev main_call3_v4 : Ref sig .tc := ⟨.hbm, 120, rfl⟩
abbrev main_call3_v5 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_8 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_cst_9 : Ref sig .tc := ⟨.hbm, 130, rfl⟩
abbrev main_v75 : Ref sig .tc := ⟨.hbm, 131, rfl⟩
abbrev main_cst_10 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_11 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_call4_v0 : Ref sig .tc := ⟨.hbm, 141, rfl⟩
abbrev main_call4_cst : Ref sig .tc := ⟨.hbm, 142, rfl⟩
abbrev main_call4_v1 : Ref sig .tc := ⟨.hbm, 143, rfl⟩
abbrev main_call4_v2 : Ref sig .tc := ⟨.hbm, 144, rfl⟩
abbrev main_v83 : Ref sig .tc := ⟨.hbm, 145, rfl⟩
abbrev main_cst_12 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_13 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩

abbrev nD : Nat := 1
abbrev τ : Topo := Topo.v7x

variable {F : FTy → Type} [FloatOps F]

class Facts₀ : Prop where
  slices_S2x20000_S1x20000_0_0 : S2x20000.Slices ![0, 0] S1x20000
  shapeCasts_S1x20000_S20000 : S1x20000.ShapeCasts S20000
  slices_S2x20000_S1x20000_1_0 : S2x20000.Slices ![1, 0] S1x20000
  bcast_S_S20000 : S_.BroadcastsInDim S20000 (![] : Fin 0 → Fin S20000.rank)
  bcast_S20000_S20000x1_0 : S20000.BroadcastsInDim S20000x1 (![0] : Fin 1 → Fin S20000x1.rank)
  reducesTo_S20000x3_S20000_d1 : S20000x3.ReducesTo [1] S20000
  h_S_ : 0 < S_.numel
  concatenates_S20000x64_S20000x64_S20000x1_S20000x129_d1 : Shape.Concatenates [S20000x64, S20000x64, S20000x1] S20000x129 1
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  bcast_S20000x64_S20000x64x1_0_1 : S20000x64.BroadcastsInDim S20000x64x1 (![0, 1] : Fin 2 → Fin S20000x64x1.rank)
  bcast_S_S20000x64x1 : S_.BroadcastsInDim S20000x64x1 (![] : Fin 0 → Fin S20000x64x1.rank)
  bcast_S20000x64_S20000x1x64_0_2 : S20000x64.BroadcastsInDim S20000x1x64 (![0, 2] : Fin 2 → Fin S20000x1x64.rank)
  bcast_S20000x64x1_S20000x64x64_0_1_2 : S20000x64x1.BroadcastsInDim S20000x64x64 (![0, 1, 2] : Fin 3 → Fin S20000x64x64.rank)
  bcast_S20000x1x64_S20000x64x64_0_1_2 : S20000x1x64.BroadcastsInDim S20000x64x64 (![0, 1, 2] : Fin 3 → Fin S20000x64x64.rank)
  shapeCasts_S20000x64x64_S20000x4096 : S20000x64x64.ShapeCasts S20000x4096
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S20000x1_S20000x3_0_1 : S20000x1.BroadcastsInDim S20000x3 (![0, 1] : Fin 2 → Fin S20000x3.rank)
  bcast_S_S20000x3 : S_.BroadcastsInDim S20000x3 (![] : Fin 0 → Fin S20000x3.rank)
  bcast_S_S20000x1 : S_.BroadcastsInDim S20000x1 (![] : Fin 0 → Fin S20000x1.rank)
  concatenates_S20000x64_S20000x3_S20000x67_d1 : Shape.Concatenates [S20000x64, S20000x3] S20000x67 1
  concatenates_S20000x67_S20000x64_S20000x131_d1 : Shape.Concatenates [S20000x67, S20000x64] S20000x131 1
  bcast_S67_S1x67_1 : S67.BroadcastsInDim S1x67 (![1] : Fin 1 → Fin S1x67.rank)
  bcast_S1x67_S20000x67_0_1 : S1x67.BroadcastsInDim S20000x67 (![0, 1] : Fin 2 → Fin S20000x67.rank)
  gather_S20000x3_S20000x1_S20000x3_1_0_n_n_0_1_13_wf : GatherDims.WF S20000x3 S20000x1 S20000x3 [1] [0] [] [0] [] 1 ![1, 3]
  gather_S20000x64_S20000x1_S20000x64_1_0_n_n_0_1_164_wf : GatherDims.WF S20000x64 S20000x1 S20000x64 [1] [0] [] [0] [] 1 ![1, 64]
  dot_S20000x129_S129x64_S20000x64_1_0_0_1_n_n_wf : DotDims.WF S20000x129 S129x64 S20000x64 [1] [0] [0] [1] [] []
  dot_S20000x64_S64x64_S20000x64_1_0_0_1_n_n_wf : DotDims.WF S20000x64 S64x64 S20000x64 [1] [0] [0] [1] [] []
  dot_S20000x4096_S4096x128_S20000x128_1_0_0_1_n_n_wf : DotDims.WF S20000x4096 S4096x128 S20000x128 [1] [0] [0] [1] [] []
  dot_S20000x128_S128x64_S20000x64_1_0_0_1_n_n_wf : DotDims.WF S20000x128 S128x64 S20000x64 [1] [0] [0] [1] [] []
  dot_S20000x64_S64x1_S20000x1_1_0_0_1_n_n_wf : DotDims.WF S20000x64 S64x1 S20000x1 [1] [0] [0] [1] [] []
  scatter_S20000x3_S20000x1_S20000x3_1_0_0_1_wf : ScatterDims.WF S20000x3 S20000x1 S20000x3 [1] [0] [0] 1
  scatter_S20000x64_S20000x1_S20000x64_1_0_0_1_wf : ScatterDims.WF S20000x64 S20000x1 S20000x64 [1] [0] [0] 1
  dot_S20000x131_S131x64_S20000x64_1_0_0_1_n_n_wf : DotDims.WF S20000x131 S131x64 S20000x64 [1] [0] [0] [1] [] []
  dot_S20000x64_S64x67_S20000x67_1_0_0_1_n_n_wf : DotDims.WF S20000x64 S64x67 S20000x67 [1] [0] [0] [1] [] []

variable [Facts₀]

def gather_S20000x3_S20000x1_S20000x3_1_0_n_n_0_1_13 : GatherDims S20000x3 S20000x1 S20000x3 where
  offsetDims := [1]
  collapsedSliceDims := [0]
  operandBatchingDims := []
  startIndicesBatchingDims := []
  startIndexMap := [0]
  indexVectorDim := 1
  sliceSizes := ![1, 3]
  wf := gather_S20000x3_S20000x1_S20000x3_1_0_n_n_0_1_13_wf
def gather_S20000x64_S20000x1_S20000x64_1_0_n_n_0_1_164 : GatherDims S20000x64 S20000x1 S20000x64 where
  offsetDims := [1]
  collapsedSliceDims := [0]
  operandBatchingDims := []
  startIndicesBatchingDims := []
  startIndexMap := [0]
  indexVectorDim := 1
  sliceSizes := ![1, 64]
  wf := gather_S20000x64_S20000x1_S20000x64_1_0_n_n_0_1_164_wf
def dot_S20000x129_S129x64_S20000x64_1_0_0_1_n_n : DotDims S20000x129 S129x64 S20000x64 where
  lhsContracting := [1]
  rhsContracting := [0]
  lhsNonContracting := [0]
  rhsNonContracting := [1]
  lhsBatch := []
  rhsBatch := []
  wf := dot_S20000x129_S129x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x4096_S4096x128_S20000x128_1_0_0_1_n_n : DotDims S20000x4096 S4096x128 S20000x128 where
  lhsContracting := [1]
  rhsContracting := [0]
  lhsNonContracting := [0]
  rhsNonContracting := [1]
  lhsBatch := []
  rhsBatch := []
  wf := dot_S20000x4096_S4096x128_S20000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def scatter_S20000x3_S20000x1_S20000x3_1_0_0_1 : ScatterDims S20000x3 S20000x1 S20000x3 where
  updateWindowDims := [1]
  insertedWindowDims := [0]
  scatterDimsToOperandDims := [0]
  indexVectorDim := 1
  wf := scatter_S20000x3_S20000x1_S20000x3_1_0_0_1_wf
def scatter_S20000x64_S20000x1_S20000x64_1_0_0_1 : ScatterDims S20000x64 S20000x1 S20000x64 where
  updateWindowDims := [1]
  insertedWindowDims := [0]
  scatterDimsToOperandDims := [0]
  indexVectorDim := 1
  wf := scatter_S20000x64_S20000x1_S20000x64_1_0_0_1_wf
def dot_S20000x131_S131x64_S20000x64_1_0_0_1_n_n : DotDims S20000x131 S131x64 S20000x64 where
  lhsContracting := [1]
  rhsContracting := [0]
  lhsNonContracting := [0]
  rhsNonContracting := [1]
  lhsBatch := []
  rhsBatch := []
  wf := dot_S20000x131_S131x64_S20000x64_1_0_0_1_n_n_wf
def dot_S20000x64_S64x67_S20000x67_1_0_0_1_n_n : DotDims S20000x64 S64x67 S20000x67 where
  lhsContracting := [1]
  rhsContracting := [0]
  lhsNonContracting := [0]
  rhsNonContracting := [1]
  lhsBatch := []
  rhsBatch := []
  wf := dot_S20000x64_S64x67_S20000x67_1_0_0_1_n_n_wf

class Facts : Prop extends Facts₀ where

variable [Facts]
-- ==== Proof.RefStage1.lean ====
/- The reference's first stretch (operations 0–44), read over any contents of the buffers: the source word of each edge,
   the coordinate difference and its squared length, and the two gathered feature rows, each as the stage function of the
   arguments the stretch reads. -/
import proofs.«417326_j2791728742861_3_alg».proof.Proof.RefRunH
import proofs.«417326_j2791728742861_3_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The edges' source words: the first row of the edge index, as a vector. -/
theorem s1_v1 (V : Valuation τ sig (Elt F)) (a2 : (⟨S2x20000, .i32⟩ : BufTy).Contents (Elt F))
    (hA2 : V (Proc.devRef .tc main_arg2) = a2) :
    after S1 V (Proc.devRef .tc main_v1) = val_main_v1 (F := F) a2 := by
  after_results_simp
  rw [hA2]
  rfl

/-- The coordinate differences x[row] − x[col]. -/
theorem s1_v18 (V : Valuation τ sig (Elt F)) (a1 : (⟨S20000x3, .f32⟩ : BufTy).Contents (Elt F)) (a2 : (⟨S2x20000, .i32⟩ : BufTy).Contents (Elt F))
    (hA1 : V (Proc.devRef .tc main_arg1) = a1) (hA2 : V (Proc.devRef .tc main_arg2) = a2) :
    after S1 V (Proc.devRef .tc main_v18) = val_main_v18 (F := F) a1 a2 := by
  after_results_simp
  rw [hA1, hA2]
  rfl

/-- Their squared lengths, as a column. -/
theorem s1_v21 (V : Valuation τ sig (Elt F)) (a1 : (⟨S20000x3, .f32⟩ : BufTy).Contents (Elt F)) (a2 : (⟨S2x20000, .i32⟩ : BufTy).Contents (Elt F))
    (hA1 : V (Proc.devRef .tc main_arg1) = a1) (hA2 : V (Proc.devRef .tc main_arg2) = a2) :
    after S1 V (Proc.devRef .tc main_v21) = val_main_v21 (F := F) a1 a2 := by
  after_results_simp
  rw [hA1, hA2]
  rfl

/-- The source nodes' feature rows h[row]. -/
theorem s1_v28 (V : Valuation τ sig (Elt F)) (a0 : (⟨S20000x64, .f32⟩ : BufTy).Contents (Elt F)) (a2 : (⟨S2x20000, .i32⟩ : BufTy).Contents (Elt F))
    (hA0 : V (Proc.devRef .tc main_arg0) = a0) (hA2 : V (Proc.devRef .tc main_arg2) = a2) :
    after S1 V (Proc.devRef .tc main_v28) = val_main_v28 (F := F) a0 a2 := by
  after_results_simp
  rw [hA0, hA2]
  rfl

/-- The target nodes' feature rows h[col]. -/
theorem s1_v35 (V : Valuation τ sig (Elt F)) (a0 : (⟨S20000x64, .f32⟩ : BufTy).Contents (Elt F)) (a2 : (⟨S2x20000, .i32⟩ : BufTy).Contents (Elt F))
    (hA0 : V (Proc.devRef .tc main_arg0) = a0) (hA2 : V (Proc.devRef .tc main_arg2) = a2) :
    after S1 V (Proc.devRef .tc main_v35) = val_main_v35 (F := F) a0 a2 := by
  after_results_simp
  rw [hA0, hA2]
  rfl

end Cert.ReferenceIdeal.Value

end
-- ==== Proof.RefStage2.lean ====
/-
  The second stretch of the reference: the edge network's input row (the two gathered feature rows beside the squared
  length) through its two layers, each an affine map followed by x · (1 / (1 + e^(-x))), up to the hidden row. Read over
  any contents that hold the three earlier stages and the four weight arrays where the stretch looks for them.
-/
import proofs.«417326_j2791728742861_3_alg».proof.Proof.RefRunH
import proofs.«417326_j2791728742861_3_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

set_option maxRecDepth 8192 in
set_option maxHeartbeats 1000000 in
/-- After the stretch the hidden row's buffer holds the hidden row of the gathered rows, the squared length and the
    two layers' weights. -/
theorem s2_v46 (V : Valuation τ sig (Elt F)) (a0 : (⟨S20000x64, .f32⟩ : BufTy).Contents (Elt F)) (a1 : (⟨S20000x3, .f32⟩ : BufTy).Contents (Elt F)) (a2 : (⟨S2x20000, .i32⟩ : BufTy).Contents (Elt F))
    (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F))
    (h21 : V (Proc.devRef .tc main_v21) = val_main_v21 (F := F) a1 a2)
    (h28 : V (Proc.devRef .tc main_v28) = val_main_v28 (F := F) a0 a2)
    (h35 : V (Proc.devRef .tc main_v35) = val_main_v35 (F := F) a0 a2)
    (h3 : V (Proc.devRef .tc main_arg3) = a3) (h4 : V (Proc.devRef .tc main_arg4) = a4)
    (h5 : V (Proc.devRef .tc main_arg5) = a5) (h6 : V (Proc.devRef .tc main_arg6) = a6) :
    after S2 V (Proc.devRef .tc main_v46) = val_main_v46 (F := F) a0 a1 a2 a3 a4 a5 a6 := by
  after_results_simp
  dsimp only [Matrix.cons_val]
  rw [h28, h35, h21, h3, h4, h5, h6]
  rfl

end Cert.ReferenceIdeal.Value

end
-- ==== Proof.RefStage3.lean ====
/-
  The third stretch of the reference program (the bilinear products, their contraction with the 4096 × 128 matrix,
  the bias and max(·, 0), the 128 × 64 layer and its bias), read over any valuation: given the hidden edge row and
  the four weight arrays in their buffers, the stretch leaves the message stage in the message buffer.
-/
import proofs.«417326_j2791728742861_3_alg».proof.Proof.RefRunH
import proofs.«417326_j2791728742861_3_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- After the third stretch the message buffer holds the message stage of the arguments, given the hidden row and the
    four weight arrays the stretch reads. -/
theorem s3_v63 (V : Valuation τ sig (Elt F)) (a0 : (⟨S20000x64, .f32⟩ : BufTy).Contents (Elt F)) (a1 : (⟨S20000x3, .f32⟩ : BufTy).Contents (Elt F)) (a2 : (⟨S2x20000, .i32⟩ : BufTy).Contents (Elt F)) (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F)) (a7 : (⟨S4096x128, .f32⟩ : BufTy).Contents (Elt F)) (a8 : (⟨S128, .f32⟩ : BufTy).Contents (Elt F)) (a9 : (⟨S128x64, .f32⟩ : BufTy).Contents (Elt F)) (a10 : (⟨S64, .f32⟩ : BufTy).Contents (Elt F))
    (h46 : V (Proc.devRef .tc main_v46) = val_main_v46 (F := F) a0 a1 a2 a3 a4 a5 a6)
    (h7 : V (Proc.devRef .tc main_arg7) = a7) (h8 : V (Proc.devRef .tc main_arg8) = a8)
    (h9 : V (Proc.devRef .tc main_arg9) = a9) (h10 : V (Proc.devRef .tc main_arg10) = a10) :
    after S3 V (Proc.devRef .tc main_v63) = val_main_v63 (F := F) a0 a1 a2 a3 a4 a5 a6 a7 a8 a9 a10 := by
  after_results_simp
  rw [h46, h7, h8, h9, h10]
  rfl

end Cert.ReferenceIdeal.Value

end
-- ==== Proof.RefStage45.lean ====
/-
  The reference program's fourth and fifth stretches of operations, read over any contents of the buffers.

  Stretch four is the coordinate network: an affine layer of the message, x · σ(x), a product with a 64 × 1 matrix,
  and the coordinate difference times the result (the shift). Stretch five sums the shifts and the constant one over
  the edges of each source node and moves the coordinates by the quotient. Each statement says: if the buffers the
  stretch reads hold the earlier stages, the buffer it ends at holds the next stage.
-/
import proofs.«417326_j2791728742861_3_alg».proof.Proof.RefRunH
import proofs.«417326_j2791728742861_3_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The fourth stretch (the coordinate network and the shift): from contents that hold the message, the coordinate
    difference and the coordinate network's three weights, it leaves the shift stage at the shift's buffer. -/
theorem s4_v71 (V : Valuation τ sig (Elt F))
    (a0 : (⟨S20000x64, .f32⟩ : BufTy).Contents (Elt F)) (a1 : (⟨S20000x3, .f32⟩ : BufTy).Contents (Elt F))
    (a2 : (⟨S2x20000, .i32⟩ : BufTy).Contents (Elt F)) (a3 : (⟨S129x64, .f32⟩ : BufTy).Contents (Elt F))
    (a4 : (⟨S64, .f32⟩ : BufTy).Contents (Elt F)) (a5 : (⟨S64x64, .f32⟩ : BufTy).Contents (Elt F))
    (a6 : (⟨S64, .f32⟩ : BufTy).Contents (Elt F)) (a7 : (⟨S4096x128, .f32⟩ : BufTy).Contents (Elt F))
    (a8 : (⟨S128, .f32⟩ : BufTy).Contents (Elt F)) (a9 : (⟨S128x64, .f32⟩ : BufTy).Contents (Elt F))
    (a10 : (⟨S64, .f32⟩ : BufTy).Contents (Elt F)) (a11 : (⟨S64x64, .f32⟩ : BufTy).Contents (Elt F))
    (a12 : (⟨S64, .f32⟩ : BufTy).Contents (Elt F)) (a13 : (⟨S64x1, .f32⟩ : BufTy).Contents (Elt F))
    (h63 : V (Proc.devRef .tc main_v63) = val_main_v63 (F := F) a0 a1 a2 a3 a4 a5 a6 a7 a8 a9 a10)
    (h18 : V (Proc.devRef .tc main_v18) = val_main_v18 (F := F) a1 a2)
    (h11 : V (Proc.devRef .tc main_arg11) = a11) (h12 : V (Proc.devRef .tc main_arg12) = a12)
    (h13 : V (Proc.devRef .tc main_arg13) = a13) :
    after S4 V (Proc.devRef .tc main_v71) = val_main_v71 (F := F) a0 a1 a2 a3 a4 a5 a6 a7 a8 a9 a10 a11 a12 a13 := by
  after_results_simp
  rw [h63, h18, h11, h12, h13]
  rfl

/-- The fifth stretch (the two segment sums and the new coordinates): from contents that hold the shift, the source
    indices and the coordinates, it leaves the new-coordinates stage at its buffer. -/
theorem s5_v82 (V : Valuation τ sig (Elt F))
    (a0 : (⟨S20000x64, .f32⟩ : BufTy).Contents (Elt F)) (a1 : (⟨S20000x3, .f32⟩ : BufTy).Contents (Elt F))
    (a2 : (⟨S2x20000, .i32⟩ : BufTy).Contents (Elt F)) (a3 : (⟨S129x64, .f32⟩ : BufTy).Contents (Elt F))
    (a4 : (⟨S64, .f32⟩ : BufTy).Contents (Elt F)) (a5 : (⟨S64x64, .f32⟩ : BufTy).Contents (Elt F))
    (a6 : (⟨S64, .f32⟩ : BufTy).Contents (Elt F)) (a7 : (⟨S4096x128, .f32⟩ : BufTy).Contents (Elt F))
    (a8 : (⟨S128, .f32⟩ : BufTy).Contents (Elt F)) (a9 : (⟨S128x64, .f32⟩ : BufTy).Contents (Elt F))
    (a10 : (⟨S64, .f32⟩ : BufTy).Contents (Elt F)) (a11 : (⟨S64x64, .f32⟩ : BufTy).Contents (Elt F))
    (a12 : (⟨S64, .f32⟩ : BufTy).Contents (Elt F)) (a13 : (⟨S64x1, .f32⟩ : BufTy).Contents (Elt F))
    (h71 : V (Proc.devRef .tc main_v71) = val_main_v71 (F := F) a0 a1 a2 a3 a4 a5 a6 a7 a8 a9 a10 a11 a12 a13)
    (h1 : V (Proc.devRef .tc main_v1) = val_main_v1 (F := F) a2)
    (hA1 : V (Proc.devRef .tc main_arg1) = a1) :
    after S5 V (Proc.devRef .tc main_v82) = val_main_v82 (F := F) a0 a1 a2 a3 a4 a5 a6 a7 a8 a9 a10 a11 a12 a13 := by
  after_results_simp
  rw [h71, h1, hA1]
  rfl

end Cert.ReferenceIdeal.Value

end
-- ==== Proof.RefStage67.lean ====
/- The reference's last two stretches of operations, read over any contents of the buffers they start from: the
   direction and the joined node input, then the summed messages and the node network. -/
import proofs.«417326_j2791728742861_3_alg».proof.Proof.RefRunH
import proofs.«417326_j2791728742861_3_alg».proof.Proof.RefRead

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The operations' results rewritten one at a time, where they stand inside a list of operands. -/
local macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- From the coordinate differences and the node features, the sixth stretch leaves the features joined with the unit
    directions. -/
theorem s6_v88 (V : Valuation τ sig (Elt F))
    (a0 : (⟨S20000x64, .f32⟩ : BufTy).Contents (Elt F)) (a1 : (⟨S20000x3, .f32⟩ : BufTy).Contents (Elt F)) (a2 : (⟨S2x20000, .i32⟩ : BufTy).Contents (Elt F))
    (h18 : V (Proc.devRef .tc main_v18) = val_main_v18 (F := F) a1 a2)
    (h0 : V (Proc.devRef .tc main_arg0) = a0) :
    after S6 V (Proc.devRef .tc main_v88) = val_main_v88 (F := F) a0 a1 a2 := by
  after_results
  rw [h18, h0]
  rfl

set_option maxRecDepth 8192 in
set_option maxHeartbeats 1000000 in
/-- From the row words, the messages, the joined node input and the node weights, the seventh stretch leaves the
    updated node features. -/
theorem s7_v102 (V : Valuation τ sig (Elt F))
    (a0 : (⟨S20000x64, .f32⟩ : BufTy).Contents (Elt F)) (a1 : (⟨S20000x3, .f32⟩ : BufTy).Contents (Elt F)) (a2 : (⟨S2x20000, .i32⟩ : BufTy).Contents (Elt F))
    (a3 : (⟨S129x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F))
    (a7 : (⟨S4096x128, .f32⟩ : BufTy).Contents (Elt F)) (a8 : (⟨S128, .f32⟩ : BufTy).Contents (Elt F)) (a9 : (⟨S128x64, .f32⟩ : BufTy).Contents (Elt F)) (a10 : (⟨S64, .f32⟩ : BufTy).Contents (Elt F))
    (a14 : (⟨S131x64, .f32⟩ : BufTy).Contents (Elt F)) (a15 : (⟨S64, .f32⟩ : BufTy).Contents (Elt F)) (a16 : (⟨S64x67, .f32⟩ : BufTy).Contents (Elt F)) (a17 : (⟨S67, .f32⟩ : BufTy).Contents (Elt F))
    (h1 : V (Proc.devRef .tc main_v1) = val_main_v1 (F := F) a2)
    (h63 : V (Proc.devRef .tc main_v63) = val_main_v63 (F := F) a0 a1 a2 a3 a4 a5 a6 a7 a8 a9 a10)
    (h88 : V (Proc.devRef .tc main_v88) = val_main_v88 (F := F) a0 a1 a2)
    (h14 : V (Proc.devRef .tc main_arg14) = a14) (h15 : V (Proc.devRef .tc main_arg15) = a15)
    (h16 : V (Proc.devRef .tc main_arg16) = a16) (h17 : V (Proc.devRef .tc main_arg17) = a17) :
    after S7 V (Proc.devRef .tc main_v102) = val_main_v102 (F := F) a0 a1 a2 a3 a4 a5 a6 a7 a8 a9 a10 a14 a15 a16 a17 := by
  after_results_simp
  results_rw
  rw [h1, h63, h88, h14, h15, h16, h17]
  rfl

end Cert.ReferenceIdeal.Value

end
-- ==== Proof.RefRunV.lean ====
/-
  The reference's run read back stretch by stretch: its 157 operations are cut where a value is used more than once
  (after the gathered rows, the hidden edge row, the message, the shift, the new coordinates, the row [features,
  direction]); each stretch is read over an arbitrary valuation of the buffers it starts from, and the stretches are
  chained from the launch memory. Every weakly fair execution therefore ends with the two results at the stage
  functions of the arguments, and the arguments unchanged.
-/
import proofs.«417326_j2791728742861_3_alg».proof.Proof.RefRunH
import proofs.«417326_j2791728742861_3_alg».proof.Proof.RefRead
import proofs.«417326_j2791728742861_3_alg».proof.Proof.RefStage1
import proofs.«417326_j2791728742861_3_alg».proof.Proof.RefStage2
import proofs.«417326_j2791728742861_3_alg».proof.Proof.RefStage3
import proofs.«417326_j2791728742861_3_alg».proof.Proof.RefStage45
import proofs.«417326_j2791728742861_3_alg».proof.Proof.RefStage67

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The buffers stretch 1 writes. -/
abbrev Wr1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_cst, main_v20, main_v21, main_c_3, main_v22, main_v23, main_c_4, main_v24, main_v25, main_v26, main_v27, main_v28, main_c_5, main_v29, main_v30, main_c_6, main_v31, main_v32, main_v33, main_v34, main_v35]
/-- The buffers stretch 2 writes. -/
abbrev Wr2 : List (Ref sig .tc) := [main_v36, main_v37, main_v38, main_v39, main_v40, main_call0_v0, main_call0_v1, main_call0_cst, main_call0_v2, main_call0_v3, main_call0_cst_0, main_call0_v4, main_call0_v5, main_v41, main_v42, main_v43, main_v44, main_v45, main_call1_v0, main_call1_v1, main_call1_cst, main_call1_v2, main_call1_v3, main_call1_cst_0, main_call1_v4, main_call1_v5, main_v46]
/-- The buffers stretch 3 writes. -/
abbrev Wr3 : List (Ref sig .tc) := [main_v47, main_cst_7, main_v48, main_v49, main_v50, main_v51, main_v52, main_v53, main_v54, main_v55, main_v56, main_v57, main_v58, main_call2_cst, main_call2_v0, main_v59, main_v60, main_v61, main_v62, main_v63]
/-- The buffers stretch 4 writes. -/
abbrev Wr4 : List (Ref sig .tc) := [main_v64, main_v65, main_v66, main_v67, main_call3_v0, main_call3_v1, main_call3_cst, main_call3_v2, main_call3_v3, main_call3_cst_0, main_call3_v4, main_call3_v5, main_v68, main_v69, main_v70, main_v71]
/-- The buffers stretch 5 writes. -/
abbrev Wr5 : List (Ref sig .tc) := [main_cst_8, main_v72, main_v73, main_v74, main_cst_9, main_v75, main_cst_10, main_v76, main_v77, main_v78, main_cst_11, main_v79, main_v80, main_v81, main_v82]
/-- The buffers stretch 6 writes. -/
abbrev Wr6 : List (Ref sig .tc) := [main_call4_v0, main_call4_cst, main_call4_v1, main_call4_v2, main_v83, main_cst_12, main_v84, main_v85, main_v86, main_v87, main_v88]
/-- The buffers stretch 7 writes. -/
abbrev Wr7 : List (Ref sig .tc) := [main_cst_13, main_v89, main_v90, main_v91, main_v92, main_v93, main_v94, main_v95, main_v96, main_call5_v0, main_call5_v1, main_call5_cst, main_call5_v2, main_call5_v3, main_call5_cst_0, main_call5_v4, main_call5_v5, main_v97, main_v98, main_v99, main_v100, main_v101, main_v102]

/-- Stretch 1 leaves every buffer it does not write as it was. -/
theorem keep1 (V : Valuation τ sig (Elt F)) (r : Ref sig .tc) (hr : r ∉ Wr1) :
    after (S1 (F := F)) V (Proc.devRef .tc r) = V (Proc.devRef .tc r) :=
  after_of_forall_not_mem (b := Proc.devRef .tc r) _ _ (List.forall_iff_forall_mem.mp (by
    simp only [S1, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 2 leaves every buffer it does not write as it was. -/
theorem keep2 (V : Valuation τ sig (Elt F)) (r : Ref sig .tc) (hr : r ∉ Wr2) :
    after (S2 (F := F)) V (Proc.devRef .tc r) = V (Proc.devRef .tc r) :=
  after_of_forall_not_mem (b := Proc.devRef .tc r) _ _ (List.forall_iff_forall_mem.mp (by
    simp only [S2, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 3 leaves every buffer it does not write as it was. -/
theorem keep3 (V : Valuation τ sig (Elt F)) (r : Ref sig .tc) (hr : r ∉ Wr3) :
    after (S3 (F := F)) V (Proc.devRef .tc r) = V (Proc.devRef .tc r) :=
  after_of_forall_not_mem (b := Proc.devRef .tc r) _ _ (List.forall_iff_forall_mem.mp (by
    simp only [S3, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 4 leaves every buffer it does not write as it was. -/
theorem keep4 (V : Valuation τ sig (Elt F)) (r : Ref sig .tc) (hr : r ∉ Wr4) :
    after (S4 (F := F)) V (Proc.devRef .tc r) = V (Proc.devRef .tc r) :=
  after_of_forall_not_mem (b := Proc.devRef .tc r) _ _ (List.forall_iff_forall_mem.mp (by
    simp only [S4, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 5 leaves every buffer it does not write as it was. -/
theorem keep5 (V : Valuation τ sig (Elt F)) (r : Ref sig .tc) (hr : r ∉ Wr5) :
    after (S5 (F := F)) V (Proc.devRef .tc r) = V (Proc.devRef .tc r) :=
  after_of_forall_not_mem (b := Proc.devRef .tc r) _ _ (List.forall_iff_forall_mem.mp (by
    simp only [S5, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 6 leaves every buffer it does not write as it was. -/
theorem keep6 (V : Valuation τ sig (Elt F)) (r : Ref sig .tc) (hr : r ∉ Wr6) :
    after (S6 (F := F)) V (Proc.devRef .tc r) = V (Proc.devRef .tc r) :=
  after_of_forall_not_mem (b := Proc.devRef .tc r) _ _ (List.forall_iff_forall_mem.mp (by
    simp only [S6, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

/-- Stretch 7 leaves every buffer it does not write as it was. -/
theorem keep7 (V : Valuation τ sig (Elt F)) (r : Ref sig .tc) (hr : r ∉ Wr7) :
    after (S7 (F := F)) V (Proc.devRef .tc r) = V (Proc.devRef .tc r) :=
  after_of_forall_not_mem (b := Proc.devRef .tc r) _ _ (List.forall_iff_forall_mem.mp (by
    simp only [S7, List.Forall, TRef.nullary, TRef.unary, TRef.binary, TRef.ternary, nullary_writes, unary_writes, binary_writes, ternary_writes, quaternary_writes,
      reshape_writes, binaryIndexed_writes, nary_writes, Finset.mem_singleton]
    repeat' apply And.intro
    all_goals exact devRef_ne_of_ne (fun e => hr (e ▸ by decide))))

variable (m : (ℓ : Loc nD τ sig) → Buf (Elt F) ℓ) (c : Dev nD)

/-- The valuations at the cuts. -/
abbrev Z0 : Valuation τ sig (Elt F) := launchContents m c
abbrev Z1 : Valuation τ sig (Elt F) := after S1 (Z0 m c)
abbrev Z2 : Valuation τ sig (Elt F) := after S2 (Z1 m c)
abbrev Z3 : Valuation τ sig (Elt F) := after S3 (Z2 m c)
abbrev Z4 : Valuation τ sig (Elt F) := after S4 (Z3 m c)
abbrev Z5 : Valuation τ sig (Elt F) := after S5 (Z4 m c)
abbrev Z6 : Valuation τ sig (Elt F) := after S6 (Z5 m c)
abbrev Z7 : Valuation τ sig (Elt F) := after S7 (Z6 m c)

/-- The whole fold is the last cut's valuation. -/
theorem after_ops : after (ops (F := F)) (launchContents m c) = Z7 m c := by
  rw [ops_split]; simp only [after_append]

/-- A buffer no stretch writes is at its launch contents at every cut. -/
theorem at1 (r : Ref sig .tc) (h1 : r ∉ Wr1) : Z1 m c (Proc.devRef .tc r) = m ((c.tc : Thread nD τ).loc r) := (keep1 _ r h1).trans rfl
theorem at2 (r : Ref sig .tc) (h1 : r ∉ Wr1) (h2 : r ∉ Wr2) : Z2 m c (Proc.devRef .tc r) = m ((c.tc : Thread nD τ).loc r) := (keep2 _ r h2).trans (at1 m c r h1)
theorem at3 (r : Ref sig .tc) (h1 : r ∉ Wr1) (h2 : r ∉ Wr2) (h3 : r ∉ Wr3) : Z3 m c (Proc.devRef .tc r) = m ((c.tc : Thread nD τ).loc r) := (keep3 _ r h3).trans (at2 m c r h1 h2)
theorem at4 (r : Ref sig .tc) (h1 : r ∉ Wr1) (h2 : r ∉ Wr2) (h3 : r ∉ Wr3) (h4 : r ∉ Wr4) : Z4 m c (Proc.devRef .tc r) = m ((c.tc : Thread nD τ).loc r) := (keep4 _ r h4).trans (at3 m c r h1 h2 h3)
theorem at5 (r : Ref sig .tc) (h1 : r ∉ Wr1) (h2 : r ∉ Wr2) (h3 : r ∉ Wr3) (h4 : r ∉ Wr4) (h5 : r ∉ Wr5) : Z5 m c (Proc.devRef .tc r) = m ((c.tc : Thread nD τ).loc r) := (keep5 _ r h5).trans (at4 m c r h1 h2 h3 h4)
theorem at6 (r : Ref sig .tc) (h1 : r ∉ Wr1) (h2 : r ∉ Wr2) (h3 : r ∉ Wr3) (h4 : r ∉ Wr4) (h5 : r ∉ Wr5) (h6 : r ∉ Wr6) : Z6 m c (Proc.devRef .tc r) = m ((c.tc : Thread nD τ).loc r) := (keep6 _ r h6).trans (at5 m c r h1 h2 h3 h4 h5)
theorem at7 (r : Ref sig .tc) (h1 : r ∉ Wr1) (h2 : r ∉ Wr2) (h3 : r ∉ Wr3) (h4 : r ∉ Wr4) (h5 : r ∉ Wr5) (h6 : r ∉ Wr6) (h7 : r ∉ Wr7) : Z7 m c (Proc.devRef .tc r) = m ((c.tc : Thread nD τ).loc r) := (keep7 _ r h7).trans (at6 m c r h1 h2 h3 h4 h5 h6)

/-! ## The stages at the cuts -/

theorem z1_v1 : Z1 m c (Proc.devRef .tc main_v1) = val_main_v1 (F := F) (m ((c.tc : Thread nD τ).loc main_arg2)) := s1_v1 _ _ rfl
theorem z1_v18 : Z1 m c (Proc.devRef .tc main_v18) = val_main_v18 (F := F) (m ((c.tc : Thread nD τ).loc main_arg1)) (m ((c.tc : Thread nD τ).loc main_arg2)) := s1_v18 _ _ _ rfl rfl
theorem z1_v21 : Z1 m c (Proc.devRef .tc main_v21) = val_main_v21 (F := F) (m ((c.tc : Thread nD τ).loc main_arg1)) (m ((c.tc : Thread nD τ).loc main_arg2)) := s1_v21 _ _ _ rfl rfl
theorem z1_v28 : Z1 m c (Proc.devRef .tc main_v28) = val_main_v28 (F := F) (m ((c.tc : Thread nD τ).loc main_arg0)) (m ((c.tc : Thread nD τ).loc main_arg2)) := s1_v28 _ _ _ rfl rfl
theorem z1_v35 : Z1 m c (Proc.devRef .tc main_v35) = val_main_v35 (F := F) (m ((c.tc : Thread nD τ).loc main_arg0)) (m ((c.tc : Thread nD τ).loc main_arg2)) := s1_v35 _ _ _ rfl rfl

theorem z2_v46 : Z2 m c (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  s2_v46 _ _ _ _ _ _ _ _ (z1_v21 m c) (z1_v28 m c) (z1_v35 m c) (at1 m c main_arg3 (by decide)) (at1 m c main_arg4 (by decide)) (at1 m c main_arg5 (by decide)) (at1 m c main_arg6 (by decide))
theorem z2_v1 : Z2 m c (Proc.devRef .tc main_v1) = val_main_v1 (F := F) (m ((c.tc : Thread nD τ).loc main_arg2)) := (keep2 _ main_v1 (by decide)).trans (z1_v1 m c)
theorem z2_v18 : Z2 m c (Proc.devRef .tc main_v18) = val_main_v18 (F := F) (m ((c.tc : Thread nD τ).loc main_arg1)) (m ((c.tc : Thread nD τ).loc main_arg2)) := (keep2 _ main_v18 (by decide)).trans (z1_v18 m c)

theorem z3_v63 : Z3 m c (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  s3_v63 _ _ _ _ _ _ _ _ _ _ _ _ (z2_v46 m c) (at2 m c main_arg7 (by decide) (by decide)) (at2 m c main_arg8 (by decide) (by decide)) (at2 m c main_arg9 (by decide) (by decide)) (at2 m c main_arg10 (by decide) (by decide))
theorem z3_v1 : Z3 m c (Proc.devRef .tc main_v1) = val_main_v1 (F := F) (m ((c.tc : Thread nD τ).loc main_arg2)) := (keep3 _ main_v1 (by decide)).trans (z2_v1 m c)
theorem z3_v18 : Z3 m c (Proc.devRef .tc main_v18) = val_main_v18 (F := F) (m ((c.tc : Thread nD τ).loc main_arg1)) (m ((c.tc : Thread nD τ).loc main_arg2)) := (keep3 _ main_v18 (by decide)).trans (z2_v18 m c)

theorem z4_v71 : Z4 m c (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  s4_v71 _ _ _ _ _ _ _ _ _ _ _ _ _ _ _ (z3_v63 m c) (z3_v18 m c) (at3 m c main_arg11 (by decide) (by decide) (by decide)) (at3 m c main_arg12 (by decide) (by decide) (by decide)) (at3 m c main_arg13 (by decide) (by decide) (by decide))
theorem z4_v1 : Z4 m c (Proc.devRef .tc main_v1) = val_main_v1 (F := F) (m ((c.tc : Thread nD τ).loc main_arg2)) := (keep4 _ main_v1 (by decide)).trans (z3_v1 m c)
theorem z4_v18 : Z4 m c (Proc.devRef .tc main_v18) = val_main_v18 (F := F) (m ((c.tc : Thread nD τ).loc main_arg1)) (m ((c.tc : Thread nD τ).loc main_arg2)) := (keep4 _ main_v18 (by decide)).trans (z3_v18 m c)
theorem z4_v63 : Z4 m c (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (keep4 _ main_v63 (by decide)).trans (z3_v63 m c)

theorem z5_v82 : Z5 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  s5_v82 _ _ _ _ _ _ _ _ _ _ _ _ _ _ _ (z4_v71 m c) (z4_v1 m c) (at4 m c main_arg1 (by decide) (by decide) (by decide) (by decide))
theorem z5_v1 : Z5 m c (Proc.devRef .tc main_v1) = val_main_v1 (F := F) (m ((c.tc : Thread nD τ).loc main_arg2)) := (keep5 _ main_v1 (by decide)).trans (z4_v1 m c)
theorem z5_v18 : Z5 m c (Proc.devRef .tc main_v18) = val_main_v18 (F := F) (m ((c.tc : Thread nD τ).loc main_arg1)) (m ((c.tc : Thread nD τ).loc main_arg2)) := (keep5 _ main_v18 (by decide)).trans (z4_v18 m c)
theorem z5_v63 : Z5 m c (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (keep5 _ main_v63 (by decide)).trans (z4_v63 m c)

theorem z6_v88 : Z6 m c (Proc.devRef .tc main_v88) = val_main_v88 (F := F) (m ((c.tc : Thread nD τ).loc main_arg0)) (m ((c.tc : Thread nD τ).loc main_arg1)) (m ((c.tc : Thread nD τ).loc main_arg2)) :=
  s6_v88 _ _ _ _ (z5_v18 m c) (at5 m c main_arg0 (by decide) (by decide) (by decide) (by decide) (by decide))
theorem z6_v1 : Z6 m c (Proc.devRef .tc main_v1) = val_main_v1 (F := F) (m ((c.tc : Thread nD τ).loc main_arg2)) := (keep6 _ main_v1 (by decide)).trans (z5_v1 m c)
theorem z6_v63 : Z6 m c (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := (keep6 _ main_v63 (by decide)).trans (z5_v63 m c)
theorem z6_v82 : Z6 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := (keep6 _ main_v82 (by decide)).trans (z5_v82 m c)

theorem z7_v102 : Z7 m c (Proc.devRef .tc main_v102) = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) (m ((c.tc : Thread nD τ).loc main_arg17)) :=
  s7_v102 _ _ _ _ _ _ _ _ _ _ _ _ _ _ _ _ (z6_v1 m c) (z6_v63 m c) (z6_v88 m c)
    (at6 m c main_arg14 (by decide) (by decide) (by decide) (by decide) (by decide) (by decide)) (at6 m c main_arg15 (by decide) (by decide) (by decide) (by decide) (by decide) (by decide))
    (at6 m c main_arg16 (by decide) (by decide) (by decide) (by decide) (by decide) (by decide)) (at6 m c main_arg17 (by decide) (by decide) (by decide) (by decide) (by decide) (by decide))
theorem z7_v82 : Z7 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := (keep7 _ main_v82 (by decide)).trans (z6_v82 m c)

/-- An argument array is never written. -/
theorem z7_arg (r : Ref sig .tc) (h1 : r ∉ Wr1) (h2 : r ∉ Wr2) (h3 : r ∉ Wr3) (h4 : r ∉ Wr4) (h5 : r ∉ Wr5) (h6 : r ∉ Wr6) (h7 : r ∉ Wr7) :
    after (ops (F := F)) (launchContents m c) (Proc.devRef .tc r) = m ((c.tc : Thread nD τ).loc r) := by
  rw [after_ops m c]; exact at7 m c r h1 h2 h3 h4 h5 h6 h7

variable (ρ : Dev nD → PrngReg)

/-- On every device, from any memory with zero counters: every weakly fair execution of the reference terminates with each
    result at its stage function of the arguments and the arguments unchanged. -/
theorem run : θ_run defs (onTc (τ := τ) (main (F := F))) ⟨m, fun _ => 0, ρ⟩ fun r => ∀ c : Dev nD,
      r.2.mem ((c.tc : Thread nD τ).loc main_v102) = val_main_v102 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v102).trans ((congrFun (after_ops m c) _).trans (z7_v102 m c)),
      (h c main_v82).trans ((congrFun (after_ops m c) _).trans (z7_v82 m c)),
      (h c main_arg0).trans (z7_arg m c main_arg0 (by decide) (by decide) (by decide) (by decide) (by decide) (by decide) (by decide)),
      (h c main_arg1).trans (z7_arg m c main_arg1 (by decide) (by decide) (by decide) (by decide) (by decide) (by decide) (by decide)),
      (h c main_arg2).trans (z7_arg m c main_arg2 (by decide) (by decide) (by decide) (by decide) (by decide) (by decide) (by decide)),
      (h c main_arg3).trans (z7_arg m c main_arg3 (by decide) (by decide) (by decide) (by decide) (by decide) (by decide) (by decide)),
      (h c main_arg4).trans (z7_arg m c main_arg4 (by decide) (by decide) (by decide) (by decide) (by decide) (by decide) (by decide)),
      (h c main_arg5).trans (z7_arg m c main_arg5 (by decide) (by decide) (by decide) (by decide) (by decide) (by decide) (by decide)),
      (h c main_arg6).trans (z7_arg m c main_arg6 (by decide) (by decide) (by decide) (by decide) (by decide) (by decide) (by decide)),
      (h c main_arg7).trans (z7_arg m c main_arg7 (by decide) (by decide) (by decide) (by decide) (by decide) (by decide) (by decide)),
      (h c main_arg8).trans (z7_arg m c main_arg8 (by decide) (by decide) (by decide) (by decide) (by decide) (by decide) (by decide)),
      (h c main_arg9).trans (z7_arg m c main_arg9 (by decide) (by decide) (by decide) (by decide) (by decide) (by decide) (by decide)),
      (h c main_arg10).trans (z7_arg m c main_arg10 (by decide) (by decide) (by decide) (by decide) (by decide) (by decide) (by decide)),
      (h c main_arg11).trans (z7_arg m c main_arg11 (by decide) (by decide) (by decide) (by decide) (by decide) (by decide) (by decide)),
      (h c main_arg12).trans (z7_arg m c main_arg12 (by decide) (by decide) (by decide) (by decide) (by decide) (by decide) (by decide)),
      (h c main_arg13).trans (z7_arg m c main_arg13 (by decide) (by decide) (by decide) (by decide) (by decide) (by decide) (by decide)),
      (h c main_arg14).trans (z7_arg m c main_arg14 (by decide) (by decide) (by decide) (by decide) (by decide) (by decide) (by decide)),
      (h c main_arg15).trans (z7_arg m c main_arg15 (by decide) (by decide) (by decide) (by decide) (by decide) (by decide) (by decide)),
      (h c main_arg16).trans (z7_arg m c main_arg16 (by decide) (by decide) (by decide) (by decide) (by decide) (by decide) (by decide)),
      (h c main_arg17).trans (z7_arg m c main_arg17 (by decide) (by decide) (by decide) (by decide) (by decide) (by decide) (by decide))⟩)
    (run_fold m ρ)

end Cert.ReferenceIdeal.Value

end
-- ==== Proof.Spec.lean ====
/-
  The message-passing layer, one edge and one node at a time, over the extended reals.

  An edge e carries the two feature rows h[row e], h[col e] (64 entries each) and the coordinate difference
  cd = x[row e] - x[col e] (3 entries). Its squared length is r = Σ_a cd_a². The edge network is
      u  = silu(W₂ᵀ silu(W₁ᵀ [h_row, h_col, r] + b₁) + b₂)                      (64 entries)
      m  = V₂ᵀ relu(T(u) + c₁) + c₂                                              (64 entries: the message)
  where T is the bilinear term (entry q is Σ_{i,j} 64·u_i·u_j·S[64 i + j, q]); it is kept abstract here
  (a field of the parameters) because the two programs spell it differently, and the law that joins the two
  spellings is proved below (`so3_scaled`, `so3_blocks`). The coordinate weight is
      w = Σ_k silu(U₁ᵀ m + d₁)_k · U₂[k],   the shift is cd·w,   the unit direction is cd / (√r + ε).
  A node n sums the messages, the shifts and the constant one over the edges whose source is n (`seg`), moves
  its coordinate by (Σ shift)/max(count, 1), and updates its features by a residual two-layer network of
  [h_n, direction_n, Σ message].
-/
import Idealize.ShloMosaic.PureOps.Ideal
import Idealize.ShloMosaic.Lib.ValueIdx

noncomputable section

open scoped BigOperators

namespace Cert.Spec

open Idealize.ShloMosaic Idealize.ShloMosaic.ValueIdx

/-- x · σ(x), σ the logistic function. -/
def silu (v : EReal) : EReal := v * Ideal.logistic v

/-- max(x, 0). -/
def relu (v : EReal) : EReal := max v 0

/-- An affine map of a row: entry j is Σ_k x_k W[k, j] + b_j. -/
def lin {K J : ℕ} (x : Fin K → EReal) (W : Fin K → Fin J → EReal) (b : Fin J → EReal) (j : Fin J) : EReal :=
  (∑ k : Fin K, x k * W k j) + b j

/-- The squared length of a coordinate difference. -/
def radial (cd : Fin 3 → EReal) : EReal := ∑ a : Fin 3, cd a * cd a

/-- The edge network's input row: the two feature rows, then the squared length. -/
def edgeIn (hr hc : Fin 64 → EReal) (cd : Fin 3 → EReal) (k : Fin 129) : EReal :=
  if h : k.val < 64 then hr ⟨k.val, h⟩
  else if h' : k.val < 128 then hc ⟨k.val - 64, by omega⟩
  else radial cd

/-- The edge network's parameters. `so3 u q` is the bilinear term of the row `u`, before its bias. -/
structure EdgeParams where
  We1 : Fin 129 → Fin 64 → EReal
  be1 : Fin 64 → EReal
  We2 : Fin 64 → Fin 64 → EReal
  be2 : Fin 64 → EReal
  so3 : (Fin 64 → EReal) → Fin 128 → EReal
  bs1 : Fin 128 → EReal
  Ws2 : Fin 128 → Fin 64 → EReal
  bs2 : Fin 64 → EReal
  Wc1 : Fin 64 → Fin 64 → EReal
  bc1 : Fin 64 → EReal
  Wc2 : Fin 64 → EReal

/-- The node network's parameters. -/
structure NodeParams where
  Wn1 : Fin 131 → Fin 64 → EReal
  bn1 : Fin 64 → EReal
  Wn2 : Fin 64 → Fin 67 → EReal
  bn2 : Fin 67 → EReal

/-- The hidden edge row u. -/
def eFeat (P : EdgeParams) (hr hc : Fin 64 → EReal) (cd : Fin 3 → EReal) (j : Fin 64) : EReal :=
  silu (lin (fun k => silu (lin (edgeIn hr hc cd) P.We1 P.be1 k)) P.We2 P.be2 j)

/-- The message m of an edge. -/
def edgeFeat (P : EdgeParams) (hr hc : Fin 64 → EReal) (cd : Fin 3 → EReal) (j : Fin 64) : EReal :=
  lin (fun q => relu (P.so3 (eFeat P hr hc cd) q + P.bs1 q)) P.Ws2 P.bs2 j

/-- The coordinate weight w of an edge. -/
def coordW (P : EdgeParams) (hr hc : Fin 64 → EReal) (cd : Fin 3 → EReal) : EReal :=
  ∑ k : Fin 64, silu (lin (edgeFeat P hr hc cd) P.Wc1 P.bc1 k) * P.Wc2 k

/-- The coordinate shift cd · w of an edge. -/
def trans (P : EdgeParams) (hr hc : Fin 64 → EReal) (cd : Fin 3 → EReal) (a : Fin 3) : EReal :=
  cd a * coordW P hr hc cd

/-- The ε of the direction's denominator, as the single-precision word both programs carry. -/
def eps : EReal := Ideal.ofBits .f32 0x322BCC77#32

/-- The constant one, as the single-precision word both programs carry. -/
def one : EReal := Ideal.ofBits .f32 0x3F800000#32

/-- The constant 64 of the bilinear term, as the single-precision word both programs carry. -/
def c64 : EReal := Ideal.ofBits .f32 0x42800000#32

/-- The unit direction cd / (√r + ε). -/
def rel (cd : Fin 3 → EReal) (a : Fin 3) : EReal := Ideal.div (cd a) (Ideal.sqrt (radial cd) + eps)

/-- The 128 columns one edge contributes: message, shift, one, direction, zeros. -/
def edgeOutRow (P : EdgeParams) (hr hc : Fin 64 → EReal) (cd : Fin 3 → EReal) (k : Fin 128) : EReal :=
  if h : k.val < 64 then edgeFeat P hr hc cd ⟨k.val, h⟩
  else if h1 : k.val < 67 then trans P hr hc cd ⟨k.val - 64, by omega⟩
  else if k.val = 67 then one
  else if h3 : k.val < 71 then rel cd ⟨k.val - 68, by omega⟩
  else 0

/-- The sum of f over the edges whose source word, read as a signed integer, is the node n. -/
def seg (row : Fin 20000 → BitVec 32) (f : Fin 20000 → EReal) (n : Fin 20000) : EReal :=
  ∑ e : Fin 20000, if (row e).toInt = (n.val : ℤ) then f e else 0

/-- A node's features followed by its direction. -/
def hPos (hn : Fin 64 → EReal) (rl : Fin 3 → EReal) (k : Fin 67) : EReal :=
  if h : k.val < 64 then hn ⟨k.val, h⟩ else rl ⟨k.val - 64, by omega⟩

/-- The node network's input row: features, direction, summed messages. -/
def nodeIn (hn : Fin 64 → EReal) (rl : Fin 3 → EReal) (ag : Fin 64 → EReal) (k : Fin 131) : EReal :=
  if h : k.val < 67 then hPos hn rl ⟨k.val, h⟩ else ag ⟨k.val - 67, by omega⟩

/-- The node update: the residual two-layer network. -/
def nodeOutRow (Q : NodeParams) (hn : Fin 64 → EReal) (rl : Fin 3 → EReal) (ag : Fin 64 → EReal) (k : Fin 67) : EReal :=
  hPos hn rl k + lin (fun q => silu (lin (nodeIn hn rl ag) Q.Wn1 Q.bn1 q)) Q.Wn2 Q.bn2 k

/-- The coordinate update: x_n + (Σ shift) / max(count, 1). -/
def coordOut (x num cnt : EReal) : EReal := x + Ideal.div num (max cnt one)

/-! ## The bilinear term, spelled two ways -/

/-- As the reference spells it: Σ_p (64 · u_{p / 64} · u_{p mod 64}) · S[p, q] over the 4096 pairs. -/
def so3Ref (S : Fin 4096 → Fin 128 → EReal) (u : Fin 64 → EReal) (q : Fin 128) : EReal :=
  ∑ p : Fin 4096, ((c64 * u ⟨p.val / 64, by have := p.isLt; omega⟩) * u ⟨p.val % 64, Nat.mod_lt _ (by norm_num)⟩) * S p q

/-- As the kernel spells it: the scale folded into the matrix, Σ_p (u_{p / 64} · u_{p mod 64}) · S'[p, q]. -/
def so3Scaled (S' : Fin 4096 → Fin 128 → EReal) (u : Fin 64 → EReal) (q : Fin 128) : EReal :=
  ∑ p : Fin 4096, (u ⟨p.val / 64, by have := p.isLt; omega⟩ * u ⟨p.val % 64, Nat.mod_lt _ (by norm_num)⟩) * S' p q

/-- Folding the scale into the matrix changes nothing: products of extended reals commute and associate. -/
theorem so3_scaled (S S' : Fin 4096 → Fin 128 → EReal) (h : ∀ p q, S' p q = S p q * c64) (u : Fin 64 → EReal)
    (q : Fin 128) : so3Scaled S' u q = so3Ref S u q := by
  unfold so3Scaled so3Ref
  refine Finset.sum_congr rfl fun p _ => ?_
  rw [h p q]
  simp only [mul_assoc, mul_comm, mul_left_comm]

end Cert.Spec

end
-- ==== Proof.Params.lean ====
/-
  The two programs' weight arrays as the parameters of the edge and node networks.

  The kernel receives its biases as 1×J arrays and its bilinear matrix already multiplied by 64; the reference
  receives the biases as vectors and the bilinear matrix as it is. Either way the networks are the ones of the
  specification; only the bilinear term is spelled differently (scaled matrix against scaled products).
-/
import proofs.«417326_j2791728742861_3_alg».proof.KernelIdeal
import proofs.«417326_j2791728742861_3_alg».proof.ReferenceIdeal
import proofs.«417326_j2791728742861_3_alg».proof.Proof.Spec

noncomputable section

namespace Cert.Params

open Idealize.ShloMosaic Idealize.ShloMosaic.ValueIdx

/-- The edge network's parameters as the kernel's first call receives them. -/
def edgeK (x3 : Vec Ideal Cert.KernelIdeal.S129x64 .bf16) (x4 : Vec Ideal Cert.KernelIdeal.S1x64 .f32)
    (x5 : Vec Ideal Cert.KernelIdeal.S64x64 .bf16) (x6 : Vec Ideal Cert.KernelIdeal.S1x64 .f32)
    (x7 : Vec Ideal Cert.KernelIdeal.S4096x128 .bf16) (x8 : Vec Ideal Cert.KernelIdeal.S1x128 .f32)
    (x9 : Vec Ideal Cert.KernelIdeal.S128x64 .bf16) (x10 : Vec Ideal Cert.KernelIdeal.S1x64 .f32)
    (x11 : Vec Ideal Cert.KernelIdeal.S64x64 .bf16) (x12 : Vec Ideal Cert.KernelIdeal.S1x64 .f32)
    (x13 : Vec Ideal Cert.KernelIdeal.S64x1 .bf16) : Cert.Spec.EdgeParams where
  We1 := fun k j => x3 (ix2 k j)
  be1 := fun j => x4 (ix2 0 j)
  We2 := fun k j => x5 (ix2 k j)
  be2 := fun j => x6 (ix2 0 j)
  so3 := Cert.Spec.so3Scaled fun p q => x7 (ix2 p q)
  bs1 := fun q => x8 (ix2 0 q)
  Ws2 := fun k j => x9 (ix2 k j)
  bs2 := fun j => x10 (ix2 0 j)
  Wc1 := fun k j => x11 (ix2 k j)
  bc1 := fun j => x12 (ix2 0 j)
  Wc2 := fun k => x13 (ix2 k 0)

/-- The node network's parameters as the kernel's third call receives them. -/
def nodeK (x3 : Vec Ideal Cert.KernelIdeal.S131x64 .bf16) (x4 : Vec Ideal Cert.KernelIdeal.S1x64 .f32)
    (x5 : Vec Ideal Cert.KernelIdeal.S64x67 .bf16) (x6 : Vec Ideal Cert.KernelIdeal.S1x67 .f32) : Cert.Spec.NodeParams where
  Wn1 := fun k j => x3 (ix2 k j)
  bn1 := fun j => x4 (ix2 0 j)
  Wn2 := fun k j => x5 (ix2 k j)
  bn2 := fun j => x6 (ix2 0 j)

/-- The edge network's parameters as the reference's arguments give them. -/
def edgeR (a3 : Vec Ideal Cert.ReferenceIdeal.S129x64 .f32) (a4 : Vec Ideal Cert.ReferenceIdeal.S64 .f32)
    (a5 : Vec Ideal Cert.ReferenceIdeal.S64x64 .f32) (a6 : Vec Ideal Cert.ReferenceIdeal.S64 .f32)
    (a7 : Vec Ideal Cert.ReferenceIdeal.S4096x128 .f32) (a8 : Vec Ideal Cert.ReferenceIdeal.S128 .f32)
    (a9 : Vec Ideal Cert.ReferenceIdeal.S128x64 .f32) (a10 : Vec Ideal Cert.ReferenceIdeal.S64 .f32)
    (a11 : Vec Ideal Cert.ReferenceIdeal.S64x64 .f32) (a12 : Vec Ideal Cert.ReferenceIdeal.S64 .f32)
    (a13 : Vec Ideal Cert.ReferenceIdeal.S64x1 .f32) : Cert.Spec.EdgeParams where
  We1 := fun k j => a3 (ix2 k j)
  be1 := fun j => a4 (ix1 j)
  We2 := fun k j => a5 (ix2 k j)
  be2 := fun j => a6 (ix1 j)
  so3 := Cert.Spec.so3Ref fun p q => a7 (ix2 p q)
  bs1 := fun q => a8 (ix1 q)
  Ws2 := fun k j => a9 (ix2 k j)
  bs2 := fun j => a10 (ix1 j)
  Wc1 := fun k j => a11 (ix2 k j)
  bc1 := fun j => a12 (ix1 j)
  Wc2 := fun k => a13 (ix2 k 0)

/-- The node network's parameters as the reference's arguments give them. -/
def nodeR (a14 : Vec Ideal Cert.ReferenceIdeal.S131x64 .f32) (a15 : Vec Ideal Cert.ReferenceIdeal.S64 .f32)
    (a16 : Vec Ideal Cert.ReferenceIdeal.S64x67 .f32) (a17 : Vec Ideal Cert.ReferenceIdeal.S67 .f32) : Cert.Spec.NodeParams where
  Wn1 := fun k j => a14 (ix2 k j)
  bn1 := fun j => a15 (ix1 j)
  Wn2 := fun k j => a16 (ix2 k j)
  bn2 := fun j => a17 (ix1 j)

end Cert.Params

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.EdgeMM.lean ====
/- Array operations of the edge network read at an entry: products of arrays as sums over the inner index, column and row broadcasts, a sixteen-fold concatenation along the columns, a block of rows of a taller array. -/
import proofs.«417326_j2791728742861_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

theorem lhs_dot_S1000x129_S129x64_S1000x64_1_0_0_1_n_n_0 (i : S1000x64.Idx) (q : dot_S1000x129_S129x64_S1000x64_1_0_0_1_n_n.contr.Idx) : (dot_S1000x129_S129x64_S1000x64_1_0_0_1_n_n.lhsIdx i q 0).val = (i 0).val := by
  unfold DotDims.lhsIdx
  rw [dif_neg (show ¬(0 : Fin S1000x129.rank) ∈ dot_S1000x129_S129x64_S1000x64_1_0_0_1_n_n.lhsBatch by decide), dif_pos (show (0 : Fin S1000x129.rank) ∈ dot_S1000x129_S129x64_S1000x64_1_0_0_1_n_n.lhsNonContracting by decide)]
  rfl
theorem lhs_dot_S1000x129_S129x64_S1000x64_1_0_0_1_n_n_1 (i : S1000x64.Idx) (q : dot_S1000x129_S129x64_S1000x64_1_0_0_1_n_n.contr.Idx) : (dot_S1000x129_S129x64_S1000x64_1_0_0_1_n_n.lhsIdx i q 1).val = (q ⟨0, by decide⟩).val :=
  dot_S1000x129_S129x64_S1000x64_1_0_0_1_n_n.lhsIdx_val_of_single rfl i q
theorem rhs_dot_S1000x129_S129x64_S1000x64_1_0_0_1_n_n_0 (i : S1000x64.Idx) (q : dot_S1000x129_S129x64_S1000x64_1_0_0_1_n_n.contr.Idx) : (dot_S1000x129_S129x64_S1000x64_1_0_0_1_n_n.rhsIdx i q 0).val = (q ⟨0, by decide⟩).val :=
  dot_S1000x129_S129x64_S1000x64_1_0_0_1_n_n.rhsIdx_val_of_single rfl i q
theorem rhs_dot_S1000x129_S129x64_S1000x64_1_0_0_1_n_n_1 (i : S1000x64.Idx) (q : dot_S1000x129_S129x64_S1000x64_1_0_0_1_n_n.contr.Idx) : (dot_S1000x129_S129x64_S1000x64_1_0_0_1_n_n.rhsIdx i q 1).val = (i 1).val := by
  unfold DotDims.rhsIdx
  rw [dif_neg (show ¬(1 : Fin S129x64.rank) ∈ dot_S1000x129_S129x64_S1000x64_1_0_0_1_n_n.rhsBatch by decide), dif_pos (show (1 : Fin S129x64.rank) ∈ dot_S1000x129_S129x64_S1000x64_1_0_0_1_n_n.rhsNonContracting by decide)]
  rfl
/-- A product of a 1000×129 by a 129×64 array accumulated from zero, at an entry: the sum over the inner index. -/
theorem mm_129_64 {φ₁ φ₂ : FTy} (lhs : FVec Ideal S1000x129 φ₁) (rhs : FVec Ideal S129x64 φ₂) (r : Fin 1000) (j : Fin 64) :
    matmul dot_S1000x129_S129x64_S1000x64_1_0_0_1_n_n none lhs rhs (constant (F := Ideal) S1000x64 .f32 0x00000000#32) (ix2 r j)
      = ∑ k : Fin 129, lhs (ix2 r k) * rhs (ix2 k j) := by
  simp only [matmul]
  rw [Ideal.matmul_constant_zero_apply, ← Equiv.sum_comp (contrEquiv1 dot_S1000x129_S129x64_S1000x64_1_0_0_1_n_n 129 rfl rfl).symm]
  refine Finset.sum_congr rfl fun k _ => ?_
  have hk := contrEquiv1_symm_val dot_S1000x129_S129x64_S1000x64_1_0_0_1_n_n 129 rfl rfl k
  have el : dot_S1000x129_S129x64_S1000x64_1_0_0_1_n_n.lhsIdx (ix2 r j) ((contrEquiv1 dot_S1000x129_S129x64_S1000x64_1_0_0_1_n_n 129 rfl rfl).symm k) = ix2 r k := funext fun a => Fin.ext (by
    match a with
    | ⟨0, _⟩ => exact lhs_dot_S1000x129_S129x64_S1000x64_1_0_0_1_n_n_0 _ _
    | ⟨1, _⟩ => exact (lhs_dot_S1000x129_S129x64_S1000x64_1_0_0_1_n_n_1 _ _).trans hk)
  have er : dot_S1000x129_S129x64_S1000x64_1_0_0_1_n_n.rhsIdx (ix2 r j) ((contrEquiv1 dot_S1000x129_S129x64_S1000x64_1_0_0_1_n_n 129 rfl rfl).symm k) = ix2 k j := funext fun a => Fin.ext (by
    match a with
    | ⟨0, _⟩ => exact (rhs_dot_S1000x129_S129x64_S1000x64_1_0_0_1_n_n_0 _ _).trans hk
    | ⟨1, _⟩ => exact rhs_dot_S1000x129_S129x64_S1000x64_1_0_0_1_n_n_1 _ _)
  rw [el, er]

theorem lhs_dot_S1000x64_S64x64_S1000x64_1_0_0_1_n_n_0 (i : S1000x64.Idx) (q : dot_S1000x64_S64x64_S1000x64_1_0_0_1_n_n.contr.Idx) : (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_dot_S1000x64_S64x64_S1000x64_1_0_0_1_n_n_1 (i : S1000x64.Idx) (q : dot_S1000x64_S64x64_S1000x64_1_0_0_1_n_n.contr.Idx) : (dot_S1000x64_S64x64_S1000x64_1_0_0_1_n_n.lhsIdx i q 1).val = (q ⟨0, by decide⟩).val :=
  dot_S1000x64_S64x64_S1000x64_1_0_0_1_n_n.lhsIdx_val_of_single rfl i q
theorem rhs_dot_S1000x64_S64x64_S1000x64_1_0_0_1_n_n_0 (i : S1000x64.Idx) (q : dot_S1000x64_S64x64_S1000x64_1_0_0_1_n_n.contr.Idx) : (dot_S1000x64_S64x64_S1000x64_1_0_0_1_n_n.rhsIdx i q 0).val = (q ⟨0, by decide⟩).val :=
  dot_S1000x64_S64x64_S1000x64_1_0_0_1_n_n.rhsIdx_val_of_single rfl i q
theorem rhs_dot_S1000x64_S64x64_S1000x64_1_0_0_1_n_n_1 (i : S1000x64.Idx) (q : dot_S1000x64_S64x64_S1000x64_1_0_0_1_n_n.contr.Idx) : (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl
/-- A product of a 1000×64 by a 64×64 array accumulated from zero, at an entry: the sum over the inner index. -/
theorem mm_64_64 {φ₁ φ₂ : FTy} (lhs : FVec Ideal S1000x64 φ₁) (rhs : FVec Ideal S64x64 φ₂) (r : Fin 1000) (j : Fin 64) :
    matmul dot_S1000x64_S64x64_S1000x64_1_0_0_1_n_n none lhs rhs (constant (F := Ideal) S1000x64 .f32 0x00000000#32) (ix2 r j)
      = ∑ k : Fin 64, lhs (ix2 r k) * rhs (ix2 k j) := by
  simp only [matmul]
  rw [Ideal.matmul_constant_zero_apply, ← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 r j) ((contrEquiv1 dot_S1000x64_S64x64_S1000x64_1_0_0_1_n_n 64 rfl rfl).symm k) = ix2 r k := funext fun a => Fin.ext (by
    match a with
    | ⟨0, _⟩ => exact lhs_dot_S1000x64_S64x64_S1000x64_1_0_0_1_n_n_0 _ _
    | ⟨1, _⟩ => exact (lhs_dot_S1000x64_S64x64_S1000x64_1_0_0_1_n_n_1 _ _).trans hk)
  have er : dot_S1000x64_S64x64_S1000x64_1_0_0_1_n_n.rhsIdx (ix2 r j) ((contrEquiv1 dot_S1000x64_S64x64_S1000x64_1_0_0_1_n_n 64 rfl rfl).symm k) = ix2 k j := funext fun a => Fin.ext (by
    match a with
    | ⟨0, _⟩ => exact (rhs_dot_S1000x64_S64x64_S1000x64_1_0_0_1_n_n_0 _ _).trans hk
    | ⟨1, _⟩ => exact rhs_dot_S1000x64_S64x64_S1000x64_1_0_0_1_n_n_1 _ _)
  rw [el, er]

theorem lhs_dot_S1000x1024_S1024x128_S1000x128_1_0_0_1_n_n_0 (i : S1000x128.Idx) (q : dot_S1000x1024_S1024x128_S1000x128_1_0_0_1_n_n.contr.Idx) : (dot_S1000x1024_S1024x128_S1000x128_1_0_0_1_n_n.lhsIdx i q 0).val = (i 0).val := by
  unfold DotDims.lhsIdx
  rw [dif_neg (show ¬(0 : Fin S1000x1024.rank) ∈ dot_S1000x1024_S1024x128_S1000x128_1_0_0_1_n_n.lhsBatch by decide), dif_pos (show (0 : Fin S1000x1024.rank) ∈ dot_S1000x1024_S1024x128_S1000x128_1_0_0_1_n_n.lhsNonContracting by decide)]
  rfl
theorem lhs_dot_S1000x1024_S1024x128_S1000x128_1_0_0_1_n_n_1 (i : S1000x128.Idx) (q : dot_S1000x1024_S1024x128_S1000x128_1_0_0_1_n_n.contr.Idx) : (dot_S1000x1024_S1024x128_S1000x128_1_0_0_1_n_n.lhsIdx i q 1).val = (q ⟨0, by decide⟩).val :=
  dot_S1000x1024_S1024x128_S1000x128_1_0_0_1_n_n.lhsIdx_val_of_single rfl i q
theorem rhs_dot_S1000x1024_S1024x128_S1000x128_1_0_0_1_n_n_0 (i : S1000x128.Idx) (q : dot_S1000x1024_S1024x128_S1000x128_1_0_0_1_n_n.contr.Idx) : (dot_S1000x1024_S1024x128_S1000x128_1_0_0_1_n_n.rhsIdx i q 0).val = (q ⟨0, by decide⟩).val :=
  dot_S1000x1024_S1024x128_S1000x128_1_0_0_1_n_n.rhsIdx_val_of_single rfl i q
theorem rhs_dot_S1000x1024_S1024x128_S1000x128_1_0_0_1_n_n_1 (i : S1000x128.Idx) (q : dot_S1000x1024_S1024x128_S1000x128_1_0_0_1_n_n.contr.Idx) : (dot_S1000x1024_S1024x128_S1000x128_1_0_0_1_n_n.rhsIdx i q 1).val = (i 1).val := by
  unfold DotDims.rhsIdx
  rw [dif_neg (show ¬(1 : Fin S1024x128.rank) ∈ dot_S1000x1024_S1024x128_S1000x128_1_0_0_1_n_n.rhsBatch by decide), dif_pos (show (1 : Fin S1024x128.rank) ∈ dot_S1000x1024_S1024x128_S1000x128_1_0_0_1_n_n.rhsNonContracting by decide)]
  rfl
/-- A product of a 1000×1024 by a 1024×128 array accumulated from zero, at an entry: the sum over the inner index. -/
theorem mm_1024_128 {φ₁ φ₂ : FTy} (lhs : FVec Ideal S1000x1024 φ₁) (rhs : FVec Ideal S1024x128 φ₂) (r : Fin 1000) (j : Fin 128) :
    matmul dot_S1000x1024_S1024x128_S1000x128_1_0_0_1_n_n none lhs rhs (constant (F := Ideal) S1000x128 .f32 0x00000000#32) (ix2 r j)
      = ∑ k : Fin 1024, lhs (ix2 r k) * rhs (ix2 k j) := by
  simp only [matmul]
  rw [Ideal.matmul_constant_zero_apply, ← Equiv.sum_comp (contrEquiv1 dot_S1000x1024_S1024x128_S1000x128_1_0_0_1_n_n 1024 rfl rfl).symm]
  refine Finset.sum_congr rfl fun k _ => ?_
  have hk := contrEquiv1_symm_val dot_S1000x1024_S1024x128_S1000x128_1_0_0_1_n_n 1024 rfl rfl k
  have el : dot_S1000x1024_S1024x128_S1000x128_1_0_0_1_n_n.lhsIdx (ix2 r j) ((contrEquiv1 dot_S1000x1024_S1024x128_S1000x128_1_0_0_1_n_n 1024 rfl rfl).symm k) = ix2 r k := funext fun a => Fin.ext (by
    match a with
    | ⟨0, _⟩ => exact lhs_dot_S1000x1024_S1024x128_S1000x128_1_0_0_1_n_n_0 _ _
    | ⟨1, _⟩ => exact (lhs_dot_S1000x1024_S1024x128_S1000x128_1_0_0_1_n_n_1 _ _).trans hk)
  have er : dot_S1000x1024_S1024x128_S1000x128_1_0_0_1_n_n.rhsIdx (ix2 r j) ((contrEquiv1 dot_S1000x1024_S1024x128_S1000x128_1_0_0_1_n_n 1024 rfl rfl).symm k) = ix2 k j := funext fun a => Fin.ext (by
    match a with
    | ⟨0, _⟩ => exact (rhs_dot_S1000x1024_S1024x128_S1000x128_1_0_0_1_n_n_0 _ _).trans hk
    | ⟨1, _⟩ => exact rhs_dot_S1000x1024_S1024x128_S1000x128_1_0_0_1_n_n_1 _ _)
  rw [el, er]

theorem lhs_dot_S1000x128_S128x64_S1000x64_1_0_0_1_n_n_0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_dot_S1000x128_S128x64_S1000x64_1_0_0_1_n_n_1 (i : S1000x64.Idx) (q : dot_S1000x128_S128x64_S1000x64_1_0_0_1_n_n.contr.Idx) : (dot_S1000x128_S128x64_S1000x64_1_0_0_1_n_n.lhsIdx i q 1).val = (q ⟨0, by decide⟩).val :=
  dot_S1000x128_S128x64_S1000x64_1_0_0_1_n_n.lhsIdx_val_of_single rfl i q
theorem rhs_dot_S1000x128_S128x64_S1000x64_1_0_0_1_n_n_0 (i : S1000x64.Idx) (q : dot_S1000x128_S128x64_S1000x64_1_0_0_1_n_n.contr.Idx) : (dot_S1000x128_S128x64_S1000x64_1_0_0_1_n_n.rhsIdx i q 0).val = (q ⟨0, by decide⟩).val :=
  dot_S1000x128_S128x64_S1000x64_1_0_0_1_n_n.rhsIdx_val_of_single rfl i q
theorem rhs_dot_S1000x128_S128x64_S1000x64_1_0_0_1_n_n_1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl
/-- A product of a 1000×128 by a 128×64 array accumulated from zero, at an entry: the sum over the inner index. -/
theorem mm_128_64 {φ₁ φ₂ : FTy} (lhs : FVec Ideal S1000x128 φ₁) (rhs : FVec Ideal S128x64 φ₂) (r : Fin 1000) (j : Fin 64) :
    matmul dot_S1000x128_S128x64_S1000x64_1_0_0_1_n_n none lhs rhs (constant (F := Ideal) S1000x64 .f32 0x00000000#32) (ix2 r j)
      = ∑ k : Fin 128, lhs (ix2 r k) * rhs (ix2 k j) := by
  simp only [matmul]
  rw [Ideal.matmul_constant_zero_apply, ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 r j) ((contrEquiv1 dot_S1000x128_S128x64_S1000x64_1_0_0_1_n_n 128 rfl rfl).symm k) = ix2 r k := funext fun a => Fin.ext (by
    match a with
    | ⟨0, _⟩ => exact lhs_dot_S1000x128_S128x64_S1000x64_1_0_0_1_n_n_0 _ _
    | ⟨1, _⟩ => exact (lhs_dot_S1000x128_S128x64_S1000x64_1_0_0_1_n_n_1 _ _).trans hk)
  have er : dot_S1000x128_S128x64_S1000x64_1_0_0_1_n_n.rhsIdx (ix2 r j) ((contrEquiv1 dot_S1000x128_S128x64_S1000x64_1_0_0_1_n_n 128 rfl rfl).symm k) = ix2 k j := funext fun a => Fin.ext (by
    match a with
    | ⟨0, _⟩ => exact (rhs_dot_S1000x128_S128x64_S1000x64_1_0_0_1_n_n_0 _ _).trans hk
    | ⟨1, _⟩ => exact rhs_dot_S1000x128_S128x64_S1000x64_1_0_0_1_n_n_1 _ _)
  rw [el, er]

theorem lhs_dot_S1000x64_S64x1_S1000x1_1_0_0_1_n_n_0 (i : S1000x1.Idx) (q : dot_S1000x64_S64x1_S1000x1_1_0_0_1_n_n.contr.Idx) : (dot_S1000x64_S64x1_S1000x1_1_0_0_1_n_n.lhsIdx i q 0).val = (i 0).val := by
  unfold DotDims.lhsIdx
  rw [dif_neg (show ¬(0 : Fin S1000x64.rank) ∈ dot_S1000x64_S64x1_S1000x1_1_0_0_1_n_n.lhsBatch by decide), dif_pos (show (0 : Fin S1000x64.rank) ∈ dot_S1000x64_S64x1_S1000x1_1_0_0_1_n_n.lhsNonContracting by decide)]
  rfl
theorem lhs_dot_S1000x64_S64x1_S1000x1_1_0_0_1_n_n_1 (i : S1000x1.Idx) (q : dot_S1000x64_S64x1_S1000x1_1_0_0_1_n_n.contr.Idx) : (dot_S1000x64_S64x1_S1000x1_1_0_0_1_n_n.lhsIdx i q 1).val = (q ⟨0, by decide⟩).val :=
  dot_S1000x64_S64x1_S1000x1_1_0_0_1_n_n.lhsIdx_val_of_single rfl i q
theorem rhs_dot_S1000x64_S64x1_S1000x1_1_0_0_1_n_n_0 (i : S1000x1.Idx) (q : dot_S1000x64_S64x1_S1000x1_1_0_0_1_n_n.contr.Idx) : (dot_S1000x64_S64x1_S1000x1_1_0_0_1_n_n.rhsIdx i q 0).val = (q ⟨0, by decide⟩).val :=
  dot_S1000x64_S64x1_S1000x1_1_0_0_1_n_n.rhsIdx_val_of_single rfl i q
theorem rhs_dot_S1000x64_S64x1_S1000x1_1_0_0_1_n_n_1 (i : S1000x1.Idx) (q : dot_S1000x64_S64x1_S1000x1_1_0_0_1_n_n.contr.Idx) : (dot_S1000x64_S64x1_S1000x1_1_0_0_1_n_n.rhsIdx i q 1).val = (i 1).val := by
  unfold DotDims.rhsIdx
  rw [dif_neg (show ¬(1 : Fin S64x1.rank) ∈ dot_S1000x64_S64x1_S1000x1_1_0_0_1_n_n.rhsBatch by decide), dif_pos (show (1 : Fin S64x1.rank) ∈ dot_S1000x64_S64x1_S1000x1_1_0_0_1_n_n.rhsNonContracting by decide)]
  rfl
/-- A product of a 1000×64 by a 64×1 array accumulated from zero, at an entry: the sum over the inner index. -/
theorem mm_64_1 {φ₁ φ₂ : FTy} (lhs : FVec Ideal S1000x64 φ₁) (rhs : FVec Ideal S64x1 φ₂) (r : Fin 1000) (j : Fin 1) :
    matmul dot_S1000x64_S64x1_S1000x1_1_0_0_1_n_n none lhs rhs (constant (F := Ideal) S1000x1 .f32 0x00000000#32) (ix2 r j)
      = ∑ k : Fin 64, lhs (ix2 r k) * rhs (ix2 k j) := by
  simp only [matmul]
  rw [Ideal.matmul_constant_zero_apply, ← Equiv.sum_comp (contrEquiv1 dot_S1000x64_S64x1_S1000x1_1_0_0_1_n_n 64 rfl rfl).symm]
  refine Finset.sum_congr rfl fun k _ => ?_
  have hk := contrEquiv1_symm_val dot_S1000x64_S64x1_S1000x1_1_0_0_1_n_n 64 rfl rfl k
  have el : dot_S1000x64_S64x1_S1000x1_1_0_0_1_n_n.lhsIdx (ix2 r j) ((contrEquiv1 dot_S1000x64_S64x1_S1000x1_1_0_0_1_n_n 64 rfl rfl).symm k) = ix2 r k := funext fun a => Fin.ext (by
    match a with
    | ⟨0, _⟩ => exact lhs_dot_S1000x64_S64x1_S1000x1_1_0_0_1_n_n_0 _ _
    | ⟨1, _⟩ => exact (lhs_dot_S1000x64_S64x1_S1000x1_1_0_0_1_n_n_1 _ _).trans hk)
  have er : dot_S1000x64_S64x1_S1000x1_1_0_0_1_n_n.rhsIdx (ix2 r j) ((contrEquiv1 dot_S1000x64_S64x1_S1000x1_1_0_0_1_n_n 64 rfl rfl).symm k) = ix2 k j := funext fun a => Fin.ext (by
    match a with
    | ⟨0, _⟩ => exact (rhs_dot_S1000x64_S64x1_S1000x1_1_0_0_1_n_n_0 _ _).trans hk
    | ⟨1, _⟩ => exact rhs_dot_S1000x64_S64x1_S1000x1_1_0_0_1_n_n_1 _ _)
  rw [el, er]

/-- Column J of a 1000×64 array repeated along 64 columns. -/
theorem colB (v : FVec Ideal S1000x64 .f32) (off : Fin S1000x64.rank → ℕ) (h : S1000x64.Slices off S1000x1) (J : Fin 64)
    (h0 : off 0 = 0) (h1 : off 1 = J.val) (r : Fin 1000) (t : Fin 64) :
    broadcastTo S1000x64 (shapeCast S1000x1 (extractStridedSlice S1000x1 off v h) shapeCasts_S1000x1_S1000x1) broadcasts_S1000x1_S1000x64 (ix2 r t)
      = v (ix2 r J) := by
  rw [shapeCast_self]
  refine (broadcastTo_apply _ broadcasts_S1000x1_S1000x64 (ix2 r t) (ix2 r (0 : Fin 1)) (fun a => ?_)).trans ?_
  · match a with
    | ⟨0, _⟩ => show r.val = if (1000 : ℕ) = 1 then 0 else r.val; rw [if_neg (by decide)]
    | ⟨1, _⟩ => rfl
  · exact extractStridedSlice_apply off v h (ix2 r (0 : Fin 1)) (ix2 r J) (fun a => by
      match a with
      | ⟨0, _⟩ => show r.val = off 0 + r.val; rw [h0, Nat.zero_add]
      | ⟨1, _⟩ => show J.val = off 1 + 0; rw [h1, Nat.add_zero])

/-- The column slice alone: entry (r, 0) is entry (r, J). -/
theorem colS (v : FVec Ideal S1000x64 .f32) (off : Fin S1000x64.rank → ℕ) (h : S1000x64.Slices off S1000x1) (J : Fin 64)
    (h0 : off 0 = 0) (h1 : off 1 = J.val) (r : Fin 1000) (z : Fin 1) :
    extractStridedSlice S1000x1 off v h (ix2 r z) = v (ix2 r J) :=
  extractStridedSlice_apply off v h (ix2 r z) (ix2 r J) (fun a => by
    match a with
    | ⟨0, _⟩ => show r.val = off 0 + r.val; rw [h0, Nat.zero_add]
    | ⟨1, _⟩ => show J.val = off 1 + z.val; rw [h1]; omega)

/-- A 1000×1 column repeated along 64 columns. -/
theorem colB1 (w : FVec Ideal S1000x1 .f32) (r : Fin 1000) (t : Fin 64) :
    broadcastTo S1000x64 w broadcasts_S1000x1_S1000x64 (ix2 r t) = w (ix2 r (0 : Fin 1)) :=
  broadcastTo_apply _ broadcasts_S1000x1_S1000x64 (ix2 r t) (ix2 r (0 : Fin 1)) (fun a => by
    match a with
    | ⟨0, _⟩ => show r.val = if (1000 : ℕ) = 1 then 0 else r.val; rw [if_neg (by decide)]
    | ⟨1, _⟩ => rfl)

/-- Sixteen 1000×64 arrays side by side: column p lies in array p / 64 at its column p % 64. -/
theorem concat16_apply (f : Fin 16 → FVec Ideal S1000x64 .f32)
    (h : Shape.Concatenates [S1000x64, S1000x64, S1000x64, S1000x64, S1000x64, S1000x64, S1000x64, S1000x64, S1000x64, S1000x64, S1000x64, S1000x64, S1000x64, S1000x64, S1000x64, S1000x64] S1000x1024 1)
    (r : Fin 1000) (p : Fin 1024) :
    concatenate S1000x1024 1 [⟨S1000x64, f 0⟩, ⟨S1000x64, f 1⟩, ⟨S1000x64, f 2⟩, ⟨S1000x64, f 3⟩, ⟨S1000x64, f 4⟩, ⟨S1000x64, f 5⟩, ⟨S1000x64, f 6⟩, ⟨S1000x64, f 7⟩, ⟨S1000x64, f 8⟩, ⟨S1000x64, f 9⟩, ⟨S1000x64, f 10⟩, ⟨S1000x64, f 11⟩, ⟨S1000x64, f 12⟩, ⟨S1000x64, f 13⟩, ⟨S1000x64, f 14⟩, ⟨S1000x64, f 15⟩] h (ix2 r p)
      = f ⟨p.val / 64, by have := p.isLt; omega⟩ (ix2 r ⟨p.val % 64, Nat.mod_lt _ (by norm_num)⟩) := by
  exact concatenate_ofFn_apply (t := S1000x1024) (s₁ := S1000x64) 1 f h rfl 64 rfl (ix2 r p) ⟨p.val / 64, by have := p.isLt; omega⟩ rfl
    (ix2 r ⟨p.val % 64, Nat.mod_lt _ (by norm_num)⟩) rfl (fun b hb => by
      match b with
      | ⟨0, _⟩ => rfl
      | ⟨1, _⟩ => exact absurd rfl hb)

/-- A 1×64 row repeated along 1000 rows. -/
theorem rowB64 (b : Vec Ideal S1x64 .f32) (r : Fin 1000) (j : Fin 64) :
    broadcastTo S1000x64 (shapeCast S1x64 b shapeCasts_S1x64_S1x64) broadcasts_S1x64_S1000x64 (ix2 r j) = b (ix2 (0 : Fin 1) j) := by
  rw [shapeCast_self]; exact broadcastTo_1b_ab_apply b broadcasts_S1x64_S1000x64 r j

/-- A 1×128 row repeated along 1000 rows. -/
theorem rowB128 (b : Vec Ideal S1x128 .f32) (r : Fin 1000) (j : Fin 128) :
    broadcastTo S1000x128 (shapeCast S1x128 b shapeCasts_S1x128_S1x128) broadcasts_S1x128_S1000x128 (ix2 r j) = b (ix2 (0 : Fin 1) j) := by
  rw [shapeCast_self]; exact broadcastTo_1b_ab_apply b broadcasts_S1x128_S1000x128 r j

/-- A 1000×1 column repeated along 3 columns. -/
theorem colB3 (w : FVec Ideal S1000x1 .f32) (r : Fin 1000) (a : Fin 3) :
    broadcastTo S1000x3 w broadcasts_S1000x1_S1000x3 (ix2 r a) = w (ix2 r (0 : Fin 1)) :=
  broadcastTo_apply _ broadcasts_S1000x1_S1000x3 (ix2 r a) (ix2 r (0 : Fin 1)) (fun b => by
    match b with
    | ⟨0, _⟩ => show r.val = if (1000 : ℕ) = 1 then 0 else r.val; rw [if_neg (by decide)]
    | ⟨1, _⟩ => rfl)

/-- Rows o … o + 1023 of the 4096×128 array: entry (p, q) of the block is entry (o + p, q) of the array. -/
theorem ldRows (x7 : Vec Ideal S4096x128 .bf16) (off : Fin S4096x128.rank → ℕ) (inb : ∀ a, off a + S1024x128.size a ≤ S4096x128.size a)
    (o : ℕ) (h0 : off 0 = o) (h1 : off 1 = 0) (p : Fin 1024) (q : Fin 128) (pp : Fin 4096) (hP : pp.val = o + p.val) :
    View.ld x7 (Rect.unit (s := S4096x128) off S1024x128.size inb) (ix2 p q) = x7 (ix2 pp q) := by
  show x7 _ = x7 _
  congr 1
  funext a
  apply Fin.ext
  match a with
  | ⟨0, _⟩ => show off 0 + 1 * p.val = pp.val; omega
  | ⟨1, _⟩ => show off 1 + 1 * q.val = q.val; omega

end Cert.KV

end
-- ==== Proof.EdgeU.lean ====
/- The hidden edge row: the squared length of a coordinate difference, the concatenated input row, and two affine layers each followed by x · σ(x). -/
import proofs.«417326_j2791728742861_3_alg».proof.Proof.EdgeMM
import proofs.«417326_j2791728742861_3_alg».proof.Proof.Spec
import proofs.«417326_j2791728742861_3_alg».proof.Proof.Params

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

/-- The squared length of row r of a 1000×3 array: the sum over its three columns of the squares, placed in a 1000×1 column. -/
theorem pay3_apply (x2 : Vec Ideal S1000x3 .f32) (r : Fin 1000) (z : Fin 1) :
    k0_pay3 (F := Ideal) x2 (ix2 r z) = Cert.Spec.radial (fun a => x2 (ix2 r a)) := by
  unfold k0_pay3 k0_pay2
  refine (shapeCast_apply _ shapeCasts_S1000_S1000x1 (ix2 r z) (ix1 r) ?_).trans ?_
  · rw [Shape.rowMajor_val_one, Shape.rowMajor_val_two]
    show r.val = r.val * 1 + z.val
    omega
  · refine (Ideal.multiReduction_add_single _ 0x00000000#32 reduces_S1000x3_S1000 _ _ (ix1 r)).trans ?_
    rw [shapeCast_self]
    unfold Cert.Spec.radial
    refine Finset.sum_congr rfl fun (k : Fin 3) _ => ?_
    have e : reduces_S1000x3_S1000.lift (ix1 r) k = ix2 r k := funext fun a => Fin.ext (by
      match a with
      | ⟨0, _⟩ => rfl
      | ⟨1, _⟩ => rfl)
    show x2 _ * x2 _ = x2 (ix2 r k) * x2 (ix2 r k)
    rw [e]

/-- Two 1000×64 arrays and a 1000×1 column side by side: column k lies in the first array below 64, in the second below 128, and is the column at 128. -/
theorem concat3_apply (v1 v3 : FVec Ideal S1000x64 .f32) (v8 : FVec Ideal S1000x1 .f32) (r : Fin 1000) (k : Fin 129) :
    concatenate S1000x129 1 [⟨S1000x64, v1⟩, ⟨S1000x64, v3⟩, ⟨S1000x1, v8⟩] concatenates_S1000x64_S1000x64_S1000x1_S1000x129_d1 (ix2 r k)
      = if h : k.val < 64 then v1 (ix2 r ⟨k.val, h⟩)
        else if h' : k.val < 128 then v3 (ix2 r ⟨k.val - 64, by omega⟩)
        else v8 (ix2 r (0 : Fin 1)) := by
  by_cases h : k.val < 64
  · rw [dif_pos h]
    exact concatenate_apply_piece (t := S1000x129) 1 [⟨S1000x64, v1⟩, ⟨S1000x64, v3⟩, ⟨S1000x1, v8⟩]
      concatenates_S1000x64_S1000x64_S1000x1_S1000x129_d1 (ix2 r k) 0 (by show (0 : ℕ) < 3; omega)
      S1000x64 v1 rfl rfl 0 rfl (ix2 r ⟨k.val, h⟩)
      (fun b hb => by
        match b with
        | ⟨0, _⟩ => rfl
        | ⟨1, _⟩ => exact absurd rfl hb)
      (by show 0 + k.val = k.val; omega)
  · rw [dif_neg h]
    by_cases h' : k.val < 128
    · rw [dif_pos h']
      exact concatenate_apply_piece (t := S1000x129) 1 [⟨S1000x64, v1⟩, ⟨S1000x64, v3⟩, ⟨S1000x1, v8⟩]
        concatenates_S1000x64_S1000x64_S1000x1_S1000x129_d1 (ix2 r k) 1 (by show (1 : ℕ) < 3; omega)
        S1000x64 v3 rfl rfl 64 rfl (ix2 r ⟨k.val - 64, by omega⟩)
        (fun b hb => by
          match b with
          | ⟨0, _⟩ => rfl
          | ⟨1, _⟩ => exact absurd rfl hb)
        (by show 64 + (k.val - 64) = k.val; omega)
    · rw [dif_neg h']
      exact concatenate_apply_piece (t := S1000x129) 1 [⟨S1000x64, v1⟩, ⟨S1000x64, v3⟩, ⟨S1000x1, v8⟩]
        concatenates_S1000x64_S1000x64_S1000x1_S1000x129_d1 (ix2 r k) 2 (by show (2 : ℕ) < 3; omega)
        S1000x1 v8 rfl rfl 128 rfl (ix2 r (0 : Fin 1))
        (fun b hb => by
          match b with
          | ⟨0, _⟩ => rfl
          | ⟨1, _⟩ => exact absurd rfl hb)
        (by show 128 + 0 = k.val; have := k.isLt; omega)

/-- x · σ(x) entry by entry. -/
theorem silu_apply (v : FVec Ideal S1000x64 .f32) (i : S1000x64.Idx) :
    mulf v (logistic v) i = Cert.Spec.silu (v i) := rfl

/-- The first affine layer at an entry: the row of the 1000×129 input against column j of the 129×64 matrix, plus the bias. -/
theorem lin1_apply (v9 : FVec Ideal S1000x129 .f32) (x3 : FVec Ideal S129x64 .bf16) (x4 : Vec Ideal S1x64 .f32) (r : Fin 1000) (j : Fin 64) :
    addf (matmul dot_S1000x129_S129x64_S1000x64_1_0_0_1_n_n none (truncf .bf16 v9 bitsLt_bf16_f32)
        (shapeCast S129x64 x3 shapeCasts_S129x64_S129x64) (constant (F := Ideal) S1000x64 .f32 0x00000000#32))
      (broadcastTo S1000x64 (shapeCast S1x64 x4 shapeCasts_S1x64_S1x64) broadcasts_S1x64_S1000x64) (ix2 r j)
      = Cert.Spec.lin (fun k => v9 (ix2 r k)) (fun k j => x3 (ix2 k j)) (fun j => x4 (ix2 0 j)) j := by
  show _ + _ = _ + _
  rw [rowB64, mm_129_64, shapeCast_self]
  rfl

/-- The second affine layer at an entry. -/
theorem lin2_apply (v19 : FVec Ideal S1000x64 .f32) (x5 : FVec Ideal S64x64 .bf16) (x6 : Vec Ideal S1x64 .f32) (r : Fin 1000) (j : Fin 64) :
    addf (matmul dot_S1000x64_S64x64_S1000x64_1_0_0_1_n_n none (truncf .bf16 v19 bitsLt_bf16_f32)
        (shapeCast S64x64 x5 shapeCasts_S64x64_S64x64) (constant (F := Ideal) S1000x64 .f32 0x00000000#32))
      (broadcastTo S1000x64 (shapeCast S1x64 x6 shapeCasts_S1x64_S1x64) broadcasts_S1x64_S1000x64) (ix2 r j)
      = Cert.Spec.lin (fun k => v19 (ix2 r k)) (fun k j => x5 (ix2 k j)) (fun j => x6 (ix2 0 j)) j := by
  show _ + _ = _ + _
  rw [rowB64, mm_64_64, shapeCast_self]
  rfl

/-- The hidden edge row at an entry. -/
theorem pay4_apply (x0 x1 : Vec Ideal S1000x64 .f32) (x2 : Vec Ideal S1000x3 .f32) (x3 : Vec Ideal S129x64 .bf16) (x4 : Vec Ideal S1x64 .f32)
    (x5 : Vec Ideal S64x64 .bf16) (x6 : Vec Ideal S1x64 .f32) (x7 : Vec Ideal S4096x128 .bf16) (x8 : Vec Ideal S1x128 .f32) (x9 : Vec Ideal S128x64 .bf16)
    (x10 : Vec Ideal S1x64 .f32) (x11 : Vec Ideal S64x64 .bf16) (x12 : Vec Ideal S1x64 .f32) (x13 : Vec Ideal S64x1 .bf16) (r : Fin 1000) (j : Fin 64) :
    k0_pay4 (F := Ideal) x0 x1 x2 x3 x4 x5 x6 (ix2 r j)
      = Cert.Spec.eFeat (Cert.Params.edgeK x3 x4 x5 x6 x7 x8 x9 x10 x11 x12 x13) (fun j => x0 (ix2 r j)) (fun j => x1 (ix2 r j)) (fun a => x2 (ix2 r a)) j := by
  unfold k0_pay4
  refine (silu_apply _ _).trans ?_
  unfold Cert.Spec.eFeat
  refine congrArg Cert.Spec.silu ?_
  refine (lin2_apply _ x5 x6 r j).trans ?_
  show Cert.Spec.lin _ (fun k j => x5 (ix2 k j)) (fun j => x6 (ix2 0 j)) j = Cert.Spec.lin _ (fun k j => x5 (ix2 k j)) (fun j => x6 (ix2 0 j)) j
  congr 1
  funext k
  refine (silu_apply _ _).trans ?_
  refine congrArg Cert.Spec.silu ?_
  refine (lin1_apply _ x3 x4 r k).trans ?_
  show Cert.Spec.lin _ (fun k j => x3 (ix2 k j)) (fun j => x4 (ix2 0 j)) k = Cert.Spec.lin _ (fun k j => x3 (ix2 k j)) (fun j => x4 (ix2 0 j)) k
  congr 1
  funext q
  rw [shapeCast_self, shapeCast_self]
  refine (concat3_apply x0 x1 (k0_pay3 (F := Ideal) x2) r q).trans ?_
  unfold Cert.Spec.edgeIn
  rw [pay3_apply]

end Cert.KV

end
-- ==== Proof.EdgeOut.lean ====
/- The last array of the edge network read at an entry: the message, the coordinate shift, the constant one, the unit direction and zeros, side by side. -/
import proofs.«417326_j2791728742861_3_alg».proof.Proof.EdgeMM
import proofs.«417326_j2791728742861_3_alg».proof.Proof.Spec
import proofs.«417326_j2791728742861_3_alg».proof.Proof.Params

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

/-- Five arrays of 64, 3, 1, 3 and 57 columns side by side: column k lies in the piece whose span holds it, at k less the
    columns before that piece. -/
theorem concat5_apply (w0 : FVec Ideal S1000x64 .f32) (w1 : FVec Ideal S1000x3 .f32) (w2 : FVec Ideal S1000x1 .f32)
    (w3 : FVec Ideal S1000x3 .f32) (w4 : FVec Ideal S1000x57 .f32)
    (h : Shape.Concatenates [S1000x64, S1000x3, S1000x1, S1000x3, S1000x57] S1000x128 1) (r : Fin 1000) (k : Fin 128) :
    concatenate S1000x128 1 [⟨S1000x64, w0⟩, ⟨S1000x3, w1⟩, ⟨S1000x1, w2⟩, ⟨S1000x3, w3⟩, ⟨S1000x57, w4⟩] h (ix2 r k)
      = if h0 : k.val < 64 then w0 (ix2 r ⟨k.val, h0⟩)
        else if h1 : k.val < 67 then w1 (ix2 r ⟨k.val - 64, by omega⟩)
        else if k.val = 67 then w2 (ix2 r (0 : Fin 1))
        else if h3 : k.val < 71 then w3 (ix2 r ⟨k.val - 68, by omega⟩)
        else w4 (ix2 r ⟨k.val - 71, by have := k.isLt; omega⟩) := by
  by_cases h0 : k.val < 64
  · rw [dif_pos h0]
    exact concatenate_apply_piece (t := S1000x128) 1 [⟨S1000x64, w0⟩, ⟨S1000x3, w1⟩, ⟨S1000x1, w2⟩, ⟨S1000x3, w3⟩, ⟨S1000x57, w4⟩] h (ix2 r k) 0 (by show (0 : ℕ) < 5; omega) S1000x64 w0 rfl rfl 0 rfl
      (ix2 r ⟨k.val, h0⟩)
      (fun b hb => by
        match b with
        | ⟨0, _⟩ => rfl
        | ⟨1, _⟩ => exact absurd rfl hb)
      (by show 0 + k.val = k.val; omega)
  rw [dif_neg h0]
  by_cases h1 : k.val < 67
  · rw [dif_pos h1]
    exact concatenate_apply_piece (t := S1000x128) 1 [⟨S1000x64, w0⟩, ⟨S1000x3, w1⟩, ⟨S1000x1, w2⟩, ⟨S1000x3, w3⟩, ⟨S1000x57, w4⟩] h (ix2 r k) 1 (by show (1 : ℕ) < 5; omega) S1000x3 w1 rfl rfl 64 rfl
      (ix2 r ⟨k.val - 64, by omega⟩)
      (fun b hb => by
        match b with
        | ⟨0, _⟩ => rfl
        | ⟨1, _⟩ => exact absurd rfl hb)
      (by show 64 + (k.val - 64) = k.val; omega)
  rw [dif_neg h1]
  by_cases h2 : k.val = 67
  · rw [if_pos h2]
    exact concatenate_apply_piece (t := S1000x128) 1 [⟨S1000x64, w0⟩, ⟨S1000x3, w1⟩, ⟨S1000x1, w2⟩, ⟨S1000x3, w3⟩, ⟨S1000x57, w4⟩] h (ix2 r k) 2 (by show (2 : ℕ) < 5; omega) S1000x1 w2 rfl rfl 67 rfl
      (ix2 r (0 : Fin 1))
      (fun b hb => by
        match b with
        | ⟨0, _⟩ => rfl
        | ⟨1, _⟩ => exact absurd rfl hb)
      (by show 67 + 0 = k.val; omega)
  rw [if_neg h2]
  by_cases h3 : k.val < 71
  · rw [dif_pos h3]
    exact concatenate_apply_piece (t := S1000x128) 1 [⟨S1000x64, w0⟩, ⟨S1000x3, w1⟩, ⟨S1000x1, w2⟩, ⟨S1000x3, w3⟩, ⟨S1000x57, w4⟩] h (ix2 r k) 3 (by show (3 : ℕ) < 5; omega) S1000x3 w3 rfl rfl 68 rfl
      (ix2 r ⟨k.val - 68, by omega⟩)
      (fun b hb => by
        match b with
        | ⟨0, _⟩ => rfl
        | ⟨1, _⟩ => exact absurd rfl hb)
      (by show 68 + (k.val - 68) = k.val; omega)
  rw [dif_neg h3]
  exact concatenate_apply_piece (t := S1000x128) 1 [⟨S1000x64, w0⟩, ⟨S1000x3, w1⟩, ⟨S1000x1, w2⟩, ⟨S1000x3, w3⟩, ⟨S1000x57, w4⟩] h (ix2 r k) 4 (by show (4 : ℕ) < 5; omega) S1000x57 w4 rfl rfl 71 rfl
    (ix2 r ⟨k.val - 71, by have := k.isLt; omega⟩)
    (fun b hb => by
      match b with
      | ⟨0, _⟩ => rfl
      | ⟨1, _⟩ => exact absurd rfl hb)
    (by show 71 + (k.val - 71) = k.val; omega)

/-- A 1×64 row added to every row of a 1000×64 array, at an entry. -/
theorem addRow_apply (x : FVec Ideal S1000x64 .f32) (b : Vec Ideal S1x64 .f32) (r : Fin 1000) (j : Fin 64) :
    addf x (broadcastTo S1000x64 (shapeCast S1x64 b shapeCasts_S1x64_S1x64) broadcasts_S1x64_S1000x64) (ix2 r j)
      = x (ix2 r j) + b (ix2 (0 : Fin 1) j) :=
  congrArg (x (ix2 r j) + ·) (rowB64 b r j)

/-- An affine layer of width 64 (the product with a 64×64 array, plus a row), at an entry. -/
theorem linLayer_apply (x : FVec Ideal S1000x64 .f32) (W : Vec Ideal S64x64 .bf16) (b : Vec Ideal S1x64 .f32)
    (r : Fin 1000) (c : Fin 64) :
    addf (matmul dot_S1000x64_S64x64_S1000x64_1_0_0_1_n_n none (truncf .bf16 x bitsLt_bf16_f32)
        (shapeCast S64x64 W shapeCasts_S64x64_S64x64 : FVec Ideal S64x64 .bf16) (constant (F := Ideal) S1000x64 .f32 0x00000000#32))
      (broadcastTo S1000x64 (shapeCast S1x64 b shapeCasts_S1x64_S1x64) broadcasts_S1x64_S1000x64) (ix2 r c)
      = Cert.Spec.lin (fun j : Fin 64 => x (ix2 r j)) (fun a b' => W (ix2 a b')) (fun b' => b (ix2 (0 : Fin 1) b')) c := by
  refine (addRow_apply _ b r c).trans ?_
  rw [mm_64_64, shapeCast_self]
  rfl

/-- x · σ(x) entry by entry (the narrowing of the result changes no entry over the extended reals). -/
theorem siluLayer_apply (y : FVec Ideal S1000x64 .f32) (r : Fin 1000) (c : Fin 64) :
    truncf .bf16 (mulf y (logistic y)) bitsLt_bf16_f32 (ix2 r c) = Cert.Spec.silu (y (ix2 r c)) := rfl

/-- The last array of the edge network at an entry: the message in columns 0–63, the coordinate shift in 64–66, one in 67,
    the unit direction in 68–70, zero from 71 on. -/
theorem pay1_apply (v5 : FVec Ideal S1000x3 .f32) (v8 : FVec Ideal S1000x1 .f32) (v261 : FVec Ideal S1000x64 .f32) (v262 : Vec Ideal S1x64 .f32)
    (v267 : Vec Ideal S64x64 .bf16) (v270 : Vec Ideal S1x64 .f32) (v277 : Vec Ideal S64x1 .bf16) (r : Fin 1000) (k : Fin 128) :
    k0_pay1 (F := Ideal) v5 v8 v261 v262 v267 v270 v277 (ix2 r k)
      = if h : k.val < 64 then v261 (ix2 r ⟨k.val, h⟩) + v262 (ix2 (0 : Fin 1) ⟨k.val, h⟩)
        else if h1 : k.val < 67 then
          v5 (ix2 r ⟨k.val - 64, by omega⟩) * ∑ c : Fin 64, Cert.Spec.silu (Cert.Spec.lin (fun j : Fin 64 => v261 (ix2 r j) + v262 (ix2 (0 : Fin 1) j)) (fun a b => v267 (ix2 a b)) (fun b => v270 (ix2 (0 : Fin 1) b)) c) * v277 (ix2 c (0 : Fin 1))
        else if k.val = 67 then Cert.Spec.one
        else if h3 : k.val < 71 then Ideal.div (v5 (ix2 r ⟨k.val - 68, by omega⟩)) (Ideal.sqrt (v8 (ix2 r (0 : Fin 1))) + Cert.Spec.eps)
        else 0 := by
  unfold k0_pay1
  refine (concat5_apply _ _ _ _ _ _ r k).trans ?_
  by_cases h0 : k.val < 64
  · rw [dif_pos h0, dif_pos h0]
    exact addRow_apply v261 v262 r _
  rw [dif_neg h0, dif_neg h0]
  by_cases h1 : k.val < 67
  · rw [dif_pos h1, dif_pos h1]
    refine congrArg (v5 (ix2 r ⟨k.val - 64, by omega⟩) * ·) ?_
    refine (colB3 _ r _).trans ?_
    refine (mm_64_1 _ _ r (0 : Fin 1)).trans ?_
    refine Finset.sum_congr rfl fun c _ => ?_
    rw [shapeCast_self v277 shapeCasts_S64x1_S64x1]
    refine congrArg (· * v277 (ix2 c (0 : Fin 1))) ?_
    refine (siluLayer_apply _ r c).trans (congrArg Cert.Spec.silu ?_)
    refine (linLayer_apply _ v267 v270 r c).trans ?_
    exact congrArg (fun f : Fin 64 → EReal => Cert.Spec.lin f (fun a b => v267 (ix2 a b)) (fun b => v270 (ix2 (0 : Fin 1) b)) c)
      (funext fun j => addRow_apply v261 v262 r j)
  rw [dif_neg h1, dif_neg h1]
  by_cases h2 : k.val = 67
  · rw [if_pos h2, if_pos h2]
    rfl
  rw [if_neg h2, if_neg h2]
  by_cases h3 : k.val < 71
  · rw [dif_pos h3, dif_pos h3]
    refine congrArg (Ideal.div (v5 (ix2 r ⟨k.val - 68, by omega⟩))) ?_
    exact colB3 _ r _
  rw [dif_neg h3, dif_neg h3]
  exact Ideal.ofBits_zero_f32

end Cert.KV

end
-- ==== Proof.EdgeBil.lean ====
/- The bilinear term of the edge network: four chunks of 1024 pairs, each a product of column broadcasts with sixteen copies of the hidden row, times 1024 rows of the matrix, accumulated from zero; then the bias, the positive part and the product with the next matrix. -/
import proofs.«417326_j2791728742861_3_alg».proof.Proof.EdgeMM
import proofs.«417326_j2791728742861_3_alg».proof.Proof.Spec
import proofs.«417326_j2791728742861_3_alg».proof.Proof.LibBlockSum
import Mathlib.Tactic.FinCases

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

/-- A 1000×1 column, cast to its own shape, repeated along 64 columns. -/
theorem colB1c (w : FVec Ideal S1000x1 .f32) (r : Fin 1000) (t : Fin 64) :
    broadcastTo S1000x64 (shapeCast S1000x1 w shapeCasts_S1000x1_S1000x1) broadcasts_S1000x1_S1000x64 (ix2 r t) = w (ix2 r (0 : Fin 1)) := by
  rw [shapeCast_self]; exact colB1 w r t

/-- One chunk: the accumulator plus the product, summed over the chunk's 1024 columns, of the concatenated
    broadcasts with the second factor and the chunk's rows of the matrix; piece n of the concatenation repeats
    column 16 c + n of the hidden row. -/
theorem chunk_apply (v29 : FVec Ideal S1000x64 .f32) (v30 : FVec Ideal S1000x1024 .f32) (g0 g1 g2 g3 g4 g5 g6 g7 g8 g9 g10 g11 g12 g13 g14 g15 : FVec Ideal S1000x64 .f32)
    (c : ℕ) (hc : c < 4) (acc : FVec Ideal S1000x128 .f32)
    (w : FVec Ideal S1024x128 .bf16) (h : Shape.Concatenates [S1000x64, S1000x64, S1000x64, S1000x64, S1000x64, S1000x64, S1000x64, S1000x64, S1000x64, S1000x64, S1000x64, S1000x64, S1000x64, S1000x64, S1000x64, S1000x64] S1000x1024 1) (r : Fin 1000) (q : Fin 128)
    (h0 : ∀ t : Fin 64, g0 (ix2 r t) = v29 (ix2 r ⟨16 * c + 0, by omega⟩))
    (h1 : ∀ t : Fin 64, g1 (ix2 r t) = v29 (ix2 r ⟨16 * c + 1, by omega⟩))
    (h2 : ∀ t : Fin 64, g2 (ix2 r t) = v29 (ix2 r ⟨16 * c + 2, by omega⟩))
    (h3 : ∀ t : Fin 64, g3 (ix2 r t) = v29 (ix2 r ⟨16 * c + 3, by omega⟩))
    (h4 : ∀ t : Fin 64, g4 (ix2 r t) = v29 (ix2 r ⟨16 * c + 4, by omega⟩))
    (h5 : ∀ t : Fin 64, g5 (ix2 r t) = v29 (ix2 r ⟨16 * c + 5, by omega⟩))
    (h6 : ∀ t : Fin 64, g6 (ix2 r t) = v29 (ix2 r ⟨16 * c + 6, by omega⟩))
    (h7 : ∀ t : Fin 64, g7 (ix2 r t) = v29 (ix2 r ⟨16 * c + 7, by omega⟩))
    (h8 : ∀ t : Fin 64, g8 (ix2 r t) = v29 (ix2 r ⟨16 * c + 8, by omega⟩))
    (h9 : ∀ t : Fin 64, g9 (ix2 r t) = v29 (ix2 r ⟨16 * c + 9, by omega⟩))
    (h10 : ∀ t : Fin 64, g10 (ix2 r t) = v29 (ix2 r ⟨16 * c + 10, by omega⟩))
    (h11 : ∀ t : Fin 64, g11 (ix2 r t) = v29 (ix2 r ⟨16 * c + 11, by omega⟩))
    (h12 : ∀ t : Fin 64, g12 (ix2 r t) = v29 (ix2 r ⟨16 * c + 12, by omega⟩))
    (h13 : ∀ t : Fin 64, g13 (ix2 r t) = v29 (ix2 r ⟨16 * c + 13, by omega⟩))
    (h14 : ∀ t : Fin 64, g14 (ix2 r t) = v29 (ix2 r ⟨16 * c + 14, by omega⟩))
    (h15 : ∀ t : Fin 64, g15 (ix2 r t) = v29 (ix2 r ⟨16 * c + 15, by omega⟩)) :
    addf acc (matmul dot_S1000x1024_S1024x128_S1000x128_1_0_0_1_n_n none
        (truncf .bf16 (mulf (concatenate S1000x1024 1 [⟨S1000x64, g0⟩, ⟨S1000x64, g1⟩, ⟨S1000x64, g2⟩, ⟨S1000x64, g3⟩, ⟨S1000x64, g4⟩, ⟨S1000x64, g5⟩, ⟨S1000x64, g6⟩, ⟨S1000x64, g7⟩, ⟨S1000x64, g8⟩, ⟨S1000x64, g9⟩, ⟨S1000x64, g10⟩, ⟨S1000x64, g11⟩, ⟨S1000x64, g12⟩, ⟨S1000x64, g13⟩, ⟨S1000x64, g14⟩, ⟨S1000x64, g15⟩] h) v30) bitsLt_bf16_f32)
        (shapeCast S1024x128 w shapeCasts_S1024x128_S1024x128) (constant (F := Ideal) S1000x128 .f32 0x00000000#32)) (ix2 r q)
      = acc (ix2 r q) + ∑ p : Fin 1024,
          (v29 (ix2 r ⟨16 * c + p.val / 64, by have := p.isLt; omega⟩) * v30 (ix2 r p)) * w (ix2 p q) := by
  show acc (ix2 r q) + matmul dot_S1000x1024_S1024x128_S1000x128_1_0_0_1_n_n none _ _ _ (ix2 r q) = _
  rw [mm_1024_128, shapeCast_self]
  refine congrArg (acc (ix2 r q) + ·) (Finset.sum_congr rfl fun p _ => ?_)
  show (concatenate S1000x1024 1 [⟨S1000x64, g0⟩, ⟨S1000x64, g1⟩, ⟨S1000x64, g2⟩, ⟨S1000x64, g3⟩, ⟨S1000x64, g4⟩, ⟨S1000x64, g5⟩, ⟨S1000x64, g6⟩, ⟨S1000x64, g7⟩, ⟨S1000x64, g8⟩, ⟨S1000x64, g9⟩, ⟨S1000x64, g10⟩, ⟨S1000x64, g11⟩, ⟨S1000x64, g12⟩, ⟨S1000x64, g13⟩, ⟨S1000x64, g14⟩, ⟨S1000x64, g15⟩] h (ix2 r p) * v30 (ix2 r p)) * w (ix2 p q) = _
  have hcat := concat16_apply ![g0, g1, g2, g3, g4, g5, g6, g7, g8, g9, g10, g11, g12, g13, g14, g15] h r p
  have hg : ∀ (n : Fin 16) (t : Fin 64), (![g0, g1, g2, g3, g4, g5, g6, g7, g8, g9, g10, g11, g12, g13, g14, g15] : Fin 16 → FVec Ideal S1000x64 .f32) n (ix2 r t) = v29 (ix2 r ⟨16 * c + n.val, by have := n.isLt; omega⟩) := by
    intro n t
    fin_cases n
    · exact h0 t
    · exact h1 t
    · exact h2 t
    · exact h3 t
    · exact h4 t
    · exact h5 t
    · exact h6 t
    · exact h7 t
    · exact h8 t
    · exact h9 t
    · exact h10 t
    · exact h11 t
    · exact h12 t
    · exact h13 t
    · exact h14 t
    · exact h15 t
  rw [show concatenate S1000x1024 1 [⟨S1000x64, g0⟩, ⟨S1000x64, g1⟩, ⟨S1000x64, g2⟩, ⟨S1000x64, g3⟩, ⟨S1000x64, g4⟩, ⟨S1000x64, g5⟩, ⟨S1000x64, g6⟩, ⟨S1000x64, g7⟩, ⟨S1000x64, g8⟩, ⟨S1000x64, g9⟩, ⟨S1000x64, g10⟩, ⟨S1000x64, g11⟩, ⟨S1000x64, g12⟩, ⟨S1000x64, g13⟩, ⟨S1000x64, g14⟩, ⟨S1000x64, g15⟩] h (ix2 r p) = _ from hcat, hg]

/-- Sixteen copies of the hidden row side by side. -/
theorem pay5_apply (v0 v2 : Vec Ideal S1000x64 .f32) (v4 : Vec Ideal S1000x3 .f32) (v11 : Vec Ideal S129x64 .bf16) (v14 : Vec Ideal S1x64 .f32) (v21 : Vec Ideal S64x64 .bf16) (v24 : Vec Ideal S1x64 .f32) (r : Fin 1000) (p : Fin 1024) :
    k0_pay5 (F := Ideal) v0 v2 v4 v11 v14 v21 v24 (ix2 r p) = k0_pay4 (F := Ideal) v0 v2 v4 v11 v14 v21 v24 (ix2 r ⟨p.val % 64, Nat.mod_lt _ (by norm_num)⟩) := by
  unfold k0_pay5
  exact concat16_apply (fun _ => k0_pay4 (F := Ideal) v0 v2 v4 v11 v14 v21 v24) _ r p

/-- The zero the accumulation starts from. -/
theorem pay6_apply (r : Fin 1000) (q : Fin 128) : k0_pay6 (F := Ideal) (ix2 r q) = 0 := by
  show Ideal.ofBits .f32 0x00000000#32 = 0
  exact Ideal.ofBits_zero_f32

theorem pay7_apply (v0 v2 : Vec Ideal S1000x64 .f32) (v4 : Vec Ideal S1000x3 .f32) (v11 : Vec Ideal S129x64 .bf16) (v14 : Vec Ideal S1x64 .f32) (v21 : Vec Ideal S64x64 .bf16) (v24 : Vec Ideal S1x64 .f32) (r : Fin 1000) (t : Fin 64) :
    k0_pay7 (F := Ideal) v0 v2 v4 v11 v14 v21 v24 (ix2 r t) = k0_pay4 (F := Ideal) v0 v2 v4 v11 v14 v21 v24 (ix2 r (0 : Fin 64)) := by
  unfold k0_pay7
  exact colB _ _ _ ⟨0, by norm_num⟩ rfl rfl r t

theorem pay8_apply (v0 v2 : Vec Ideal S1000x64 .f32) (v4 : Vec Ideal S1000x3 .f32) (v11 : Vec Ideal S129x64 .bf16) (v14 : Vec Ideal S1x64 .f32) (v21 : Vec Ideal S64x64 .bf16) (v24 : Vec Ideal S1x64 .f32) (r : Fin 1000) (t : Fin 64) :
    k0_pay8 (F := Ideal) v0 v2 v4 v11 v14 v21 v24 (ix2 r t) = k0_pay4 (F := Ideal) v0 v2 v4 v11 v14 v21 v24 (ix2 r (1 : Fin 64)) := by
  unfold k0_pay8
  exact colB _ _ _ ⟨1, by norm_num⟩ rfl rfl r t

theorem pay9_apply (v0 v2 : Vec Ideal S1000x64 .f32) (v4 : Vec Ideal S1000x3 .f32) (v11 : Vec Ideal S129x64 .bf16) (v14 : Vec Ideal S1x64 .f32) (v21 : Vec Ideal S64x64 .bf16) (v24 : Vec Ideal S1x64 .f32) (r : Fin 1000) (t : Fin 64) :
    k0_pay9 (F := Ideal) v0 v2 v4 v11 v14 v21 v24 (ix2 r t) = k0_pay4 (F := Ideal) v0 v2 v4 v11 v14 v21 v24 (ix2 r (2 : Fin 64)) := by
  unfold k0_pay9
  exact colB _ _ _ ⟨2, by norm_num⟩ rfl rfl r t

theorem pay11_apply (v29 : FVec Ideal S1000x64 .f32) (r : Fin 1000) (t : Fin 64) :
    k0_pay11 (F := Ideal) v29 (ix2 r t) = v29 (ix2 r (16 : Fin 64)) := by
  unfold k0_pay11
  exact colB _ _ _ ⟨16, by norm_num⟩ rfl rfl r t

theorem pay12_apply (v29 : FVec Ideal S1000x64 .f32) (r : Fin 1000) (t : Fin 64) :
    k0_pay12 (F := Ideal) v29 (ix2 r t) = v29 (ix2 r (17 : Fin 64)) := by
  unfold k0_pay12
  exact colB _ _ _ ⟨17, by norm_num⟩ rfl rfl r t

theorem pay13_apply (v29 : FVec Ideal S1000x64 .f32) (r : Fin 1000) (t : Fin 64) :
    k0_pay13 (F := Ideal) v29 (ix2 r t) = v29 (ix2 r (18 : Fin 64)) := by
  unfold k0_pay13
  exact colB _ _ _ ⟨18, by norm_num⟩ rfl rfl r t

theorem pay16_apply (v29 : FVec Ideal S1000x64 .f32) (r : Fin 1000) (t : Fin 64) :
    k0_pay16 (F := Ideal) v29 (ix2 r t) = v29 (ix2 r (32 : Fin 64)) := by
  unfold k0_pay16
  exact colB _ _ _ ⟨32, by norm_num⟩ rfl rfl r t

theorem pay17_apply (v29 : FVec Ideal S1000x64 .f32) (r : Fin 1000) (t : Fin 64) :
    k0_pay17 (F := Ideal) v29 (ix2 r t) = v29 (ix2 r (33 : Fin 64)) := by
  unfold k0_pay17
  exact colB _ _ _ ⟨33, by norm_num⟩ rfl rfl r t

theorem pay18_apply (v29 : FVec Ideal S1000x64 .f32) (r : Fin 1000) (t : Fin 64) :
    k0_pay18 (F := Ideal) v29 (ix2 r t) = v29 (ix2 r (34 : Fin 64)) := by
  unfold k0_pay18
  exact colB _ _ _ ⟨34, by norm_num⟩ rfl rfl r t

theorem pay19_apply (v29 : FVec Ideal S1000x64 .f32) (r : Fin 1000) (t : Fin 64) :
    k0_pay19 (F := Ideal) v29 (ix2 r t) = v29 (ix2 r (35 : Fin 64)) := by
  unfold k0_pay19
  exact colB _ _ _ ⟨35, by norm_num⟩ rfl rfl r t

theorem pay22_apply (v29 : FVec Ideal S1000x64 .f32) (r : Fin 1000) (t : Fin 64) :
    k0_pay22 (F := Ideal) v29 (ix2 r t) = v29 (ix2 r (48 : Fin 64)) := by
  unfold k0_pay22
  exact colB _ _ _ ⟨48, by norm_num⟩ rfl rfl r t

theorem pay23_apply (v29 : FVec Ideal S1000x64 .f32) (r : Fin 1000) (t : Fin 64) :
    k0_pay23 (F := Ideal) v29 (ix2 r t) = v29 (ix2 r (49 : Fin 64)) := by
  unfold k0_pay23
  exact colB _ _ _ ⟨49, by norm_num⟩ rfl rfl r t

theorem pay24_apply (v29 : FVec Ideal S1000x64 .f32) (r : Fin 1000) (t : Fin 64) :
    k0_pay24 (F := Ideal) v29 (ix2 r t) = v29 (ix2 r (50 : Fin 64)) := by
  unfold k0_pay24
  exact colB _ _ _ ⟨50, by norm_num⟩ rfl rfl r t

theorem pay25_apply (v29 : FVec Ideal S1000x64 .f32) (r : Fin 1000) (t : Fin 64) :
    k0_pay25 (F := Ideal) v29 (ix2 r t) = v29 (ix2 r (51 : Fin 64)) := by
  unfold k0_pay25
  exact colB _ _ _ ⟨51, by norm_num⟩ rfl rfl r t

theorem pay26_apply (v29 : FVec Ideal S1000x64 .f32) (r : Fin 1000) (t : Fin 64) :
    k0_pay26 (F := Ideal) v29 (ix2 r t) = v29 (ix2 r (52 : Fin 64)) := by
  unfold k0_pay26
  exact colB _ _ _ ⟨52, by norm_num⟩ rfl rfl r t

theorem pay14_apply (v29 : FVec Ideal S1000x64 .f32) (r : Fin 1000) (z : Fin 1) :
    k0_pay14 (F := Ideal) v29 (ix2 r z) = v29 (ix2 r (19 : Fin 64)) := by
  unfold k0_pay14
  rw [shapeCast_self]
  exact colS _ _ _ ⟨19, by norm_num⟩ rfl rfl r z

theorem pay20_apply (v29 : FVec Ideal S1000x64 .f32) (r : Fin 1000) (z : Fin 1) :
    k0_pay20 (F := Ideal) v29 (ix2 r z) = v29 (ix2 r (36 : Fin 64)) := by
  unfold k0_pay20
  exact colS _ _ _ ⟨36, by norm_num⟩ rfl rfl r z

/-- Chunk 0 of the bilinear term: the accumulator plus the sum over the chunk's 1024 pairs. -/
theorem pay10_apply (v29 : FVec Ideal S1000x64 .f32) (v30 : FVec Ideal S1000x1024 .f32) (v31 : FVec Ideal S1000x128 .f32) (v34 v37 v40 : FVec Ideal S1000x64 .f32) (v83 : Vec Ideal S1024x128 .bf16) (r : Fin 1000) (q : Fin 128)
    (h34 : ∀ t : Fin 64, v34 (ix2 r t) = v29 (ix2 r (0 : Fin 64)))
    (h37 : ∀ t : Fin 64, v37 (ix2 r t) = v29 (ix2 r (1 : Fin 64)))
    (h40 : ∀ t : Fin 64, v40 (ix2 r t) = v29 (ix2 r (2 : Fin 64))) :
    k0_pay10 (F := Ideal) v29 v30 v31 v34 v37 v40 v83 (ix2 r q)
      = v31 (ix2 r q) + ∑ p : Fin 1024, (v29 (ix2 r ⟨16 * 0 + p.val / 64, by have := p.isLt; omega⟩) * v30 (ix2 r p)) * v83 (ix2 p q) := by
  unfold k0_pay10
  refine chunk_apply v29 v30 _ _ _ _ _ _ _ _ _ _ _ _ _ _ _ _ 0 (by norm_num) v31 v83 _ r q ?_ ?_ ?_ ?_ ?_ ?_ ?_ ?_ ?_ ?_ ?_ ?_ ?_ ?_ ?_ ?_
  · intro t; exact h34 t
  · intro t; exact h37 t
  · intro t; exact h40 t
  · intro t; exact colB v29 _ _ ⟨3, by norm_num⟩ rfl rfl r t
  · intro t; exact colB v29 _ _ ⟨4, by norm_num⟩ rfl rfl r t
  · intro t; exact colB v29 _ _ ⟨5, by norm_num⟩ rfl rfl r t
  · intro t; exact colB v29 _ _ ⟨6, by norm_num⟩ rfl rfl r t
  · intro t; exact colB v29 _ _ ⟨7, by norm_num⟩ rfl rfl r t
  · intro t; exact colB v29 _ _ ⟨8, by norm_num⟩ rfl rfl r t
  · intro t; exact colB v29 _ _ ⟨9, by norm_num⟩ rfl rfl r t
  · intro t; exact colB v29 _ _ ⟨10, by norm_num⟩ rfl rfl r t
  · intro t; exact colB v29 _ _ ⟨11, by norm_num⟩ rfl rfl r t
  · intro t; exact colB v29 _ _ ⟨12, by norm_num⟩ rfl rfl r t
  · intro t; exact colB v29 _ _ ⟨13, by norm_num⟩ rfl rfl r t
  · intro t; exact colB v29 _ _ ⟨14, by norm_num⟩ rfl rfl r t
  · intro t; exact colB v29 _ _ ⟨15, by norm_num⟩ rfl rfl r t

/-- Chunk 1 of the bilinear term: the accumulator plus the sum over the chunk's 1024 pairs. -/
theorem pay15_apply (v29 : FVec Ideal S1000x64 .f32) (v30 : FVec Ideal S1000x1024 .f32) (v86 : FVec Ideal S1000x128 .f32) (v89 v92 v95 : FVec Ideal S1000x64 .f32) (v97 : FVec Ideal S1000x1 .f32) (v138 : Vec Ideal S1024x128 .bf16) (r : Fin 1000) (q : Fin 128)
    (h89 : ∀ t : Fin 64, v89 (ix2 r t) = v29 (ix2 r (16 : Fin 64)))
    (h92 : ∀ t : Fin 64, v92 (ix2 r t) = v29 (ix2 r (17 : Fin 64)))
    (h95 : ∀ t : Fin 64, v95 (ix2 r t) = v29 (ix2 r (18 : Fin 64)))
    (h97 : v97 (ix2 r (0 : Fin 1)) = v29 (ix2 r (19 : Fin 64))) :
    k0_pay15 (F := Ideal) v29 v30 v86 v89 v92 v95 v97 v138 (ix2 r q)
      = v86 (ix2 r q) + ∑ p : Fin 1024, (v29 (ix2 r ⟨16 * 1 + p.val / 64, by have := p.isLt; omega⟩) * v30 (ix2 r p)) * v138 (ix2 p q) := by
  unfold k0_pay15
  refine chunk_apply v29 v30 _ _ _ _ _ _ _ _ _ _ _ _ _ _ _ _ 1 (by norm_num) v86 v138 _ r q ?_ ?_ ?_ ?_ ?_ ?_ ?_ ?_ ?_ ?_ ?_ ?_ ?_ ?_ ?_ ?_
  · intro t; exact h89 t
  · intro t; exact h92 t
  · intro t; exact h95 t
  · intro t; exact (colB1 v97 r t).trans h97
  · intro t; exact colB v29 _ _ ⟨20, by norm_num⟩ rfl rfl r t
  · intro t; exact colB v29 _ _ ⟨21, by norm_num⟩ rfl rfl r t
  · intro t; exact colB v29 _ _ ⟨22, by norm_num⟩ rfl rfl r t
  · intro t; exact colB v29 _ _ ⟨23, by norm_num⟩ rfl rfl r t
  · intro t; exact colB v29 _ _ ⟨24, by norm_num⟩ rfl rfl r t
  · intro t; exact colB v29 _ _ ⟨25, by norm_num⟩ rfl rfl r t
  · intro t; exact colB v29 _ _ ⟨26, by norm_num⟩ rfl rfl r t
  · intro t; exact colB v29 _ _ ⟨27, by norm_num⟩ rfl rfl r t
  · intro t; exact colB v29 _ _ ⟨28, by norm_num⟩ rfl rfl r t
  · intro t; exact colB v29 _ _ ⟨29, by norm_num⟩ rfl rfl r t
  · intro t; exact colB v29 _ _ ⟨30, by norm_num⟩ rfl rfl r t
  · intro t; exact colB v29 _ _ ⟨31, by norm_num⟩ rfl rfl r t

/-- Chunk 2 of the bilinear term: the accumulator plus the sum over the chunk's 1024 pairs. -/
theorem pay21_apply (v29 : FVec Ideal S1000x64 .f32) (v30 : FVec Ideal S1000x1024 .f32) (v141 : FVec Ideal S1000x128 .f32) (v144 v147 v150 v153 : FVec Ideal S1000x64 .f32) (v154 : FVec Ideal S1000x1 .f32) (v193 : Vec Ideal S1024x128 .bf16) (r : Fin 1000) (q : Fin 128)
    (h144 : ∀ t : Fin 64, v144 (ix2 r t) = v29 (ix2 r (32 : Fin 64)))
    (h147 : ∀ t : Fin 64, v147 (ix2 r t) = v29 (ix2 r (33 : Fin 64)))
    (h150 : ∀ t : Fin 64, v150 (ix2 r t) = v29 (ix2 r (34 : Fin 64)))
    (h153 : ∀ t : Fin 64, v153 (ix2 r t) = v29 (ix2 r (35 : Fin 64)))
    (h154 : v154 (ix2 r (0 : Fin 1)) = v29 (ix2 r (36 : Fin 64))) :
    k0_pay21 (F := Ideal) v29 v30 v141 v144 v147 v150 v153 v154 v193 (ix2 r q)
      = v141 (ix2 r q) + ∑ p : Fin 1024, (v29 (ix2 r ⟨16 * 2 + p.val / 64, by have := p.isLt; omega⟩) * v30 (ix2 r p)) * v193 (ix2 p q) := by
  unfold k0_pay21
  refine chunk_apply v29 v30 _ _ _ _ _ _ _ _ _ _ _ _ _ _ _ _ 2 (by norm_num) v141 v193 _ r q ?_ ?_ ?_ ?_ ?_ ?_ ?_ ?_ ?_ ?_ ?_ ?_ ?_ ?_ ?_ ?_
  · intro t; exact h144 t
  · intro t; exact h147 t
  · intro t; exact h150 t
  · intro t; exact h153 t
  · intro t; exact (colB1c v154 r t).trans h154
  · intro t; exact colB v29 _ _ ⟨37, by norm_num⟩ rfl rfl r t
  · intro t; exact colB v29 _ _ ⟨38, by norm_num⟩ rfl rfl r t
  · intro t; exact colB v29 _ _ ⟨39, by norm_num⟩ rfl rfl r t
  · intro t; exact colB v29 _ _ ⟨40, by norm_num⟩ rfl rfl r t
  · intro t; exact colB v29 _ _ ⟨41, by norm_num⟩ rfl rfl r t
  · intro t; exact colB v29 _ _ ⟨42, by norm_num⟩ rfl rfl r t
  · intro t; exact colB v29 _ _ ⟨43, by norm_num⟩ rfl rfl r t
  · intro t; exact colB v29 _ _ ⟨44, by norm_num⟩ rfl rfl r t
  · intro t; exact colB v29 _ _ ⟨45, by norm_num⟩ rfl rfl r t
  · intro t; exact colB v29 _ _ ⟨46, by norm_num⟩ rfl rfl r t
  · intro t; exact colB v29 _ _ ⟨47, by norm_num⟩ rfl rfl r t

/-- The last chunk, the bias, the positive part and the product with the next matrix. -/
theorem pay27_apply (v29 : FVec Ideal S1000x64 .f32) (v30 : FVec Ideal S1000x1024 .f32) (v196 : FVec Ideal S1000x128 .f32)
    (v199 v202 v205 v208 v211 : FVec Ideal S1000x64 .f32) (v248 : Vec Ideal S1024x128 .bf16) (v252 : Vec Ideal S1x128 .f32)
    (v259 : Vec Ideal S128x64 .bf16) (r : Fin 1000) (j : Fin 64)
    (h199 : ∀ t : Fin 64, v199 (ix2 r t) = v29 (ix2 r (48 : Fin 64)))
    (h202 : ∀ t : Fin 64, v202 (ix2 r t) = v29 (ix2 r (49 : Fin 64)))
    (h205 : ∀ t : Fin 64, v205 (ix2 r t) = v29 (ix2 r (50 : Fin 64)))
    (h208 : ∀ t : Fin 64, v208 (ix2 r t) = v29 (ix2 r (51 : Fin 64)))
    (h211 : ∀ t : Fin 64, v211 (ix2 r t) = v29 (ix2 r (52 : Fin 64))) :
    k0_pay27 (F := Ideal) v29 v30 v196 v199 v202 v205 v208 v211 v248 v252 v259 (ix2 r j)
      = ∑ q : Fin 128, max ((v196 (ix2 r q) + ∑ p : Fin 1024, (v29 (ix2 r ⟨16 * 3 + p.val / 64, by have := p.isLt; omega⟩) * v30 (ix2 r p)) * v248 (ix2 p q))
            + v252 (ix2 (0 : Fin 1) q)) 0 * v259 (ix2 q j) := by
  unfold k0_pay27
  refine (mm_128_64 _ _ r j).trans ?_
  refine Finset.sum_congr rfl fun q _ => ?_
  rw [shapeCast_self (v259 : FVec Ideal S128x64 .bf16)]
  refine congrArg (· * v259 (ix2 q j)) ?_
  show max (addf v196 _ (ix2 r q) + broadcastTo S1000x128 _ _ (ix2 r q)) (Ideal.ofBits .f32 0x00000000#32) = _
  rw [Ideal.ofBits_zero_f32, rowB128]
  refine congrArg (fun y => max (y + v252 (ix2 (0 : Fin 1) q)) 0) ?_
  refine chunk_apply v29 v30 _ _ _ _ _ _ _ _ _ _ _ _ _ _ _ _ 3 (by norm_num) v196 v248 _ r q ?_ ?_ ?_ ?_ ?_ ?_ ?_ ?_ ?_ ?_ ?_ ?_ ?_ ?_ ?_ ?_
  · intro t; exact h199 t
  · intro t; exact h202 t
  · intro t; exact h205 t
  · intro t; exact h208 t
  · intro t; exact h211 t
  · intro t; exact colB v29 _ _ ⟨53, by norm_num⟩ rfl rfl r t
  · intro t; exact colB v29 _ _ ⟨54, by norm_num⟩ rfl rfl r t
  · intro t; exact colB v29 _ _ ⟨55, by norm_num⟩ rfl rfl r t
  · intro t; exact colB v29 _ _ ⟨56, by norm_num⟩ rfl rfl r t
  · intro t; exact colB v29 _ _ ⟨57, by norm_num⟩ rfl rfl r t
  · intro t; exact colB v29 _ _ ⟨58, by norm_num⟩ rfl rfl r t
  · intro t; exact colB v29 _ _ ⟨59, by norm_num⟩ rfl rfl r t
  · intro t; exact colB v29 _ _ ⟨60, by norm_num⟩ rfl rfl r t
  · intro t; exact colB v29 _ _ ⟨61, by norm_num⟩ rfl rfl r t
  · intro t; exact colB v29 _ _ ⟨62, by norm_num⟩ rfl rfl r t
  · intro t; exact colB v29 _ _ ⟨63, by norm_num⟩ rfl rfl r t

/-- The whole bilinear stage over a hidden row u: the four chunk sums accumulated from zero, the bias, the positive
    part, the product with the next matrix. -/
theorem bil_apply (u : FVec Ideal S1000x64 .f32) (v30 : FVec Ideal S1000x1024 .f32) (v34 v37 v40 : FVec Ideal S1000x64 .f32)
    (w0 w1 w2 w3 : Vec Ideal S1024x128 .bf16) (b : Vec Ideal S1x128 .f32) (W : Vec Ideal S128x64 .bf16) (r : Fin 1000) (j : Fin 64)
    (h34 : ∀ t : Fin 64, v34 (ix2 r t) = u (ix2 r (0 : Fin 64)))
    (h37 : ∀ t : Fin 64, v37 (ix2 r t) = u (ix2 r (1 : Fin 64)))
    (h40 : ∀ t : Fin 64, v40 (ix2 r t) = u (ix2 r (2 : Fin 64))) :
    k0_pay27 (F := Ideal) u v30
        (k0_pay21 u v30
          (k0_pay15 u v30 (k0_pay10 u v30 (k0_pay6 (F := Ideal)) v34 v37 v40 w0) (k0_pay11 u) (k0_pay12 u) (k0_pay13 u) (k0_pay14 u) w1)
          (k0_pay16 u) (k0_pay17 u) (k0_pay18 u) (k0_pay19 u) (k0_pay20 u) w2)
        (k0_pay22 u) (k0_pay23 u) (k0_pay24 u) (k0_pay25 u) (k0_pay26 u) w3 b W (ix2 r j)
      = ∑ q : Fin 128, max ((((((0
              + ∑ p : Fin 1024, (u (ix2 r ⟨16 * 0 + p.val / 64, by have := p.isLt; omega⟩) * v30 (ix2 r p)) * w0 (ix2 p q))
              + ∑ p : Fin 1024, (u (ix2 r ⟨16 * 1 + p.val / 64, by have := p.isLt; omega⟩) * v30 (ix2 r p)) * w1 (ix2 p q))
              + ∑ p : Fin 1024, (u (ix2 r ⟨16 * 2 + p.val / 64, by have := p.isLt; omega⟩) * v30 (ix2 r p)) * w2 (ix2 p q))
              + ∑ p : Fin 1024, (u (ix2 r ⟨16 * 3 + p.val / 64, by have := p.isLt; omega⟩) * v30 (ix2 r p)) * w3 (ix2 p q)))
            + b (ix2 (0 : Fin 1) q)) 0 * W (ix2 q j) := by
  refine (pay27_apply u v30 _ _ _ _ _ _ w3 b W r j (pay22_apply u r) (pay23_apply u r) (pay24_apply u r) (pay25_apply u r) (pay26_apply u r)).trans ?_
  refine Finset.sum_congr rfl fun q _ => ?_
  rw [pay21_apply u v30 _ _ _ _ _ _ w2 r q (pay16_apply u r) (pay17_apply u r) (pay18_apply u r) (pay19_apply u r) (pay20_apply u r 0),
    pay15_apply u v30 _ _ _ _ _ w1 r q (pay11_apply u r) (pay12_apply u r) (pay13_apply u r) (pay14_apply u r 0),
    pay10_apply u v30 _ v34 v37 v40 w0 r q h34 h37 h40, pay6_apply]

end Cert.KV

end
-- ==== Proof.EdgeSo3.lean ====
/- The bilinear term's sum over the 4096 index pairs, taken as four consecutive blocks of 1024 pairs. -/
import proofs.«417326_j2791728742861_3_alg».proof.Proof.Spec
import proofs.«417326_j2791728742861_3_alg».proof.Proof.LibBlockSum

set_option maxRecDepth 16384

noncomputable section

open scoped BigOperators

namespace Cert.KV

/-- The summand of the bilinear term at the pair number n, extended by zero beyond the 4096 pairs. -/
def so3Term (S' : Fin 4096 → Fin 128 → EReal) (U : Fin 64 → EReal) (q : Fin 128) (n : ℕ) : EReal :=
  if h : n < 4096 then (U ⟨n / 64, by omega⟩ * U ⟨n % 64, Nat.mod_lt _ (by norm_num)⟩) * S' ⟨n, h⟩ q else 0

/-- Inside the range the summand is the product of the two entries of the row and the matrix entry. -/
theorem so3Term_val (S' : Fin 4096 → Fin 128 → EReal) (U : Fin 64 → EReal) (q : Fin 128) (p : Fin 4096) :
    (U ⟨p.val / 64, by have := p.isLt; omega⟩ * U ⟨p.val % 64, Nat.mod_lt _ (by norm_num)⟩) * S' p q = so3Term S' U q p.val := by
  unfold so3Term
  rw [dif_pos p.isLt]

/-- Pair number 1024·c + k: its first index is 16·c + k / 64, its second k mod 64. -/
theorem so3Term_block (S' : Fin 4096 → Fin 128 → EReal) (U : Fin 64 → EReal) (q : Fin 128) (c : ℕ) (hc : c < 4) (k : Fin 1024) :
    so3Term S' U q (1024 * c + k.val)
      = (U ⟨16 * c + k.val / 64, by have := k.isLt; omega⟩ * U ⟨k.val % 64, Nat.mod_lt _ (by norm_num)⟩)
          * S' ⟨1024 * c + k.val, by have := k.isLt; omega⟩ q := by
  have hk := k.isLt
  unfold so3Term
  rw [dif_pos (show 1024 * c + k.val < 4096 by omega)]
  have e1 : (⟨(1024 * c + k.val) / 64, by omega⟩ : Fin 64) = ⟨16 * c + k.val / 64, by omega⟩ :=
    Fin.ext (by show (1024 * c + k.val) / 64 = 16 * c + k.val / 64; omega)
  have e2 : (⟨(1024 * c + k.val) % 64, Nat.mod_lt _ (by norm_num)⟩ : Fin 64) = ⟨k.val % 64, Nat.mod_lt _ (by norm_num)⟩ :=
    Fin.ext (by show (1024 * c + k.val) % 64 = k.val % 64; omega)
  rw [e1, e2]

/-- The sum over all 4096 pairs is zero plus the sums over the four blocks of 1024 pairs, added in order. -/
theorem so3_blocks (S' : Fin 4096 → Fin 128 → EReal) (U : Fin 64 → EReal) (q : Fin 128) :
    Cert.Spec.so3Scaled S' U q
      = (((0 + ∑ p : Fin 1024, (U ⟨16 * 0 + p.val / 64, by have := p.isLt; omega⟩ * U ⟨p.val % 64, Nat.mod_lt _ (by norm_num)⟩) * S' ⟨1024 * 0 + p.val, by have := p.isLt; omega⟩ q)
          + ∑ p : Fin 1024, (U ⟨16 * 1 + p.val / 64, by have := p.isLt; omega⟩ * U ⟨p.val % 64, Nat.mod_lt _ (by norm_num)⟩) * S' ⟨1024 * 1 + p.val, by have := p.isLt; omega⟩ q)
          + ∑ p : Fin 1024, (U ⟨16 * 2 + p.val / 64, by have := p.isLt; omega⟩ * U ⟨p.val % 64, Nat.mod_lt _ (by norm_num)⟩) * S' ⟨1024 * 2 + p.val, by have := p.isLt; omega⟩ q)
          + ∑ p : Fin 1024, (U ⟨16 * 3 + p.val / 64, by have := p.isLt; omega⟩ * U ⟨p.val % 64, Nat.mod_lt _ (by norm_num)⟩) * S' ⟨1024 * 3 + p.val, by have := p.isLt; omega⟩ q := by
  unfold Cert.Spec.so3Scaled
  rw [Finset.sum_congr rfl fun p _ => so3Term_val S' U q p,
    Cert.LibBlockSum.sum_fin_blocks (so3Term S' U q) (B := 1024) (N := 4) (M := 4096) rfl,
    Finset.sum_range_succ, Finset.sum_range_succ, Finset.sum_range_succ, Finset.sum_range_succ, Finset.sum_range_zero]
  have hb : ∀ (c : ℕ) (hc : c < 4), ∑ k : Fin 1024, so3Term S' U q (1024 * c + k.val)
      = ∑ p : Fin 1024, (U ⟨16 * c + p.val / 64, by have := p.isLt; omega⟩ * U ⟨p.val % 64, Nat.mod_lt _ (by norm_num)⟩)
          * S' ⟨1024 * c + p.val, by have := p.isLt; omega⟩ q :=
    fun c hc => Finset.sum_congr rfl fun k _ => so3Term_block S' U q c hc k
  rw [hb 0 (by omega), hb 1 (by omega), hb 2 (by omega), hb 3 (by omega)]

end Cert.KV

end
-- ==== Proof.EdgeBody.lean ====
/- The edge network's block: every entry of the 1000×128 block the first call writes, as a function of the block's rows. -/
import proofs.«417326_j2791728742861_3_alg».proof.Proof.Gen.KernelIdeal.Frame
import proofs.«417326_j2791728742861_3_alg».proof.Proof.Spec
import proofs.«417326_j2791728742861_3_alg».proof.Proof.Params
import proofs.«417326_j2791728742861_3_alg».proof.Proof.LibBlockSum
import proofs.«417326_j2791728742861_3_alg».proof.Proof.EdgeMM
import proofs.«417326_j2791728742861_3_alg».proof.Proof.EdgeU
import proofs.«417326_j2791728742861_3_alg».proof.Proof.EdgeOut
import proofs.«417326_j2791728742861_3_alg».proof.Proof.EdgeBil
import proofs.«417326_j2791728742861_3_alg».proof.Proof.EdgeSo3

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

/-- The zero offsets of a whole-block rectangle. -/
theorem edge_zero_off2 : (![0, 0] : Fin 2 → ℕ) = fun _ => 0 := funext fun a => by
  match a with
  | ⟨0, _⟩ => rfl
  | ⟨1, _⟩ => rfl

/-- A cast to the same shape changes nothing. -/
theorem edge_pay2_apply (x2 : Vec Ideal S1000x3 .f32) : k0_pay2 (F := Ideal) x2 = x2 := by
  unfold k0_pay2
  exact shapeCast_self _ _

/-- The bilinear stage of a row whose hidden row is U, against a matrix S' given by four blocks of 1024 rows: the
    four chunk sums are the whole bilinear term (the sum over the 4096 pairs taken block by block), then the bias, the
    positive part and the product with the next matrix. -/
theorem edge_msg_core (u : FVec Ideal S1000x64 .f32) (v30 : FVec Ideal S1000x1024 .f32) (v34 v37 v40 : FVec Ideal S1000x64 .f32)
    (w0 w1 w2 w3 : Vec Ideal S1024x128 .bf16) (b : Vec Ideal S1x128 .f32) (W : Vec Ideal S128x64 .bf16)
    (U : Fin 64 → EReal) (S' : Fin 4096 → Fin 128 → EReal) (r : Fin 1000) (j : Fin 64)
    (hu : ∀ j : Fin 64, u (ix2 r j) = U j)
    (h30 : ∀ p : Fin 1024, v30 (ix2 r p) = U ⟨p.val % 64, Nat.mod_lt _ (by norm_num)⟩)
    (h34 : ∀ t : Fin 64, v34 (ix2 r t) = u (ix2 r (0 : Fin 64)))
    (h37 : ∀ t : Fin 64, v37 (ix2 r t) = u (ix2 r (1 : Fin 64)))
    (h40 : ∀ t : Fin 64, v40 (ix2 r t) = u (ix2 r (2 : Fin 64)))
    (hw0 : ∀ (p : Fin 1024) (q : Fin 128), w0 (ix2 p q) = S' ⟨1024 * 0 + p.val, by have := p.isLt; omega⟩ q)
    (hw1 : ∀ (p : Fin 1024) (q : Fin 128), w1 (ix2 p q) = S' ⟨1024 * 1 + p.val, by have := p.isLt; omega⟩ q)
    (hw2 : ∀ (p : Fin 1024) (q : Fin 128), w2 (ix2 p q) = S' ⟨1024 * 2 + p.val, by have := p.isLt; omega⟩ q)
    (hw3 : ∀ (p : Fin 1024) (q : Fin 128), w3 (ix2 p q) = S' ⟨1024 * 3 + p.val, by have := p.isLt; omega⟩ q) :
    k0_pay27 (F := Ideal) u v30
        (k0_pay21 u v30
          (k0_pay15 u v30 (k0_pay10 u v30 (k0_pay6 (F := Ideal)) v34 v37 v40 w0) (k0_pay11 u) (k0_pay12 u) (k0_pay13 u) (k0_pay14 u) w1)
          (k0_pay16 u) (k0_pay17 u) (k0_pay18 u) (k0_pay19 u) (k0_pay20 u) w2)
        (k0_pay22 u) (k0_pay23 u) (k0_pay24 u) (k0_pay25 u) (k0_pay26 u) w3 b W (ix2 r j)
      = ∑ q : Fin 128, max (Cert.Spec.so3Scaled S' U q + b (ix2 (0 : Fin 1) q)) 0 * W (ix2 q j) := by
  rw [bil_apply u v30 v34 v37 v40 w0 w1 w2 w3 b W r j h34 h37 h40]
  refine Finset.sum_congr rfl fun q _ => ?_
  rw [so3_blocks]
  simp only [hu, h30, hw0, hw1, hw2, hw3]

/-- Entry (r, k) of the block the edge call writes is column k of the specification's edge row of row r of the input blocks. -/
theorem out0_14_apply (x0 x1 : Vec Ideal S1000x64 .f32) (x2 : Vec Ideal S1000x3 .f32) (x3 : Vec Ideal S129x64 .bf16) (x4 : Vec Ideal S1x64 .f32)
    (x5 : Vec Ideal S64x64 .bf16) (x6 : Vec Ideal S1x64 .f32) (x7 : Vec Ideal S4096x128 .bf16) (x8 : Vec Ideal S1x128 .f32) (x9 : Vec Ideal S128x64 .bf16)
    (x10 : Vec Ideal S1x64 .f32) (x11 : Vec Ideal S64x64 .bf16) (x12 : Vec Ideal S1x64 .f32) (x13 : Vec Ideal S64x1 .bf16) (r : Fin 1000) (k : Fin 128) :
    Cert.KernelIdeal.Gen.out0_14 (F := Ideal) x0 x1 x2 x3 x4 x5 x6 x7 x8 x9 x10 x11 x12 x13 (ix2 r k)
      = Cert.Spec.edgeOutRow (Cert.Params.edgeK x3 x4 x5 x6 x7 x8 x9 x10 x11 x12 x13) (fun j => x0 (ix2 r j)) (fun j => x1 (ix2 r j)) (fun a => x2 (ix2 r a)) k := by
  unfold Cert.KernelIdeal.Gen.out0_14
  rw [View.canon_unit_zero edge_zero_off2]
  simp only [View.ld_unit_zero (S := S1000x64) edge_zero_off2, View.ld_unit_zero (S := S1000x3) edge_zero_off2,
    View.ld_unit_zero (S := S129x64) edge_zero_off2, View.ld_unit_zero (S := S1x64) edge_zero_off2,
    View.ld_unit_zero (S := S64x64) edge_zero_off2, View.ld_unit_zero (S := S1x128) edge_zero_off2,
    View.ld_unit_zero (S := S128x64) edge_zero_off2, View.ld_unit_zero (S := S64x1) edge_zero_off2]
  rw [pay1_apply]
  have hu : ∀ j : Fin 64, k0_pay4 (F := Ideal) x0 x1 x2 x3 x4 x5 x6 (ix2 r j) = Cert.Spec.eFeat (Cert.Params.edgeK x3 x4 x5 x6 x7 x8 x9 x10 x11 x12 x13) (fun j => x0 (ix2 r j)) (fun j => x1 (ix2 r j)) (fun a => x2 (ix2 r a)) j :=
    fun j => pay4_apply x0 x1 x2 x3 x4 x5 x6 x7 x8 x9 x10 x11 x12 x13 r j
  have h30 : ∀ p : Fin 1024, k0_pay5 (F := Ideal) x0 x1 x2 x3 x4 x5 x6 (ix2 r p)
      = Cert.Spec.eFeat (Cert.Params.edgeK x3 x4 x5 x6 x7 x8 x9 x10 x11 x12 x13) (fun j => x0 (ix2 r j)) (fun j => x1 (ix2 r j)) (fun a => x2 (ix2 r a)) ⟨p.val % 64, Nat.mod_lt _ (by norm_num)⟩ :=
    fun p => (pay5_apply x0 x1 x2 x3 x4 x5 x6 r p).trans (hu _)
  have hw0 : ∀ (p : Fin 1024) (q : Fin 128), View.ld x7 r0_5 (ix2 p q) = (fun p q => x7 (ix2 p q)) ⟨1024 * 0 + p.val, by have := p.isLt; omega⟩ q :=
    fun p q => ldRows x7 _ _ 0 rfl rfl p q _ (by show 1024 * 0 + p.val = 0 + p.val; omega)
  have hw1 : ∀ (p : Fin 1024) (q : Fin 128), View.ld x7 r0_6 (ix2 p q) = (fun p q => x7 (ix2 p q)) ⟨1024 * 1 + p.val, by have := p.isLt; omega⟩ q :=
    fun p q => ldRows x7 _ _ 1024 rfl rfl p q _ (by show 1024 * 1 + p.val = 1024 + p.val; omega)
  have hw2 : ∀ (p : Fin 1024) (q : Fin 128), View.ld x7 r0_7 (ix2 p q) = (fun p q => x7 (ix2 p q)) ⟨1024 * 2 + p.val, by have := p.isLt; omega⟩ q :=
    fun p q => ldRows x7 _ _ 2048 rfl rfl p q _ (by show 1024 * 2 + p.val = 2048 + p.val; omega)
  have hw3 : ∀ (p : Fin 1024) (q : Fin 128), View.ld x7 r0_8 (ix2 p q) = (fun p q => x7 (ix2 p q)) ⟨1024 * 3 + p.val, by have := p.isLt; omega⟩ q :=
    fun p q => ldRows x7 _ _ 3072 rfl rfl p q _ (by show 1024 * 3 + p.val = 3072 + p.val; omega)
  have hm := fun j : Fin 64 => edge_msg_core (k0_pay4 (F := Ideal) x0 x1 x2 x3 x4 x5 x6) (k0_pay5 (F := Ideal) x0 x1 x2 x3 x4 x5 x6) (k0_pay7 x0 x1 x2 x3 x4 x5 x6) (k0_pay8 x0 x1 x2 x3 x4 x5 x6) (k0_pay9 x0 x1 x2 x3 x4 x5 x6)
    (View.ld x7 r0_5) (View.ld x7 r0_6) (View.ld x7 r0_7) (View.ld x7 r0_8) x8 x9
    (Cert.Spec.eFeat (Cert.Params.edgeK x3 x4 x5 x6 x7 x8 x9 x10 x11 x12 x13) (fun j => x0 (ix2 r j)) (fun j => x1 (ix2 r j)) (fun a => x2 (ix2 r a))) (fun p q => x7 (ix2 p q)) r j hu h30
    (pay7_apply x0 x1 x2 x3 x4 x5 x6 r) (pay8_apply x0 x1 x2 x3 x4 x5 x6 r) (pay9_apply x0 x1 x2 x3 x4 x5 x6 r) hw0 hw1 hw2 hw3
  simp only [hm, edge_pay2_apply, pay3_apply]
  rfl

end Cert.KV

end
-- ==== Proof.EdgeArray.lean ====
/- The edge call's output array, row by row: each of its twenty 1000-row blocks is the block of one whole-array function,
   the specification's edge row of the gathered feature rows and the coordinate difference of the same edge. -/
import proofs.«417326_j2791728742861_3_alg».proof.Proof.EdgeBody
import Idealize.ShloMosaic.Lib.Pipeline.Value

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The block index maps, decided over the twenty grid points -/

/-- The row-blocked windows (the two feature gathers, the coordinate difference, the output) sit at block (t, 0) at point t. -/
theorem idx_rows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_14.index t (0 : Fin 2) = t.val ∧ win0_14.index t (1 : Fin 2) = 0 :=
  (by decide +kernel : ∀ t : Fin grid0.N, _)

/-- The weight windows sit at block (0, 0) at every point: each is its whole array. -/
theorem idx_whole0 : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Row r of block t is row 1000 t + r of the array, and there are 20 blocks of 1000 rows. -/
theorem lt_rows0 (t : Fin cfg0.N) (r : Fin 1000) : t.val * 1000 + r.val < 20000 := by
  have h : t.val < 20 := lt_of_lt_of_eq t.isLt N_0
  have := r.isLt; omega

/-! ## The input blocks as rows of their arrays -/

/-- Row r of the source features' block at point t is row 1000 t + r of the gathered source features. -/
theorem iblk0_0_apply (c : Dev nD) (t : Fin cfg0.N) (r : Fin 1000) (j : Fin 64) :
    (iblk0 V c 0 t : Vec Ideal S1000x64 .f32) (ix2 r j)
      = (V c main_v25 : S20000x64.Idx → EReal) (ix2 ⟨t.val * 1000 + r.val, lt_rows0 t r⟩ j) := by
  obtain ⟨e0, e1, -⟩ := idx_rows0 t
  unfold iblk0
  rw [View.read_apply]
  show V c main_v25 _ = V c main_v25 _
  congr 1
  funext a; apply Fin.ext
  match a with
  | ⟨0, _⟩ => show win0_0.index t (0 : Fin 2) * 1000 + 1 * r.val = t.val * 1000 + r.val; rw [e0]; omega
  | ⟨1, _⟩ => show win0_0.index t (1 : Fin 2) * 64 + 1 * j.val = j.val; rw [e1]; omega

/-- The same for the target features. -/
theorem iblk0_1_apply (c : Dev nD) (t : Fin cfg0.N) (r : Fin 1000) (j : Fin 64) :
    (iblk0 V c 1 t : Vec Ideal S1000x64 .f32) (ix2 r j)
      = (V c main_v32 : S20000x64.Idx → EReal) (ix2 ⟨t.val * 1000 + r.val, lt_rows0 t r⟩ j) := by
  obtain ⟨-, -, e0, e1, -⟩ := idx_rows0 t
  unfold iblk0
  rw [View.read_apply]
  show V c main_v32 _ = V c main_v32 _
  congr 1
  funext a; apply Fin.ext
  match a with
  | ⟨0, _⟩ => show win0_1.index t (0 : Fin 2) * 1000 + 1 * r.val = t.val * 1000 + r.val; rw [e0]; omega
  | ⟨1, _⟩ => show win0_1.index t (1 : Fin 2) * 64 + 1 * j.val = j.val; rw [e1]; omega

/-- The same for the coordinate differences. -/
theorem iblk0_2_apply (c : Dev nD) (t : Fin cfg0.N) (r : Fin 1000) (a : Fin 3) :
    (iblk0 V c 2 t : Vec Ideal S1000x3 .f32) (ix2 r a)
      = (V c main_v18 : S20000x3.Idx → EReal) (ix2 ⟨t.val * 1000 + r.val, lt_rows0 t r⟩ a) := by
  obtain ⟨-, -, -, -, e0, e1, -⟩ := idx_rows0 t
  unfold iblk0
  rw [View.read_apply]
  show V c main_v18 _ = V c main_v18 _
  congr 1
  funext b; apply Fin.ext
  match b with
  | ⟨0, _⟩ => show win0_2.index t (0 : Fin 2) * 1000 + 1 * r.val = t.val * 1000 + r.val; rw [e0]; omega
  | ⟨1, _⟩ => show win0_2.index t (1 : Fin 2) * 3 + 1 * a.val = a.val; rw [e1]; omega

/-! ## The weight blocks are the weight arrays -/

/-- The first layer's weight. -/
theorem iblk0_3_eq (c : Dev nD) (t : Fin cfg0.N) :
    (iblk0 V c 3 t : Vec Ideal S129x64 .bf16) = (V c main_v33 : Vec Ideal S129x64 .bf16) := by
  obtain ⟨e0, e1, -⟩ := idx_whole0 t
  funext y
  unfold iblk0
  rw [View.read_apply]
  show V c main_v33 _ = V c main_v33 y
  congr 1
  funext a; apply Fin.ext
  match a with
  | ⟨0, _⟩ => show win0_3.index t (0 : Fin 2) * 129 + 1 * (y 0).val = (y 0).val; rw [e0]; omega
  | ⟨1, _⟩ => show win0_3.index t (1 : Fin 2) * 64 + 1 * (y 1).val = (y 1).val; rw [e1]; omega

/-- The first layer's bias. -/
theorem iblk0_4_eq (c : Dev nD) (t : Fin cfg0.N) :
    (iblk0 V c 4 t : Vec Ideal S1x64 .f32) = (V c main_v34 : Vec Ideal S1x64 .f32) := by
  obtain ⟨-, -, e0, e1, -⟩ := idx_whole0 t
  funext y
  unfold iblk0
  rw [View.read_apply]
  show V c main_v34 _ = V c main_v34 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The second layer's weight. -/
theorem iblk0_5_eq (c : Dev nD) (t : Fin cfg0.N) :
    (iblk0 V c 5 t : Vec Ideal S64x64 .bf16) = (V c main_v35 : Vec Ideal S64x64 .bf16) := by
  obtain ⟨-, -, -, -, e0, e1, -⟩ := idx_whole0 t
  funext y
  unfold iblk0
  rw [View.read_apply]
  show V c main_v35 _ = V c main_v35 y
  congr 1
  funext a; apply Fin.ext
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- The second layer's bias. -/
theorem iblk0_6_eq (c : Dev nD) (t : Fin cfg0.N) :
    (iblk0 V c 6 t : Vec Ideal S1x64 .f32) = (V c main_v36 : Vec Ideal S1x64 .f32) := by
  obtain ⟨-, -, -, -, -, -, e0, e1, -⟩ := idx_whole0 t
  funext y
  unfold iblk0
  rw [View.read_apply]
  show V c main_v36 _ = V c main_v36 y
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- The bilinear term's matrix, already scaled. -/
theorem iblk0_7_eq (c : Dev nD) (t : Fin cfg0.N) :
    (iblk0 V c 7 t : Vec Ideal S4096x128 .bf16) = (V c main_v39 : Vec Ideal S4096x128 .bf16) := by
  obtain ⟨-, -, -, -, -, -, -, -, e0, e1, -⟩ := idx_whole0 t
  funext y
  unfold iblk0
  rw [View.read_apply]
  show V c main_v39 _ = V c main_v39 y
  congr 1
  funext a; apply Fin.ext
  match a with
  | ⟨0, _⟩ => show win0_7.index t (0 : Fin 2) * 4096 + 1 * (y 0).val = (y 0).val; rw [e0]; omega
  | ⟨1, _⟩ => show win0_7.index t (1 : Fin 2) * 128 + 1 * (y 1).val = (y 1).val; rw [e1]; omega

/-- The bilinear term's bias. -/
theorem iblk0_8_eq (c : Dev nD) (t : Fin cfg0.N) :
    (iblk0 V c 8 t : Vec Ideal S1x128 .f32) = (V c main_v40 : Vec Ideal S1x128 .f32) := by
  obtain ⟨-, -, -, -, -, -, -, -, -, -, e0, e1, -⟩ := idx_whole0 t
  funext y
  unfold iblk0
  rw [View.read_apply]
  show V c main_v40 _ = V c main_v40 y
  congr 1
  funext a; apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The message layer's weight. -/
theorem iblk0_9_eq (c : Dev nD) (t : Fin cfg0.N) :
    (iblk0 V c 9 t : Vec Ideal S128x64 .bf16) = (V c main_v41 : Vec Ideal S128x64 .bf16) := by
  obtain ⟨-, -, -, -, -, -, -, -, -, -, -, -, e0, e1, -⟩ := idx_whole0 t
  funext y
  unfold iblk0
  rw [View.read_apply]
  show V c main_v41 _ = V c main_v41 y
  congr 1
  funext a; apply Fin.ext
  match a with
  | ⟨0, _⟩ => show win0_9.index t (0 : Fin 2) * 128 + 1 * (y 0).val = (y 0).val; rw [e0]; omega
  | ⟨1, _⟩ => show win0_9.index t (1 : Fin 2) * 64 + 1 * (y 1).val = (y 1).val; rw [e1]; omega

/-- The message layer's bias. -/
theorem iblk0_10_eq (c : Dev nD) (t : Fin cfg0.N) :
    (iblk0 V c 10 t : Vec Ideal S1x64 .f32) = (V c main_v42 : Vec Ideal S1x64 .f32) := by
  obtain ⟨-, -, -, -, -, -, -, -, -, -, -, -, -, -, e0, e1, -⟩ := idx_whole0 t
  funext y
  unfold iblk0
  rw [View.read_apply]
  show V c main_v42 _ = V c main_v42 y
  congr 1
  funext a; apply Fin.ext
  match a with
  | ⟨0, _⟩ => show win0_10.index t (0 : Fin 2) * 1 + 1 * (y 0).val = (y 0).val; rw [e0]; omega
  | ⟨1, _⟩ => show win0_10.index t (1 : Fin 2) * 64 + 1 * (y 1).val = (y 1).val; rw [e1]; omega

/-- The coordinate network's first weight. -/
theorem iblk0_11_eq (c : Dev nD) (t : Fin cfg0.N) :
    (iblk0 V c 11 t : Vec Ideal S64x64 .bf16) = (V c main_v43 : Vec Ideal S64x64 .bf16) := by
  obtain ⟨-, -, -, -, -, -, -, -, -, -, -, -, -, -, -, -, e0, e1, -⟩ := idx_whole0 t
  funext y
  unfold iblk0
  rw [View.read_apply]
  show V c main_v43 _ = V c main_v43 y
  congr 1
  funext a; apply Fin.ext
  match a with
  | ⟨0, _⟩ => show win0_11.index t (0 : Fin 2) * 64 + 1 * (y 0).val = (y 0).val; rw [e0]; omega
  | ⟨1, _⟩ => show win0_11.index t (1 : Fin 2) * 64 + 1 * (y 1).val = (y 1).val; rw [e1]; omega

/-- The coordinate network's bias. -/
theorem iblk0_12_eq (c : Dev nD) (t : Fin cfg0.N) :
    (iblk0 V c 12 t : Vec Ideal S1x64 .f32) = (V c main_v44 : Vec Ideal S1x64 .f32) := by
  obtain ⟨-, -, -, -, -, -, -, -, -, -, -, -, -, -, -, -, -, -, e0, e1, -⟩ := idx_whole0 t
  funext y
  unfold iblk0
  rw [View.read_apply]
  show V c main_v44 _ = V c main_v44 y
  congr 1
  funext a; apply Fin.ext
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

/-- The coordinate network's last weight, a column. -/
theorem iblk0_13_eq (c : Dev nD) (t : Fin cfg0.N) :
    (iblk0 V c 13 t : Vec Ideal S64x1 .bf16) = (V c main_v45 : Vec Ideal S64x1 .bf16) := by
  obtain ⟨-, -, -, -, -, -, -, -, -, -, -, -, -, -, -, -, -, -, -, -, e0, e1⟩ := idx_whole0 t
  funext y
  unfold iblk0
  rw [View.read_apply]
  show V c main_v45 _ = V c main_v45 y
  congr 1
  funext a; apply Fin.ext
  match a with
  | ⟨0, _⟩ => show win0_13.index t (0 : Fin 2) * 64 + 1 * (y 0).val = (y 0).val; rw [e0]; omega
  | ⟨1, _⟩ => show win0_13.index t (1 : Fin 2) * 1 + 1 * (y 1).val = (y 1).val; rw [e1]; omega

/-! ## The whole array -/

/-- Entry (e, k) of the array the edge call ends holding: column k of the specification's edge row of edge e. -/
def edgeRow (c : Dev nD) (e : Fin 20000) (k : Fin 128) : EReal :=
  Cert.Spec.edgeOutRow (Cert.Params.edgeK (V c main_v33) (V c main_v34) (V c main_v35) (V c main_v36) (V c main_v39) (V c main_v40) (V c main_v41) (V c main_v42) (V c main_v43) (V c main_v44) (V c main_v45))
    (fun j => (V c main_v25 : S20000x64.Idx → EReal) (ix2 e j)) (fun j => (V c main_v32 : S20000x64.Idx → EReal) (ix2 e j)) (fun a => (V c main_v18 : S20000x3.Idx → EReal) (ix2 e a)) k

/-- That function over the array's indices. -/
def edgeG (c : Dev nD) : S20000x128.Idx → EReal := fun i => edgeRow V c ⟨(i 0).val, idx2_lt0 i⟩ ⟨(i 1).val, idx2_lt1 i⟩

/-- What the body leaves in the output block at point t, from the input blocks. -/
abbrev edgeBlk (c : Dev nD) (t : Fin cfg0.N) : Vec Ideal S1000x128 .f32 :=
  out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)

/-- Entry (r, k) of that block is entry (1000 t + r, k) of the whole-array function. -/
theorem edgeBlk_apply (c : Dev nD) (t : Fin cfg0.N) (r : Fin 1000) (k : Fin 128) :
    edgeBlk V c t (ix2 r k) = edgeRow V c ⟨t.val * 1000 + r.val, lt_rows0 t r⟩ k := by
  refine (out0_14_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) r k).trans ?_
  rw [iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t]
  have h0 : (fun j : Fin 64 => (iblk0 V c 0 t : Vec Ideal S1000x64 .f32) (ix2 r j)) = fun j => (V c main_v25 : S20000x64.Idx → EReal) (ix2 ⟨t.val * 1000 + r.val, lt_rows0 t r⟩ j) :=
    funext fun j => iblk0_0_apply V c t r j
  have h1 : (fun j : Fin 64 => (iblk0 V c 1 t : Vec Ideal S1000x64 .f32) (ix2 r j)) = fun j => (V c main_v32 : S20000x64.Idx → EReal) (ix2 ⟨t.val * 1000 + r.val, lt_rows0 t r⟩ j) :=
    funext fun j => iblk0_1_apply V c t r j
  have h2 : (fun a : Fin 3 => (iblk0 V c 2 t : Vec Ideal S1000x3 .f32) (ix2 r a)) = fun a => (V c main_v18 : S20000x3.Idx → EReal) (ix2 ⟨t.val * 1000 + r.val, lt_rows0 t r⟩ a) :=
    funext fun a => iblk0_2_apply V c t r a
  rw [h0, h1, h2]
  rfl

/-- What point t writes back is block t of the whole-array function. -/
theorem edge_flushed (c : Dev nD) (t : Fin cfg0.N) :
    (dat0 V c).flushed 14 t = ((cfg0.win 14).blk t).view.read (Elt Ideal) (edgeG V c) := by
  show (cfg0.win 14).cut (grid0.coords t) ((dat0 V c).after 14 t) = _
  rw [after0_14]
  obtain ⟨-, -, -, -, -, -, e0, e1⟩ := idx_rows0 t
  funext y
  rw [View.read_apply]
  have hy0 : (y 0).val < 1000 := (y 0).isLt
  have hy1 : (y 1).val < 128 := (y 1).isLt
  have hx : (cfg0.win 14).xinj (grid0.coords t) y = ix2 (⟨(y 0).val, hy0⟩ : Fin 1000) (⟨(y 1).val, hy1⟩ : Fin 128) := by
    funext a
    match a with
    | ⟨0, _⟩ => rfl
    | ⟨1, _⟩ => rfl
  refine ((congrArg (edgeBlk V c t) hx).trans ?_)
  rw [edgeBlk_apply]
  have k0 : ((((cfg0.win 14).blk t).view.emb y) 0).val = t.val * 1000 + (y 0).val := by
    show win0_14.index t (0 : Fin 2) * 1000 + 1 * (y 0).val = _
    rw [e0]; omega
  have k1 : ((((cfg0.win 14).blk t).view.emb y) 1).val = (y 1).val := by
    show win0_14.index t (1 : Fin 2) * 128 + 1 * (y 1).val = _
    rw [e1]; omega
  exact congrArg₂ (edgeRow V c) (Fin.ext k0.symm) (Fin.ext k1.symm)

/-- Row e lies in the block of point e / 1000, and every point writes its block back. -/
theorem edge_cover (i : S20000x128.Idx) :
    ∃ t : Fin cfg0.N, (cfg0.win 14).flush t = true ∧ i ∈ ((cfg0.win 14).blk t).view.set := by
  have hi0 : (i 0).val < 20000 := idx2_lt0 i
  have hi1 : (i 1).val < 128 := idx2_lt1 i
  have hN : cfg0.N = 20 := N_0
  have ht : (i 0).val / 1000 < cfg0.N := by rw [hN]; omega
  obtain ⟨-, -, -, -, -, -, e0, e1⟩ := idx_rows0 ⟨(i 0).val / 1000, ht⟩
  refine ⟨⟨(i 0).val / 1000, ht⟩, flush0_14 _, ?_⟩
  show i ∈ ((View.whole main_v46).slice (win0_14.rect ⟨(i 0).val / 1000, ht⟩)).set
  rw [View.set_slice_whole, Rect.mem_set_unit]
  intro a
  match a with
  | ⟨0, _⟩ =>
    show win0_14.index ⟨(i 0).val / 1000, ht⟩ (0 : Fin 2) * 1000 ≤ (i 0).val ∧ (i 0).val < win0_14.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_14.index ⟨(i 0).val / 1000, ht⟩ (1 : Fin 2) * 128 ≤ (i 1).val ∧ (i 1).val < win0_14.index ⟨(i 0).val / 1000, ht⟩ (1 : Fin 2) * 128 + 128
    rw [e1]; omega

/-- The array the edge call ends holding is the whole-array function. -/
theorem edge_final (c : Dev nD) : (dat0 V c).arrAt 14 cfg0.N = edgeG V c :=
  (dat0 V c).arrAt_eq_of_cover 14 (edgeG V c) (fun t _ => edge_flushed V c t) edge_cover

/-- Entry (e, k) of the edge call's output array is column k of the specification's edge row of edge e. -/
theorem edge_array (c : Dev nD) (e : Fin 20000) (k : Fin 128) :
    ((Gen.dat0 (F := Ideal) V c).arrAt 14 cfg0.N : S20000x128.Idx → EReal) (ix2 e k)
      = Cert.Spec.edgeOutRow (Cert.Params.edgeK (V c main_v33) (V c main_v34) (V c main_v35) (V c main_v36) (V c main_v39) (V c main_v40) (V c main_v41) (V c main_v42) (V c main_v43) (V c main_v44) (V c main_v45))
          (fun j => (V c main_v25 : S20000x64.Idx → EReal) (ix2 e j)) (fun j => (V c main_v32 : S20000x64.Idx → EReal) (ix2 e j)) (fun a => (V c main_v18 : S20000x3.Idx → EReal) (ix2 e a)) k := by
  rw [edge_final V c]
  rfl

end Cert.KV

end
-- ==== Proof.KHost1.lean ====
/- The first host stretch's weight arrays: what the edge call receives, entry by entry, in terms of the launch arguments. -/
import proofs.«417326_j2791728742861_3_alg».proof.Proof.Gen.KernelIdeal.Frame
import proofs.«417326_j2791728742861_3_alg».proof.Proof.Spec
import Idealize.ShloMosaic.Lib.ValueLayout
import Idealize.ShloMosaic.Lib.KernelVsHost

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## After the first stretch: the edge call's weight arrays, entry by entry

The weight matrices are narrowed to the short float format, which is the identity over the extended reals; the
bias vectors are recast as one-row matrices; the bilinear matrix is multiplied by the constant 64 first. -/

theorem W1_v33_apply (c : Dev nD) (k : Fin 129) (j : Fin 64) :
    (Gen.W1 m ρ c (Proc.devRef .tc main_v33) : S129x64.Idx → EReal) (ix2 k j)
      = (m ((c : Thread nD τ).loc main_arg3) : S129x64.Idx → EReal) (ix2 k j) := by
  dsimp only [Gen.W1, Gen.hostOps0]
  after_results
  rfl

theorem W1_v34_apply (c : Dev nD) (j : Fin 64) :
    (Gen.W1 m ρ c (Proc.devRef .tc main_v34) : S1x64.Idx → EReal) (ix2 0 j)
      = (m ((c : Thread nD τ).loc main_arg4) : S64.Idx → EReal) (ix1 j) := by
  dsimp only [Gen.W1, Gen.hostOps0]
  after_results
  exact shapeCast_a_1a_apply _ _ 0 j

theorem W1_v35_apply (c : Dev nD) (k : Fin 64) (j : Fin 64) :
    (Gen.W1 m ρ c (Proc.devRef .tc main_v35) : S64x64.Idx → EReal) (ix2 k j)
      = (m ((c : Thread nD τ).loc main_arg5) : S64x64.Idx → EReal) (ix2 k j) := by
  dsimp only [Gen.W1, Gen.hostOps0]
  after_results
  rfl

theorem W1_v36_apply (c : Dev nD) (j : Fin 64) :
    (Gen.W1 m ρ c (Proc.devRef .tc main_v36) : S1x64.Idx → EReal) (ix2 0 j)
      = (m ((c : Thread nD τ).loc main_arg6) : S64.Idx → EReal) (ix1 j) := by
  dsimp only [Gen.W1, Gen.hostOps0]
  after_results
  exact shapeCast_a_1a_apply _ _ 0 j

theorem W1_v39_apply (c : Dev nD) (p : Fin 4096) (q : Fin 128) :
    (Gen.W1 m ρ c (Proc.devRef .tc main_v39) : S4096x128.Idx → EReal) (ix2 p q)
      = @HMul.hMul EReal EReal EReal _ ((m ((c : Thread nD τ).loc main_arg7) : S4096x128.Idx → EReal) (ix2 p q)) Cert.Spec.c64 := by
  dsimp only [Gen.W1, Gen.hostOps0]
  after_results
  rfl

theorem W1_v40_apply (c : Dev nD) (q : Fin 128) :
    (Gen.W1 m ρ c (Proc.devRef .tc main_v40) : S1x128.Idx → EReal) (ix2 0 q)
      = (m ((c : Thread nD τ).loc main_arg8) : S128.Idx → EReal) (ix1 q) := by
  dsimp only [Gen.W1, Gen.hostOps0]
  after_results
  exact shapeCast_a_1a_apply _ _ 0 q

theorem W1_v41_apply (c : Dev nD) (k : Fin 128) (j : Fin 64) :
    (Gen.W1 m ρ c (Proc.devRef .tc main_v41) : S128x64.Idx → EReal) (ix2 k j)
      = (m ((c : Thread nD τ).loc main_arg9) : S128x64.Idx → EReal) (ix2 k j) := by
  dsimp only [Gen.W1, Gen.hostOps0]
  after_results
  rfl

theorem W1_v42_apply (c : Dev nD) (j : Fin 64) :
    (Gen.W1 m ρ c (Proc.devRef .tc main_v42) : S1x64.Idx → EReal) (ix2 0 j)
      = (m ((c : Thread nD τ).loc main_arg10) : S64.Idx → EReal) (ix1 j) := by
  dsimp only [Gen.W1, Gen.hostOps0]
  after_results
  exact shapeCast_a_1a_apply _ _ 0 j

theorem W1_v43_apply (c : Dev nD) (k : Fin 64) (j : Fin 64) :
    (Gen.W1 m ρ c (Proc.devRef .tc main_v43) : S64x64.Idx → EReal) (ix2 k j)
      = (m ((c : Thread nD τ).loc main_arg11) : S64x64.Idx → EReal) (ix2 k j) := by
  dsimp only [Gen.W1, Gen.hostOps0]
  after_results
  rfl

theorem W1_v44_apply (c : Dev nD) (j : Fin 64) :
    (Gen.W1 m ρ c (Proc.devRef .tc main_v44) : S1x64.Idx → EReal) (ix2 0 j)
      = (m ((c : Thread nD τ).loc main_arg12) : S64.Idx → EReal) (ix1 j) := by
  dsimp only [Gen.W1, Gen.hostOps0]
  after_results
  exact shapeCast_a_1a_apply _ _ 0 j

theorem W1_v45_apply (c : Dev nD) (k : Fin 64) :
    (Gen.W1 m ρ c (Proc.devRef .tc main_v45) : S64x1.Idx → EReal) (ix2 k 0)
      = (m ((c : Thread nD τ).loc main_arg13) : S64x1.Idx → EReal) (ix2 k 0) := by
  dsimp only [Gen.W1, Gen.hostOps0]
  after_results
  rfl

end Cert.KV

end
-- ==== Proof.KEdge.lean ====
/- The edge call's output array after the call, in the arguments' terms: the weight arrays the call finds are the arguments'
   weights recast (and the bilinear matrix scaled), so the edge network's parameters are the same from either side. -/
import proofs.«417326_j2791728742861_3_alg».proof.Proof.EdgeArray
import proofs.«417326_j2791728742861_3_alg».proof.Proof.KHost1
import proofs.«417326_j2791728742861_3_alg».proof.Proof.Spec
import proofs.«417326_j2791728742861_3_alg».proof.Proof.Params

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The edge network's parameters, from either program's weight arrays -/

/-- Two parameter records with the same eleven fields are the same record. -/
theorem edgeParams_ext {P Q : Cert.Spec.EdgeParams} (h1 : P.We1 = Q.We1) (h2 : P.be1 = Q.be1) (h3 : P.We2 = Q.We2)
    (h4 : P.be2 = Q.be2) (h5 : P.so3 = Q.so3) (h6 : P.bs1 = Q.bs1) (h7 : P.Ws2 = Q.Ws2) (h8 : P.bs2 = Q.bs2)
    (h9 : P.Wc1 = Q.Wc1) (h10 : P.bc1 = Q.bc1) (h11 : P.Wc2 = Q.Wc2) : P = Q := by
  cases P; cases Q
  dsimp only at h1 h2 h3 h4 h5 h6 h7 h8 h9 h10 h11
  subst h1 h2 h3 h4 h5 h6 h7 h8 h9 h10 h11
  rfl

/-- Weight arrays that agree entry by entry (the biases as one-row matrices against vectors, the bilinear matrix as the
    other's times 64) give the same parameters: field by field, the bilinear term by the law that folds the scale into the matrix. -/
theorem edgeK_eq_edgeR_of (x3 : Vec Ideal S129x64 .bf16) (x4 : Vec Ideal S1x64 .f32) (x5 : Vec Ideal S64x64 .bf16) (x6 : Vec Ideal S1x64 .f32)
    (x7 : Vec Ideal S4096x128 .bf16) (x8 : Vec Ideal S1x128 .f32) (x9 : Vec Ideal S128x64 .bf16) (x10 : Vec Ideal S1x64 .f32)
    (x11 : Vec Ideal S64x64 .bf16) (x12 : Vec Ideal S1x64 .f32) (x13 : Vec Ideal S64x1 .bf16)
    (a3 : Vec Ideal Cert.ReferenceIdeal.S129x64 .f32) (a4 : Vec Ideal Cert.ReferenceIdeal.S64 .f32)
    (a5 : Vec Ideal Cert.ReferenceIdeal.S64x64 .f32) (a6 : Vec Ideal Cert.ReferenceIdeal.S64 .f32)
    (a7 : Vec Ideal Cert.ReferenceIdeal.S4096x128 .f32) (a8 : Vec Ideal Cert.ReferenceIdeal.S128 .f32)
    (a9 : Vec Ideal Cert.ReferenceIdeal.S128x64 .f32) (a10 : Vec Ideal Cert.ReferenceIdeal.S64 .f32)
    (a11 : Vec Ideal Cert.ReferenceIdeal.S64x64 .f32) (a12 : Vec Ideal Cert.ReferenceIdeal.S64 .f32)
    (a13 : Vec Ideal Cert.ReferenceIdeal.S64x1 .f32)
    (h3 : ∀ (k : Fin 129) (j : Fin 64), x3 (ix2 k j) = a3 (ix2 k j)) (h4 : ∀ j : Fin 64, x4 (ix2 0 j) = a4 (ix1 j))
    (h5 : ∀ (k : Fin 64) (j : Fin 64), x5 (ix2 k j) = a5 (ix2 k j)) (h6 : ∀ j : Fin 64, x6 (ix2 0 j) = a6 (ix1 j))
    (h7 : ∀ (p : Fin 4096) (q : Fin 128), x7 (ix2 p q) = @HMul.hMul EReal EReal EReal _ (a7 (ix2 p q)) Cert.Spec.c64) (h8 : ∀ q : Fin 128, x8 (ix2 0 q) = a8 (ix1 q))
    (h9 : ∀ (k : Fin 128) (j : Fin 64), x9 (ix2 k j) = a9 (ix2 k j)) (h10 : ∀ j : Fin 64, x10 (ix2 0 j) = a10 (ix1 j))
    (h11 : ∀ (k : Fin 64) (j : Fin 64), x11 (ix2 k j) = a11 (ix2 k j)) (h12 : ∀ j : Fin 64, x12 (ix2 0 j) = a12 (ix1 j))
    (h13 : ∀ k : Fin 64, x13 (ix2 k 0) = a13 (ix2 k 0)) :
    Cert.Params.edgeK x3 x4 x5 x6 x7 x8 x9 x10 x11 x12 x13 = Cert.Params.edgeR a3 a4 a5 a6 a7 a8 a9 a10 a11 a12 a13 := by
  refine edgeParams_ext ?_ ?_ ?_ ?_ ?_ ?_ ?_ ?_ ?_ ?_ ?_
  · funext k j; exact h3 k j
  · funext j; exact h4 j
  · funext k j; exact h5 k j
  · funext j; exact h6 j
  · funext u q; exact Cert.Spec.so3_scaled (fun p q => a7 (ix2 p q)) (fun p q => x7 (ix2 p q)) h7 u q
  · funext q; exact h8 q
  · funext k j; exact h9 k j
  · funext j; exact h10 j
  · funext k j; exact h11 k j
  · funext j; exact h12 j
  · funext k; exact h13 k

/-- So the parameters read off the weight arrays the edge call finds are the parameters read off the arguments. -/
theorem edgeK_eq_edgeR (c : Dev nD) :
    Cert.Params.edgeK (Gen.W1 m ρ c (Proc.devRef .tc main_v33)) (Gen.W1 m ρ c (Proc.devRef .tc main_v34)) (Gen.W1 m ρ c (Proc.devRef .tc main_v35)) (Gen.W1 m ρ c (Proc.devRef .tc main_v36)) (Gen.W1 m ρ c (Proc.devRef .tc main_v39)) (Gen.W1 m ρ c (Proc.devRef .tc main_v40)) (Gen.W1 m ρ c (Proc.devRef .tc main_v41)) (Gen.W1 m ρ c (Proc.devRef .tc main_v42)) (Gen.W1 m ρ c (Proc.devRef .tc main_v43)) (Gen.W1 m ρ c (Proc.devRef .tc main_v44)) (Gen.W1 m ρ c (Proc.devRef .tc main_v45))
      = Cert.Params.edgeR (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  edgeK_eq_edgeR_of _ _ _ _ _ _ _ _ _ _ _ _ _ _ _ _ _ _ _ _ _ _ (W1_v33_apply m ρ c) (W1_v34_apply m ρ c) (W1_v35_apply m ρ c) (W1_v36_apply m ρ c) (W1_v39_apply m ρ c) (W1_v40_apply m ρ c) (W1_v41_apply m ρ c) (W1_v42_apply m ρ c) (W1_v43_apply m ρ c) (W1_v44_apply m ρ c) (W1_v45_apply m ρ c)

/-! ## The edge call's output array after the call -/

/-- Entry (e, k) of the edge call's output array, as the run leaves it: column k of the specification's edge row of edge e,
    at the arguments' parameters and the three gathered arrays. -/
theorem X46_apply (c : Dev nD) (e : Fin 20000) (k : Fin 128) :
    (Gen.W2 m ρ c (Proc.devRef .tc main_v46) : S20000x128.Idx → EReal) (ix2 e k)
      = Cert.Spec.edgeOutRow (Cert.Params.edgeR (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
          (fun j => (Gen.W1 m ρ c (Proc.devRef .tc main_v25) : S20000x64.Idx → EReal) (ix2 e j))
          (fun j => (Gen.W1 m ρ c (Proc.devRef .tc main_v32) : S20000x64.Idx → EReal) (ix2 e j))
          (fun a => (Gen.W1 m ρ c (Proc.devRef .tc main_v18) : S20000x3.Idx → EReal) (ix2 e a)) k := by
  have h : Gen.W2 m ρ c (Proc.devRef .tc main_v46) = (Gen.dat0 (Gen.V1 m ρ) c).arrAt 14 cfg0.N := Gen.W2_arr m ρ c 14
  rw [h]
  refine (edge_array (Gen.V1 m ρ) c e k).trans ?_
  exact congrArg (fun P => Cert.Spec.edgeOutRow P
          (fun j => (Gen.W1 m ρ c (Proc.devRef .tc main_v25) : S20000x64.Idx → EReal) (ix2 e j))
          (fun j => (Gen.W1 m ρ c (Proc.devRef .tc main_v32) : S20000x64.Idx → EReal) (ix2 e j))
          (fun a => (Gen.W1 m ρ c (Proc.devRef .tc main_v18) : S20000x3.Idx → EReal) (ix2 e a)) k) (edgeK_eq_edgeR m ρ c)

end Cert.KV

end
-- ==== Proof.AggBody.lean ====
/- The segment-sum call's block: the 20-trip accumulation of one-hot products is the sum over all 20480 padded edges. -/
import proofs.«417326_j2791728742861_3_alg».proof.Proof.Gen.KernelIdeal.Frame
import proofs.«417326_j2791728742861_3_alg».proof.Proof.Spec
import proofs.«417326_j2791728742861_3_alg».proof.Proof.Params
import proofs.«417326_j2791728742861_3_alg».proof.Proof.LibBlockSum
import Idealize.ShloMosaic.PureOps.Ideal.Laws
import Idealize.ShloMosaic.Lib.ValueLayout
import Idealize.ShloMosaic.Lib.Pipeline.Value

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

namespace Agg

/-- The bit of an equality test, widened to a word and read as a number: one where the words agree, zero elsewhere. -/
theorem onehot_word (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  unfold IntOp.cmpi
  by_cases h : b = a
  · subst h
    rw [if_pos rfl]
    simp
  · rw [if_neg h]
    have : (a == b) = false := by
      rw [beq_eq_false_iff_ne]; exact fun e => h e.symm
    simp [this]

/-- A column of words broadcast along the rows' other axis reads the column's entry of the row. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_agg_0 (j : S1000x128.Idx) (q : dot_S1000x1024_S1024x128_S1000x128_1_0_0_1_n_n.contr.Idx) :
    (dot_S1000x1024_S1024x128_S1000x128_1_0_0_1_n_n.lhsIdx j q 0).val = (j 0).val := by
  unfold DotDims.lhsIdx
  rw [dif_neg (show ¬(0 : Fin S1000x1024.rank) ∈ dot_S1000x1024_S1024x128_S1000x128_1_0_0_1_n_n.lhsBatch by decide), dif_pos (show (0 : Fin S1000x1024.rank) ∈ dot_S1000x1024_S1024x128_S1000x128_1_0_0_1_n_n.lhsNonContracting by decide)]
  rfl
theorem lhs_agg_1 (j : S1000x128.Idx) (q : dot_S1000x1024_S1024x128_S1000x128_1_0_0_1_n_n.contr.Idx) :
    (dot_S1000x1024_S1024x128_S1000x128_1_0_0_1_n_n.lhsIdx j q 1).val = (q ⟨0, by decide⟩).val :=
  dot_S1000x1024_S1024x128_S1000x128_1_0_0_1_n_n.lhsIdx_val_of_single rfl j q
theorem rhs_agg_0 (j : S1000x128.Idx) (q : dot_S1000x1024_S1024x128_S1000x128_1_0_0_1_n_n.contr.Idx) :
    (dot_S1000x1024_S1024x128_S1000x128_1_0_0_1_n_n.rhsIdx j q 0).val = (q ⟨0, by decide⟩).val :=
  dot_S1000x1024_S1024x128_S1000x128_1_0_0_1_n_n.rhsIdx_val_of_single rfl j q
theorem rhs_agg_1 (j : S1000x128.Idx) (q : dot_S1000x1024_S1024x128_S1000x128_1_0_0_1_n_n.contr.Idx) :
    (dot_S1000x1024_S1024x128_S1000x128_1_0_0_1_n_n.rhsIdx j q 1).val = (j 1).val := by
  unfold DotDims.rhsIdx
  rw [dif_neg (show ¬(1 : Fin S1024x128.rank) ∈ dot_S1000x1024_S1024x128_S1000x128_1_0_0_1_n_n.rhsBatch by decide), dif_pos (show (1 : Fin S1024x128.rank) ∈ dot_S1000x1024_S1024x128_S1000x128_1_0_0_1_n_n.rhsNonContracting by decide)]
  rfl

/-- One trip's arithmetic at an entry: the carried value plus the sum, over the trip's 1024 edges, of column q of the edges
    whose source word is the row's node. -/
theorem pay2_apply (i : grid1.Coords) (acc : FVec Ideal S1000x128 .f32) (v11 : Vec Ideal S1x1024 .i32) (v14 : Vec Ideal S1024x128 .f32)
    (r : Fin 1000) (q : Fin 128) :
    k1_pay2 (F := Ideal) i acc v11 v14 (ix2 r q)
      = acc (ix2 r q) + ∑ t : Fin 1024, if v11 (ix2 0 t) = BitVec.ofNat 32 ((i 0).val * 1000 + r.val) then v14 (ix2 t q) else 0 := by
  unfold k1_pay2
  dsimp only
  rw [addf_apply]
  congr 1
  simp only [matmul]
  rw [Ideal.matmul_constant_zero_apply, ← Equiv.sum_comp (contrEquiv1 dot_S1000x1024_S1024x128_S1000x128_1_0_0_1_n_n 1024 rfl rfl).symm]
  refine Finset.sum_congr rfl fun t _ => ?_
  have hk := contrEquiv1_symm_val dot_S1000x1024_S1024x128_S1000x128_1_0_0_1_n_n 1024 rfl rfl t
  have el : dot_S1000x1024_S1024x128_S1000x128_1_0_0_1_n_n.lhsIdx (ix2 r q) ((contrEquiv1 dot_S1000x1024_S1024x128_S1000x128_1_0_0_1_n_n 1024 rfl rfl).symm t) = ix2 r t := funext fun a => Fin.ext (by
    match a with
    | ⟨0, _⟩ => exact lhs_agg_0 _ _
    | ⟨1, _⟩ => exact (lhs_agg_1 _ _).trans hk)
  have er : dot_S1000x1024_S1024x128_S1000x128_1_0_0_1_n_n.rhsIdx (ix2 r q) ((contrEquiv1 dot_S1000x1024_S1024x128_S1000x128_1_0_0_1_n_n 1024 rfl rfl).symm t) = ix2 t q := funext fun a => Fin.ext (by
    match a with
    | ⟨0, _⟩ => exact (rhs_agg_0 _ _).trans hk
    | ⟨1, _⟩ => exact rhs_agg_1 _ _)
  rw [el, er, truncf_apply, truncf_apply, sitofp_apply, extui_apply, shapeCast_self, shapeCast_self]
  show (FloatOps.sitofp (F := Ideal) FTy.f32 (BitVec.setWidth 32 (IntOp.cmpi .eq
      (broadcastTo S1000x1024 (addi (broadcast S1000x1 (Scalar.muli (BitVec.ofNat 32 (i 0).val) 1000#32)) (iota Kind.tc S1000x1 32 [0] iota_S1000x1_d0_w32)) broadcasts_S1000x1_S1000x1024 (ix2 r t))
      (broadcastTo S1000x1024 v11 broadcasts_S1x1024_S1000x1024 (ix2 r t)))) : EReal) * v14 (ix2 t q) = _
  rw [bcast_col_apply, broadcastTo_1b_ab_apply, onehot_word]
  have hw : addi (broadcast S1000x1 (Scalar.muli (BitVec.ofNat 32 (i 0).val) 1000#32)) (iota Kind.tc S1000x1 32 [0] iota_S1000x1_d0_w32) (ix2 r (0 : Fin 1))
      = BitVec.ofNat 32 ((i 0).val * 1000 + r.val) := by
    show BitVec.ofNat 32 (i 0).val * 1000#32 + iota Kind.tc S1000x1 32 [0] iota_S1000x1_d0_w32 (ix2 r (0 : Fin 1)) = _
    rw [iota_single_apply, BitVec.ofNat_add, BitVec.ofNat_mul]
  rw [hw]
  by_cases h : v11 (ix2 0 t) = BitVec.ofNat 32 ((i 0).val * 1000 + r.val)
  · rw [if_pos h, if_pos h, one_mul]
  · rw [if_neg h, if_neg h, zero_mul]

theorem hz : (![0, 0] : Fin 2 → Nat) = fun _ => 0 := funext fun a => by fin_cases a <;> rfl

theorem trips_eq : k1_t1_loop.trips = 20 := by decide +kernel

theorem off1_eq : ∀ k : Fin k1_t1_loop.trips, ∀ a, k1_off1 k a = (![0, 1024 * k.val] : Fin 2 → ℕ) a := by decide +kernel
theorem off2_eq : ∀ k : Fin k1_t1_loop.trips, ∀ a, k1_off2 k a = (![1024 * k.val, 0] : Fin 2 → ℕ) a := by decide +kernel

/-- The contribution of the padded edge e to entry (·, q) of a node's row: column q of the edge array where the edge's
    source word is the node's, zero elsewhere — on every natural, zero past the last padded edge. -/
def aggTerm (x0 : Vec Ideal S20480x128 .f32) (x1 : Vec Ideal S1x20480 .i32) (node : BitVec 32) (q : Fin 128) (e : ℕ) : EReal :=
  if h : e < 20480 then (if x1 (ix2 0 ⟨e, h⟩) = node then x0 (ix2 ⟨e, h⟩ q) else 0) else 0

/-- One trip of the loop at an entry: the carried value plus the contributions of the trip's 1024 edges, which are the
    edges 1024 k … 1024 k + 1023. -/
theorem trip_apply (c : Dev nD) (i : grid1.Coords) (a1 : Memref sig .tc .vmem S20480x128 .f32) (h1 : a1.IsWhole) (a2 : Memref sig .tc .vmem S1x20480 .i32) (h2 : a2.IsWhole)
    (a3 : Memref sig .tc .vmem S1000x128 .f32) (h3 : a3.IsWhole) (x0 : Vec Ideal S20480x128 .f32) (x1 : Vec Ideal S1x20480 .i32)
    (k : Fin k1_t1_loop.trips) (acc : FVec Ideal S1000x128 .f32) (r : Fin 1000) (q : Fin 128) :
    tripR_k1_t1 (F := Ideal) Variants.none c none i a1 h1 a2 h2 a3 h3 (h1.unread x0) (h2.unread x1) k acc (ix2 r q)
      = acc (ix2 r q) + ∑ t : Fin 1024, aggTerm x0 x1 (BitVec.ofNat 32 ((i 0).val * 1000 + r.val)) q (1024 * k.val + t.val) := by
  have hk : k.val < 20 := lt_of_lt_of_eq k.isLt trips_eq
  unfold tripR_k1_t1 trip_k1_t1
  dsimp only
  rw [pay2_apply]
  congr 1
  refine Finset.sum_congr rfl fun t _ => ?_
  have ht : 1024 * k.val + t.val < 20480 := by have := t.isLt; omega
  simp only [View.readAt_eq_ld, h1.read_unread, h2.read_unread]
  have e1 : (Rect.unit (s := S1x20480) (k1_off1 k) S1x1024.size (k1_off1_inb k)).toLoadRect.idx (ix2 0 t) = ix2 0 ⟨1024 * k.val + t.val, ht⟩ :=
    funext fun a => Fin.ext (by
      match a with
      | ⟨0, _⟩ => show k1_off1 k 0 + 1 * 0 = 0; rw [off1_eq k 0]; rfl
      | ⟨1, _⟩ => show k1_off1 k 1 + 1 * t.val = 1024 * k.val + t.val; rw [off1_eq k 1]; simp)
  have e2 : (Rect.unit (s := S20480x128) (k1_off2 k) S1024x128.size (k1_off2_inb k)).toLoadRect.idx (ix2 t q) = ix2 ⟨1024 * k.val + t.val, ht⟩ q :=
    funext fun a => Fin.ext (by
      match a with
      | ⟨0, _⟩ => show k1_off2 k 0 + 1 * t.val = 1024 * k.val + t.val; rw [off2_eq k 0]; simp
      | ⟨1, _⟩ => show k1_off2 k 1 + 1 * q.val = q.val; rw [off2_eq k 1]; simp)
  show (if x1 ((Rect.unit (s := S1x20480) (k1_off1 k) S1x1024.size (k1_off1_inb k)).toLoadRect.idx (ix2 0 t)) = _ then
      x0 ((Rect.unit (s := S20480x128) (k1_off2 k) S1024x128.size (k1_off2_inb k)).toLoadRect.idx (ix2 t q)) else 0) = _
  rw [e1, e2]
  unfold aggTerm
  rw [dif_pos ht]

/-- The carried value before trip n, at an entry: the contributions of the edges below 1024 n. -/
theorem st_apply (c : Dev nD) (i : grid1.Coords) (a1 : Memref sig .tc .vmem S20480x128 .f32) (h1 : a1.IsWhole) (a2 : Memref sig .tc .vmem S1x20480 .i32) (h2 : a2.IsWhole)
    (a3 : Memref sig .tc .vmem S1000x128 .f32) (h3 : a3.IsWhole) (x0 : Vec Ideal S20480x128 .f32) (x1 : Vec Ideal S1x20480 .i32) (r : Fin 1000) (q : Fin 128) :
    ∀ n : ℕ, n ≤ 20 →
      st_k1_t1 (F := Ideal) Variants.none c none i a1 h1 a2 h2 a3 h3 (h1.unread x0) (h2.unread x1) k1_pay1 n (ix2 r q)
        = ∑ e ∈ Finset.range (1024 * n), aggTerm x0 x1 (BitVec.ofNat 32 ((i 0).val * 1000 + r.val)) q e
  | 0, _ => by
    rw [st_k1_t1_zero, Nat.mul_zero, Finset.range_zero, Finset.sum_empty]
    show Ideal.ofBits .f32 0x00000000#32 = 0
    exact Ideal.ofBits_zero_f32
  | n + 1, hn => by
    have hlt : n < k1_t1_loop.trips := by rw [trips_eq]; omega
    have hs : st_k1_t1 (F := Ideal) Variants.none c none i a1 h1 a2 h2 a3 h3 (h1.unread x0) (h2.unread x1) k1_pay1 (n + 1)
        = tripR_k1_t1 (F := Ideal) Variants.none c none i a1 h1 a2 h2 a3 h3 (h1.unread x0) (h2.unread x1) ⟨n, hlt⟩
            (st_k1_t1 (F := Ideal) Variants.none c none i a1 h1 a2 h2 a3 h3 (h1.unread x0) (h2.unread x1) k1_pay1 n) :=
      st_k1_t1_succ (F := Ideal) Variants.none c none i a1 h1 a2 h2 a3 h3 (h1.unread x0) (h2.unread x1) k1_pay1 ⟨n, hlt⟩
    rw [hs, trip_apply, st_apply c i a1 h1 a2 h2 a3 h3 x0 x1 r q n (by omega), Cert.LibBlockSum.sum_range_succ_block_fin]

end Agg

open Agg

/-- Entry (r, k) of the block the aggregation call writes at grid point i: the sum, over the padded edges whose source word is the
    node i·1000 + r, of column k of the padded edge array. -/
theorem out1_apply (c : Dev nD) (i : grid1.Coords) (a1 : Memref sig .tc .vmem S20480x128 .f32) (h1 : a1.IsWhole) (a2 : Memref sig .tc .vmem S1x20480 .i32) (h2 : a2.IsWhole)
    (a3 : Memref sig .tc .vmem S1000x128 .f32) (h3 : a3.IsWhole) (x0 : Vec Ideal S20480x128 .f32) (x1 : Vec Ideal S1x20480 .i32) (r : Fin 1000) (k : Fin 128) :
    Gen.out1_A_2 (F := Ideal) c i a1 h1 a2 h2 a3 h3 x0 x1 (ix2 r k)
      = ∑ e : Fin 20480, if x1 (ix2 0 e) = BitVec.ofNat 32 ((i 0).val * 1000 + r.val) then x0 (ix2 e k) else 0 := by
  unfold out1_A_2
  rw [View.read_writes_eq_canon _ _ _ (cover1_A_2 c i a1 h1 a2 h2 a3 h3 x0 x1)]
  unfold kernelRun1_A
  dsimp only
  rw [View.canon_unit_zero hz]
  have ht : Scf.trips (0#32) (Scalar.addi 0#32 20#32) 1#32 = 20 := trips_eq
  rw [ht, st_apply c i a1 h1 a2 h2 a3 h3 x0 x1 r k 20 le_rfl, show 1024 * 20 = 20480 from rfl,
    ← Fin.sum_univ_eq_sum_range (fun e => aggTerm x0 x1 (BitVec.ofNat 32 ((i 0).val * 1000 + r.val)) k e) 20480]
  refine Finset.sum_congr rfl fun e _ => ?_
  unfold aggTerm
  rw [dif_pos e.isLt]

end Cert.KV

end
-- ==== Proof.AggArray.lean ====
/- The segment-sum call's result array: its row blocks, one per grid point, are the rows of one function of the padded edge array and the
   padded source words, so the array ends holding, at (n, k), the sum of column k over the padded edges whose source word is n. -/
import proofs.«417326_j2791728742861_3_alg».proof.Proof.AggBody

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

namespace Agg

/-- What the aggregation call's result array holds at (n, k), as one function of the padded edge array and the padded source words:
    the sum of column k over the padded edges whose source word is n. -/
def aggG (X48 : S20480x128.Idx → EReal) (X50 : S1x20480.Idx → BitVec 32) : S20000x128.Idx → EReal :=
  fun j => ∑ e : Fin 20480, if X50 (ix2 0 e) = BitVec.ofNat 32 (j 0).val then X48 (ix2 e (j 1)) else 0

/-- The printed index maps over the grid: the two inputs' blocks are their whole arrays at every point; the output's block at point t
    is row block t; and point t's one coordinate is t. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ (grid1.coords t 0).val = t.val :=
  (by decide +kernel : ∀ t : Fin grid1.N, _)

/-- The padded edge array's block at any point is the array. -/
theorem iblk_edges (c : Dev nD) (t : Fin cfg1.N) (e : Fin 20480) (q : Fin 128) :
    (iblk1 V c 0 t : S20480x128.Idx → EReal) (ix2 e q) = (V c main_v48 : S20480x128.Idx → EReal) (ix2 e q) := by
  obtain ⟨e0, e1, -, -, -, -, -⟩ := idx_facts t
  unfold iblk1
  rw [View.read_apply]
  show V c main_v48 _ = V c main_v48 _
  congr 1
  funext a
  apply Fin.ext
  match a with
  | ⟨0, _⟩ => show win1_0.index t (0 : Fin 2) * 20480 + 1 * e.val = e.val; rw [e0]; omega
  | ⟨1, _⟩ => show win1_0.index t (1 : Fin 2) * 128 + 1 * q.val = q.val; rw [e1]; omega

/-- The padded source words' block at any point is the array. -/
theorem iblk_words (c : Dev nD) (t : Fin cfg1.N) (e : Fin 20480) :
    (iblk1 V c 1 t : S1x20480.Idx → BitVec 32) (ix2 0 e) = (V c main_v50 : S1x20480.Idx → BitVec 32) (ix2 0 e) := by
  obtain ⟨-, -, e0, e1, -, -, -⟩ := idx_facts t
  unfold iblk1
  rw [View.read_apply]
  show V c main_v50 _ = V c main_v50 _
  congr 1
  funext a
  apply Fin.ext
  match a with
  | ⟨0, _⟩ => show win1_1.index t (0 : Fin 2) * 1 + 1 * 0 = 0; rw [e0]
  | ⟨1, _⟩ => show win1_1.index t (1 : Fin 2) * 20480 + 1 * e.val = e.val; rw [e1]; omega

/-- A block sum over blocks that are the whole arrays is the whole-array function at the array index the block entry sits at. -/
theorem block_eq (X48 : S20480x128.Idx → EReal) (X50 : S1x20480.Idx → BitVec 32) (x0 : Vec Ideal S20480x128 .f32) (x1 : Vec Ideal S1x20480 .i32)
    (hx0 : ∀ (e : Fin 20480) (q : Fin 128), x0 (ix2 e q) = X48 (ix2 e q)) (hx1 : ∀ e : Fin 20480, x1 (ix2 0 e) = X50 (ix2 0 e))
    (g r : ℕ) (k : Fin 128) (y : S20000x128.Idx) (h0 : (y 0).val = g * 1000 + r) (h1 : y 1 = k) :
    (∑ e : Fin 20480, if x1 (ix2 0 e) = BitVec.ofNat 32 (g * 1000 + r) then x0 (ix2 e k) else 0) = aggG X48 X50 y := by
  simp only [aggG]
  refine Finset.sum_congr rfl fun e _ => ?_
  rw [hx0, hx1, h0, h1]

/-- What point t writes back is row block t of the whole-array function. -/
theorem flushed_eq (c : Dev nD) (t : Fin cfg1.N) :
    (dat1 (F := Ideal) V c).flushed 2 t = ((cfg1.win 2).blk t).view.read (Elt Ideal) (aggG (V c main_v48) (V c main_v50)) := by
  show (cfg1.win 2).cut (grid1.coords t) ((dat1 V c).after 2 t) = _
  rw [after1_2]
  unfold outsAt1
  obtain ⟨-, -, -, -, e0, e1, eg⟩ := idx_facts t
  funext j
  have hj0 : (j 0).val < 1000 := (j 0).isLt
  have hj1 : (j 1).val < 128 := (j 1).isLt
  have e : (cfg1.win 2).xinj (grid1.coords t) j = ix2 (⟨(j 0).val, hj0⟩ : Fin 1000) (⟨(j 1).val, hj1⟩ : Fin 128) :=
    funext fun a => match a with | ⟨0, _⟩ => rfl | ⟨1, _⟩ => rfl
  show out1_A_2 c (grid1.coords t) (ms1_0 t) (hs1_0 t) (ms1_1 t) (hs1_1 t) (ms1_2 t) (hs1_2 t) (iblk1 V c 0 t) (iblk1 V c 1 t)
      ((cfg1.win 2).xinj (grid1.coords t) j) = _
  rw [e]
  refine (out1_apply c (grid1.coords t) (ms1_0 t) (hs1_0 t) (ms1_1 t) (hs1_1 t) (ms1_2 t) (hs1_2 t) (iblk1 V c 0 t) (iblk1 V c 1 t)
    ⟨(j 0).val, hj0⟩ ⟨(j 1).val, hj1⟩).trans ?_
  have hy0 : ((((cfg1.win 2).blk t).view.emb j) 0).val = (grid1.coords t 0).val * 1000 + (j 0).val := by
    show win1_2.index t (0 : Fin 2) * 1000 + 1 * (j 0).val = _; rw [e0, eg]; omega
  have hy1 : (((cfg1.win 2).blk t).view.emb j) 1 = (⟨(j 1).val, hj1⟩ : Fin 128) :=
    Fin.ext (by show win1_2.index t (1 : Fin 2) * 128 + 1 * (j 1).val = (j 1).val; rw [e1]; omega)
  have hb := block_eq (V c main_v48) (V c main_v50) (iblk1 V c 0 t) (iblk1 V c 1 t) (iblk_edges V c t) (iblk_words V c t)
    (grid1.coords t 0).val (j 0).val ⟨(j 1).val, hj1⟩ (((cfg1.win 2).blk t).view.emb j) hy0 hy1
  -- the whole-array function stays a name from here on: only its value at the block entry's array index is used
  generalize hG : aggG (V c main_v48) (V c main_v50) = G at hb ⊢
  show _ = G (((cfg1.win 2).blk t).view.emb j)
  exact hb

end Agg

open Agg

/-- Every row of the result array is in the row block of the point n / 1000. -/
theorem Agg.agg_cover (i : S20000x128.Idx) :
    ∃ t : Fin cfg1.N, (cfg1.win 2).flush t = true ∧ i ∈ ((cfg1.win 2).blk t).view.set := by
  have hN : cfg1.N = 20 := N_1
  have h0 : (i 0).val < 20000 := (i 0).isLt
  have h1 : (i 1).val < 128 := (i 1).isLt
  let t : Fin cfg1.N := ⟨(i 0).val / 1000, by rw [hN]; omega⟩
  obtain ⟨-, -, -, -, e0, e1, -⟩ := idx_facts t
  have ht : t.val = (i 0).val / 1000 := rfl
  refine ⟨t, flush1_2 t, ?_⟩
  show i ∈ ((View.whole main_v51).slice (win1_2.rect t)).set
  rw [View.set_slice_whole, Rect.mem_set_unit]
  intro a
  match a with
  | ⟨0, _⟩ =>
    show win1_2.index t (0 : Fin 2) * 1000 ≤ (i 0).val ∧ (i 0).val < win1_2.index t (0 : Fin 2) * 1000 + 1000
    rw [e0, ht]; omega
  | ⟨1, _⟩ =>
    show win1_2.index t (1 : Fin 2) * 128 ≤ (i 1).val ∧ (i 1).val < win1_2.index t (1 : Fin 2) * 128 + 128
    rw [e1]; omega

/-- Entry (n, k) of the array the aggregation call leaves: the sum of column k of the padded edge array over the padded edges whose
    source word is n. -/
theorem agg_array (V) (c : Dev nD) (n : Fin 20000) (k : Fin 128) :
    ((Gen.dat1 (F := Ideal) V c).arrAt 2 cfg1.N : S20000x128.Idx → EReal) (ix2 n k)
      = (∑ e : Fin 20480, if (V c main_v50 : S1x20480.Idx → BitVec 32) (ix2 0 e) = BitVec.ofNat 32 n.val then (V c main_v48 : S20480x128.Idx → EReal) (ix2 e k) else (0 : EReal) : EReal) := by
  have h := (dat1 (F := Ideal) V c).arrAt_eq_of_cover 2 (aggG (V c main_v48) (V c main_v50)) (fun t _ => flushed_eq V c t) agg_cover
  exact congrFun h (ix2 n k)

end Cert.KV

end
-- ==== Proof.NodeOps.lean ====
/-
  Rows of matrices: two matrices set side by side read at a column, and a product of an m×k by a k×n matrix
  accumulated into zero read at an entry, and with a row of biases added: an affine map of a row. Over the extended reals.
-/
import Idealize.ShloMosaic.Lib.ValueLayout
import Idealize.ShloMosaic.Lib.StackMember
import Idealize.ShloMosaic.Lib.KernelVsHost
import Idealize.ShloMosaic.PureOps.Ideal.Laws
import proofs.«417326_j2791728742861_3_alg».proof.Proof.Spec

noncomputable section

open scoped BigOperators

namespace Cert.NodeOps

open Idealize.ShloMosaic Idealize.ShloMosaic.ValueIdx

section Side
variable {α : Type}

/-- Two matrices with the same rows set side by side: a column left of the seam reads the first. -/
theorem catCols_left {R n1 n2 n : Nat} (x₁ : (⟨2, ![R, n1]⟩ : Shape).Idx → α) (x₂ : (⟨2, ![R, n2]⟩ : Shape).Idx → α)
    (h : Shape.Concatenates [(⟨2, ![R, n1]⟩ : Shape), ⟨2, ![R, n2]⟩] ⟨2, ![R, n]⟩ 1) (r : Fin R) (k : Fin n) (hk : k.val < n1) :
    concatenate ⟨2, ![R, n]⟩ 1 [⟨⟨2, ![R, n1]⟩, x₁⟩, ⟨⟨2, ![R, n2]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A column at or past the seam reads the second, the first's width less. -/
theorem catCols_right {R n1 n2 n : Nat} (x₁ : (⟨2, ![R, n1]⟩ : Shape).Idx → α) (x₂ : (⟨2, ![R, n2]⟩ : Shape).Idx → α)
    (h : Shape.Concatenates [(⟨2, ![R, n1]⟩ : Shape), ⟨2, ![R, n2]⟩] ⟨2, ![R, n]⟩ 1) (r : Fin R) (k : Fin n) (hk : n1 ≤ k.val)
    (hk2 : k.val - n1 < n2) :
    concatenate ⟨2, ![R, n]⟩ 1 [⟨⟨2, ![R, n1]⟩, x₁⟩, ⟨⟨2, ![R, n2]⟩, x₂⟩] h (ix2 r k) = x₂ (ix2 r ⟨k.val - n1, hk2⟩) :=
  concatenate_pair_apply_right 1 x₁ x₂ h (ix2 r k) rfl rfl (ix2 r ⟨k.val - n1, hk2⟩) (fun b hb => by
    match b with
    | ⟨0, _⟩ => rfl
    | ⟨1, _⟩ => exact absurd rfl hb) (by
    show (k.val - n1) + n1 = k.val
    omega)

end Side

/-- The product of an m×k by a k×n matrix accumulated into the zero matrix, at an entry: the sum over the
    contracted coordinate of the products of the entries. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An affine map of a row depends on the row entry by entry. -/
theorem lin_congr {K J : ℕ} {x x' : Fin K → EReal} (h : ∀ c, x c = x' c) (W : Fin K → Fin J → EReal) (b : Fin J → EReal)
    (j : Fin J) : Cert.Spec.lin x W b j = Cert.Spec.lin x' W b j := by
  rw [show x = x' from funext h]

/-- x · σ(x) of an entry, stored in a narrower format: the format change is the identity. -/
theorem silu_apply {s : Shape} (V : FVec Ideal s .f32) (hlt : FTy.bits .bf16 < FTy.bits .f32) (i : s.Idx) (y : EReal) (hV : V i = y) :
    (truncf .bf16 (mulf V (logistic V)) hlt : FVec Ideal s .bf16) i = Cert.Spec.silu y := by
  subst hV; rfl

/-- A layer: the product into zero plus a one-row matrix of biases laid along every row, at an entry, is the affine
    map of the left matrix's row. -/
theorem layer_apply {m k n : Nat} {φ₁ φ₂ : FTy} (d : DotDims ⟨2, ![m, k]⟩ ⟨2, ![k, n]⟩ ⟨2, ![m, n]⟩) (hd : d = DotDims.plain m k n)
    (A : FVec Ideal ⟨2, ![m, k]⟩ φ₁) (B : FVec Ideal ⟨2, ![k, n]⟩ φ₂) (hB : (⟨2, ![k, n]⟩ : Shape).ShapeCasts ⟨2, ![k, n]⟩)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    addf (matmul d none A (shapeCast ⟨2, ![k, n]⟩ B hB) (constant (F := Ideal) ⟨2, ![m, n]⟩ .f32 0x00000000#32))
        (broadcastTo ⟨2, ![m, n]⟩ (shapeCast ⟨2, ![1, n]⟩ bias hc) hb) (ix2 a b)
      = Cert.Spec.lin (fun c => A (ix2 a c)) (fun c j => B (ix2 c j)) (fun j => bias (ix2 (0 : Fin 1) j)) b := by
  subst hd
  unfold Cert.Spec.lin
  rw [addf_apply, matmul_plain_apply, shapeCast_self, shapeCast_self, broadcastTo_1b_ab_apply]

end Cert.NodeOps

end
-- ==== Proof.NodePay.lean ====
/-
  The node network's arithmetic at one entry: row r of the block, column k. The first 67 columns are the residual
  two-layer network of [features, direction, summed messages]; the other 61 are zero.
-/
import proofs.«417326_j2791728742861_3_alg».proof.Proof.Gen.KernelIdeal.Skeleton
import proofs.«417326_j2791728742861_3_alg».proof.Proof.Spec
import proofs.«417326_j2791728742861_3_alg».proof.Proof.Params
import proofs.«417326_j2791728742861_3_alg».proof.Proof.NodeOps

set_option maxRecDepth 16384

noncomputable section

open scoped BigOperators

namespace Cert.KV

open Cert.KernelIdeal Cert.KernelIdeal.Gen
open Idealize.ShloMosaic Idealize.ShloMosaic.ValueIdx

/-- A node's features beside its direction, read at a column. -/
theorem hPos_apply (v0 : FVec Ideal S2000x64 .f32) (v1 : FVec Ideal S2000x3 .f32) (hc : S2000x3.ShapeCasts S2000x3)
    (h : Shape.Concatenates [S2000x64, S2000x3] S2000x67 1) (r : Fin 2000) (k : Fin 67) :
    concatenate S2000x67 1 [⟨S2000x64, v0⟩, ⟨S2000x3, shapeCast S2000x3 v1 hc⟩] h (ix2 r k)
      = Cert.Spec.hPos (fun j => v0 (ix2 r j)) (fun a => v1 (ix2 r a)) k := by
  unfold Cert.Spec.hPos
  rw [shapeCast_self v1]
  split
  · next hk => exact Cert.NodeOps.catCols_left v0 v1 h r k hk
  · next hk => exact Cert.NodeOps.catCols_right v0 v1 h r k (by omega) (by have := k.isLt; omega)

/-- Those 67 columns beside the 64 summed messages, read at a column. -/
theorem nodeIn_apply (v0 : FVec Ideal S2000x64 .f32) (v1 : FVec Ideal S2000x3 .f32) (hc : S2000x3.ShapeCasts S2000x3)
    (h : Shape.Concatenates [S2000x64, S2000x3] S2000x67 1) (v3 : FVec Ideal S2000x64 .f32) (hc3 : S2000x64.ShapeCasts S2000x64)
    (h2 : Shape.Concatenates [S2000x67, S2000x64] S2000x131 1) (r : Fin 2000) (k : Fin 131) :
    concatenate S2000x131 1 [⟨S2000x67, concatenate S2000x67 1 [⟨S2000x64, v0⟩, ⟨S2000x3, shapeCast S2000x3 v1 hc⟩] h⟩,
        ⟨S2000x64, shapeCast S2000x64 v3 hc3⟩] h2 (ix2 r k)
      = Cert.Spec.nodeIn (fun j => v0 (ix2 r j)) (fun a => v1 (ix2 r a)) (fun j => v3 (ix2 r j)) k := by
  unfold Cert.Spec.nodeIn
  rw [shapeCast_self v3]
  split
  · next hk => exact (Cert.NodeOps.catCols_left _ v3 h2 r k hk).trans (hPos_apply v0 v1 hc h r ⟨k.val, hk⟩)
  · next hk => exact Cert.NodeOps.catCols_right _ v3 h2 r k (by omega) (by have := k.isLt; omega)

/-- Entry (r, k) of the node network's result. -/
theorem k2_pay1_apply (v0 : FVec Ideal S2000x64 .f32) (v1 : FVec Ideal S2000x3 .f32) (v3 : FVec Ideal S2000x64 .f32)
    (v8 : FVec Ideal S131x64 .bf16) (v11 : FVec Ideal S1x64 .f32) (v18 : FVec Ideal S64x67 .bf16) (v21 : FVec Ideal S1x67 .f32)
    (r : Fin 2000) (k : Fin 128) :
    Gen.k2_pay1 (F := Ideal) v0 v1 v3 v8 v11 v18 v21 (ix2 r k)
      = if h : k.val < 67 then Cert.Spec.nodeOutRow (Cert.Params.nodeK v8 v11 v18 v21) (fun j => v0 (ix2 r j)) (fun a => v1 (ix2 r a)) (fun j => v3 (ix2 r j)) ⟨k.val, h⟩ else 0 := by
  split
  · next h =>
    refine (Cert.NodeOps.catCols_left _ _ concatenates_S2000x67_S2000x61_S2000x128_d1 r k h).trans ?_
    unfold Cert.Spec.nodeOutRow
    refine (addf_apply _ _ _).trans (congrArg₂ (· + ·) (hPos_apply v0 v1 _ _ r ⟨k.val, h⟩) ?_)
    refine (Cert.NodeOps.layer_apply _ rfl _ v18 _ v21 _ _ r ⟨k.val, h⟩).trans ?_
    refine Cert.NodeOps.lin_congr (fun q => ?_) _ _ _
    refine Cert.NodeOps.silu_apply _ _ _ _ ?_
    refine (Cert.NodeOps.layer_apply _ rfl _ v8 _ v11 _ _ r q).trans ?_
    refine Cert.NodeOps.lin_congr (fun c => ?_) _ _ _
    exact nodeIn_apply v0 v1 shapeCasts_S2000x3_S2000x3 concatenates_S2000x64_S2000x3_S2000x67_d1 v3 shapeCasts_S2000x64_S2000x64
      concatenates_S2000x67_S2000x64_S2000x131_d1 r c
  · next h =>
    refine (Cert.NodeOps.catCols_right _ _ concatenates_S2000x67_S2000x61_S2000x128_d1 r k (by omega) (by have := k.isLt; omega)).trans ?_
    exact Ideal.ofBits_zero_f32

end Cert.KV

end
-- ==== Proof.NodeBody.lean ====
/- The node network's block: every entry of the 2000×128 block the third call writes, as a function of the block's rows. -/
import proofs.«417326_j2791728742861_3_alg».proof.Proof.Gen.KernelIdeal.Frame
import proofs.«417326_j2791728742861_3_alg».proof.Proof.Spec
import proofs.«417326_j2791728742861_3_alg».proof.Proof.Params
import proofs.«417326_j2791728742861_3_alg».proof.Proof.NodePay

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

/-- The offsets of a whole-block rectangle of a matrix are zero. -/
theorem zeros2 : (![0, 0] : Fin 2 → Nat) = fun _ => 0 := by
  funext a
  match a with
  | ⟨0, _⟩ => rfl
  | ⟨1, _⟩ => rfl

/-- Entry (r, k) of the block the node call writes: the node update of row r in the first 67 columns, zero in the rest. -/
theorem out2_7_apply (x0 : Vec Ideal S2000x64 .f32) (x1 : Vec Ideal S2000x3 .f32) (x2 : Vec Ideal S2000x64 .f32) (x3 : Vec Ideal S131x64 .bf16) (x4 : Vec Ideal S1x64 .f32)
    (x5 : Vec Ideal S64x67 .bf16) (x6 : Vec Ideal S1x67 .f32) (r : Fin 2000) (k : Fin 128) :
    Gen.out2_7 (F := Ideal) x0 x1 x2 x3 x4 x5 x6 (ix2 r k)
      = if h : k.val < 67 then Cert.Spec.nodeOutRow (Cert.Params.nodeK x3 x4 x5 x6) (fun j => x0 (ix2 r j)) (fun a => x1 (ix2 r a)) (fun j => x2 (ix2 r j)) ⟨k.val, h⟩ else 0 := by
  unfold Gen.out2_7
  rw [View.canon_unit_zero zeros2]
  simp only [View.ld_unit_zero (S := S2000x64) zeros2, View.ld_unit_zero (S := S2000x3) zeros2, View.ld_unit_zero (S := S131x64) zeros2,
    View.ld_unit_zero (S := S1x64) zeros2, View.ld_unit_zero (S := S64x67) zeros2, View.ld_unit_zero (S := S1x67) zeros2]
  exact k2_pay1_apply x0 x1 x2 x3 x4 x5 x6 r k

end Cert.KV

end
-- ==== Proof.NodeArray.lean ====
/- The node call's output array, row by row: each of its ten 2000-row blocks is the block of one whole-array function,
   the specification's node update of the node's features, direction and summed messages in the first 67 columns, zero in the rest. -/
import proofs.«417326_j2791728742861_3_alg».proof.Proof.NodeBody
import Idealize.ShloMosaic.Lib.Pipeline.Value

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The block index maps, decided over the ten grid points -/

/-- The row-blocked windows (features, direction, summed messages, the output) sit at block (t, 0) at point t. -/
theorem idx_rows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0 :=
  (by decide +kernel : ∀ t : Fin grid2.N, _)

/-- The weight windows sit at block (0, 0) at every point: each is its whole array. -/
theorem idx_whole2 : ∀ t : Fin cfg2.N, win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row r of block t is row 2000 t + r of the array, and there are 10 blocks of 2000 rows. -/
theorem lt_rows2 (t : Fin cfg2.N) (r : Fin 2000) : t.val * 2000 + r.val < 20000 := by
  have h : t.val < 10 := lt_of_lt_of_eq t.isLt N_2
  have := r.isLt; omega

/-! ## The input blocks as rows of their arrays -/

/-- Row r of the features' block at point t is row 2000 t + r of the features. -/
theorem iblk2_0_apply (c : Dev nD) (t : Fin cfg2.N) (r : Fin 2000) (j : Fin 64) :
    (iblk2 V c 0 t : Vec Ideal S2000x64 .f32) (ix2 r j)
      = (V c main_arg0 : S20000x64.Idx → EReal) (ix2 ⟨t.val * 2000 + r.val, lt_rows2 t r⟩ j) := by
  obtain ⟨e0, e1, -⟩ := idx_rows2 t
  unfold iblk2
  rw [View.read_apply]
  show V c main_arg0 _ = V c main_arg0 _
  congr 1
  funext a; apply Fin.ext
  match a with
  | ⟨0, _⟩ => show win2_0.index t (0 : Fin 2) * 2000 + 1 * r.val = t.val * 2000 + r.val; rw [e0]; omega
  | ⟨1, _⟩ => show win2_0.index t (1 : Fin 2) * 64 + 1 * j.val = j.val; rw [e1]; omega

/-- The same for the directions. -/
theorem iblk2_1_apply (c : Dev nD) (t : Fin cfg2.N) (r : Fin 2000) (a : Fin 3) :
    (iblk2 V c 1 t : Vec Ideal S2000x3 .f32) (ix2 r a)
      = (V c main_v47 : S20000x3.Idx → EReal) (ix2 ⟨t.val * 2000 + r.val, lt_rows2 t r⟩ a) := by
  obtain ⟨-, -, e0, e1, -⟩ := idx_rows2 t
  unfold iblk2
  rw [View.read_apply]
  show V c main_v47 _ = V c main_v47 _
  congr 1
  funext b; apply Fin.ext
  match b with
  | ⟨0, _⟩ => show win2_1.index t (0 : Fin 2) * 2000 + 1 * r.val = t.val * 2000 + r.val; rw [e0]; omega
  | ⟨1, _⟩ => show win2_1.index t (1 : Fin 2) * 3 + 1 * a.val = a.val; rw [e1]; omega

/-- The same for the summed messages. -/
theorem iblk2_2_apply (c : Dev nD) (t : Fin cfg2.N) (r : Fin 2000) (j : Fin 64) :
    (iblk2 V c 2 t : Vec Ideal S2000x64 .f32) (ix2 r j)
      = (V c main_v52 : S20000x64.Idx → EReal) (ix2 ⟨t.val * 2000 + r.val, lt_rows2 t r⟩ j) := by
  obtain ⟨-, -, -, -, e0, e1, -⟩ := idx_rows2 t
  unfold iblk2
  rw [View.read_apply]
  show V c main_v52 _ = V c main_v52 _
  congr 1
  funext a; apply Fin.ext
  match a with
  | ⟨0, _⟩ => show win2_2.index t (0 : Fin 2) * 2000 + 1 * r.val = t.val * 2000 + r.val; rw [e0]; omega
  | ⟨1, _⟩ => show win2_2.index t (1 : Fin 2) * 64 + 1 * j.val = j.val; rw [e1]; omega

/-! ## The weight blocks are the weight arrays -/

/-- The first layer's weight. -/
theorem iblk2_3_eq (c : Dev nD) (t : Fin cfg2.N) :
    (iblk2 V c 3 t : Vec Ideal S131x64 .bf16) = (V c main_v60 : Vec Ideal S131x64 .bf16) := by
  obtain ⟨e0, e1, -⟩ := idx_whole2 t
  funext y
  unfold iblk2
  rw [View.read_apply]
  show V c main_v60 _ = V c main_v60 y
  congr 1
  funext a; apply Fin.ext
  match a with
  | ⟨0, _⟩ => show win2_3.index t (0 : Fin 2) * 131 + 1 * (y 0).val = (y 0).val; rw [e0]; omega
  | ⟨1, _⟩ => show win2_3.index t (1 : Fin 2) * 64 + 1 * (y 1).val = (y 1).val; rw [e1]; omega

/-- The first layer's bias. -/
theorem iblk2_4_eq (c : Dev nD) (t : Fin cfg2.N) :
    (iblk2 V c 4 t : Vec Ideal S1x64 .f32) = (V c main_v61 : Vec Ideal S1x64 .f32) := by
  obtain ⟨-, -, e0, e1, -⟩ := idx_whole2 t
  funext y
  unfold iblk2
  rw [View.read_apply]
  show V c main_v61 _ = V c main_v61 y
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- The second layer's weight. -/
theorem iblk2_5_eq (c : Dev nD) (t : Fin cfg2.N) :
    (iblk2 V c 5 t : Vec Ideal S64x67 .bf16) = (V c main_v62 : Vec Ideal S64x67 .bf16) := by
  obtain ⟨-, -, -, -, e0, e1, -⟩ := idx_whole2 t
  funext y
  unfold iblk2
  rw [View.read_apply]
  show V c main_v62 _ = V c main_v62 y
  congr 1
  funext a; apply Fin.ext
  match a with
  | ⟨0, _⟩ => show win2_5.index t (0 : Fin 2) * 64 + 1 * (y 0).val = (y 0).val; rw [e0]; omega
  | ⟨1, _⟩ => show win2_5.index t (1 : Fin 2) * 67 + 1 * (y 1).val = (y 1).val; rw [e1]; omega

/-- The second layer's bias. -/
theorem iblk2_6_eq (c : Dev nD) (t : Fin cfg2.N) :
    (iblk2 V c 6 t : Vec Ideal S1x67 .f32) = (V c main_v63 : Vec Ideal S1x67 .f32) := by
  obtain ⟨-, -, -, -, -, -, e0, e1⟩ := idx_whole2 t
  funext y
  unfold iblk2
  rw [View.read_apply]
  show V c main_v63 _ = V c main_v63 y
  congr 1
  funext a; apply Fin.ext
  match a with
  | ⟨0, _⟩ => show win2_6.index t (0 : Fin 2) * 1 + 1 * (y 0).val = (y 0).val; rw [e0]; omega
  | ⟨1, _⟩ => show win2_6.index t (1 : Fin 2) * 67 + 1 * (y 1).val = (y 1).val; rw [e1]; omega

/-! ## The whole array -/

/-- Entry (n, k) of the array the node call ends holding: column k of the specification's node update of node n for k < 67, zero beyond. -/
def nodeRow (c : Dev nD) (n : Fin 20000) (k : Fin 128) : EReal :=
  if h : k.val < 67 then Cert.Spec.nodeOutRow (Cert.Params.nodeK (V c main_v60) (V c main_v61) (V c main_v62) (V c main_v63))
    (fun j => (V c main_arg0 : S20000x64.Idx → EReal) (ix2 n j)) (fun a => (V c main_v47 : S20000x3.Idx → EReal) (ix2 n a)) (fun j => (V c main_v52 : S20000x64.Idx → EReal) (ix2 n j)) ⟨k.val, h⟩ else 0

/-- That function over the array's indices. -/
def nodeG (c : Dev nD) : S20000x128.Idx → EReal := fun i => nodeRow V c ⟨(i 0).val, idx2_lt0 i⟩ ⟨(i 1).val, idx2_lt1 i⟩

/-- What the body leaves in the output block at point t, from the input blocks. -/
abbrev nodeBlk (c : Dev nD) (t : Fin cfg2.N) : Vec Ideal S2000x128 .f32 :=
  out2_7 (iblk2 V c 0 t) (iblk2 V c 1 t) (iblk2 V c 2 t) (iblk2 V c 3 t) (iblk2 V c 4 t) (iblk2 V c 5 t) (iblk2 V c 6 t)

/-- Entry (r, k) of that block is entry (2000 t + r, k) of the whole-array function. -/
theorem nodeBlk_apply (c : Dev nD) (t : Fin cfg2.N) (r : Fin 2000) (k : Fin 128) :
    nodeBlk V c t (ix2 r k) = nodeRow V c ⟨t.val * 2000 + r.val, lt_rows2 t r⟩ k := by
  refine (out2_7_apply (iblk2 V c 0 t) (iblk2 V c 1 t) (iblk2 V c 2 t) (iblk2 V c 3 t) (iblk2 V c 4 t) (iblk2 V c 5 t) (iblk2 V c 6 t) r k).trans ?_
  rw [iblk2_3_eq V c t, iblk2_4_eq V c t, iblk2_5_eq V c t, iblk2_6_eq V c t]
  have h0 : (fun j : Fin 64 => (iblk2 V c 0 t : Vec Ideal S2000x64 .f32) (ix2 r j)) = fun j => (V c main_arg0 : S20000x64.Idx → EReal) (ix2 ⟨t.val * 2000 + r.val, lt_rows2 t r⟩ j) :=
    funext fun j => iblk2_0_apply V c t r j
  have h1 : (fun a : Fin 3 => (iblk2 V c 1 t : Vec Ideal S2000x3 .f32) (ix2 r a)) = fun a => (V c main_v47 : S20000x3.Idx → EReal) (ix2 ⟨t.val * 2000 + r.val, lt_rows2 t r⟩ a) :=
    funext fun a => iblk2_1_apply V c t r a
  have h2 : (fun j : Fin 64 => (iblk2 V c 2 t : Vec Ideal S2000x64 .f32) (ix2 r j)) = fun j => (V c main_v52 : S20000x64.Idx → EReal) (ix2 ⟨t.val * 2000 + r.val, lt_rows2 t r⟩ j) :=
    funext fun j => iblk2_2_apply V c t r j
  rw [h0, h1, h2]
  rfl

/-- What point t writes back is block t of the whole-array function. -/
theorem node_flushed (c : Dev nD) (t : Fin cfg2.N) :
    (dat2 V c).flushed 7 t = ((cfg2.win 7).blk t).view.read (Elt Ideal) (nodeG V c) := by
  show (cfg2.win 7).cut (grid2.coords t) ((dat2 V c).after 7 t) = _
  rw [after2_7]
  obtain ⟨-, -, -, -, -, -, e0, e1⟩ := idx_rows2 t
  funext y
  rw [View.read_apply]
  have hy0 : (y 0).val < 2000 := (y 0).isLt
  have hy1 : (y 1).val < 128 := (y 1).isLt
  have hx : (cfg2.win 7).xinj (grid2.coords t) y = ix2 (⟨(y 0).val, hy0⟩ : Fin 2000) (⟨(y 1).val, hy1⟩ : Fin 128) := by
    funext a
    match a with
    | ⟨0, _⟩ => rfl
    | ⟨1, _⟩ => rfl
  refine ((congrArg (nodeBlk V c t) hx).trans ?_)
  rw [nodeBlk_apply]
  have k0 : ((((cfg2.win 7).blk t).view.emb y) 0).val = t.val * 2000 + (y 0).val := by
    show win2_7.index t (0 : Fin 2) * 2000 + 1 * (y 0).val = _
    rw [e0]; omega
  have k1 : ((((cfg2.win 7).blk t).view.emb y) 1).val = (y 1).val := by
    show win2_7.index t (1 : Fin 2) * 128 + 1 * (y 1).val = _
    rw [e1]; omega
  exact congrArg₂ (nodeRow V c) (Fin.ext k0.symm) (Fin.ext k1.symm)

/-- Row n lies in the block of point n / 2000, and every point writes its block back. -/
theorem node_cover (i : S20000x128.Idx) :
    ∃ t : Fin cfg2.N, (cfg2.win 7).flush t = true ∧ i ∈ ((cfg2.win 7).blk t).view.set := by
  have hi0 : (i 0).val < 20000 := idx2_lt0 i
  have hi1 : (i 1).val < 128 := idx2_lt1 i
  have hN : cfg2.N = 10 := N_2
  have ht : (i 0).val / 2000 < cfg2.N := by rw [hN]; omega
  obtain ⟨-, -, -, -, -, -, e0, e1⟩ := idx_rows2 ⟨(i 0).val / 2000, ht⟩
  refine ⟨⟨(i 0).val / 2000, ht⟩, flush2_7 _, ?_⟩
  show i ∈ ((View.whole main_v64).slice (win2_7.rect ⟨(i 0).val / 2000, ht⟩)).set
  rw [View.set_slice_whole, Rect.mem_set_unit]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_7.index ⟨(i 0).val / 2000, ht⟩ (1 : Fin 2) * 128 ≤ (i 1).val ∧ (i 1).val < win2_7.index ⟨(i 0).val / 2000, ht⟩ (1 : Fin 2) * 128 + 128
    rw [e1]; omega

/-- The array the node call ends holding is the whole-array function. -/
theorem node_final (c : Dev nD) : (dat2 V c).arrAt 7 cfg2.N = nodeG V c :=
  (dat2 V c).arrAt_eq_of_cover 7 (nodeG V c) (fun t _ => node_flushed V c t) node_cover

/-- Entry (n, k) of the node call's output array: the specification's node update of node n in the first 67 columns, zero in the rest. -/
theorem node_array (c : Dev nD) (n : Fin 20000) (k : Fin 128) :
    ((Gen.dat2 (F := Ideal) V c).arrAt 7 cfg2.N : S20000x128.Idx → EReal) (ix2 n k)
      = if h : k.val < 67 then Cert.Spec.nodeOutRow (Cert.Params.nodeK (V c main_v60) (V c main_v61) (V c main_v62) (V c main_v63))
          (fun j => (V c main_arg0 : S20000x64.Idx → EReal) (ix2 n j)) (fun a => (V c main_v47 : S20000x3.Idx → EReal) (ix2 n a)) (fun j => (V c main_v52 : S20000x64.Idx → EReal) (ix2 n j)) ⟨k.val, h⟩ else 0 := by
  rw [node_final V c]
  rfl

end Cert.KV

end
-- ==== Proof.KHost2.lean ====
/- The host stretches between the first and the second call: the direction columns, the padded edge array and the padded row words, entry by entry. -/
import proofs.«417326_j2791728742861_3_alg».proof.Proof.Gen.KernelIdeal.Frame
import proofs.«417326_j2791728742861_3_alg».proof.Proof.Spec
import Idealize.ShloMosaic.Lib.ValueLayout
import Idealize.ShloMosaic.Lib.KernelVsHost

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## After the stretches between the first and the second call

The first call's output array X (20000 × 128) is cut to its columns 68‥70, padded below with 480 rows of zeros,
and the row words, as one row of 20000, are padded on the right with 480 words of all ones. -/

/-- Columns 68‥70 of the first call's output. -/
theorem W6_v47_apply (c : Dev nD) (e : Fin 20000) (a : Fin 3) :
    (Gen.W6 m ρ c (Proc.devRef .tc main_v47) : S20000x3.Idx → EReal) (ix2 e a)
      = (Gen.W2 m ρ c (Proc.devRef .tc main_v46) : S20000x128.Idx → EReal) (ix2 e ⟨68 + a.val, by omega⟩) := by
  dsimp only [Gen.W6, Gen.W5, Gen.W4, Gen.W3, Gen.hostOps1, Gen.hostOps1_1, Gen.hostOps1_2, Gen.hostOps1_3]
  after_results
  exact slice2_axis1_apply 68 _ _ e a _ rfl

/-- The first call's output with 480 zero rows below. -/
theorem W6_v48_apply (c : Dev nD) (e : Fin 20480) (k : Fin 128) :
    (Gen.W6 m ρ c (Proc.devRef .tc main_v48) : S20480x128.Idx → EReal) (ix2 e k)
      = (if h : e.val < 20000 then (Gen.W2 m ρ c (Proc.devRef .tc main_v46) : S20000x128.Idx → EReal) (ix2 ⟨e.val, h⟩ k) else 0 : EReal) := by
  dsimp only [Gen.W6, Gen.W5, Gen.W4, Gen.W3, Gen.hostOps1, Gen.hostOps1_1, Gen.hostOps1_2, Gen.hostOps1_3]
  after_results
  show pad S20480x128 ![0, 0] ![480, 0] ![0, 0] (Gen.W2 m ρ c (Proc.devRef .tc main_v46) : S20000x128.Idx → EReal)
    (sitofp (F := Ideal) .f32 (constantI S_ 32 0#32) : S_.Idx → EReal) pads_S20000x128_S20480x128_04800_000 h_S_ (ix2 e k) = _
  by_cases h : e.val < 20000
  · rw [dif_pos h]
    exact pad_apply_of_inside (s := S20000x128) (t := S20480x128) ![0, 0] ![480, 0] ![0, 0] _ _ pads_S20000x128_S20480x128_04800_000 h_S_ (ix2 e k) (ix2 ⟨e.val, h⟩ k) (fun a => match a with
      | ⟨0, _⟩ => by show e.val = 0 + e.val * (0 + 1); omega
      | ⟨1, _⟩ => by show k.val = 0 + k.val * (0 + 1); omega)
  · rw [dif_neg h]
    refine (pad_apply_of_not_inside (s := S20000x128) (t := S20480x128) ![0, 0] ![480, 0] ![0, 0] _ _ pads_S20000x128_S20480x128_04800_000 h_S_ (ix2 e k) (0 : Fin 2) ?_).trans ?_
    · show ¬ (0 ≤ e.val ∧ (e.val - 0) % (0 + 1) = 0 ∧ (e.val - 0) / (0 + 1) < 20000)
      omega
    · exact sitofp_zero (φ := .f32)

theorem W6_v50_aux (c : Dev nD) (e : Fin 20480) :
    (Gen.W6 m ρ c (Proc.devRef .tc main_v50) : S1x20480.Idx → BitVec 32) (ix2 0 e)
      = if h : e.val < 20000 then (Gen.W2 m ρ c (Proc.devRef .tc main_v1) : S20000.Idx → BitVec 32) (ix1 ⟨e.val, h⟩) else 4294967295#32 := by
  dsimp only [Gen.W6, Gen.W5, Gen.W4, Gen.W3, Gen.hostOps1, Gen.hostOps1_1, Gen.hostOps1_2, Gen.hostOps1_3]
  after_results
  show pad S1x20480 ![0, 0] ![0, 480] ![0, 0]
    (shapeCast S1x20000 (Gen.W2 m ρ c (Proc.devRef .tc main_v1) : S20000.Idx → BitVec 32) shapeCasts_S20000_S1x20000)
    (constantI S_ 32 4294967295#32 : S_.Idx → BitVec 32) pads_S1x20000_S1x20480_000_04800 h_S_ (ix2 0 e) = _
  by_cases h : e.val < 20000
  · rw [dif_pos h]
    refine (pad_apply_of_inside (s := S1x20000) (t := S1x20480) ![0, 0] ![0, 480] ![0, 0] _ _ pads_S1x20000_S1x20480_000_04800 h_S_ (ix2 0 e) (ix2 0 ⟨e.val, h⟩) (fun a => match a with
      | ⟨0, _⟩ => by show 0 = 0 + 0 * (0 + 1); omega
      | ⟨1, _⟩ => by show e.val = 0 + e.val * (0 + 1); omega)).trans ?_
    exact shapeCast_a_1a_apply _ _ 0 ⟨e.val, h⟩
  · rw [dif_neg h]
    refine (pad_apply_of_not_inside (s := S1x20000) (t := S1x20480) ![0, 0] ![0, 480] ![0, 0] _ _ pads_S1x20000_S1x20480_000_04800 h_S_ (ix2 0 e) (1 : Fin 2) ?_).trans ?_
    · show ¬ (0 ≤ e.val ∧ (e.val - 0) % (0 + 1) = 0 ∧ (e.val - 0) / (0 + 1) < 20000)
      omega
    · rfl

/-- The row words as one row, with 480 words of all ones on the right. -/
theorem W6_v50_apply (c : Dev nD) (e : Fin 20480) :
    (Gen.W6 m ρ c (Proc.devRef .tc main_v50) : S1x20480.Idx → BitVec 32) (ix2 0 e)
      = if h : e.val < 20000 then (Gen.W1 m ρ c (Proc.devRef .tc main_v1) : S20000.Idx → BitVec 32) (ix1 ⟨e.val, h⟩) else 4294967295#32 :=
  (W6_v50_aux m ρ c e).trans (by rw [Gen.W2_of_ne m ρ c main_v1 (by decide)])

end Cert.KV

end
-- ==== Proof.KHost3.lean ====
/- The later host stretches: the arguments they read are as launched; the summed columns, the new coordinates and the node weights before the third call; the result columns after it. -/
import proofs.«417326_j2791728742861_3_alg».proof.Proof.Gen.KernelIdeal.Frame
import proofs.«417326_j2791728742861_3_alg».proof.Proof.Spec
import Idealize.ShloMosaic.Lib.ValueLayout
import Idealize.ShloMosaic.Lib.KernelVsHost

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The arguments the later stretches read are as launched -/

theorem W1_main_arg0 (c : Dev nD) : Gen.W1 m ρ c (Proc.devRef .tc main_arg0) = m ((c : Thread nD τ).loc main_arg0) := by
  dsimp only [Gen.W1, Gen.hostOps0]
  after_results
theorem W1_main_arg1 (c : Dev nD) : Gen.W1 m ρ c (Proc.devRef .tc main_arg1) = m ((c : Thread nD τ).loc main_arg1) := by
  dsimp only [Gen.W1, Gen.hostOps0]
  after_results
theorem W6_main_arg0 (c : Dev nD) : Gen.W6 m ρ c (Proc.devRef .tc main_arg0) = m ((c : Thread nD τ).loc main_arg0) := by
  dsimp only [Gen.W6, Gen.W5, Gen.W4, Gen.W3, Gen.hostOps1, Gen.hostOps1_1, Gen.hostOps1_2, Gen.hostOps1_3]
  after_results
  rw [Gen.W2_of_ne m ρ c main_arg0 (by decide)]
  exact W1_main_arg0 m ρ c
theorem W6_main_arg1 (c : Dev nD) : Gen.W6 m ρ c (Proc.devRef .tc main_arg1) = m ((c : Thread nD τ).loc main_arg1) := by
  dsimp only [Gen.W6, Gen.W5, Gen.W4, Gen.W3, Gen.hostOps1, Gen.hostOps1_1, Gen.hostOps1_2, Gen.hostOps1_3]
  after_results
  rw [Gen.W2_of_ne m ρ c main_arg1 (by decide)]
  exact W1_main_arg1 m ρ c
theorem W7_main_arg0 (c : Dev nD) : Gen.W7 m ρ c (Proc.devRef .tc main_arg0) = m ((c : Thread nD τ).loc main_arg0) :=
  (Gen.W7_of_ne m ρ c main_arg0 (by decide)).trans (W6_main_arg0 m ρ c)
theorem W7_main_arg1 (c : Dev nD) : Gen.W7 m ρ c (Proc.devRef .tc main_arg1) = m ((c : Thread nD τ).loc main_arg1) :=
  (Gen.W7_of_ne m ρ c main_arg1 (by decide)).trans (W6_main_arg1 m ρ c)

/-! ## After the stretch between the second and the third call

The second call's output array Y (20000 × 128) is cut to its columns 0‥63 (the summed messages), 64‥66 (the summed
shifts) and 67 (the edge count); the new coordinates are x + shift / max(count, 1); the node weights are narrowed
(the identity over the extended reals) and the biases recast as one-row matrices. -/

/-- Columns 0‥63 of the second call's output. -/
theorem W8_v52_apply (c : Dev nD) (n : Fin 20000) (j : Fin 64) :
    (Gen.W8 m ρ c (Proc.devRef .tc main_v52) : S20000x64.Idx → EReal) (ix2 n j)
      = (Gen.W7 m ρ c (Proc.devRef .tc main_v51) : S20000x128.Idx → EReal) (ix2 n ⟨j.val, by omega⟩) := by
  dsimp only [Gen.W8, Gen.hostOps2]
  after_results
  exact slice2_axis1_apply 0 _ _ n j _ (Nat.zero_add _).symm

/-- The new coordinates: x + (columns 64‥66) / max(column 67, 1). -/
theorem W8_v59_apply (c : Dev nD) (n : Fin 20000) (a : Fin 3) :
    (Gen.W8 m ρ c (Proc.devRef .tc main_v59) : S20000x3.Idx → EReal) (ix2 n a)
      = Cert.Spec.coordOut ((m ((c : Thread nD τ).loc main_arg1) : S20000x3.Idx → EReal) (ix2 n a))
          ((Gen.W7 m ρ c (Proc.devRef .tc main_v51) : S20000x128.Idx → EReal) (ix2 n ⟨64 + a.val, by omega⟩))
          ((Gen.W7 m ρ c (Proc.devRef .tc main_v51) : S20000x128.Idx → EReal) (ix2 n ⟨67, by omega⟩)) := by
  dsimp only [Gen.W8, Gen.hostOps2]
  after_results
  rw [W7_main_arg1 m ρ c]
  unfold Cert.Spec.coordOut Cert.Spec.one
  refine congrArg₂ (fun u v : EReal => @HAdd.hAdd EReal EReal EReal _ ((m ((c : Thread nD τ).loc main_arg1) : S20000x3.Idx → EReal) (ix2 n a)) (Ideal.div u v)) ?_ ?_
  · exact slice2_axis1_apply 64 _ _ n a _ rfl
  · refine (broadcastInDim_apply _ bcast_S20000x1_S20000x3_0_1 _ (ix2 n a) (ix2 n 0) (fun b => match b with
      | ⟨0, _⟩ => by show n.val = if (20000 : Nat) = 1 then 0 else n.val; rw [if_neg (by decide)]
      | ⟨1, _⟩ => by show 0 = if (1 : Nat) = 1 then 0 else a.val; rw [if_pos rfl])).trans ?_
    refine congrArg₂ (fun u v : EReal => max u v) ?_ rfl
    exact slice2_axis1_apply 67 _ _ n 0 _ rfl

theorem W8_v60_apply (c : Dev nD) (k : Fin 131) (j : Fin 64) :
    (Gen.W8 m ρ c (Proc.devRef .tc main_v60) : S131x64.Idx → EReal) (ix2 k j)
      = (m ((c : Thread nD τ).loc main_arg14) : S131x64.Idx → EReal) (ix2 k j) := by
  dsimp only [Gen.W8, Gen.hostOps2]
  after_results
  rfl

theorem W8_v61_apply (c : Dev nD) (j : Fin 64) :
    (Gen.W8 m ρ c (Proc.devRef .tc main_v61) : S1x64.Idx → EReal) (ix2 0 j)
      = (m ((c : Thread nD τ).loc main_arg15) : S64.Idx → EReal) (ix1 j) := by
  dsimp only [Gen.W8, Gen.hostOps2]
  after_results
  exact shapeCast_a_1a_apply _ _ 0 j

theorem W8_v62_apply (c : Dev nD) (k : Fin 64) (j : Fin 67) :
    (Gen.W8 m ρ c (Proc.devRef .tc main_v62) : S64x67.Idx → EReal) (ix2 k j)
      = (m ((c : Thread nD τ).loc main_arg16) : S64x67.Idx → EReal) (ix2 k j) := by
  dsimp only [Gen.W8, Gen.hostOps2]
  after_results
  rfl

theorem W8_v63_apply (c : Dev nD) (j : Fin 67) :
    (Gen.W8 m ρ c (Proc.devRef .tc main_v63) : S1x67.Idx → EReal) (ix2 0 j)
      = (m ((c : Thread nD τ).loc main_arg17) : S67.Idx → EReal) (ix1 j) := by
  dsimp only [Gen.W8, Gen.hostOps2]
  after_results
  exact shapeCast_a_1a_apply _ _ 0 j

/-- The node features are as launched. -/
theorem W8_main_arg0 (c : Dev nD) : Gen.W8 m ρ c (Proc.devRef .tc main_arg0) = m ((c : Thread nD τ).loc main_arg0) := by
  dsimp only [Gen.W8, Gen.hostOps2]
  after_results
  exact W7_main_arg0 m ρ c

/-- The direction columns are as the earlier stretch left them. -/
theorem W8_v47_aux (c : Dev nD) : Gen.W8 m ρ c (Proc.devRef .tc main_v47) = Gen.W7 m ρ c (Proc.devRef .tc main_v47) := by
  dsimp only [Gen.W8, Gen.hostOps2]
  after_results
theorem W8_v47 (c : Dev nD) : Gen.W8 m ρ c (Proc.devRef .tc main_v47) = Gen.W6 m ρ c (Proc.devRef .tc main_v47) :=
  (W8_v47_aux m ρ c).trans (Gen.W7_of_ne m ρ c main_v47 (by decide))

/-! ## After the last stretch -/

/-- Columns 0‥66 of the third call's output. -/
theorem W10_v65_apply (c : Dev nD) (n : Fin 20000) (k : Fin 67) :
    (Gen.W10 m ρ c (Proc.devRef .tc main_v65) : S20000x67.Idx → EReal) (ix2 n k)
      = (Gen.W9 m ρ c (Proc.devRef .tc main_v64) : S20000x128.Idx → EReal) (ix2 n ⟨k.val, by omega⟩) := by
  dsimp only [Gen.W10, Gen.hostOps3]
  after_results
  exact slice2_axis1_apply 0 _ _ n k _ (Nat.zero_add _).symm

theorem W10_v59_aux (c : Dev nD) : Gen.W10 m ρ c (Proc.devRef .tc main_v59) = Gen.W9 m ρ c (Proc.devRef .tc main_v59) := by
  dsimp only [Gen.W10, Gen.hostOps3]
  after_results
/-- The new coordinates are as the earlier stretch left them. -/
theorem W10_v59 (c : Dev nD) : Gen.W10 m ρ c (Proc.devRef .tc main_v59) = Gen.W8 m ρ c (Proc.devRef .tc main_v59) :=
  (W10_v59_aux m ρ c).trans (Gen.W9_of_ne m ρ c main_v59 (by decide))

end Cert.KV

end
-- ==== Proof.SegLaws.lean ====
/-
  Laws of the segment sum used when the two programs are joined: a source word equals the word of a node number
  exactly when it reads, as a signed integer, as that number; and a sum over the 20480 padded edges whose padding
  contributes nothing is the segment sum over the 20000 real edges.
-/
import proofs.«417326_j2791728742861_3_alg».proof.Proof.Spec
import Mathlib.Algebra.BigOperators.Fin

noncomputable section

open scoped BigOperators

namespace Cert.SegLaws

/-- The word of a node number reads, unsigned, as that number. -/
theorem toNat_node (n : ℕ) (hn : n < 20000) : (BitVec.ofNat 32 n).toNat = n := by
  rw [BitVec.toNat_ofNat]; exact Nat.mod_eq_of_lt (by omega)

/-- … and signed as well: node numbers are below 2³¹. -/
theorem toInt_node (n : ℕ) (hn : n < 20000) : (BitVec.ofNat 32 n).toInt = (n : ℤ) := by
  rw [BitVec.toInt_eq_toNat_of_lt (by rw [toNat_node n hn]; omega), toNat_node n hn]

/-- A 32-bit word is a node's word iff its signed reading is the node number. -/
theorem word_eq_iff (w : BitVec 32) (n : ℕ) (hn : n < 20000) : w = BitVec.ofNat 32 n ↔ w.toInt = (n : ℤ) := by
  constructor
  · rintro rfl; exact toInt_node n hn
  · intro h; exact BitVec.eq_of_toInt_eq (h.trans (toInt_node n hn).symm)

/-- The padding word, minus one, is no node's word. -/
theorem pad_ne (n : ℕ) (hn : n < 20000) : (4294967295#32 : BitVec 32) ≠ BitVec.ofNat 32 n := by
  intro h
  have := congrArg BitVec.toNat h
  rw [toNat_node n hn] at this
  simp at this
  omega

/-- A sum over a + b indices whose last b terms vanish is the sum of the first a terms. -/
theorem sum_pad {a b : ℕ} (f : Fin (a + b) → EReal) (h : ∀ i : Fin b, f (Fin.natAdd a i) = 0) :
    ∑ e, f e = ∑ e : Fin a, f (Fin.castAdd b e) := by
  rw [Fin.sum_univ_add, Finset.sum_eq_zero (fun i _ => h i), add_zero]

/-- A sum over the padded edges, in which a padded edge carries the padding word and a real edge its own word and
    value, is the segment sum over the real edges. -/
theorem seg_padded (rp : Fin 20480 → BitVec 32) (xp : Fin 20480 → EReal) (row : Fin 20000 → BitVec 32) (x : Fin 20000 → EReal)
    (hr : ∀ e : Fin 20480, rp e = if h : e.val < 20000 then row ⟨e.val, h⟩ else 4294967295#32)
    (hx : ∀ (e : Fin 20480) (h : e.val < 20000), xp e = x ⟨e.val, h⟩) (n : Fin 20000) :
    (∑ e : Fin 20480, if rp e = BitVec.ofNat 32 n.val then xp e else 0) = Cert.Spec.seg row x n := by
  unfold Cert.Spec.seg
  refine (sum_pad (a := 20000) (b := 480) (fun e => if rp e = BitVec.ofNat 32 n.val then xp e else 0) (fun i => ?_)).trans ?_
  · have hlt : ¬ (Fin.natAdd 20000 i : Fin (20000 + 480)).val < 20000 := by simp [Fin.natAdd]
    show (if rp (Fin.natAdd 20000 i) = BitVec.ofNat 32 n.val then xp (Fin.natAdd 20000 i) else 0) = 0
    rw [if_neg]
    rw [hr, dif_neg hlt]
    exact pad_ne n.val n.isLt
  · refine Finset.sum_congr rfl fun e _ => ?_
    have he : (Fin.castAdd 480 e : Fin (20000 + 480)).val < 20000 := by simp [Fin.castAdd]
    have hee : (⟨(Fin.castAdd 480 e : Fin (20000 + 480)).val, he⟩ : Fin 20000) = e := Fin.ext (by simp [Fin.castAdd])
    show (if rp (Fin.castAdd 480 e) = BitVec.ofNat 32 n.val then xp (Fin.castAdd 480 e) else 0) = _
    rw [hr, dif_pos he, hx _ he, hee]
    by_cases hw : row e = BitVec.ofNat 32 n.val
    · rw [if_pos hw, if_pos ((word_eq_iff _ _ n.isLt).mp hw)]
    · rw [if_neg hw, if_neg (fun h => hw ((word_eq_iff _ _ n.isLt).mpr h))]

end Cert.SegLaws

end
-- ==== Proof.KNodeP.lean ====
/- The node network's parameters are the same read off the weight arrays the node call finds as read off the arguments:
   the call's weight arrays are the arguments' weights recast (the biases as one-row matrices). -/
import proofs.«417326_j2791728742861_3_alg».proof.Proof.KHost3
import proofs.«417326_j2791728742861_3_alg».proof.Proof.Spec
import proofs.«417326_j2791728742861_3_alg».proof.Proof.Params

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- Two parameter records with the same four fields are the same record. -/
theorem nodeParams_ext {P Q : Cert.Spec.NodeParams} (h1 : P.Wn1 = Q.Wn1) (h2 : P.bn1 = Q.bn1) (h3 : P.Wn2 = Q.Wn2)
    (h4 : P.bn2 = Q.bn2) : P = Q := by
  cases P; cases Q
  dsimp only at h1 h2 h3 h4
  subst h1 h2 h3 h4
  rfl

/-- Weight arrays that agree entry by entry (the biases as one-row matrices against vectors) give the same parameters, field by field. -/
theorem nodeK_eq_nodeR_of (x3 : Vec Ideal S131x64 .bf16) (x4 : Vec Ideal S1x64 .f32) (x5 : Vec Ideal S64x67 .bf16) (x6 : Vec Ideal S1x67 .f32)
    (a14 : Vec Ideal Cert.ReferenceIdeal.S131x64 .f32) (a15 : Vec Ideal Cert.ReferenceIdeal.S64 .f32)
    (a16 : Vec Ideal Cert.ReferenceIdeal.S64x67 .f32) (a17 : Vec Ideal Cert.ReferenceIdeal.S67 .f32)
    (h3 : ∀ (k : Fin 131) (j : Fin 64), x3 (ix2 k j) = a14 (ix2 k j)) (h4 : ∀ j : Fin 64, x4 (ix2 0 j) = a15 (ix1 j))
    (h5 : ∀ (k : Fin 64) (j : Fin 67), x5 (ix2 k j) = a16 (ix2 k j)) (h6 : ∀ j : Fin 67, x6 (ix2 0 j) = a17 (ix1 j)) :
    Cert.Params.nodeK x3 x4 x5 x6 = Cert.Params.nodeR a14 a15 a16 a17 := by
  refine nodeParams_ext ?_ ?_ ?_ ?_
  · funext k j; exact h3 k j
  · funext j; exact h4 j
  · funext k j; exact h5 k j
  · funext j; exact h6 j

/-- So the parameters read off the weight arrays the node call finds are the parameters read off the arguments. -/
theorem nodeK_eq_nodeR_W (c : Dev nD) :
    Cert.Params.nodeK (Gen.W8 m ρ c (Proc.devRef .tc main_v60)) (Gen.W8 m ρ c (Proc.devRef .tc main_v61)) (Gen.W8 m ρ c (Proc.devRef .tc main_v62)) (Gen.W8 m ρ c (Proc.devRef .tc main_v63))
      = Cert.Params.nodeR (m ((c : Thread nD τ).loc main_arg14)) (m ((c : Thread nD τ).loc main_arg15)) (m ((c : Thread nD τ).loc main_arg16)) (m ((c : Thread nD τ).loc main_arg17)) :=
  nodeK_eq_nodeR_of _ _ _ _ _ _ _ _ (W8_v60_apply m ρ c) (W8_v61_apply m ρ c) (W8_v62_apply m ρ c) (W8_v63_apply m ρ c)

/-- The same, the call's arrays spelled as the contents the call is entered with. -/
theorem nodeK_eq_nodeR (c : Dev nD) :
    Cert.Params.nodeK (Gen.V8 m ρ c main_v60) (Gen.V8 m ρ c main_v61) (Gen.V8 m ρ c main_v62) (Gen.V8 m ρ c main_v63)
      = Cert.Params.nodeR (m ((c : Thread nD τ).loc main_arg14)) (m ((c : Thread nD τ).loc main_arg15)) (m ((c : Thread nD τ).loc main_arg16)) (m ((c : Thread nD τ).loc main_arg17)) :=
  nodeK_eq_nodeR_W m ρ c

end Cert.KV

end
-- ==== Proof.KVals.lean ====
/-
  The kernel's two results, entry by entry, over what its first call leaves (the edge array X, 20000 × 128) and the
  launch memory: the second call's array is, column by column, the segment sum of X over the source words; the new
  coordinates are the old ones plus (summed shift)/max(count, 1); the new features are the node network of the old
  features, the direction columns of X and the summed messages.
-/
import proofs.«417326_j2791728742861_3_alg».proof.Proof.AggArray
import proofs.«417326_j2791728742861_3_alg».proof.Proof.NodeArray
import proofs.«417326_j2791728742861_3_alg».proof.Proof.KHost2
import proofs.«417326_j2791728742861_3_alg».proof.Proof.KHost3
import proofs.«417326_j2791728742861_3_alg».proof.Proof.SegLaws
import proofs.«417326_j2791728742861_3_alg».proof.Proof.KNodeP

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The edge array X the first call leaves. -/
abbrev X46 (c : Dev nD) : S20000x128.Idx → EReal := Gen.W2 m ρ c (Proc.devRef .tc main_v46)

/-- The node array the second call leaves. -/
abbrev X51 (c : Dev nD) : S20000x128.Idx → EReal := Gen.W7 m ρ c (Proc.devRef .tc main_v51)

/-- The source words of the edges. -/
abbrev rowK (c : Dev nD) : Fin 20000 → BitVec 32 := fun e => (Gen.W1 m ρ c (Proc.devRef .tc main_v1) : S20000.Idx → BitVec 32) (ix1 e)

/-- Column k of the second call's array at node n is the segment sum of column k of X. -/
theorem X51_apply (c : Dev nD) (n : Fin 20000) (k : Fin 128) :
    X51 m ρ c (ix2 n k) = Cert.Spec.seg (rowK m ρ c) (fun e => X46 m ρ c (ix2 e k)) n := by
  have h1 : X51 m ρ c = (Gen.dat1 (F := Ideal) (Gen.V6 m ρ) c).arrAt 2 cfg1.N := Gen.W7_arr m ρ c 2
  rw [h1, agg_array (Gen.V6 m ρ) c n k]
  refine Cert.SegLaws.seg_padded _ _ _ _ (fun e => ?_) (fun e h => ?_) n
  · exact W6_v50_apply m ρ c e
  · exact (W6_v48_apply m ρ c e k).trans (dif_pos h)

/-- The new coordinates. -/
theorem v59_apply (c : Dev nD) (n : Fin 20000) (a : Fin 3) :
    (Gen.W10 m ρ c (Proc.devRef .tc main_v59) : S20000x3.Idx → EReal) (ix2 n a)
      = Cert.Spec.coordOut ((m ((c : Thread nD τ).loc main_arg1) : S20000x3.Idx → EReal) (ix2 n a))
          (X51 m ρ c (ix2 n ⟨64 + a.val, by omega⟩)) (X51 m ρ c (ix2 n ⟨67, by omega⟩)) := by
  rw [W10_v59 m ρ c]
  exact W8_v59_apply m ρ c n a

/-- The node network's parameters as the launch memory gives them. -/
abbrev nodeP (c : Dev nD) : Cert.Spec.NodeParams :=
  Cert.Params.nodeR (m ((c : Thread nD τ).loc main_arg14)) (m ((c : Thread nD τ).loc main_arg15))
    (m ((c : Thread nD τ).loc main_arg16)) (m ((c : Thread nD τ).loc main_arg17))

/-- The new features. -/
theorem v65_apply (c : Dev nD) (n : Fin 20000) (k : Fin 67) :
    (Gen.W10 m ρ c (Proc.devRef .tc main_v65) : S20000x67.Idx → EReal) (ix2 n k)
      = Cert.Spec.nodeOutRow (nodeP m c) (fun j => (m ((c : Thread nD τ).loc main_arg0) : S20000x64.Idx → EReal) (ix2 n j))
          (fun a => X46 m ρ c (ix2 n ⟨68 + a.val, by omega⟩)) (fun j => X51 m ρ c (ix2 n ⟨j.val, by omega⟩)) k := by
  rw [W10_v65_apply m ρ c n k]
  have h1 : (Gen.W9 m ρ c (Proc.devRef .tc main_v64) : S20000x128.Idx → EReal) = (Gen.dat2 (F := Ideal) (Gen.V8 m ρ) c).arrAt 7 cfg2.N :=
    Gen.W9_arr m ρ c 7
  rw [h1, node_array (Gen.V8 m ρ) c n ⟨k.val, by omega⟩, dif_pos (show (⟨k.val, by omega⟩ : Fin 128).val < 67 from k.isLt), show Cert.Params.nodeK (Gen.V8 m ρ c main_v60) (Gen.V8 m ρ c main_v61) (Gen.V8 m ρ c main_v62) (Gen.V8 m ρ c main_v63) = nodeP m c from nodeK_eq_nodeR m ρ c]
  have e0 : (fun j => (Gen.V8 m ρ c main_arg0 : S20000x64.Idx → EReal) (ix2 n j))
      = fun j => (m ((c : Thread nD τ).loc main_arg0) : S20000x64.Idx → EReal) (ix2 n j) := by
    funext j; exact congrFun (W8_main_arg0 m ρ c) (ix2 n j)
  have e1 : (fun a => (Gen.V8 m ρ c main_v47 : S20000x3.Idx → EReal) (ix2 n a)) = fun a => X46 m ρ c (ix2 n ⟨68 + a.val, by omega⟩) := by
    funext a; exact (congrFun (W8_v47 m ρ c) (ix2 n a)).trans (W6_v47_apply m ρ c n a)
  have e2 : (fun j => (Gen.V8 m ρ c main_v52 : S20000x64.Idx → EReal) (ix2 n j)) = fun j => X51 m ρ c (ix2 n ⟨j.val, by omega⟩) := by
    funext j; exact W8_v52_apply m ρ c n j
  rw [e0, e1, e2]

end Cert.KV

end
-- ==== Proof.KHost1G.lean ====
/- The first host stretch's gathered arrays: as whole arrays they are the reference's stages of the same arguments. -/
import proofs.«417326_j2791728742861_3_alg».proof.Proof.Gen.KernelIdeal.Frame
import proofs.«417326_j2791728742861_3_alg».proof.Proof.RefRead
import proofs.«417326_j2791728742861_3_alg».proof.Proof.Spec
import Idealize.ShloMosaic.Lib.ValueLayout
import Idealize.ShloMosaic.Lib.KernelVsHost

set_option maxRecDepth 16384

noncomputable section

open scoped BigOperators

namespace Cert.KV

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## After the first stretch: the gathered arrays

The kernel's host operations build h[row], h[col], x[row] − x[col] and the row words by the same operations, on the
same arguments, as the reference's first stages: as whole arrays they are those stages. -/

/-- The row words. -/
theorem W1_v1 (c : Dev nD) :
    (Gen.W1 m ρ c (Proc.devRef .tc main_v1) : S20000.Idx → BitVec 32)
      = Cert.ReferenceIdeal.Read.val_main_v1 (F := Ideal) (m ((c : Thread nD τ).loc main_arg2)) := by
  dsimp only [Gen.W1, Gen.hostOps0]
  after_results_simp
  rfl

/-- The coordinate differences x[row] − x[col]. -/
theorem W1_v18 (c : Dev nD) :
    (Gen.W1 m ρ c (Proc.devRef .tc main_v18) : S20000x3.Idx → EReal)
      = Cert.ReferenceIdeal.Read.val_main_v18 (F := Ideal) (m ((c : Thread nD τ).loc main_arg1)) (m ((c : Thread nD τ).loc main_arg2)) := by
  dsimp only [Gen.W1, Gen.hostOps0]
  after_results_simp
  rfl

/-- The source rows h[row]. -/
theorem W1_v25 (c : Dev nD) :
    (Gen.W1 m ρ c (Proc.devRef .tc main_v25) : S20000x64.Idx → EReal)
      = Cert.ReferenceIdeal.Read.val_main_v28 (F := Ideal) (m ((c : Thread nD τ).loc main_arg0)) (m ((c : Thread nD τ).loc main_arg2)) := by
  dsimp only [Gen.W1, Gen.hostOps0]
  after_results_simp
  rfl

/-- The target rows h[col]. -/
theorem W1_v32 (c : Dev nD) :
    (Gen.W1 m ρ c (Proc.devRef .tc main_v32) : S20000x64.Idx → EReal)
      = Cert.ReferenceIdeal.Read.val_main_v35 (F := Ideal) (m ((c : Thread nD τ).loc main_arg0)) (m ((c : Thread nD τ).loc main_arg2)) := by
  dsimp only [Gen.W1, Gen.hostOps0]
  after_results_simp
  rfl

end Cert.KV

end
-- ==== Proof.RefEdgeA.lean ====
/-
  The reference program's edge network, first half: the hidden row of an edge.

  At an edge e the reference gathers the two feature rows h[row e], h[col e] and the coordinate difference
  cd = x[row e] - x[col e]; these three gathered rows are kept as they are. Everything after them is arithmetic
  on one edge: the squared length r = Σ_a cd_a², the input row [h_row, h_col, r] (a concatenation along the
  feature axis), and two affine layers, each followed by x · σ(x). The reference writes σ(x) as 1 / (1 + e^(-x))
  with the single-precision word of 1; that word denotes the real number 1, so the quotient is the logistic
  function. The float sums start from the single-precision zero word, which denotes 0.
-/
import proofs.«417326_j2791728742861_3_alg».proof.Proof.RefRead
import proofs.«417326_j2791728742861_3_alg».proof.Proof.Spec
import proofs.«417326_j2791728742861_3_alg».proof.Proof.Params
import Idealize.ShloMosaic.Lib.Pipeline.Value
import Idealize.ShloMosaic.Lib.ValueIdx
import Idealize.ShloMosaic.PureOps.Ideal.Laws

noncomputable section

namespace Cert.RV

open Cert.ReferenceIdeal Cert.ReferenceIdeal.Gen Idealize.ShloMosaic Idealize.ShloMosaic.ValueIdx
open scoped BigOperators

/-! ## The logistic function as the reference spells it -/

/-- The single-precision word 0x3F800000 denotes 1. -/
theorem one_f32 : Ideal.ofBits .f32 0x3F800000#32 = 1 := by
  simp [Ideal.ofBits, Ideal.ieee, -EReal.coe_mul]; norm_num

/-- The single-precision zero word denotes 0. -/
theorem zero_f32 : FloatOps.ofBits (F := Ideal) .f32 0x00000000#32 = 0 := Ideal.ofBits_zero_f32

/-- x · (1 / (1 + e^(-x))) is x · σ(x). -/
theorem silu_form (x : EReal) :
    x * Ideal.div (Ideal.ofBits .f32 0x3F800000#32) (Ideal.ofBits .f32 0x3F800000#32 + Ideal.exp (-x)) = Cert.Spec.silu x := by
  rw [one_f32]; rfl

/-- The same over the operations of the reference's text. -/
theorem silu_ops (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = Cert.Spec.silu x := silu_form x

/-! ## The concatenation [h_row, h_col, r] at a column -/

/-- Three pieces of widths 64, 64 and 1 laid side by side, read at column k: the piece whose span holds k. -/
theorem concat3_apply (h : Shape.Concatenates [S20000x64, S20000x64, S20000x1] S20000x129 1)
    (x y : S20000x64.Idx → EReal) (z : S20000x1.Idx → EReal) (e : Fin 20000) (k : Fin 129) :
    concatenate S20000x129 1 [⟨S20000x64, x⟩, ⟨S20000x64, y⟩, ⟨S20000x1, z⟩] h (ix2 e k)
      = if h1 : k.val < 64 then x (ix2 e ⟨k.val, h1⟩)
        else if h2 : k.val < 128 then y (ix2 e ⟨k.val - 64, by omega⟩)
        else z (ix2 e 0) := by
  by_cases h1 : k.val < 64
  · rw [dif_pos h1]
    exact concatenate_apply_piece 1 [⟨S20000x64, x⟩, ⟨S20000x64, y⟩, ⟨S20000x1, z⟩] h (ix2 e k) 0 (by show (0 : Nat) < 3; omega) S20000x64 x rfl rfl 0 rfl (ix2 e ⟨k.val, h1⟩)
      (fun b hb => by match b with | ⟨0, _⟩ => rfl | ⟨1, _⟩ => exact absurd rfl hb) (by show 0 + k.val = k.val; omega)
  · rw [dif_neg h1]
    by_cases h2 : k.val < 128
    · rw [dif_pos h2]
      exact concatenate_apply_piece 1 [⟨S20000x64, x⟩, ⟨S20000x64, y⟩, ⟨S20000x1, z⟩] h (ix2 e k) 1 (by show (1 : Nat) < 3; omega) S20000x64 y rfl rfl 64 rfl (ix2 e ⟨k.val - 64, by omega⟩)
        (fun b hb => by match b with | ⟨0, _⟩ => rfl | ⟨1, _⟩ => exact absurd rfl hb) (by show 64 + (k.val - 64) = k.val; omega)
    · rw [dif_neg h2]
      have hk := k.isLt
      exact concatenate_apply_piece 1 [⟨S20000x64, x⟩, ⟨S20000x64, y⟩, ⟨S20000x1, z⟩] h (ix2 e k) 2 (by show (2 : Nat) < 3; omega) S20000x1 z rfl rfl 128 rfl (ix2 e 0)
        (fun b hb => by match b with | ⟨0, _⟩ => rfl | ⟨1, _⟩ => exact absurd rfl hb) (by show 128 + 0 = k.val; omega)

/-! ## The stages of one edge -/

variable (a0 : (⟨S20000x64, .f32⟩ : BufTy).Contents (Elt Ideal)) (a1 : (⟨S20000x3, .f32⟩ : BufTy).Contents (Elt Ideal))
  (a2 : (⟨S2x20000, .i32⟩ : BufTy).Contents (Elt Ideal)) (a3 : (⟨S129x64, .f32⟩ : BufTy).Contents (Elt Ideal))
  (a4 : (⟨S64, .f32⟩ : BufTy).Contents (Elt Ideal)) (a5 : (⟨S64x64, .f32⟩ : BufTy).Contents (Elt Ideal))
  (a6 : (⟨S64, .f32⟩ : BufTy).Contents (Elt Ideal)) (a7 : (⟨S4096x128, .f32⟩ : BufTy).Contents (Elt Ideal))
  (a8 : (⟨S128, .f32⟩ : BufTy).Contents (Elt Ideal)) (a9 : (⟨S128x64, .f32⟩ : BufTy).Contents (Elt Ideal))
  (a10 : (⟨S64, .f32⟩ : BufTy).Contents (Elt Ideal)) (a11 : (⟨S64x64, .f32⟩ : BufTy).Contents (Elt Ideal))
  (a12 : (⟨S64, .f32⟩ : BufTy).Contents (Elt Ideal)) (a13 : (⟨S64x1, .f32⟩ : BufTy).Contents (Elt Ideal))

/-- The gathered feature row of an edge's source. -/
abbrev hSrc (e : Fin 20000) : Fin 64 → EReal := fun j => Read.val_main_v28 (F := Ideal) a0 a2 (ix2 e j)
/-- The gathered feature row of an edge's target. -/
abbrev hDst (e : Fin 20000) : Fin 64 → EReal := fun j => Read.val_main_v35 (F := Ideal) a0 a2 (ix2 e j)
/-- The coordinate difference of an edge. -/
abbrev cDiff (e : Fin 20000) : Fin 3 → EReal := fun a => Read.val_main_v18 (F := Ideal) a1 a2 (ix2 e a)

/-- The squared length of the coordinate difference. -/
theorem ref_v21_apply (e : Fin 20000) :
    Read.val_main_v21 (F := Ideal) a1 a2 (ix2 e 0) = Cert.Spec.radial (cDiff a1 a2 e) := by
  rw [Read.val_main_v21_apply, Read.val_main_v20_apply, Read.val_main_cst_apply, zero_f32, zero_add]
  unfold Cert.Spec.radial
  refine Finset.sum_congr rfl fun k _ => ?_
  rw [Read.val_main_v19_apply,
    show Read.idx_main_v20 (Read.idx_main_v21 (ix2 e 0)) k = ix2 e k from
      funext fun a => Fin.ext (by match a with | ⟨0, _⟩ => rfl | ⟨1, _⟩ => rfl)]
  <;> rfl

/-- The input row of the edge network. -/
theorem ref_v36_apply (e : Fin 20000) (k : Fin 129) :
    Read.val_main_v36 (F := Ideal) a0 a1 a2 (ix2 e k) = Cert.Spec.edgeIn (hSrc a0 a2 e) (hDst a0 a2 e) (cDiff a1 a2 e) k := by
  unfold Read.val_main_v36
  refine (concat3_apply _ _ _ _ e k).trans ?_
  rw [ref_v21_apply]
  rfl

/-- The first affine layer. -/
theorem ref_v40_apply (e : Fin 20000) (j : Fin 64) :
    Read.val_main_v40 (F := Ideal) a0 a1 a2 a3 a4 (ix2 e j)
      = Cert.Spec.lin (Cert.Spec.edgeIn (hSrc a0 a2 e) (hDst a0 a2 e) (cDiff a1 a2 e)) (fun k j => a3 (ix2 k j)) (fun j => a4 (ix1 j)) j := by
  rw [Read.val_main_v40_apply, Read.val_main_v37_apply, Read.val_main_v39_apply, Read.val_main_v38_apply, Ideal.addf_def]
  unfold Cert.Spec.lin
  refine congrArg₂ (· + ·) (Finset.sum_congr rfl fun k _ => ?_) ?_
  · rw [show Read.lidx_main_v37 (ix2 e j) k = ix2 e k from
        funext fun a => Fin.ext (by match a with | ⟨0, _⟩ => rfl | ⟨1, _⟩ => rfl),
      show Read.ridx_main_v37 (ix2 e j) k = ix2 k j from
        funext fun a => Fin.ext (by match a with | ⟨0, _⟩ => rfl | ⟨1, _⟩ => rfl),
      ref_v36_apply]
  · exact congrArg a4 (funext fun a => Fin.ext (by match a with | ⟨0, _⟩ => rfl))

/-- The first layer's activation. -/
theorem ref_v41_apply (e : Fin 20000) (j : Fin 64) :
    Read.val_main_v41 (F := Ideal) a0 a1 a2 a3 a4 (ix2 e j)
      = Cert.Spec.silu (Cert.Spec.lin (Cert.Spec.edgeIn (hSrc a0 a2 e) (hDst a0 a2 e) (cDiff a1 a2 e)) (fun k j => a3 (ix2 k j)) (fun j => a4 (ix1 j)) j) := by
  rw [Read.val_main_v41_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, silu_ops, ref_v40_apply]

/-- The second affine layer. -/
theorem ref_v45_apply (e : Fin 20000) (j : Fin 64) :
    Read.val_main_v45 (F := Ideal) a0 a1 a2 a3 a4 a5 a6 (ix2 e j)
      = Cert.Spec.lin (fun k => Cert.Spec.silu (Cert.Spec.lin (Cert.Spec.edgeIn (hSrc a0 a2 e) (hDst a0 a2 e) (cDiff a1 a2 e)) (fun k j => a3 (ix2 k j)) (fun j => a4 (ix1 j)) k))
          (fun k j => a5 (ix2 k j)) (fun j => a6 (ix1 j)) j := by
  rw [Read.val_main_v45_apply, Read.val_main_v42_apply, Read.val_main_v44_apply, Read.val_main_v43_apply, Ideal.addf_def]
  unfold Cert.Spec.lin
  refine congrArg₂ (· + ·) (Finset.sum_congr rfl fun k _ => ?_) ?_
  · rw [show Read.lidx_main_v42 (ix2 e j) k = ix2 e k from
        funext fun a => Fin.ext (by match a with | ⟨0, _⟩ => rfl | ⟨1, _⟩ => rfl),
      show Read.ridx_main_v42 (ix2 e j) k = ix2 k j from
        funext fun a => Fin.ext (by match a with | ⟨0, _⟩ => rfl | ⟨1, _⟩ => rfl),
      ref_v41_apply]
    <;> rfl
  · exact congrArg a6 (funext fun a => Fin.ext (by match a with | ⟨0, _⟩ => rfl))

/-- The hidden row u of an edge. -/
theorem ref_v46_apply (e : Fin 20000) (j : Fin 64) :
    Read.val_main_v46 (F := Ideal) a0 a1 a2 a3 a4 a5 a6 (ix2 e j)
      = Cert.Spec.eFeat (Cert.Params.edgeR a3 a4 a5 a6 a7 a8 a9 a10 a11 a12 a13) (hSrc a0 a2 e) (hDst a0 a2 e) (cDiff a1 a2 e) j := by
  rw [Read.val_main_v46_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, silu_ops, ref_v45_apply]
  <;> rfl

end Cert.RV

end
-- ==== Proof.RefEdgeB.lean ====
/-
  The reference program's edge network, second half: from the hidden row u to the message.

  The reference forms the 64 × 64 table 64 · u_i · u_j of an edge, flattens it row by row into 4096 entries
  (entry p is 64 · u_{p / 64} · u_{p mod 64}) and multiplies by the 4096 × 128 matrix: this is the bilinear
  term. Then the bias, max(·, 0), and one more affine layer give the message.
-/
import proofs.«417326_j2791728742861_3_alg».proof.Proof.RefEdgeA

noncomputable section

namespace Cert.RV

open Cert.ReferenceIdeal Cert.ReferenceIdeal.Gen Idealize.ShloMosaic Idealize.ShloMosaic.ValueIdx
open scoped BigOperators

variable (a0 : (⟨S20000x64, .f32⟩ : BufTy).Contents (Elt Ideal)) (a1 : (⟨S20000x3, .f32⟩ : BufTy).Contents (Elt Ideal))
  (a2 : (⟨S2x20000, .i32⟩ : BufTy).Contents (Elt Ideal)) (a3 : (⟨S129x64, .f32⟩ : BufTy).Contents (Elt Ideal))
  (a4 : (⟨S64, .f32⟩ : BufTy).Contents (Elt Ideal)) (a5 : (⟨S64x64, .f32⟩ : BufTy).Contents (Elt Ideal))
  (a6 : (⟨S64, .f32⟩ : BufTy).Contents (Elt Ideal)) (a7 : (⟨S4096x128, .f32⟩ : BufTy).Contents (Elt Ideal))
  (a8 : (⟨S128, .f32⟩ : BufTy).Contents (Elt Ideal)) (a9 : (⟨S128x64, .f32⟩ : BufTy).Contents (Elt Ideal))
  (a10 : (⟨S64, .f32⟩ : BufTy).Contents (Elt Ideal)) (a11 : (⟨S64x64, .f32⟩ : BufTy).Contents (Elt Ideal))
  (a12 : (⟨S64, .f32⟩ : BufTy).Contents (Elt Ideal)) (a13 : (⟨S64x1, .f32⟩ : BufTy).Contents (Elt Ideal))

/-- The flattened scaled table of products: entry p of edge e is 64 · u_{p / 64} · u_{p mod 64}. -/
theorem ref_v54_apply (e : Fin 20000) (p : Fin 4096) :
    Read.val_main_v54 (F := Ideal) a0 a1 a2 a3 a4 a5 a6 (ix2 e p)
      = (Cert.Spec.c64 * Cert.Spec.eFeat (Cert.Params.edgeR a3 a4 a5 a6 a7 a8 a9 a10 a11 a12 a13) (hSrc a0 a2 e) (hDst a0 a2 e) (cDiff a1 a2 e) ⟨p.val / 64, by have := p.isLt; omega⟩)
          * Cert.Spec.eFeat (Cert.Params.edgeR a3 a4 a5 a6 a7 a8 a9 a10 a11 a12 a13) (hSrc a0 a2 e) (hDst a0 a2 e) (cDiff a1 a2 e) ⟨p.val % 64, Nat.mod_lt _ (by norm_num)⟩ := by
  rw [Read.val_main_v54_apply, Read.val_main_v53_apply, Read.val_main_v51_apply, Read.val_main_v49_apply, Read.val_main_v48_apply,
    Read.val_main_cst_7_apply, Read.val_main_v47_apply, Read.val_main_v52_apply, Read.val_main_v50_apply,
    show Read.idx_main_v47 (Read.idx_main_v51 (Read.idx_main_v54 (ix2 e p))) = ix2 e ⟨p.val / 64, by have := p.isLt; omega⟩ from
      funext fun a => Fin.ext (by
        have hp := p.isLt
        match a with
        | ⟨0, _⟩ => show (e.val * 4096 + p.val) / 4096 = e.val; omega
        | ⟨1, _⟩ => show (e.val * 4096 + p.val) / 64 % 64 = p.val / 64; omega),
    show Read.idx_main_v50 (Read.idx_main_v52 (Read.idx_main_v54 (ix2 e p))) = ix2 e ⟨p.val % 64, Nat.mod_lt _ (by norm_num)⟩ from
      funext fun a => Fin.ext (by
        have hp := p.isLt
        match a with
        | ⟨0, _⟩ => show (e.val * 4096 + p.val) / 4096 = e.val; omega
        | ⟨1, _⟩ => show (e.val * 4096 + p.val) % 64 = p.val % 64; omega),
    ref_v46_apply a0 a1 a2 a3 a4 a5 a6 a7 a8 a9 a10 a11 a12 a13, ref_v46_apply a0 a1 a2 a3 a4 a5 a6 a7 a8 a9 a10 a11 a12 a13]
  <;> rfl

/-- The bilinear term of an edge. -/
theorem ref_v55_apply (e : Fin 20000) (q : Fin 128) :
    Read.val_main_v55 (F := Ideal) a0 a1 a2 a3 a4 a5 a6 a7 (ix2 e q)
      = Cert.Spec.so3Ref (fun p q => a7 (ix2 p q)) (Cert.Spec.eFeat (Cert.Params.edgeR a3 a4 a5 a6 a7 a8 a9 a10 a11 a12 a13) (hSrc a0 a2 e) (hDst a0 a2 e) (cDiff a1 a2 e)) q := by
  rw [Read.val_main_v55_apply]
  unfold Cert.Spec.so3Ref
  refine Finset.sum_congr rfl fun p _ => ?_
  rw [show Read.lidx_main_v55 (ix2 e q) p = ix2 e p from funext fun a => Fin.ext (by match a with | ⟨0, _⟩ => rfl | ⟨1, _⟩ => rfl),
    show Read.ridx_main_v55 (ix2 e q) p = ix2 p q from funext fun a => Fin.ext (by match a with | ⟨0, _⟩ => rfl | ⟨1, _⟩ => rfl),
    ref_v54_apply a0 a1 a2 a3 a4 a5 a6 a7 a8 a9 a10 a11 a12 a13]
  <;> rfl

/-- The bilinear term with its bias, cut off below at 0. -/
theorem ref_v59_apply (e : Fin 20000) (q : Fin 128) :
    Read.val_main_v59 (F := Ideal) a0 a1 a2 a3 a4 a5 a6 a7 a8 (ix2 e q)
      = Cert.Spec.relu (Cert.Spec.so3Ref (fun p q => a7 (ix2 p q)) (Cert.Spec.eFeat (Cert.Params.edgeR a3 a4 a5 a6 a7 a8 a9 a10 a11 a12 a13) (hSrc a0 a2 e) (hDst a0 a2 e) (cDiff a1 a2 e)) q + a8 (ix1 q)) := by
  rw [Read.val_main_v59_apply, Read.val_main_call2_v0_apply, Read.val_main_call2_cst_apply, Read.val_main_v58_apply,
    Read.val_main_v57_apply, Read.val_main_v56_apply, ref_v55_apply a0 a1 a2 a3 a4 a5 a6 a7 a8 a9 a10 a11 a12 a13,
    show Read.idx_main_v56 (Read.idx_main_v57 (ix2 e q)) = ix1 q from funext fun a => Fin.ext (by match a with | ⟨0, _⟩ => rfl),
    zero_f32]
  <;> rfl

/-- The message of an edge. -/
theorem ref_v63_stage (e : Fin 20000) (j : Fin 64) :
    Read.val_main_v63 (F := Ideal) a0 a1 a2 a3 a4 a5 a6 a7 a8 a9 a10 (ix2 e j)
      = Cert.Spec.edgeFeat (Cert.Params.edgeR a3 a4 a5 a6 a7 a8 a9 a10 a11 a12 a13) (hSrc a0 a2 e) (hDst a0 a2 e) (cDiff a1 a2 e) j := by
  rw [Read.val_main_v63_apply, Read.val_main_v60_apply, Read.val_main_v62_apply, Read.val_main_v61_apply, Ideal.addf_def]
  unfold Cert.Spec.edgeFeat Cert.Spec.lin
  refine congrArg₂ (· + ·) (Finset.sum_congr rfl fun k _ => ?_) ?_
  · rw [show Read.lidx_main_v60 (ix2 e j) k = ix2 e k from funext fun a => Fin.ext (by match a with | ⟨0, _⟩ => rfl | ⟨1, _⟩ => rfl),
      show Read.ridx_main_v60 (ix2 e j) k = ix2 k j from funext fun a => Fin.ext (by match a with | ⟨0, _⟩ => rfl | ⟨1, _⟩ => rfl),
      ref_v59_apply a0 a1 a2 a3 a4 a5 a6 a7 a8 a9 a10 a11 a12 a13]
    <;> rfl
  · exact congrArg a10 (funext fun a => Fin.ext (by match a with | ⟨0, _⟩ => rfl))

end Cert.RV

end
-- ==== Proof.RefEdge.lean ====
/-
  The reference program's edge stages, read at an index.

  The message (edge_feat), the coordinate shift (trans) and the unit direction (rel) of an edge, as functions of
  the three gathered rows of that edge: the two feature rows and the coordinate difference. The coordinate
  weight is one more affine layer with x · σ(x) and a product with a 64 × 1 matrix; the shift multiplies the
  coordinate difference by it; the direction divides the coordinate difference by √(Σ_a cd_a²) + ε.
-/
import proofs.«417326_j2791728742861_3_alg».proof.Proof.RefEdgeB

noncomputable section

namespace Cert.RV

open Cert.ReferenceIdeal Cert.ReferenceIdeal.Gen Idealize.ShloMosaic Idealize.ShloMosaic.ValueIdx
open scoped BigOperators

variable (a0 : (⟨S20000x64, .f32⟩ : BufTy).Contents (Elt Ideal)) (a1 : (⟨S20000x3, .f32⟩ : BufTy).Contents (Elt Ideal))
  (a2 : (⟨S2x20000, .i32⟩ : BufTy).Contents (Elt Ideal)) (a3 : (⟨S129x64, .f32⟩ : BufTy).Contents (Elt Ideal))
  (a4 : (⟨S64, .f32⟩ : BufTy).Contents (Elt Ideal)) (a5 : (⟨S64x64, .f32⟩ : BufTy).Contents (Elt Ideal))
  (a6 : (⟨S64, .f32⟩ : BufTy).Contents (Elt Ideal)) (a7 : (⟨S4096x128, .f32⟩ : BufTy).Contents (Elt Ideal))
  (a8 : (⟨S128, .f32⟩ : BufTy).Contents (Elt Ideal)) (a9 : (⟨S128x64, .f32⟩ : BufTy).Contents (Elt Ideal))
  (a10 : (⟨S64, .f32⟩ : BufTy).Contents (Elt Ideal)) (a11 : (⟨S64x64, .f32⟩ : BufTy).Contents (Elt Ideal))
  (a12 : (⟨S64, .f32⟩ : BufTy).Contents (Elt Ideal)) (a13 : (⟨S64x1, .f32⟩ : BufTy).Contents (Elt Ideal))

/-- The coordinate network's affine layer. -/
theorem ref_v67_apply (e : Fin 20000) (k : Fin 64) :
    Read.val_main_v67 (F := Ideal) a0 a1 a2 a3 a4 a5 a6 a7 a8 a9 a10 a11 a12 (ix2 e k)
      = Cert.Spec.lin (Cert.Spec.edgeFeat (Cert.Params.edgeR a3 a4 a5 a6 a7 a8 a9 a10 a11 a12 a13) (hSrc a0 a2 e) (hDst a0 a2 e) (cDiff a1 a2 e)) (fun k j => a11 (ix2 k j)) (fun j => a12 (ix1 j)) k := by
  rw [Read.val_main_v67_apply, Read.val_main_v64_apply, Read.val_main_v66_apply, Read.val_main_v65_apply, Ideal.addf_def]
  unfold Cert.Spec.lin
  refine congrArg₂ (· + ·) (Finset.sum_congr rfl fun i _ => ?_) ?_
  · rw [show Read.lidx_main_v64 (ix2 e k) i = ix2 e i from funext fun a => Fin.ext (by match a with | ⟨0, _⟩ => rfl | ⟨1, _⟩ => rfl),
      show Read.ridx_main_v64 (ix2 e k) i = ix2 i k from funext fun a => Fin.ext (by match a with | ⟨0, _⟩ => rfl | ⟨1, _⟩ => rfl),
      ref_v63_stage a0 a1 a2 a3 a4 a5 a6 a7 a8 a9 a10 a11 a12 a13]
  · exact congrArg a12 (funext fun a => Fin.ext (by match a with | ⟨0, _⟩ => rfl))

/-- Its activation. -/
theorem ref_v68_apply (e : Fin 20000) (k : Fin 64) :
    Read.val_main_v68 (F := Ideal) a0 a1 a2 a3 a4 a5 a6 a7 a8 a9 a10 a11 a12 (ix2 e k)
      = Cert.Spec.silu (Cert.Spec.lin (Cert.Spec.edgeFeat (Cert.Params.edgeR a3 a4 a5 a6 a7 a8 a9 a10 a11 a12 a13) (hSrc a0 a2 e) (hDst a0 a2 e) (cDiff a1 a2 e)) (fun k j => a11 (ix2 k j)) (fun j => a12 (ix1 j)) k) := by
  rw [Read.val_main_v68_apply, Read.val_main_call3_v5_apply, Read.val_main_call3_v4_apply, Read.val_main_call3_cst_0_apply,
    Read.val_main_call3_v3_apply, Read.val_main_call3_v2_apply, Read.val_main_call3_cst_apply, Read.val_main_call3_v1_apply,
    Read.val_main_call3_v0_apply, silu_ops, ref_v67_apply a0 a1 a2 a3 a4 a5 a6 a7 a8 a9 a10 a11 a12 a13]

/-- The coordinate weight of an edge. -/
theorem ref_v69_apply (e : Fin 20000) :
    Read.val_main_v69 (F := Ideal) a0 a1 a2 a3 a4 a5 a6 a7 a8 a9 a10 a11 a12 a13 (ix2 e 0) = Cert.Spec.coordW (Cert.Params.edgeR a3 a4 a5 a6 a7 a8 a9 a10 a11 a12 a13) (hSrc a0 a2 e) (hDst a0 a2 e) (cDiff a1 a2 e) := by
  rw [Read.val_main_v69_apply]
  unfold Cert.Spec.coordW
  refine Finset.sum_congr rfl fun k _ => ?_
  rw [show Read.lidx_main_v69 (ix2 e 0) k = ix2 e k from funext fun a => Fin.ext (by match a with | ⟨0, _⟩ => rfl | ⟨1, _⟩ => rfl),
    show Read.ridx_main_v69 (ix2 e 0) k = ix2 k 0 from funext fun a => Fin.ext (by match a with | ⟨0, _⟩ => rfl | ⟨1, _⟩ => rfl),
    ref_v68_apply a0 a1 a2 a3 a4 a5 a6 a7 a8 a9 a10 a11 a12 a13]
  <;> rfl

/-- The squared length of the coordinate difference, as the direction's norm computes it. -/
theorem ref_norm2_apply (e : Fin 20000) :
    Read.val_main_call4_v1 (F := Ideal) a1 a2 (ix1 e) = Cert.Spec.radial (cDiff a1 a2 e) := by
  rw [Read.val_main_call4_v1_apply, Read.val_main_call4_cst_apply, zero_f32, zero_add]
  unfold Cert.Spec.radial
  refine Finset.sum_congr rfl fun k _ => ?_
  rw [Read.val_main_call4_v0_apply,
    show Read.idx_main_call4_v1 (ix1 e) k = ix2 e k from funext fun a => Fin.ext (by match a with | ⟨0, _⟩ => rfl | ⟨1, _⟩ => rfl)]
  <;> rfl

/-! ## The three statements -/

/-- The message of an edge is the specification's, of the edge's three gathered rows. -/
theorem ref_v63_apply (e : Fin 20000) (j : Fin 64) :
    Read.val_main_v63 (F := Ideal) a0 a1 a2 a3 a4 a5 a6 a7 a8 a9 a10 (ix2 e j)
      = Cert.Spec.edgeFeat (Cert.Params.edgeR a3 a4 a5 a6 a7 a8 a9 a10 a11 a12 a13) (fun j => Read.val_main_v28 (F := Ideal) a0 a2 (ix2 e j))
          (fun j => Read.val_main_v35 (F := Ideal) a0 a2 (ix2 e j)) (fun a => Read.val_main_v18 (F := Ideal) a1 a2 (ix2 e a)) j :=
  ref_v63_stage a0 a1 a2 a3 a4 a5 a6 a7 a8 a9 a10 a11 a12 a13 e j

/-- The coordinate shift of an edge is the specification's. -/
theorem ref_v71_apply (e : Fin 20000) (a : Fin 3) :
    Read.val_main_v71 (F := Ideal) a0 a1 a2 a3 a4 a5 a6 a7 a8 a9 a10 a11 a12 a13 (ix2 e a)
      = Cert.Spec.trans (Cert.Params.edgeR a3 a4 a5 a6 a7 a8 a9 a10 a11 a12 a13) (fun j => Read.val_main_v28 (F := Ideal) a0 a2 (ix2 e j))
          (fun j => Read.val_main_v35 (F := Ideal) a0 a2 (ix2 e j)) (fun a => Read.val_main_v18 (F := Ideal) a1 a2 (ix2 e a)) a := by
  rw [Read.val_main_v71_apply, Read.val_main_v70_apply,
    show Read.idx_main_v70 (ix2 e a) = ix2 e 0 from
      funext fun b => Fin.ext (by match b with | ⟨0, _⟩ => rfl | ⟨1, _⟩ => rfl),
    ref_v69_apply a0 a1 a2 a3 a4 a5 a6 a7 a8 a9 a10 a11 a12 a13]
  <;> rfl

/-- The unit direction of an edge is the specification's. -/
theorem ref_v87_apply (e : Fin 20000) (a : Fin 3) :
    Read.val_main_v87 (F := Ideal) a1 a2 (ix2 e a)
      = Cert.Spec.rel (fun a => Read.val_main_v18 (F := Ideal) a1 a2 (ix2 e a)) a := by
  rw [Read.val_main_v87_apply, Read.val_main_v86_apply, Read.val_main_v85_apply, Read.val_main_v84_apply,
    Read.val_main_cst_12_apply, Read.val_main_v83_apply, Read.val_main_call4_v2_apply,
    show Read.idx_main_call4_v2 (Read.idx_main_v86 (ix2 e a)) = ix1 e from
      funext fun b => Fin.ext (by match b with | ⟨0, _⟩ => rfl),
    ref_norm2_apply]
  <;> rfl

end Cert.RV

end
-- ==== Proof.ScatterSeg.lean ====
/- An accumulating scatter of rows read at an entry: the operand's entry plus the sum of the updates whose row index is that row.
   The landing place of an update (e, k') is (signed word of row e, k'); outside the operand the update is dropped. -/
import proofs.«417326_j2791728742861_3_alg».proof.ReferenceIdeal
import proofs.«417326_j2791728742861_3_alg».proof.Proof.Gen.ReferenceIdeal
import proofs.«417326_j2791728742861_3_alg».proof.Proof.Spec
import Idealize.ShloMosaic.PureOps.Ideal.Laws

noncomputable section

open scoped BigOperators

namespace Cert.RV

open Cert.ReferenceIdeal Cert.ReferenceIdeal.Gen
open Idealize.ShloMosaic Idealize.ShloMosaic.ValueIdx

/-! ## Three columns -/

private abbrev D3 := scatter_S20000x3_S20000x1_S20000x3_1_0_0_1

/-- Along the rows the window coordinate is zero: the row axis is inserted. -/
theorem window3_0 (e : Fin 20000) (k' : Fin 3) : D3.window (ix2 e k') 0 = 0 := by
  rfl
/-- Along the columns the window coordinate is the update's column. -/
theorem window3_1 (e : Fin 20000) (k' : Fin 3) : D3.window (ix2 e k') 1 = k'.val := by
  rfl
/-- Along the columns the window starts at zero: no index component names that axis. -/
theorem start3_1 (e : Fin 20000) (k' : Fin 3) (idx : IVec S20000x1 32) : D3.start (ix2 e k') idx 1 = 0 := by
  rfl
/-- The index entry an update reads is the one of its own row. -/
theorem siIdx3 (e : Fin 20000) (k' : Fin 3) (c) : D3.siIdx (ix2 e k') c = ix2 e 0 := by
  funext b
  match b with
  | ⟨0, _⟩ => rfl
  | ⟨1, _⟩ => exact Fin.ext (by have := c.isLt; change c.val < 1 at this; show c.val = 0; omega)
/-- Along the rows the window starts at the row's index word, read signed. -/
theorem start3_0 (e : Fin 20000) (k' : Fin 3) (idx : IVec S20000x1 32) :
    D3.start (ix2 e k') idx 0 = (idx (ix2 e 0)).toInt := by
  unfold ScatterDims.start
  split
  · rw [siIdx3]
  · next ha => exact absurd (show (0 : Fin 2) ∈ [(0 : Fin 2)] from List.mem_singleton.2 rfl) ha

/-- The update at (e, k') lands on (n, k) exactly when the signed index word of row e is n and the columns agree;
    a word outside [0, 20000) lands nowhere. -/
theorem resultIdx3_iff (e n : Fin 20000) (k' k : Fin 3) (idx : IVec S20000x1 32) :
    D3.resultIdx? (ix2 e k') idx = some (ix2 n k) ↔ (idx (ix2 e 0)).toInt = (n.val : ℤ) ∧ k' = k := by
  have hn := n.isLt
  have hk' := k'.isLt
  unfold ScatterDims.resultIdx?
  split
  · next h =>
    rw [Option.some.injEq]
    constructor
    · intro hf
      have h0 := congrArg Fin.val (congrFun hf 0)
      have h1 := congrArg Fin.val (congrFun hf 1)
      have g0 : 0 ≤ D3.start (ix2 e k') idx 0 + (D3.window (ix2 e k') 0 : ℤ) := (h 0).1
      rw [start3_0, window3_0] at g0
      change (D3.start (ix2 e k') idx 0 + (D3.window (ix2 e k') 0 : ℤ)).toNat = n.val at h0
      change (D3.start (ix2 e k') idx 1 + (D3.window (ix2 e k') 1 : ℤ)).toNat = k.val at h1
      rw [start3_0, window3_0] at h0
      rw [start3_1, window3_1] at h1
      refine ⟨by omega, Fin.ext (by omega)⟩
    · rintro ⟨h0, rfl⟩
      funext a
      match a with
      | ⟨0, _⟩ =>
        apply Fin.ext
        show (D3.start (ix2 e k') idx 0 + (D3.window (ix2 e k') 0 : ℤ)).toNat = n.val
        rw [start3_0, window3_0]; omega
      | ⟨1, _⟩ =>
        apply Fin.ext
        show (D3.start (ix2 e k') idx 1 + (D3.window (ix2 e k') 1 : ℤ)).toNat = k'.val
        rw [start3_1, window3_1]; omega
  · next h =>
    constructor
    · intro hh; cases hh
    · rintro ⟨h0, rfl⟩
      exfalso
      apply h
      intro a
      match a with
      | ⟨0, _⟩ =>
        show 0 ≤ D3.start (ix2 e k') idx 0 + (D3.window (ix2 e k') 0 : ℤ) ∧ D3.start (ix2 e k') idx 0 + (D3.window (ix2 e k') 0 : ℤ) < ((20000 : ℕ) : ℤ)
        rw [start3_0, window3_0]; omega
      | ⟨1, _⟩ =>
        show 0 ≤ D3.start (ix2 e k') idx 1 + (D3.window (ix2 e k') 1 : ℤ) ∧ D3.start (ix2 e k') idx 1 + (D3.window (ix2 e k') 1 : ℤ) < ((3 : ℕ) : ℤ)
        rw [start3_1, window3_1]; omega

/-- Three-column rows scattered by their row index and added. -/
theorem scatterAdd3_apply (x : FVec Ideal S20000x3 .f32) (idx : IVec S20000x1 32) (upd : FVec Ideal S20000x3 .f32) (n : Fin 20000) (a : Fin 3) :
    Host.scatterAdd (F := Ideal) (φ := .f32) scatter_S20000x3_S20000x1_S20000x3_1_0_0_1 x idx upd (ix2 n a)
      = x (ix2 n a) + Cert.Spec.seg (fun e => idx (ix2 e 0)) (fun e => upd (ix2 e a)) n := by
  refine (congrFun (Ideal.hostScatterAdd_def D3 .single x idx upd) (ix2 n a)).trans ?_
  unfold Ideal.hostScatterAdd Cert.Spec.seg
  refine congrArg (fun t => x (ix2 n a) + t) ?_
  rw [Finset.sum_filter, sum_idx2]
  refine Finset.sum_congr rfl fun e _ => ?_
  simp only [resultIdx3_iff]
  by_cases hrow : (idx (ix2 e 0)).toInt = (n.val : ℤ)
  · simp only [hrow, true_and, if_true]
    rw [Finset.sum_ite_eq']
    simp
  · simp only [hrow, false_and, if_false, Finset.sum_const_zero]

/-! ## Sixty-four columns -/

private abbrev D64 := scatter_S20000x64_S20000x1_S20000x64_1_0_0_1

/-- Along the rows the window coordinate is zero: the row axis is inserted. -/
theorem window64_0 (e : Fin 20000) (k' : Fin 64) : D64.window (ix2 e k') 0 = 0 := by
  rfl
/-- Along the columns the window coordinate is the update's column. -/
theorem window64_1 (e : Fin 20000) (k' : Fin 64) : D64.window (ix2 e k') 1 = k'.val := by
  rfl
/-- Along the columns the window starts at zero: no index component names that axis. -/
theorem start64_1 (e : Fin 20000) (k' : Fin 64) (idx : IVec S20000x1 32) : D64.start (ix2 e k') idx 1 = 0 := by
  rfl
/-- The index entry an update reads is the one of its own row. -/
theorem siIdx64 (e : Fin 20000) (k' : Fin 64) (c) : D64.siIdx (ix2 e k') c = ix2 e 0 := by
  funext b
  match b with
  | ⟨0, _⟩ => rfl
  | ⟨1, _⟩ => exact Fin.ext (by have := c.isLt; change c.val < 1 at this; show c.val = 0; omega)
/-- Along the rows the window starts at the row's index word, read signed. -/
theorem start64_0 (e : Fin 20000) (k' : Fin 64) (idx : IVec S20000x1 32) :
    D64.start (ix2 e k') idx 0 = (idx (ix2 e 0)).toInt := by
  unfold ScatterDims.start
  split
  · rw [siIdx64]
  · next ha => exact absurd (show (0 : Fin 2) ∈ [(0 : Fin 2)] from List.mem_singleton.2 rfl) ha

/-- The update at (e, k') lands on (n, k) exactly when the signed index word of row e is n and the columns agree;
    a word outside [0, 20000) lands nowhere. -/
theorem resultIdx64_iff (e n : Fin 20000) (k' k : Fin 64) (idx : IVec S20000x1 32) :
    D64.resultIdx? (ix2 e k') idx = some (ix2 n k) ↔ (idx (ix2 e 0)).toInt = (n.val : ℤ) ∧ k' = k := by
  have hn := n.isLt
  have hk' := k'.isLt
  unfold ScatterDims.resultIdx?
  split
  · next h =>
    rw [Option.some.injEq]
    constructor
    · intro hf
      have h0 := congrArg Fin.val (congrFun hf 0)
      have h1 := congrArg Fin.val (congrFun hf 1)
      have g0 : 0 ≤ D64.start (ix2 e k') idx 0 + (D64.window (ix2 e k') 0 : ℤ) := (h 0).1
      rw [start64_0, window64_0] at g0
      change (D64.start (ix2 e k') idx 0 + (D64.window (ix2 e k') 0 : ℤ)).toNat = n.val at h0
      change (D64.start (ix2 e k') idx 1 + (D64.window (ix2 e k') 1 : ℤ)).toNat = k.val at h1
      rw [start64_0, window64_0] at h0
      rw [start64_1, window64_1] at h1
      refine ⟨by omega, Fin.ext (by omega)⟩
    · rintro ⟨h0, rfl⟩
      funext a
      match a with
      | ⟨0, _⟩ =>
        apply Fin.ext
        show (D64.start (ix2 e k') idx 0 + (D64.window (ix2 e k') 0 : ℤ)).toNat = n.val
        rw [start64_0, window64_0]; omega
      | ⟨1, _⟩ =>
        apply Fin.ext
        show (D64.start (ix2 e k') idx 1 + (D64.window (ix2 e k') 1 : ℤ)).toNat = k'.val
        rw [start64_1, window64_1]; omega
  · next h =>
    constructor
    · intro hh; cases hh
    · rintro ⟨h0, rfl⟩
      exfalso
      apply h
      intro a
      match a with
      | ⟨0, _⟩ =>
        show 0 ≤ D64.start (ix2 e k') idx 0 + (D64.window (ix2 e k') 0 : ℤ) ∧ D64.start (ix2 e k') idx 0 + (D64.window (ix2 e k') 0 : ℤ) < ((20000 : ℕ) : ℤ)
        rw [start64_0, window64_0]; omega
      | ⟨1, _⟩ =>
        show 0 ≤ D64.start (ix2 e k') idx 1 + (D64.window (ix2 e k') 1 : ℤ) ∧ D64.start (ix2 e k') idx 1 + (D64.window (ix2 e k') 1 : ℤ) < ((64 : ℕ) : ℤ)
        rw [start64_1, window64_1]; omega

/-- Sixty-four-column rows scattered by their row index and added. -/
theorem scatterAdd64_apply (x : FVec Ideal S20000x64 .f32) (idx : IVec S20000x1 32) (upd : FVec Ideal S20000x64 .f32) (n : Fin 20000) (j : Fin 64) :
    Host.scatterAdd (F := Ideal) (φ := .f32) scatter_S20000x64_S20000x1_S20000x64_1_0_0_1 x idx upd (ix2 n j)
      = x (ix2 n j) + Cert.Spec.seg (fun e => idx (ix2 e 0)) (fun e => upd (ix2 e j)) n := by
  refine (congrFun (Ideal.hostScatterAdd_def D64 .single x idx upd) (ix2 n j)).trans ?_
  unfold Ideal.hostScatterAdd Cert.Spec.seg
  refine congrArg (fun t => x (ix2 n j) + t) ?_
  rw [Finset.sum_filter, sum_idx2]
  refine Finset.sum_congr rfl fun e _ => ?_
  simp only [resultIdx64_iff]
  by_cases hrow : (idx (ix2 e 0)).toInt = (n.val : ℤ)
  · simp only [hrow, true_and, if_true]
    rw [Finset.sum_ite_eq']
    simp
  · simp only [hrow, false_and, if_false, Finset.sum_const_zero]

end Cert.RV

end
-- ==== Proof.RefNode.lean ====
/-
  The reference program's three accumulating scatters, read at a node.

  Each scatter starts from an array of zeros (the single-precision zero word denotes 0) and adds, at node n, the
  update rows of the edges whose source word, read signed, is n. The index array is the row of sources laid out
  as a column. The summed messages are the scatter itself; the new coordinate is the old one plus the summed
  shifts divided by max(count, 1), the count being the scatter of the constant one.
-/
import proofs.«417326_j2791728742861_3_alg».proof.Proof.RefRead
import proofs.«417326_j2791728742861_3_alg».proof.Proof.Spec
import proofs.«417326_j2791728742861_3_alg».proof.Proof.ScatterSeg
import Idealize.ShloMosaic.Lib.ValueIdx
import Idealize.ShloMosaic.PureOps.Ideal.Laws

noncomputable section

open scoped BigOperators

namespace Cert.RV

open Cert.ReferenceIdeal Cert.ReferenceIdeal.Gen
open Idealize.ShloMosaic Idealize.ShloMosaic.ValueIdx

/-- The source word of edge e. -/
abbrev rowR (a2 : (⟨S2x20000, .i32⟩ : BufTy).Contents (Elt Ideal)) : Fin 20000 → BitVec 32 :=
  fun e => Cert.ReferenceIdeal.Read.val_main_v1 (F := Ideal) a2 (ix1 e)

/-- The first scatter's index column at edge e is the source word of e. -/
private theorem idx73_eq (a2 : (⟨S2x20000, .i32⟩ : BufTy).Contents (Elt Ideal)) :
    (fun e : Fin 20000 => Cert.ReferenceIdeal.Read.val_main_v73 (F := Ideal) a2 (ix2 e 0)) = rowR a2 := by
  funext e
  rw [Cert.ReferenceIdeal.Read.val_main_v73_apply]
  exact congrArg (Cert.ReferenceIdeal.Read.val_main_v1 (F := Ideal) a2) (funext fun b => by match b with | ⟨0, _⟩ => rfl)

/-- The second scatter's index column at edge e is the source word of e. -/
private theorem idx77_eq (a2 : (⟨S2x20000, .i32⟩ : BufTy).Contents (Elt Ideal)) :
    (fun e : Fin 20000 => Cert.ReferenceIdeal.Read.val_main_v77 (F := Ideal) a2 (ix2 e 0)) = rowR a2 := by
  funext e
  rw [Cert.ReferenceIdeal.Read.val_main_v77_apply]
  exact congrArg (Cert.ReferenceIdeal.Read.val_main_v1 (F := Ideal) a2) (funext fun b => by match b with | ⟨0, _⟩ => rfl)

/-- The third scatter's index column at edge e is the source word of e. -/
private theorem idx90_eq (a2 : (⟨S2x20000, .i32⟩ : BufTy).Contents (Elt Ideal)) :
    (fun e : Fin 20000 => Cert.ReferenceIdeal.Read.val_main_v90 (F := Ideal) a2 (ix2 e 0)) = rowR a2 := by
  funext e
  rw [Cert.ReferenceIdeal.Read.val_main_v90_apply]
  exact congrArg (Cert.ReferenceIdeal.Read.val_main_v1 (F := Ideal) a2) (funext fun b => by match b with | ⟨0, _⟩ => rfl)

/-- The summed messages at node n: the sum of the messages of the edges whose source is n. -/
theorem ref_v91_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (n : Fin 20000) (j : Fin 64) :
    Cert.ReferenceIdeal.Read.val_main_v91 (F := Ideal) a0 a1 a2 a3 a4 a5 a6 a7 a8 a9 a10 (ix2 n j)
      = Cert.Spec.seg (rowR a2) (fun e => Cert.ReferenceIdeal.Read.val_main_v63 (F := Ideal) a0 a1 a2 a3 a4 a5 a6 a7 a8 a9 a10 (ix2 e j)) n := by
  unfold Cert.ReferenceIdeal.Read.val_main_v91
  refine (scatterAdd64_apply _ _ _ n j).trans ?_
  rw [idx90_eq, Cert.ReferenceIdeal.Read.val_main_v89_apply, Cert.ReferenceIdeal.Read.val_main_cst_13_apply]
  exact (congrArg (· + _) Ideal.ofBits_zero_f32).trans (zero_add _)

/-- The summed shifts at node n. -/
theorem ref_v74_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S64x64, .f32⟩ : BufTy).Contents (Elt Ideal)) (a12 : (⟨S64, .f32⟩ : BufTy).Contents (Elt Ideal)) (a13 : (⟨S64x1, .f32⟩ : BufTy).Contents (Elt Ideal)) (n : Fin 20000) (a : Fin 3) :
    Cert.ReferenceIdeal.Read.val_main_v74 (F := Ideal) a0 a1 a2 a3 a4 a5 a6 a7 a8 a9 a10 a11 a12 a13 (ix2 n a)
      = Cert.Spec.seg (rowR a2) (fun e => Cert.ReferenceIdeal.Read.val_main_v71 (F := Ideal) a0 a1 a2 a3 a4 a5 a6 a7 a8 a9 a10 a11 a12 a13 (ix2 e a)) n := by
  unfold Cert.ReferenceIdeal.Read.val_main_v74
  refine (scatterAdd3_apply _ _ _ n a).trans ?_
  rw [idx73_eq, Cert.ReferenceIdeal.Read.val_main_v72_apply, Cert.ReferenceIdeal.Read.val_main_cst_8_apply]
  exact (congrArg (· + _) Ideal.ofBits_zero_f32).trans (zero_add _)

/-- The number of edges whose source is n, counted in ones. -/
theorem ref_v78_apply (a2 : (⟨S2x20000, .i32⟩ : BufTy).Contents (Elt Ideal)) (n : Fin 20000) (a : Fin 3) :
    Cert.ReferenceIdeal.Read.val_main_v78 (F := Ideal) a2 (ix2 n a)
      = Cert.Spec.seg (rowR a2) (fun _ => Cert.Spec.one) n := by
  unfold Cert.ReferenceIdeal.Read.val_main_v78
  refine (scatterAdd3_apply _ _ _ n a).trans ?_
  rw [idx77_eq, Cert.ReferenceIdeal.Read.val_main_v76_apply, Cert.ReferenceIdeal.Read.val_main_cst_10_apply]
  refine ((congrArg (· + _) Ideal.ofBits_zero_f32).trans (zero_add _)).trans ?_
  refine congrArg (fun f => Cert.Spec.seg (rowR a2) f n) (funext fun e => ?_)
  rw [Cert.ReferenceIdeal.Read.val_main_v75_apply, Cert.ReferenceIdeal.Read.val_main_cst_9_apply]
  rfl

/-- The new coordinate of node n: the old one plus the summed shifts over max(count, 1). -/
theorem ref_v82_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a11 : (⟨S64x64, .f32⟩ : BufTy).Contents (Elt Ideal)) (a12 : (⟨S64, .f32⟩ : BufTy).Contents (Elt Ideal)) (a13 : (⟨S64x1, .f32⟩ : BufTy).Contents (Elt Ideal)) (n : Fin 20000) (a : Fin 3) :
    Cert.ReferenceIdeal.Read.val_main_v82 (F := Ideal) a0 a1 a2 a3 a4 a5 a6 a7 a8 a9 a10 a11 a12 a13 (ix2 n a)
      = Cert.Spec.coordOut (a1 (ix2 n a))
          (Cert.Spec.seg (rowR a2) (fun e => Cert.ReferenceIdeal.Read.val_main_v71 (F := Ideal) a0 a1 a2 a3 a4 a5 a6 a7 a8 a9 a10 a11 a12 a13 (ix2 e a)) n)
          (Cert.Spec.seg (rowR a2) (fun _ => Cert.Spec.one) n) := by
  rw [Cert.ReferenceIdeal.Read.val_main_v82_apply, Cert.ReferenceIdeal.Read.val_main_v81_apply,
    Cert.ReferenceIdeal.Read.val_main_v80_apply, ref_v74_apply, ref_v78_apply,
    Cert.ReferenceIdeal.Read.val_main_v79_apply, Cert.ReferenceIdeal.Read.val_main_cst_11_apply]
  rfl

end Cert.RV

end
-- ==== Proof.RefOps.lean ====
/-
  The host's spelling of x · σ(x): x · (1 / (1 + e^(-x))), the one being the single-precision word 0x3F800000.
-/
import Idealize.ShloMosaic.Lib.IdealHost
import proofs.«417326_j2791728742861_3_alg».proof.Proof.Spec

noncomputable section

namespace Cert.RefOps

open Idealize.ShloMosaic

/-- x times the quotient of one by one plus e^(-x) is x · σ(x): the logistic function is that quotient. -/
theorem hostSilu_eq (x : EReal) :
    x * Ideal.div (Ideal.ofBits .f32 0x3F800000#32) (Ideal.ofBits .f32 0x3F800000#32 + Ideal.exp (-x)) = Cert.Spec.silu x := by
  rw [Ideal.ofBits_one_f32]
  rfl

end Cert.RefOps

end
-- ==== Proof.RefNodeB.lean ====
/-
  The reference's node network at one entry: node n, column k. The features beside the direction, those beside the
  summed messages, the hidden layer, x · σ(x) as the host spells it, and the residual output layer. The direction and
  the summed messages stay the stages they are.
-/
import proofs.«417326_j2791728742861_3_alg».proof.Proof.RefRead
import proofs.«417326_j2791728742861_3_alg».proof.Proof.Spec
import proofs.«417326_j2791728742861_3_alg».proof.Proof.Params
import proofs.«417326_j2791728742861_3_alg».proof.Proof.NodeOps
import proofs.«417326_j2791728742861_3_alg».proof.Proof.RefOps

set_option maxRecDepth 16384

noncomputable section

open scoped BigOperators

namespace Cert.RV

open Cert.ReferenceIdeal Cert.ReferenceIdeal.Gen
open Idealize.ShloMosaic Idealize.ShloMosaic.ValueIdx

/-- A node's features beside its direction, read at a column. -/
theorem ref_v88_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (n : Fin 20000) (k : Fin 67) :
    Read.val_main_v88 (F := Ideal) a0 a1 a2 (ix2 n k) = Cert.Spec.hPos (fun j => a0 (ix2 n j)) (fun a => Read.val_main_v87 (F := Ideal) a1 a2 (ix2 n a)) k := by
  unfold Read.val_main_v88 Cert.Spec.hPos
  split
  · next hk => exact Cert.NodeOps.catCols_left a0 _ concatenates_S20000x64_S20000x3_S20000x67_d1 n k hk
  · next hk => exact Cert.NodeOps.catCols_right a0 _ concatenates_S20000x64_S20000x3_S20000x67_d1 n k (by omega) (by have := k.isLt; omega)

/-- Those 67 columns beside the 64 summed messages, read at a column. -/
theorem ref_v92_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (n : Fin 20000) (c : Fin 131) :
    Read.val_main_v92 (F := Ideal) a0 a1 a2 a3 a4 a5 a6 a7 a8 a9 a10 (ix2 n c) = Cert.Spec.nodeIn (fun j => a0 (ix2 n j)) (fun a => Read.val_main_v87 (F := Ideal) a1 a2 (ix2 n a)) (fun j => Read.val_main_v91 (F := Ideal) a0 a1 a2 a3 a4 a5 a6 a7 a8 a9 a10 (ix2 n j)) c := by
  unfold Read.val_main_v92 Cert.Spec.nodeIn
  split
  · next hk =>
    exact (Cert.NodeOps.catCols_left _ _ concatenates_S20000x67_S20000x64_S20000x131_d1 n c hk).trans (ref_v88_apply a0 a1 a2 n ⟨c.val, hk⟩)
  · next hk => exact Cert.NodeOps.catCols_right _ _ concatenates_S20000x67_S20000x64_S20000x131_d1 n c (by omega) (by have := c.isLt; omega)

/-- The hidden layer before its nonlinearity: the affine map of the input row. -/
theorem ref_v96_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a14 : (⟨S131x64, .f32⟩ : BufTy).Contents (Elt Ideal)) (a15 : (⟨S64, .f32⟩ : BufTy).Contents (Elt Ideal)) (n : Fin 20000) (q : Fin 64) :
    Read.val_main_v96 (F := Ideal) a0 a1 a2 a3 a4 a5 a6 a7 a8 a9 a10 a14 a15 (ix2 n q)
      = Cert.Spec.lin (Cert.Spec.nodeIn (fun j => a0 (ix2 n j)) (fun a => Read.val_main_v87 (F := Ideal) a1 a2 (ix2 n a)) (fun j => Read.val_main_v91 (F := Ideal) a0 a1 a2 a3 a4 a5 a6 a7 a8 a9 a10 (ix2 n j))) (fun c j => a14 (ix2 c j)) (fun j => a15 (ix1 j)) q := by
  have e1 : ∀ c : Fin 131, Read.lidx_main_v93 (ix2 n q) c = ix2 n c := fun c => funext fun a => by
    match a with
    | ⟨0, _⟩ => rfl
    | ⟨1, _⟩ => rfl
  have e2 : ∀ c : Fin 131, Read.ridx_main_v93 (ix2 n q) c = ix2 c q := fun c => funext fun a => by
    match a with
    | ⟨0, _⟩ => rfl
    | ⟨1, _⟩ => rfl
  have e3 : Read.idx_main_v94 (Read.idx_main_v95 (ix2 n q)) = ix1 q := funext fun a => by
    match a with
    | ⟨0, _⟩ => rfl
  rw [Read.val_main_v96_apply, Read.val_main_v93_apply, Read.val_main_v95_apply, Read.val_main_v94_apply]
  simp only [e1, e2, e3, ref_v92_apply]
  rfl

/-- The hidden layer: x · σ(x) of the affine map, the host spelling σ by negate, exponential, add and divide. -/
theorem ref_v97_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a14 : (⟨S131x64, .f32⟩ : BufTy).Contents (Elt Ideal)) (a15 : (⟨S64, .f32⟩ : BufTy).Contents (Elt Ideal)) (n : Fin 20000) (q : Fin 64) :
    Read.val_main_v97 (F := Ideal) a0 a1 a2 a3 a4 a5 a6 a7 a8 a9 a10 a14 a15 (ix2 n q)
      = Cert.Spec.silu (Read.val_main_v96 (F := Ideal) a0 a1 a2 a3 a4 a5 a6 a7 a8 a9 a10 a14 a15 (ix2 n q)) := by
  rw [Read.val_main_v97_apply, Read.val_main_call5_v5_apply, Read.val_main_call5_v4_apply, Read.val_main_call5_cst_0_apply,
    Read.val_main_call5_v3_apply, Read.val_main_call5_v2_apply, Read.val_main_call5_cst_apply, Read.val_main_call5_v1_apply,
    Read.val_main_call5_v0_apply]
  exact Cert.RefOps.hostSilu_eq _

/-- Entry (n, k) of the reference's node update: the residual two-layer network of the node's row. -/
theorem ref_v102_apply (a0 : (⟨S20000x64, .f32⟩ : BufTy).Contents (Elt Ideal)) (a1 : (⟨S20000x3, .f32⟩ : BufTy).Contents (Elt Ideal)) (a2 : (⟨S2x20000, .i32⟩ : BufTy).Contents (Elt Ideal)) (a3 : (⟨S129x64, .f32⟩ : BufTy).Contents (Elt Ideal)) (a4 : (⟨S64, .f32⟩ : BufTy).Contents (Elt Ideal)) (a5 : (⟨S64x64, .f32⟩ : BufTy).Contents (Elt Ideal)) (a6 : (⟨S64, .f32⟩ : BufTy).Contents (Elt Ideal)) (a7 : (⟨S4096x128, .f32⟩ : BufTy).Contents (Elt Ideal)) (a8 : (⟨S128, .f32⟩ : BufTy).Contents (Elt Ideal)) (a9 : (⟨S128x64, .f32⟩ : BufTy).Contents (Elt Ideal)) (a10 : (⟨S64, .f32⟩ : BufTy).Contents (Elt Ideal)) (a14 : (⟨S131x64, .f32⟩ : BufTy).Contents (Elt Ideal)) (a15 : (⟨S64, .f32⟩ : BufTy).Contents (Elt Ideal)) (a16 : (⟨S64x67, .f32⟩ : BufTy).Contents (Elt Ideal)) (a17 : (⟨S67, .f32⟩ : BufTy).Contents (Elt Ideal)) (n : Fin 20000) (k : Fin 67) :
    Read.val_main_v102 (F := Ideal) a0 a1 a2 a3 a4 a5 a6 a7 a8 a9 a10 a14 a15 a16 a17 (ix2 n k)
      = Cert.Spec.nodeOutRow (Cert.Params.nodeR a14 a15 a16 a17) (fun j => a0 (ix2 n j)) (fun a => Read.val_main_v87 (F := Ideal) a1 a2 (ix2 n a)) (fun j => Read.val_main_v91 (F := Ideal) a0 a1 a2 a3 a4 a5 a6 a7 a8 a9 a10 (ix2 n j)) k := by
  have e1 : ∀ q : Fin 64, Read.lidx_main_v98 (ix2 n k) q = ix2 n q := fun q => funext fun a => by
    match a with
    | ⟨0, _⟩ => rfl
    | ⟨1, _⟩ => rfl
  have e2 : ∀ q : Fin 64, Read.ridx_main_v98 (ix2 n k) q = ix2 q k := fun q => funext fun a => by
    match a with
    | ⟨0, _⟩ => rfl
    | ⟨1, _⟩ => rfl
  have e3 : Read.idx_main_v99 (Read.idx_main_v100 (ix2 n k)) = ix1 k := funext fun a => by
    match a with
    | ⟨0, _⟩ => rfl
  rw [Read.val_main_v102_apply, Read.val_main_v101_apply, Read.val_main_v98_apply, Read.val_main_v100_apply, Read.val_main_v99_apply]
  simp only [e1, e2, e3, ref_v97_apply, ref_v96_apply, ref_v88_apply]
  rfl

end Cert.RV

end
-- ==== Proof.SpecCols.lean ====
/-
  The 128 columns an edge contributes, read one range at a time: columns 0–63 are the message, 64–66 the shift,
  column 67 the constant one, columns 68–70 the unit direction.
-/
import proofs.«417326_j2791728742861_3_alg».proof.Proof.Spec

noncomputable section

namespace Cert.Spec

/-- Columns 0–63 hold the message. -/
theorem edgeOutRow_feat (P : EdgeParams) (hr hc : Fin 64 → EReal) (cd : Fin 3 → EReal) (j : Fin 64) (h : j.val < 128) :
    edgeOutRow P hr hc cd ⟨j.val, h⟩ = edgeFeat P hr hc cd j := by
  unfold edgeOutRow
  rw [dif_pos (show (⟨j.val, h⟩ : Fin 128).val < 64 from j.isLt)]

/-- Columns 64–66 hold the shift. -/
theorem edgeOutRow_trans (P : EdgeParams) (hr hc : Fin 64 → EReal) (cd : Fin 3 → EReal) (a : Fin 3) (h : 64 + a.val < 128) :
    edgeOutRow P hr hc cd ⟨64 + a.val, h⟩ = trans P hr hc cd a := by
  unfold edgeOutRow
  have ha := a.isLt
  rw [dif_neg (show ¬ (⟨64 + a.val, h⟩ : Fin 128).val < 64 by simp), dif_pos (show (⟨64 + a.val, h⟩ : Fin 128).val < 67 by simp; omega)]
  congr 1
  exact Fin.ext (by simp)

/-- Column 67 holds one. -/
theorem edgeOutRow_one (P : EdgeParams) (hr hc : Fin 64 → EReal) (cd : Fin 3 → EReal) (h : 67 < 128) :
    edgeOutRow P hr hc cd ⟨67, h⟩ = one := by
  unfold edgeOutRow
  rw [dif_neg (show ¬ (⟨67, h⟩ : Fin 128).val < 64 by simp), dif_neg (show ¬ (⟨67, h⟩ : Fin 128).val < 67 by simp), if_pos rfl]

/-- Columns 68–70 hold the unit direction. -/
theorem edgeOutRow_rel (P : EdgeParams) (hr hc : Fin 64 → EReal) (cd : Fin 3 → EReal) (a : Fin 3) (h : 68 + a.val < 128) :
    edgeOutRow P hr hc cd ⟨68 + a.val, h⟩ = rel cd a := by
  unfold edgeOutRow
  have ha := a.isLt
  rw [dif_neg (show ¬ (⟨68 + a.val, h⟩ : Fin 128).val < 64 by simp; omega), dif_neg (show ¬ (⟨68 + a.val, h⟩ : Fin 128).val < 67 by simp; omega),
    if_neg (show ¬ (⟨68 + a.val, h⟩ : Fin 128).val = 67 by simp; omega), dif_pos (show (⟨68 + a.val, h⟩ : Fin 128).val < 71 by simp; omega)]
  congr 1
  exact Fin.ext (by simp)

end Cert.Spec

end
-- ==== Proof.Bridge.lean ====
/-
  The two programs compute one function. Entry by entry, the kernel's new features are the node network of the old
  features, the unit direction of the node's own edge and the summed messages of the edges leaving the node; its new
  coordinates are the old ones plus the summed shifts over max(count, 1); and so are the reference's. The edge rows
  (the gathered features and the coordinate difference) are the same host operations on both sides and are never
  opened; the bilinear term's two spellings agree because products of extended reals commute and associate; a sum
  over the padded edge list is the segment sum because the padding word is no node's number.
-/
import proofs.«417326_j2791728742861_3_alg».proof.Defs
import proofs.«417326_j2791728742861_3_alg».proof.Proof.KRun
import proofs.«417326_j2791728742861_3_alg».proof.Proof.KEdge
import proofs.«417326_j2791728742861_3_alg».proof.Proof.KVals
import proofs.«417326_j2791728742861_3_alg».proof.Proof.KHost1G
import proofs.«417326_j2791728742861_3_alg».proof.Proof.RefEdge
import proofs.«417326_j2791728742861_3_alg».proof.Proof.RefNode
import proofs.«417326_j2791728742861_3_alg».proof.Proof.RefNodeB
import proofs.«417326_j2791728742861_3_alg».proof.Proof.SpecCols
import proofs.«417326_j2791728742861_3_alg».proof.Proof.RefRunV
import proofs.«417326_j2791728742861_3_alg».proof.Proof.Gen.Pre_finite_inputs
import proofs.«417326_j2791728742861_3_alg».proof.Proof.Gen.ReferenceIdeal
import proofs.«417326_j2791728742861_3_alg».proof.Proof.Gen.KernelIdeal

set_option maxRecDepth 16384

noncomputable section

open scoped BigOperators

namespace Cert.Bridge

open Cert.KernelIdeal Cert.KernelIdeal.Gen
open Idealize.ShloMosaic Idealize.ShloMosaic.TcCoe Idealize.ShloMosaic.ValueIdx
open Idealize.SL.Sem
open Cert.ReferenceIdeal.Read (val_main_v1 val_main_v18 val_main_v28 val_main_v35 val_main_v63 val_main_v71 val_main_v87 val_main_v91
  val_main_v82 val_main_v102)

variable (m : (ℓ : Loc nD τ sig) → Buf (Elt Ideal) ℓ) (ρ : Dev nD → PrngReg) (c : Dev nD)

/-- The edge network's parameters as the launch memory gives them. -/
abbrev PE : Cert.Spec.EdgeParams :=
  Cert.Params.edgeR (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Edge e's source features, target features, coordinate difference, and the source words: the shared host operations, unopened. -/
abbrev hR (e : Fin 20000) : Fin 64 → EReal := fun j => val_main_v28 (F := Ideal) (m ((c : Thread nD τ).loc main_arg0)) (m ((c : Thread nD τ).loc main_arg2)) (ix2 e j)
abbrev hC (e : Fin 20000) : Fin 64 → EReal := fun j => val_main_v35 (F := Ideal) (m ((c : Thread nD τ).loc main_arg0)) (m ((c : Thread nD τ).loc main_arg2)) (ix2 e j)
abbrev cD (e : Fin 20000) : Fin 3 → EReal := fun a => val_main_v18 (F := Ideal) (m ((c : Thread nD τ).loc main_arg1)) (m ((c : Thread nD τ).loc main_arg2)) (ix2 e a)
abbrev rW : Fin 20000 → BitVec 32 := fun e => val_main_v1 (F := Ideal) (m ((c : Thread nD τ).loc main_arg2)) (ix1 e)

/-- The kernel's source words are the reference's. -/
theorem rowK_eq : Cert.KV.rowK m ρ c = rW m c := by
  funext e; exact congrFun (Cert.KV.W1_v1 m ρ c) (ix1 e)

/-- The first call's array, entry by entry, over the shared edge rows. -/
theorem X46_final (e : Fin 20000) (k : Fin 128) :
    Cert.KV.X46 m ρ c (ix2 e k) = Cert.Spec.edgeOutRow (PE m c) (hR m c e) (hC m c e) (cD m c e) k := by
  refine (Cert.KV.X46_apply m ρ c e k).trans ?_
  rw [Cert.KV.W1_v25 m ρ c, Cert.KV.W1_v32 m ρ c, Cert.KV.W1_v18 m ρ c]

/-- What both programs leave as the new features. -/
abbrev hOut (n : Fin 20000) (k : Fin 67) : EReal :=
  Cert.Spec.nodeOutRow (Cert.KV.nodeP m c) (fun j => ((m ((c : Thread nD τ).loc main_arg0)) : S20000x64.Idx → EReal) (ix2 n j)) (fun a => Cert.Spec.rel (cD m c n) a)
    (fun j => Cert.Spec.seg (rW m c) (fun e => Cert.Spec.edgeFeat (PE m c) (hR m c e) (hC m c e) (cD m c e) j) n) k

/-- What both programs leave as the new coordinates. -/
abbrev cOut (n : Fin 20000) (a : Fin 3) : EReal :=
  Cert.Spec.coordOut (((m ((c : Thread nD τ).loc main_arg1)) : S20000x3.Idx → EReal) (ix2 n a))
    (Cert.Spec.seg (rW m c) (fun e => Cert.Spec.trans (PE m c) (hR m c e) (hC m c e) (cD m c e) a) n)
    (Cert.Spec.seg (rW m c) (fun _ => Cert.Spec.one) n)

/-- The kernel's new features. -/
theorem k_v65 (n : Fin 20000) (k : Fin 67) :
    (Gen.W10 m ρ c (Proc.devRef .tc main_v65) : S20000x67.Idx → EReal) (ix2 n k) = hOut m c n k := by
  rw [Cert.KV.v65_apply m ρ c n k]
  have e1 : (fun a : Fin 3 => Cert.KV.X46 m ρ c (ix2 n ⟨68 + a.val, by omega⟩)) = fun a => Cert.Spec.rel (cD m c n) a := by
    funext a; rw [X46_final m ρ c, Cert.Spec.edgeOutRow_rel]
  have e2 : (fun j : Fin 64 => Cert.KV.X51 m ρ c (ix2 n ⟨j.val, by omega⟩))
      = fun j => Cert.Spec.seg (rW m c) (fun e => Cert.Spec.edgeFeat (PE m c) (hR m c e) (hC m c e) (cD m c e) j) n := by
    funext j
    rw [Cert.KV.X51_apply m ρ c, rowK_eq m ρ c]
    congr 1
    funext e; rw [X46_final m ρ c, Cert.Spec.edgeOutRow_feat]
  rw [e1, e2]

/-- The kernel's new coordinates. -/
theorem k_v59 (n : Fin 20000) (a : Fin 3) :
    (Gen.W10 m ρ c (Proc.devRef .tc main_v59) : S20000x3.Idx → EReal) (ix2 n a) = cOut m c n a := by
  rw [Cert.KV.v59_apply m ρ c n a, Cert.KV.X51_apply m ρ c, Cert.KV.X51_apply m ρ c, rowK_eq m ρ c]
  have e1 : (fun e : Fin 20000 => Cert.KV.X46 m ρ c (ix2 e ⟨64 + a.val, by omega⟩))
      = fun e => Cert.Spec.trans (PE m c) (hR m c e) (hC m c e) (cD m c e) a := by
    funext e; rw [X46_final m ρ c, Cert.Spec.edgeOutRow_trans]
  have e2 : (fun e : Fin 20000 => Cert.KV.X46 m ρ c (ix2 e ⟨67, by omega⟩)) = fun _ => Cert.Spec.one := by
    funext e; rw [X46_final m ρ c, Cert.Spec.edgeOutRow_one]
  rw [e1, e2]

/-- The reference's new features, of the same arguments. -/
theorem r_v102 (n : Fin 20000) (k : Fin 67) :
    val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (m ((c : Thread nD τ).loc main_arg17)) (ix2 n k) = hOut m c n k := by
  rw [Cert.RV.ref_v102_apply]
  have e1 : (fun a : Fin 3 => val_main_v87 (F := Ideal) (m ((c : Thread nD τ).loc main_arg1)) (m ((c : Thread nD τ).loc main_arg2)) (ix2 n a)) = fun a => Cert.Spec.rel (cD m c n) a := by
    funext a; exact Cert.RV.ref_v87_apply _ _ n a
  have e2 : (fun j : Fin 64 => val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 n j))
      = fun j => Cert.Spec.seg (rW m c) (fun e => Cert.Spec.edgeFeat (PE m c) (hR m c e) (hC m c e) (cD m c e) j) n := by
    funext j
    rw [Cert.RV.ref_v91_apply]
    congr 1
    funext e
    exact Cert.RV.ref_v63_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) e j
  rw [e1, e2]

/-- The reference's new coordinates, of the same arguments. -/
theorem r_v82 (n : Fin 20000) (a : Fin 3) :
    val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 n a) = cOut m c n a := by
  rw [Cert.RV.ref_v82_apply]
  have e1 : (fun e : Fin 20000 => val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix2 e a))
      = fun e => Cert.Spec.trans (PE m c) (hR m c e) (hC m c e) (cD m c e) a := by
    funext e; exact Cert.RV.ref_v71_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) e a
  rw [e1]

end Cert.Bridge

/-! ## The claims -/

namespace Cert.Proof.Claims

open Idealize.ShloMosaic Idealize.ShloMosaic.TcCoe Idealize.ShloMosaic.ValueIdx Idealize.SL.Sem

/-- From memories that agree on the arguments both programs run, and their results agree entry by entry. -/
theorem algebraic : Cert.algebraic_KernelIdeal_ReferenceIdeal := by
  intro m ρ m' ρ' _ hagree
  refine ⟨fun c => Cert.KernelIdeal.Gen.W10 m ρ c (Proc.devRef .tc Cert.KernelIdeal.main_v65),
    fun c => Cert.KernelIdeal.Gen.W10 m ρ c (Proc.devRef .tc Cert.KernelIdeal.main_v59), Cert.KernelIdeal.GenRun.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    rw [h0, h1, h2, h3, h4, h5, h6, h7, h8, h9, h10, h14, h15, h16, h17]
    funext i
    obtain ⟨n, k, rfl⟩ : ∃ (n : Fin 20000) (k : Fin 67), i = ix2 n k := ⟨i 0, i 1, eq_ix2 i⟩
    exact (Cert.Bridge.r_v102 m c n k).trans (Cert.Bridge.k_v65 m ρ c n k).symm
  · obtain ⟨h0, h1, h2, h3, h4, h5, h6, h7, h8, h9, h10, h11, h12, h13, h14, h15, h16, h17⟩ := hagree c
    rw [h0, h1, h2, h3, h4, h5, h6, h7, h8, h9, h10, h11, h12, h13]
    funext i
    obtain ⟨n, a, rfl⟩ : ∃ (n : Fin 20000) (a : Fin 3), i = ix2 n a := ⟨i 0, i 1, eq_ix2 i⟩
    exact (Cert.Bridge.r_v82 m c n a).trans (Cert.Bridge.k_v59 m ρ c n a).symm

end Cert.Proof.Claims

end
-- ==== Proof.lean ====
/-
  The certificate's five claims for the equivariant graph layer.

  The kernel's program is three calls among host stretches: an edge network over 1000-edge blocks, a segment sum written as
  a product with a one-hot matrix accumulated over 1024-edge chunks, and a node network over 2000-node blocks. The
  reference is the plain formulation with three accumulating scatters. Over the extended reals both compute, for every
  node, the node network of its features, its own edge's unit direction and the sum of the messages of the edges leaving
  it, and the coordinate moved by the summed shifts over max(count, 1). The frames of the two kernel programs are the
  generated ones; the reference's frame is its run with the results dropped; the idealization rewrote no operation, so
  the preservation claim is trivial; the algebraic claim is `Cert.Proof.Claims.algebraic`.
-/
import proofs.«417326_j2791728742861_3_alg».proof.Defs
import proofs.«417326_j2791728742861_3_alg».proof.Proof.Gen.Kernel
import proofs.«417326_j2791728742861_3_alg».proof.Proof.Gen.Kernel.Skeleton
import proofs.«417326_j2791728742861_3_alg».proof.Proof.Gen.Kernel.Loops
import proofs.«417326_j2791728742861_3_alg».proof.Proof.Gen.Kernel.Launch
import proofs.«417326_j2791728742861_3_alg».proof.Proof.Gen.Kernel.Points
import proofs.«417326_j2791728742861_3_alg».proof.Proof.Gen.Kernel.Frame
import proofs.«417326_j2791728742861_3_alg».proof.Proof.Gen.KernelIdeal
import proofs.«417326_j2791728742861_3_alg».proof.Proof.Gen.KernelIdeal.Skeleton
import proofs.«417326_j2791728742861_3_alg».proof.Proof.Gen.KernelIdeal.Loops
import proofs.«417326_j2791728742861_3_alg».proof.Proof.Gen.KernelIdeal.Launch
import proofs.«417326_j2791728742861_3_alg».proof.Proof.Gen.KernelIdeal.Points
import proofs.«417326_j2791728742861_3_alg».proof.Proof.Gen.KernelIdeal.Frame
import proofs.«417326_j2791728742861_3_alg».proof.Proof.Gen.ReferenceIdeal
import proofs.«417326_j2791728742861_3_alg».proof.Proof.Gen.Pre_finite_inputs
import proofs.«417326_j2791728742861_3_alg».proof.Proof.RefRunV
import proofs.«417326_j2791728742861_3_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  Cert.Proof.Claims.algebraic⟩

end Cert.Proof

end
